-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v287)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v287) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v340) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x400000 : Shape := ⟨2, ![2, 400000]⟩
abbrev S100000 : Shape := ⟨1, ![100000]⟩
abbrev S4x128x64 : Shape := ⟨3, ![4, 128, 64]⟩
abbrev S64 : Shape := ⟨1, ![64]⟩
abbrev S4x128x256 : Shape := ⟨3, ![4, 128, 256]⟩
abbrev S256 : Shape := ⟨1, ![256]⟩
abbrev S512x8 : Shape := ⟨2, ![512, 8]⟩
abbrev S8 : Shape := ⟨1, ![8]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S4x128x64 : S_.BroadcastsInDim S4x128x64 (![] : Fin 0 → Fin S4x128x64.rank)
  reducesTo_S4x128x64_S_d0_1_2 : S4x128x64.ReducesTo [0, 1, 2] S_
  bcast_S_S64 : S_.BroadcastsInDim S64 (![] : Fin 0 → Fin S64.rank)
  reducesTo_S64_S_d0 : S64.ReducesTo [0] S_
  bcast_S_S4x128x256 : S_.BroadcastsInDim S4x128x256 (![] : Fin 0 → Fin S4x128x256.rank)
  reducesTo_S4x128x256_S_d0_1_2 : S4x128x256.ReducesTo [0, 1, 2] S_
  bcast_S_S256 : S_.BroadcastsInDim S256 (![] : Fin 0 → Fin S256.rank)
  reducesTo_S256_S_d0 : S256.ReducesTo [0] S_
  bcast_S_S512x8 : S_.BroadcastsInDim S512x8 (![] : Fin 0 → Fin S512x8.rank)
  reducesTo_S512x8_S_d0_1 : S512x8.ReducesTo [0, 1] S_
  bcast_S_S8 : S_.BroadcastsInDim S8 (![] : Fin 0 → Fin S8.rank)
  reducesTo_S8_S_d0 : S8.ReducesTo [0] S_

variable [Facts]

def fn_part3 {F : FTy → Type} [FloatOps F] (main_v48 : IVec S_ 1) (main_v49 : FVec F S8 .f32) (main_v50 : FVec F S8 .f32) : IVec S_ 1 :=
  let main_v51 : IVec S8 1 := cmpf .olt main_v49 main_v50
  let main_c_19 : IVec S_ 1 := constantI S_ 1 1#1
  let main_v52 : IVec S_ 1 := (fun x v => Host.reduce IntOp.andi x v reducesTo_S8_S_d0 h_S_) main_v51 main_c_19
  let main_v53 : IVec S_ 1 := andi main_v48 main_v52
  main_v53

def fn_part2 {F : FTy → Type} [FloatOps F] (main_arg9 : FVec F S4x128x256 .f32) (main_arg10 : FVec F S256 .f32) (main_arg11 : FVec F S512x8 .f32) (main_arg12 : FVec F S8 .f32) (main_v33 : IVec S_ 1) : IVec S_ 1 :=
  let main_v34 : FVec F S4x128x256 .f32 := Host.absf main_arg9
  let main_cst_12 : FVec F S_ .f32 := constant S_ .f32 0x7F800000#32
  let main_v35 : FVec F S4x128x256 .f32 := broadcastInDim S4x128x256 ![] bcast_S_S4x128x256 main_cst_12
  let main_v36 : IVec S4x128x256 1 := cmpf .olt main_v34 main_v35
  let main_c_13 : IVec S_ 1 := constantI S_ 1 1#1
  let main_v37 : IVec S_ 1 := (fun x v => Host.reduce IntOp.andi x v reducesTo_S4x128x256_S_d0_1_2 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S512x8 .f32 := Host.absf main_arg11
  let main_cst_16 : FVec F S_ .f32 := constant S_ .f32 0x7F800000#32
  let main_v45 : FVec F S512x8 .f32 := broadcastInDim S512x8 ![] bcast_S_S512x8 main_cst_16
  let main_v46 : IVec S512x8 1 := cmpf .olt main_v44 main_v45
  let main_c_17 : IVec S_ 1 := constantI S_ 1 1#1
  let main_v47 : IVec S_ 1 := (fun x v => Host.reduce IntOp.andi x v reducesTo_S512x8_S_d0_1 h_S_) main_v46 main_c_17
  let main_v48 : IVec S_ 1 := andi main_v43 main_v47
  let main_v49 : FVec F S8 .f32 := Host.absf main_arg12
  let main_cst_18 : FVec F S_ .f32 := constant S_ .f32 0x7F800000#32
  let main_v50 : FVec F S8 .f32 := broadcastInDim S8 ![] bcast_S_S8 main_cst_18
  fn_part3 (F := F) main_v48 main_v49 main_v50

def fn_part1 {F : FTy → Type} [FloatOps F] (main_arg6 : FVec F S64 .f32) (main_arg7 : FVec F S4x128x256 .f32) (main_arg8 : FVec F S256 .f32) (main_arg9 : FVec F S4x128x256 .f32) (main_arg10 : FVec F S256 .f32) (main_arg11 : FVec F S512x8 .f32) (main_arg12 : FVec F S8 .f32) (main_v13 : IVec S_ 1) (main_v16 : IVec S4x128x64 1) : IVec S_ 1 :=
  let main_c_5 : IVec S_ 1 := constantI S_ 1 1#1
  let main_v17 : IVec S_ 1 := (fun x v => Host.reduce IntOp.andi x v reducesTo_S4x128x64_S_d0_1_2 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S4x128x256 .f32 := Host.absf main_arg7
  let main_cst_8 : FVec F S_ .f32 := constant S_ .f32 0x7F800000#32
  let main_v25 : FVec F S4x128x256 .f32 := broadcastInDim S4x128x256 ![] bcast_S_S4x128x256 main_cst_8
  let main_v26 : IVec S4x128x256 1 := cmpf .olt main_v24 main_v25
  let main_c_9 : IVec S_ 1 := constantI S_ 1 1#1
  let main_v27 : IVec S_ 1 := (fun x v => Host.reduce IntOp.andi x v reducesTo_S4x128x256_S_d0_1_2 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x128 .f32) (main_arg1 : IVec S2x400000 32) (main_arg2 : IVec S100000 32) (main_arg3 : FVec F S4x128x64 .f32) (main_arg4 : FVec F S64 .f32) (main_arg5 : FVec F S4x128x64 .f32) (main_arg6 : FVec F S64 .f32) (main_arg7 : FVec F S4x128x256 .f32) (main_arg8 : FVec F S256 .f32) (main_arg9 : FVec F S4x128x256 .f32) (main_arg10 : FVec F S256 .f32) (main_arg11 : FVec F S512x8 .f32) (main_arg12 : FVec F S8 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S4x128x64 .f32 := Host.absf main_arg3
  let main_cst_0 : FVec F S_ .f32 := constant S_ .f32 0x7F800000#32
  let main_v5 : FVec F S4x128x64 .f32 := broadcastInDim S4x128x64 ![] bcast_S_S4x128x64 main_cst_0
  let main_v6 : IVec S4x128x64 1 := cmpf .olt main_v4 main_v5
  let main_c_1 : IVec S_ 1 := constantI S_ 1 1#1
  let main_v7 : IVec S_ 1 := (fun x v => Host.reduce IntOp.andi x v reducesTo_S4x128x64_S_d0_1_2 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S4x128x64 .f32 := Host.absf main_arg5
  let main_cst_4 : FVec F S_ .f32 := constant S_ .f32 0x7F800000#32
  let main_v15 : FVec F S4x128x64 .f32 := broadcastInDim S4x128x64 ![] bcast_S_S4x128x64 main_cst_4
  let main_v16 : IVec S4x128x64 1 := cmpf .olt main_v14 main_v15
  fn_part1 (F := F) main_arg6 main_arg7 main_arg8 main_arg9 main_arg10 main_arg11 main_arg12 main_v13 main_v16
-- ==== Kernel.lean ====
abbrev S100000x128 : Shape := ⟨2, ![100000, 128]⟩
abbrev S2x400000 : Shape := ⟨2, ![2, 400000]⟩
abbrev S100000 : Shape := ⟨1, ![100000]⟩
abbrev S4x128x64 : Shape := ⟨3, ![4, 128, 64]⟩
abbrev S64 : Shape := ⟨1, ![64]⟩
abbrev S4x128x256 : Shape := ⟨3, ![4, 128, 256]⟩
abbrev S256 : Shape := ⟨1, ![256]⟩
abbrev S512x8 : Shape := ⟨2, ![512, 8]⟩
abbrev S8 : Shape := ⟨1, ![8]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x128 : Shape := ⟨2, ![400000, 128]⟩
abbrev S1x64 : Shape := ⟨2, ![1, 64]⟩
abbrev S2000x128 : Shape := ⟨2, ![2000, 128]⟩
abbrev S1x128x64 : Shape := ⟨3, ![1, 128, 64]⟩
abbrev S128x64 : Shape := ⟨2, ![128, 64]⟩
abbrev S2000x64 : Shape := ⟨2, ![2000, 64]⟩
abbrev S1x256 : Shape := ⟨2, ![1, 256]⟩
abbrev S100000x512 : Shape := ⟨2, ![100000, 512]⟩
abbrev S2000x512 : Shape := ⟨2, ![2000, 512]⟩
abbrev S1x128x256 : Shape := ⟨3, ![1, 128, 256]⟩
abbrev S128x256 : Shape := ⟨2, ![128, 256]⟩
abbrev S2000x256 : Shape := ⟨2, ![2000, 256]⟩
abbrev S100000x1 : Shape := ⟨2, ![100000, 1]⟩
abbrev S512x512 : Shape := ⟨2, ![512, 512]⟩
abbrev S2000x1 : Shape := ⟨2, ![2000, 1]⟩
abbrev S512 : Shape := ⟨1, ![512]⟩
abbrev S512x1 : Shape := ⟨2, ![512, 1]⟩
abbrev S1x8 : Shape := ⟨2, ![1, 8]⟩

abbrev nBuf : Space → Nat
  | .hbm => 392
  | .vmem => 49
  | .smem => 0
  | _ => 0

abbrev hbmTy0_0 (i : Nat) : BufTy := match i % 128 with
  | 0 => ⟨S100000x128, .f32⟩
  | 1 => ⟨S2x400000, .i32⟩
  | 2 => ⟨S100000, .i32⟩
  | 3 => ⟨S4x128x64, .f32⟩
  | 4 => ⟨S64, .f32⟩
  | 5 => ⟨S4x128x64, .f32⟩
  | 6 => ⟨S64, .f32⟩
  | 7 => ⟨S4x128x256, .f32⟩
  | 8 => ⟨S256, .f32⟩
  | 9 => ⟨S4x128x256, .f32⟩
  | 10 => ⟨S256, .f32⟩
  | 11 => ⟨S512x8, .f32⟩
  | 12 => ⟨S8, .f32⟩
  | 13 => ⟨S1x400000, .i32⟩
  | 14 => ⟨S400000, .i32⟩
  | 15 => ⟨S1x400000, .i32⟩
  | 16 => ⟨S400000, .i32⟩
  | 17 => ⟨S400000, .i1⟩
  | 18 => ⟨S_, .f32⟩
  | 19 => ⟨S_, .f32⟩
  | 20 => ⟨S400000, .f32⟩
  | 21 => ⟨S400000, .f32⟩
  | 22 => ⟨S400000, .f32⟩
  | 23 => ⟨S400000, .f32⟩
  | 24 => ⟨S_, .f32⟩
  | 25 => ⟨S100000, .f32⟩
  | 26 => ⟨S400000x1, .i32⟩
  | 27 => ⟨S100000, .f32⟩
  | 28 => ⟨S_, .f32⟩
  | 29 => ⟨S100000, .f32⟩
  | 30 => ⟨S100000, .i1⟩
  | 31 => ⟨S_, .f32⟩
  | 32 => ⟨S100000, .f32⟩
  | 33 => ⟨S100000, .f32⟩
  | 34 => ⟨S100000, .f32⟩
  | 35 => ⟨S_, .f32⟩
  | 36 => ⟨S100000, .f32⟩
  | 37 => ⟨S100000, .f32⟩
  | 38 => ⟨S_, .f32⟩
  | 39 => ⟨S_, .f32⟩
  | 40 => ⟨S100000, .f32⟩
  | 41 => ⟨S100000, .f32⟩
  | 42 => ⟨S_, .i32⟩
  | 43 => ⟨S400000, .i32⟩
  | 44 => ⟨S400000, .i1⟩
  | 45 => ⟨S_, .i32⟩
  | 46 => ⟨S400000, .i32⟩
  | 47 => ⟨S400000, .i32⟩
  | 48 => ⟨S400000, .i32⟩
  | 49 => ⟨S400000x1, .i32⟩
  | 50 => ⟨S400000, .f32⟩
  | 51 => ⟨S400000, .f32⟩
  | 52 => ⟨S400000, .f32⟩
  | 53 => ⟨S_, .i32⟩
  | 54 => ⟨S400000, .i32⟩
  | 55 => ⟨S400000, .i1⟩
  | 56 => ⟨S_, .i32⟩
  | 57 => ⟨S400000, .i32⟩
  | 58 => ⟨S400000, .i32⟩
  | 59 => ⟨S400000, .i32⟩
  | 60 => ⟨S400000x1, .i32⟩
  | 61 => ⟨S400000, .f32⟩
  | 62 => ⟨S400000, .f32⟩
  | 63 => ⟨S400000, .i1⟩
  | 64 => ⟨S_, .f32⟩
  | 65 => ⟨S_, .f32⟩
  | 66 => ⟨S400000, .f32⟩
  | 67 => ⟨S400000, .f32⟩
  | 68 => ⟨S400000, .f32⟩
  | 69 => ⟨S400000, .f32⟩
  | 70 => ⟨S_, .f32⟩
  | 71 => ⟨S100000, .f32⟩
  | 72 => ⟨S400000x1, .i32⟩
  | 73 => ⟨S100000, .f32⟩
  | 74 => ⟨S_, .f32⟩
  | 75 => ⟨S100000, .f32⟩
  | 76 => ⟨S100000, .i1⟩
  | 77 => ⟨S_, .f32⟩
  | 78 => ⟨S100000, .f32⟩
  | 79 => ⟨S100000, .f32⟩
  | 80 => ⟨S100000, .f32⟩
  | 81 => ⟨S_, .f32⟩
  | 82 => ⟨S100000, .f32⟩
  | 83 => ⟨S100000, .f32⟩
  | 84 => ⟨S_, .f32⟩
  | 85 => ⟨S_, .f32⟩
  | 86 => ⟨S100000, .f32⟩
  | 87 => ⟨S100000, .f32⟩
  | 88 => ⟨S_, .i32⟩
  | 89 => ⟨S400000, .i32⟩
  | 90 => ⟨S400000, .i1⟩
  | 91 => ⟨S_, .i32⟩
  | 92 => ⟨S400000, .i32⟩
  | 93 => ⟨S400000, .i32⟩
  | 94 => ⟨S400000, .i32⟩
  | 95 => ⟨S400000x1, .i32⟩
  | 96 => ⟨S400000, .f32⟩
  | 97 => ⟨S400000, .f32⟩
  | 98 => ⟨S400000, .f32⟩
  | 99 => ⟨S_, .i32⟩
  | 100 => ⟨S400000, .i32⟩
  | 101 => ⟨S400000, .i1⟩
  | 102 => ⟨S_, .i32⟩
  | 103 => ⟨S400000, .i32⟩
  | 104 => ⟨S400000, .i32⟩
  | 105 => ⟨S400000, .i32⟩
  | 106 => ⟨S400000x1, .i32⟩
  | 107 => ⟨S400000, .f32⟩
  | 108 => ⟨S400000, .f32⟩
  | 109 => ⟨S400000x1, .f32⟩
  | 110 => ⟨S_, .i32⟩
  | 111 => ⟨S400000, .i32⟩
  | 112 => ⟨S400000, .i1⟩
  | 113 => ⟨S_, .i32⟩
  | 114 => ⟨S400000, .i32⟩
  | 115 => ⟨S400000, .i32⟩
  | 116 => ⟨S400000, .i32⟩
  | 117 => ⟨S400000x1, .i32⟩
  | 118 => ⟨S400000x128, .f32⟩
  | 119 => ⟨S400000x128, .f32⟩
  | 120 => ⟨S400000x128, .f32⟩
  | 121 => ⟨S_, .f32⟩
  | 122 => ⟨S100000x128, .f32⟩
  | 123 => ⟨S400000x1, .i32⟩
  | 124 => ⟨S100000x128, .f32⟩
  | 125 => ⟨S400000x1, .f32⟩
  | 126 => ⟨S_, .i32⟩
  | 127 => ⟨S400000, .i32⟩
  | _ => ⟨S100000x128, .f32⟩

abbrev hbmTy0_1 (i : Nat) : BufTy := match i % 128 with
  | 0 => ⟨S400000, .i1⟩
  | 1 => ⟨S_, .i32⟩
  | 2 => ⟨S400000, .i32⟩
  | 3 => ⟨S400000, .i32⟩
  | 4 => ⟨S400000, .i32⟩
  | 5 => ⟨S400000x1, .i32⟩
  | 6 => ⟨S400000x128, .f32⟩
  | 7 => ⟨S400000x128, .f32⟩
  | 8 => ⟨S400000x128, .f32⟩
  | 9 => ⟨S_, .f32⟩
  | 10 => ⟨S100000x128, .f32⟩
  | 11 => ⟨S400000x1, .i32⟩
  | 12 => ⟨S100000x128, .f32⟩
  | 13 => ⟨S_, .f32⟩
  | 14 => ⟨S100000x128, .f32⟩
  | 15 => ⟨S100000x128, .f32⟩
  | 16 => ⟨S100000x128, .f32⟩
  | 17 => ⟨S400000x1, .f32⟩
  | 18 => ⟨S_, .i32⟩
  | 19 => ⟨S400000, .i32⟩
  | 20 => ⟨S400000, .i1⟩
  | 21 => ⟨S_, .i32⟩
  | 22 => ⟨S400000, .i32⟩
  | 23 => ⟨S400000, .i32⟩
  | 24 => ⟨S400000, .i32⟩
  | 25 => ⟨S400000x1, .i32⟩
  | 26 => ⟨S400000x128, .f32⟩
  | 27 => ⟨S400000x128, .f32⟩
  | 28 => ⟨S400000x128, .f32⟩
  | 29 => ⟨S_, .f32⟩
  | 30 => ⟨S100000x128, .f32⟩
  | 31 => ⟨S400000x1, .i32⟩
  | 32 => ⟨S100000x128, .f32⟩
  | 33 => ⟨S_, .f32⟩
  | 34 => ⟨S100000x128, .f32⟩
  | 35 => ⟨S100000x128, .f32⟩
  | 36 => ⟨S100000x128, .f32⟩
  | 37 => ⟨S400000x1, .f32⟩
  | 38 => ⟨S_, .i32⟩
  | 39 => ⟨S400000, .i32⟩
  | 40 => ⟨S400000, .i1⟩
  | 41 => ⟨S_, .i32⟩
  | 42 => ⟨S400000, .i32⟩
  | 43 => ⟨S400000, .i32⟩
  | 44 => ⟨S400000, .i32⟩
  | 45 => ⟨S400000x1, .i32⟩
  | 46 => ⟨S400000x128, .f32⟩
  | 47 => ⟨S400000x128, .f32⟩
  | 48 => ⟨S400000x128, .f32⟩
  | 49 => ⟨S_, .f32⟩
  | 50 => ⟨S100000x128, .f32⟩
  | 51 => ⟨S400000x1, .i32⟩
  | 52 => ⟨S100000x128, .f32⟩
  | 53 => ⟨S400000x1, .f32⟩
  | 54 => ⟨S_, .i32⟩
  | 55 => ⟨S400000, .i32⟩
  | 56 => ⟨S400000, .i1⟩
  | 57 => ⟨S_, .i32⟩
  | 58 => ⟨S400000, .i32⟩
  | 59 => ⟨S400000, .i32⟩
  | 60 => ⟨S400000, .i32⟩
  | 61 => ⟨S400000x1, .i32⟩
  | 62 => ⟨S400000x128, .f32⟩
  | 63 => ⟨S400000x128, .f32⟩
  | 64 => ⟨S400000x128, .f32⟩
  | 65 => ⟨S_, .f32⟩
  | 66 => ⟨S100000x128, .f32⟩
  | 67 => ⟨S400000x1, .i32⟩
  | 68 => ⟨S100000x128, .f32⟩
  | 69 => ⟨S_, .f32⟩
  | 70 => ⟨S100000x128, .f32⟩
  | 71 => ⟨S100000x128, .f32⟩
  | 72 => ⟨S100000x128, .f32⟩
  | 73 => ⟨S400000x1, .f32⟩
  | 74 => ⟨S_, .i32⟩
  | 75 => ⟨S400000, .i32⟩
  | 76 => ⟨S400000, .i1⟩
  | 77 => ⟨S_, .i32⟩
  | 78 => ⟨S400000, .i32⟩
  | 79 => ⟨S400000, .i32⟩
  | 80 => ⟨S400000, .i32⟩
  | 81 => ⟨S400000x1, .i32⟩
  | 82 => ⟨S400000x128, .f32⟩
  | 83 => ⟨S400000x128, .f32⟩
  | 84 => ⟨S400000x128, .f32⟩
  | 85 => ⟨S_, .f32⟩
  | 86 => ⟨S100000x128, .f32⟩
  | 87 => ⟨S400000x1, .i32⟩
  | 88 => ⟨S100000x128, .f32⟩
  | 89 => ⟨S_, .f32⟩
  | 90 => ⟨S100000x128, .f32⟩
  | 91 => ⟨S100000x128, .f32⟩
  | 92 => ⟨S100000x128, .f32⟩
  | 93 => ⟨S100000x128, .bf16⟩
  | 94 => ⟨S100000x128, .bf16⟩
  | 95 => ⟨S100000x128, .bf16⟩
  | 96 => ⟨S100000x128, .bf16⟩
  | 97 => ⟨S100000x128, .bf16⟩
  | 98 => ⟨S100000x128, .bf16⟩
  | 99 => ⟨S100000x128, .bf16⟩
  | 100 => ⟨S100000x128, .bf16⟩
  | 101 => ⟨S4x128x64, .bf16⟩
  | 102 => ⟨S4x128x64, .bf16⟩
  | 103 => ⟨S1x64, .f32⟩
  | 104 => ⟨S1x64, .f32⟩
  | 105 => ⟨S100000x128, .f32⟩
  | 106 => ⟨S400000x1, .f32⟩
  | 107 => ⟨S_, .i32⟩
  | 108 => ⟨S400000, .i32⟩
  | 109 => ⟨S400000, .i1⟩
  | 110 => ⟨S_, .i32⟩
  | 111 => ⟨S400000, .i32⟩
  | 112 => ⟨S400000, .i32⟩
  | 113 => ⟨S400000, .i32⟩
  | 114 => ⟨S400000x1, .i32⟩
  | 115 => ⟨S400000x128, .f32⟩
  | 116 => ⟨S400000x128, .f32⟩
  | 117 => ⟨S400000x128, .f32⟩
  | 118 => ⟨S_, .f32⟩
  | 119 => ⟨S100000x128, .f32⟩
  | 120 => ⟨S400000x1, .i32⟩
  | 121 => ⟨S100000x128, .f32⟩
  | 122 => ⟨S400000x1, .f32⟩
  | 123 => ⟨S_, .i32⟩
  | 124 => ⟨S400000, .i32⟩
  | 125 => ⟨S400000, .i1⟩
  | 126 => ⟨S_, .i32⟩
  | 127 => ⟨S400000, .i32⟩
  | _ => ⟨S100000x128, .f32⟩

abbrev hbmTy0_2 (i : Nat) : BufTy := match i % 128 with
  | 0 => ⟨S400000, .i32⟩
  | 1 => ⟨S400000, .i32⟩
  | 2 => ⟨S400000x1, .i32⟩
  | 3 => ⟨S400000x128, .f32⟩
  | 4 => ⟨S400000x128, .f32⟩
  | 5 => ⟨S400000x128, .f32⟩
  | 6 => ⟨S_, .f32⟩
  | 7 => ⟨S100000x128, .f32⟩
  | 8 => ⟨S400000x1, .i32⟩
  | 9 => ⟨S100000x128, .f32⟩
  | 10 => ⟨S_, .f32⟩
  | 11 => ⟨S100000x128, .f32⟩
  | 12 => ⟨S100000x128, .f32⟩
  | 13 => ⟨S100000x128, .f32⟩
  | 14 => ⟨S400000x1, .f32⟩
  | 15 => ⟨S_, .i32⟩
  | 16 => ⟨S400000, .i32⟩
  | 17 => ⟨S400000, .i1⟩
  | 18 => ⟨S_, .i32⟩
  | 19 => ⟨S400000, .i32⟩
  | 20 => ⟨S400000, .i32⟩
  | 21 => ⟨S400000, .i32⟩
  | 22 => ⟨S400000x1, .i32⟩
  | 23 => ⟨S400000x128, .f32⟩
  | 24 => ⟨S400000x128, .f32⟩
  | 25 => ⟨S400000x128, .f32⟩
  | 26 => ⟨S_, .f32⟩
  | 27 => ⟨S100000x128, .f32⟩
  | 28 => ⟨S400000x1, .i32⟩
  | 29 => ⟨S100000x128, .f32⟩
  | 30 => ⟨S_, .f32⟩
  | 31 => ⟨S100000x128, .f32⟩
  | 32 => ⟨S100000x128, .f32⟩
  | 33 => ⟨S100000x128, .f32⟩
  | 34 => ⟨S400000x1, .f32⟩
  | 35 => ⟨S_, .i32⟩
  | 36 => ⟨S400000, .i32⟩
  | 37 => ⟨S400000, .i1⟩
  | 38 => ⟨S_, .i32⟩
  | 39 => ⟨S400000, .i32⟩
  | 40 => ⟨S400000, .i32⟩
  | 41 => ⟨S400000, .i32⟩
  | 42 => ⟨S400000x1, .i32⟩
  | 43 => ⟨S400000x128, .f32⟩
  | 44 => ⟨S400000x128, .f32⟩
  | 45 => ⟨S400000x128, .f32⟩
  | 46 => ⟨S_, .f32⟩
  | 47 => ⟨S100000x128, .f32⟩
  | 48 => ⟨S400000x1, .i32⟩
  | 49 => ⟨S100000x128, .f32⟩
  | 50 => ⟨S400000x1, .f32⟩
  | 51 => ⟨S_, .i32⟩
  | 52 => ⟨S400000, .i32⟩
  | 53 => ⟨S400000, .i1⟩
  | 54 => ⟨S_, .i32⟩
  | 55 => ⟨S400000, .i32⟩
  | 56 => ⟨S400000, .i32⟩
  | 57 => ⟨S400000, .i32⟩
  | 58 => ⟨S400000x1, .i32⟩
  | 59 => ⟨S400000x128, .f32⟩
  | 60 => ⟨S400000x128, .f32⟩
  | 61 => ⟨S400000x128, .f32⟩
  | 62 => ⟨S_, .f32⟩
  | 63 => ⟨S100000x128, .f32⟩
  | 64 => ⟨S400000x1, .i32⟩
  | 65 => ⟨S100000x128, .f32⟩
  | 66 => ⟨S_, .f32⟩
  | 67 => ⟨S100000x128, .f32⟩
  | 68 => ⟨S100000x128, .f32⟩
  | 69 => ⟨S100000x128, .f32⟩
  | 70 => ⟨S400000x1, .f32⟩
  | 71 => ⟨S_, .i32⟩
  | 72 => ⟨S400000, .i32⟩
  | 73 => ⟨S400000, .i1⟩
  | 74 => ⟨S_, .i32⟩
  | 75 => ⟨S400000, .i32⟩
  | 76 => ⟨S400000, .i32⟩
  | 77 => ⟨S400000, .i32⟩
  | 78 => ⟨S400000x1, .i32⟩
  | 79 => ⟨S400000x128, .f32⟩
  | 80 => ⟨S400000x128, .f32⟩
  | 81 => ⟨S400000x128, .f32⟩
  | 82 => ⟨S_, .f32⟩
  | 83 => ⟨S100000x128, .f32⟩
  | 84 => ⟨S400000x1, .i32⟩
  | 85 => ⟨S100000x128, .f32⟩
  | 86 => ⟨S_, .f32⟩
  | 87 => ⟨S100000x128, .f32⟩
  | 88 => ⟨S100000x128, .f32⟩
  | 89 => ⟨S100000x128, .f32⟩
  | 90 => ⟨S100000x128, .bf16⟩
  | 91 => ⟨S100000x128, .bf16⟩
  | 92 => ⟨S100000x128, .bf16⟩
  | 93 => ⟨S100000x128, .bf16⟩
  | 94 => ⟨S100000x128, .bf16⟩
  | 95 => ⟨S100000x128, .bf16⟩
  | 96 => ⟨S100000x128, .bf16⟩
  | 97 => ⟨S100000x128, .bf16⟩
  | 98 => ⟨S4x128x256, .bf16⟩
  | 99 => ⟨S4x128x256, .bf16⟩
  | 100 => ⟨S1x256, .f32⟩
  | 101 => ⟨S1x256, .f32⟩
  | 102 => ⟨S100000x512, .bf16⟩
  | 103 => ⟨S100000x1, .i32⟩
  | 104 => ⟨S512x512, .f32⟩
  | 105 => ⟨S_, .f32⟩
  | 106 => ⟨S100000, .f32⟩
  | 107 => ⟨S_, .f32⟩
  | 108 => ⟨S512, .f32⟩
  | 109 => ⟨S100000x1, .i32⟩
  | 110 => ⟨S512, .f32⟩
  | 111 => ⟨S_, .f32⟩
  | 112 => ⟨S512, .f32⟩
  | 113 => ⟨S512, .f32⟩
  | 114 => ⟨S512x1, .f32⟩
  | 115 => ⟨S512x512, .f32⟩
  | 116 => ⟨S512x512, .f32⟩
  | 117 => ⟨S512x8, .f32⟩
  | 118 => ⟨S1x8, .f32⟩
  | 119 => ⟨S512x8, .f32⟩
  | 120 => ⟨S512x8, .f32⟩
  | 121 => ⟨S_, .f32⟩
  | 122 => ⟨S512, .f32⟩
  | 123 => ⟨S_, .f32⟩
  | 124 => ⟨S512, .f32⟩
  | 125 => ⟨S512, .f32⟩
  | 126 => ⟨S512x1, .f32⟩
  | 127 => ⟨S512x8, .f32⟩
  | _ => ⟨S100000x128, .f32⟩

abbrev hbmTy0_3 (i : Nat) : BufTy := match i % 128 with
  | 0 => ⟨S512x8, .f32⟩
  | 1 => ⟨S512x8, .f32⟩
  | 2 => ⟨S_, .f32⟩
  | 3 => ⟨S512, .f32⟩
  | 4 => ⟨S512x1, .f32⟩
  | 5 => ⟨S512x1, .f32⟩
  | 6 => ⟨S512x8, .f32⟩
  | 7 => ⟨S512x8, .f32⟩
  | _ => ⟨S100000x128, .f32⟩

abbrev hbmTy (i : Nat) : BufTy := match i / 128 with
  | 0 => hbmTy0_0 i
  | 1 => hbmTy0_1 i
  | 2 => hbmTy0_2 i
  | 3 => hbmTy0_3 i
  | _ => ⟨S100000x128, .f32⟩

abbrev bufTy : (tb : Table) → Fin (tcTables nBuf tb) → BufTy
  | .hbm, ⟨i, _⟩ => hbmTy i
  | .local _ .vmem, ⟨0, _⟩ => ⟨S2000x128, .bf16⟩
  | .local _ .vmem, ⟨1, _⟩ => ⟨S2000x128, .bf16⟩
  | .local _ .vmem, ⟨2, _⟩ => ⟨S2000x128, .bf16⟩
  | .local _ .vmem, ⟨3, _⟩ => ⟨S2000x128, .bf16⟩
  | .local _ .vmem, ⟨4, _⟩ => ⟨S2000x128, .bf16⟩
  | .local _ .vmem, ⟨5, _⟩ => ⟨S2000x128, .bf16⟩
  | .local _ .vmem, ⟨6, _⟩ => ⟨S2000x128, .bf16⟩
  | .local _ .vmem, ⟨7, _⟩ => ⟨S2000x128, .bf16⟩
  | .local _ .vmem, ⟨8, _⟩ => ⟨S4x128x64, .bf16⟩
  | .local _ .vmem, ⟨9, _⟩ => ⟨S1x64, .f32⟩
  | .local _ .vmem, ⟨10, _⟩ => ⟨S2000x128, .bf16⟩
  | .local _ .vmem, ⟨11, _⟩ => ⟨S2000x128, .bf16⟩
  | .local _ .vmem, ⟨12, _⟩ => ⟨S2000x128, .bf16⟩
  | .local _ .vmem, ⟨13, _⟩ => ⟨S2000x128, .bf16⟩
  | .local _ .vmem, ⟨14, _⟩ => ⟨S2000x128, .bf16⟩
  | .local _ .vmem, ⟨15, _⟩ => ⟨S2000x128, .bf16⟩
  | .local _ .vmem, ⟨16, _⟩ => ⟨S2000x128, .bf16⟩
  | .local _ .vmem, ⟨17, _⟩ => ⟨S2000x128, .bf16⟩
  | .local _ .vmem, ⟨18, _⟩ => ⟨S4x128x64, .bf16⟩
  | .local _ .vmem, ⟨19, _⟩ => ⟨S1x64, .f32⟩
  | .local _ .vmem, ⟨20, _⟩ => ⟨S2000x128, .f32⟩
  | .local _ .vmem, ⟨21, _⟩ => ⟨S2000x128, .f32⟩
  | .local _ .vmem, ⟨22, _⟩ => ⟨S2000x128, .bf16⟩
  | .local _ .vmem, ⟨23, _⟩ => ⟨S2000x128, .bf16⟩
  | .local _ .vmem, ⟨24, _⟩ => ⟨S2000x128, .bf16⟩
  | .local _ .vmem, ⟨25, _⟩ => ⟨S2000x128, .bf16⟩
  | .local _ .vmem, ⟨26, _⟩ => ⟨S2000x128, .bf16⟩
  | .local _ .vmem, ⟨27, _⟩ => ⟨S2000x128, .bf16⟩
  | .local _ .vmem, ⟨28, _⟩ => ⟨S2000x128, .bf16⟩
  | .local _ .vmem, ⟨29, _⟩ => ⟨S2000x128, .bf16⟩
  | .local _ .vmem, ⟨30, _⟩ => ⟨S4x128x256, .bf16⟩
  | .local _ .vmem, ⟨31, _⟩ => ⟨S1x256, .f32⟩
  | .local _ .vmem, ⟨32, _⟩ => ⟨S2000x128, .bf16⟩
  | .local _ .vmem, ⟨33, _⟩ => ⟨S2000x128, .bf16⟩
  | .local _ .vmem, ⟨34, _⟩ => ⟨S2000x128, .bf16⟩
  | .local _ .vmem, ⟨35, _⟩ => ⟨S2000x128, .bf16⟩
  | .local _ .vmem, ⟨36, _⟩ => ⟨S2000x128, .bf16⟩
  | .local _ .vmem, ⟨37, _⟩ => ⟨S2000x128, .bf16⟩
  | .local _ .vmem, ⟨38, _⟩ => ⟨S2000x128, .bf16⟩
  | .local _ .vmem, ⟨39, _⟩ => ⟨S2000x128, .bf16⟩
  | .local _ .vmem, ⟨40, _⟩ => ⟨S4x128x256, .bf16⟩
  | .local _ .vmem, ⟨41, _⟩ => ⟨S1x256, .f32⟩
  | .local _ .vmem, ⟨42, _⟩ => ⟨S2000x512, .bf16⟩
  | .local _ .vmem, ⟨43, _⟩ => ⟨S2000x512, .bf16⟩
  | .local _ .vmem, ⟨44, _⟩ => ⟨S2000x512, .bf16⟩
  | .local _ .vmem, ⟨45, _⟩ => ⟨S2000x512, .bf16⟩
  | .local _ .vmem, ⟨46, _⟩ => ⟨S2000x1, .i32⟩
  | .local _ .vmem, ⟨47, _⟩ => ⟨S2000x1, .i32⟩
  | .local _ .vmem, ⟨48, _⟩ => ⟨S512x512, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_v5 : Ref sig .tc := ⟨.hbm, 22, rfl⟩
abbrev main_v6 : Ref sig .tc := ⟨.hbm, 23, rfl⟩
abbrev main_cst_1 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst_2 : Ref sig .tc := ⟨.hbm, 28, rfl⟩
abbrev main_v10 : Ref sig .tc := ⟨.hbm, 29, rfl⟩
abbrev main_v11 : Ref sig .tc := ⟨.hbm, 30, rfl⟩
abbrev main_cst_3 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_4 : Ref sig .tc := ⟨.hbm, 35, rfl⟩
abbrev main_v15 : Ref sig .tc := ⟨.hbm, 36, rfl⟩
abbrev main_v16 : Ref sig .tc := ⟨.hbm, 37, rfl⟩
abbrev main_cst_5 : Ref sig .tc := ⟨.hbm, 38, rfl⟩
abbrev main_call1_v0 : Ref sig .tc := ⟨.hbm, 39, rfl⟩
abbrev main_call1_v1 : Ref sig .tc := ⟨.hbm, 40, rfl⟩
abbrev main_v17 : Ref sig .tc := ⟨.hbm, 41, rfl⟩
abbrev main_c : Ref sig .tc := ⟨.hbm, 42, rfl⟩
abbrev main_v18 : Ref sig .tc := ⟨.hbm, 43, rfl⟩
abbrev main_v19 : Ref sig .tc := ⟨.hbm, 44, rfl⟩
abbrev main_c_6 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_c_7 : Ref sig .tc := ⟨.hbm, 53, rfl⟩
abbrev main_v27 : Ref sig .tc := ⟨.hbm, 54, rfl⟩
abbrev main_v28 : Ref sig .tc := ⟨.hbm, 55, rfl⟩
abbrev main_c_8 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_cst_9 : Ref sig .tc := ⟨.hbm, 64, rfl⟩
abbrev main_cst_10 : Ref sig .tc := ⟨.hbm, 65, rfl⟩
abbrev main_call2_v0 : Ref sig .tc := ⟨.hbm, 66, rfl⟩
abbrev main_call2_v1 : Ref sig .tc := ⟨.hbm, 67, rfl⟩
abbrev main_v36 : Ref sig .tc := ⟨.hbm, 68, rfl⟩
abbrev main_v37 : Ref sig .tc := ⟨.hbm, 69, rfl⟩
abbrev main_cst_11 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_cst_12 : Ref sig .tc := ⟨.hbm, 74, rfl⟩
abbrev main_v41 : Ref sig .tc := ⟨.hbm, 75, rfl⟩
abbrev main_v42 : Ref sig .tc := ⟨.hbm, 76, rfl⟩
abbrev main_cst_13 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_cst_14 : Ref sig .tc := ⟨.hbm, 81, rfl⟩
abbrev main_v46 : Ref sig .tc := ⟨.hbm, 82, rfl⟩
abbrev main_v47 : Ref sig .tc := ⟨.hbm, 83, rfl⟩
abbrev main_cst_15 : Ref sig .tc := ⟨.hbm, 84, rfl⟩
abbrev main_call3_v0 : Ref sig .tc := ⟨.hbm, 85, rfl⟩
abbrev main_call3_v1 : Ref sig .tc := ⟨.hbm, 86, rfl⟩
abbrev main_v48 : Ref sig .tc := ⟨.hbm, 87, rfl⟩
abbrev main_c_16 : Ref sig .tc := ⟨.hbm, 88, rfl⟩
abbrev main_v49 : Ref sig .tc := ⟨.hbm, 89, rfl⟩
abbrev main_v50 : Ref sig .tc := ⟨.hbm, 90, rfl⟩
abbrev main_c_17 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_c_18 : Ref sig .tc := ⟨.hbm, 99, rfl⟩
abbrev main_v58 : Ref sig .tc := ⟨.hbm, 100, rfl⟩
abbrev main_v59 : Ref sig .tc := ⟨.hbm, 101, rfl⟩
abbrev main_c_19 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_c_20 : Ref sig .tc := ⟨.hbm, 110, rfl⟩
abbrev main_v67 : Ref sig .tc := ⟨.hbm, 111, rfl⟩
abbrev main_v68 : Ref sig .tc := ⟨.hbm, 112, rfl⟩
abbrev main_c_21 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_cst_22 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_c_23 : Ref sig .tc := ⟨.hbm, 126, rfl⟩
abbrev main_v80 : Ref sig .tc := ⟨.hbm, 127, rfl⟩
abbrev main_v81 : Ref sig .tc := ⟨.hbm, 128, rfl⟩
abbrev main_c_24 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_cst_25 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_cst_26 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_c_27 : Ref sig .tc := ⟨.hbm, 146, rfl⟩
abbrev main_v96 : Ref sig .tc := ⟨.hbm, 147, rfl⟩
abbrev main_v97 : Ref sig .tc := ⟨.hbm, 148, rfl⟩
abbrev main_c_28 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_cst_29 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_cst_30 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_c_31 : Ref sig .tc := ⟨.hbm, 166, rfl⟩
abbrev main_v112 : Ref sig .tc := ⟨.hbm, 167, rfl⟩
abbrev main_v113 : Ref sig .tc := ⟨.hbm, 168, rfl⟩
abbrev main_c_32 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_cst_33 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_c_34 : Ref sig .tc := ⟨.hbm, 182, rfl⟩
abbrev main_v125 : Ref sig .tc := ⟨.hbm, 183, rfl⟩
abbrev main_v126 : Ref sig .tc := ⟨.hbm, 184, rfl⟩
abbrev main_c_35 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_cst_36 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩
abbrev main_cst_37 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_c_38 : Ref sig .tc := ⟨.hbm, 202, rfl⟩
abbrev main_v141 : Ref sig .tc := ⟨.hbm, 203, rfl⟩
abbrev main_v142 : Ref sig .tc := ⟨.hbm, 204, rfl⟩
abbrev main_c_39 : Ref sig .tc := ⟨.hbm, 205, rfl⟩
abbrev main_v143 : Ref sig .tc := ⟨.hbm, 206, rfl⟩
abbrev main_v144 : Ref sig .tc := ⟨.hbm, 207, rfl⟩
abbrev main_v145 : Ref sig .tc := ⟨.hbm, 208, rfl⟩
abbrev main_v146 : Ref sig .tc := ⟨.hbm, 209, rfl⟩
abbrev main_v147 : Ref sig .tc := ⟨.hbm, 210, rfl⟩
abbrev main_v148 : Ref sig .tc := ⟨.hbm, 211, rfl⟩
abbrev main_v149 : Ref sig .tc := ⟨.hbm, 212, rfl⟩
abbrev main_cst_40 : Ref sig .tc := ⟨.hbm, 213, rfl⟩
abbrev main_v150 : Ref sig .tc := ⟨.hbm, 214, rfl⟩
abbrev main_v151 : Ref sig .tc := ⟨.hbm, 215, rfl⟩
abbrev main_v152 : Ref sig .tc := ⟨.hbm, 216, rfl⟩
abbrev main_cst_41 : Ref sig .tc := ⟨.hbm, 217, rfl⟩
abbrev main_v153 : Ref sig .tc := ⟨.hbm, 218, rfl⟩
abbrev main_v154 : Ref sig .tc := ⟨.hbm, 219, rfl⟩
abbrev main_v155 : Ref sig .tc := ⟨.hbm, 220, rfl⟩
abbrev main_v156 : Ref sig .tc := ⟨.hbm, 221, rfl⟩
abbrev main_v157 : Ref sig .tc := ⟨.hbm, 222, rfl⟩
abbrev main_v158 : Ref sig .tc := ⟨.hbm, 223, rfl⟩
abbrev main_v159 : Ref sig .tc := ⟨.hbm, 224, rfl⟩
abbrev main_v160 : Ref sig .tc := ⟨.hbm, 225, rfl⟩
abbrev main_v161 : Ref sig .tc := ⟨.hbm, 226, rfl⟩
abbrev main_v162 : Ref sig .tc := ⟨.hbm, 227, rfl⟩
abbrev main_v163 : Ref sig .tc := ⟨.hbm, 228, rfl⟩
abbrev main_v164 : Ref sig .tc := ⟨.hbm, 229, rfl⟩
abbrev main_v165 : Ref sig .tc := ⟨.hbm, 230, rfl⟩
abbrev main_v166 : Ref sig .tc := ⟨.hbm, 231, rfl⟩
abbrev main_v167 : Ref sig .tc := ⟨.hbm, 232, rfl⟩
abbrev main_v168 : Ref sig .tc := ⟨.hbm, 233, rfl⟩
abbrev main_v169 : Ref sig .tc := ⟨.hbm, 234, rfl⟩
abbrev main_c_42 : Ref sig .tc := ⟨.hbm, 235, rfl⟩
abbrev main_v170 : Ref sig .tc := ⟨.hbm, 236, rfl⟩
abbrev main_v171 : Ref sig .tc := ⟨.hbm, 237, rfl⟩
abbrev main_c_43 : Ref sig .tc := ⟨.hbm, 238, rfl⟩
abbrev main_v172 : Ref sig .tc := ⟨.hbm, 239, rfl⟩
abbrev main_v173 : Ref sig .tc := ⟨.hbm, 240, rfl⟩
abbrev main_v174 : Ref sig .tc := ⟨.hbm, 241, rfl⟩
abbrev main_v175 : Ref sig .tc := ⟨.hbm, 242, rfl⟩
abbrev main_v176 : Ref sig .tc := ⟨.hbm, 243, rfl⟩
abbrev main_v177 : Ref sig .tc := ⟨.hbm, 244, rfl⟩
abbrev main_v178 : Ref sig .tc := ⟨.hbm, 245, rfl⟩
abbrev main_cst_44 : Ref sig .tc := ⟨.hbm, 246, rfl⟩
abbrev main_v179 : Ref sig .tc := ⟨.hbm, 247, rfl⟩
abbrev main_v180 : Ref sig .tc := ⟨.hbm, 248, rfl⟩
abbrev main_v181 : Ref sig .tc := ⟨.hbm, 249, rfl⟩
abbrev main_v182 : Ref sig .tc := ⟨.hbm, 250, rfl⟩
abbrev main_c_45 : Ref sig .tc := ⟨.hbm, 251, rfl⟩
abbrev main_v183 : Ref sig .tc := ⟨.hbm, 252, rfl⟩
abbrev main_v184 : Ref sig .tc := ⟨.hbm, 253, rfl⟩
abbrev main_c_46 : Ref sig .tc := ⟨.hbm, 254, rfl⟩
abbrev main_v185 : Ref sig .tc := ⟨.hbm, 255, rfl⟩
abbrev main_v186 : Ref sig .tc := ⟨.hbm, 256, rfl⟩
abbrev main_v187 : Ref sig .tc := ⟨.hbm, 257, rfl⟩
abbrev main_v188 : Ref sig .tc := ⟨.hbm, 258, rfl⟩
abbrev main_v189 : Ref sig .tc := ⟨.hbm, 259, rfl⟩
abbrev main_v190 : Ref sig .tc := ⟨.hbm, 260, rfl⟩
abbrev main_v191 : Ref sig .tc := ⟨.hbm, 261, rfl⟩
abbrev main_cst_47 : Ref sig .tc := ⟨.hbm, 262, rfl⟩
abbrev main_v192 : Ref sig .tc := ⟨.hbm, 263, rfl⟩
abbrev main_v193 : Ref sig .tc := ⟨.hbm, 264, rfl⟩
abbrev main_v194 : Ref sig .tc := ⟨.hbm, 265, rfl⟩
abbrev main_cst_48 : Ref sig .tc := ⟨.hbm, 266, rfl⟩
abbrev main_v195 : Ref sig .tc := ⟨.hbm, 267, rfl⟩
abbrev main_v196 : Ref sig .tc := ⟨.hbm, 268, rfl⟩
abbrev main_v197 : Ref sig .tc := ⟨.hbm, 269, rfl⟩
abbrev main_v198 : Ref sig .tc := ⟨.hbm, 270, rfl⟩
abbrev main_c_49 : Ref sig .tc := ⟨.hbm, 271, rfl⟩
abbrev main_v199 : Ref sig .tc := ⟨.hbm, 272, rfl⟩
abbrev main_v200 : Ref sig .tc := ⟨.hbm, 273, rfl⟩
abbrev main_c_50 : Ref sig .tc := ⟨.hbm, 274, rfl⟩
abbrev main_v201 : Ref sig .tc := ⟨.hbm, 275, rfl⟩
abbrev main_v202 : Ref sig .tc := ⟨.hbm, 276, rfl⟩
abbrev main_v203 : Ref sig .tc := ⟨.hbm, 277, rfl⟩
abbrev main_v204 : Ref sig .tc := ⟨.hbm, 278, rfl⟩
abbrev main_v205 : Ref sig .tc := ⟨.hbm, 279, rfl⟩
abbrev main_v206 : Ref sig .tc := ⟨.hbm, 280, rfl⟩
abbrev main_v207 : Ref sig .tc := ⟨.hbm, 281, rfl⟩
abbrev main_cst_51 : Ref sig .tc := ⟨.hbm, 282, rfl⟩
abbrev main_v208 : Ref sig .tc := ⟨.hbm, 283, rfl⟩
abbrev main_v209 : Ref sig .tc := ⟨.hbm, 284, rfl⟩
abbrev main_v210 : Ref sig .tc := ⟨.hbm, 285, rfl⟩
abbrev main_cst_52 : Ref sig .tc := ⟨.hbm, 286, rfl⟩
abbrev main_v211 : Ref sig .tc := ⟨.hbm, 287, rfl⟩
abbrev main_v212 : Ref sig .tc := ⟨.hbm, 288, rfl⟩
abbrev main_v213 : Ref sig .tc := ⟨.hbm, 289, rfl⟩
abbrev main_v214 : Ref sig .tc := ⟨.hbm, 290, rfl⟩
abbrev main_c_53 : Ref sig .tc := ⟨.hbm, 291, rfl⟩
abbrev main_v215 : Ref sig .tc := ⟨.hbm, 292, rfl⟩
abbrev main_v216 : Ref sig .tc := ⟨.hbm, 293, rfl⟩
abbrev main_c_54 : Ref sig .tc := ⟨.hbm, 294, rfl⟩
abbrev main_v217 : Ref sig .tc := ⟨.hbm, 295, rfl⟩
abbrev main_v218 : Ref sig .tc := ⟨.hbm, 296, rfl⟩
abbrev main_v219 : Ref sig .tc := ⟨.hbm, 297, rfl⟩
abbrev main_v220 : Ref sig .tc := ⟨.hbm, 298, rfl⟩
abbrev main_v221 : Ref sig .tc := ⟨.hbm, 299, rfl⟩
abbrev main_v222 : Ref sig .tc := ⟨.hbm, 300, rfl⟩
abbrev main_v223 : Ref sig .tc := ⟨.hbm, 301, rfl⟩
abbrev main_cst_55 : Ref sig .tc := ⟨.hbm, 302, rfl⟩
abbrev main_v224 : Ref sig .tc := ⟨.hbm, 303, rfl⟩
abbrev main_v225 : Ref sig .tc := ⟨.hbm, 304, rfl⟩
abbrev main_v226 : Ref sig .tc := ⟨.hbm, 305, rfl⟩
abbrev main_v227 : Ref sig .tc := ⟨.hbm, 306, rfl⟩
abbrev main_c_56 : Ref sig .tc := ⟨.hbm, 307, rfl⟩
abbrev main_v228 : Ref sig .tc := ⟨.hbm, 308, rfl⟩
abbrev main_v229 : Ref sig .tc := ⟨.hbm, 309, rfl⟩
abbrev main_c_57 : Ref sig .tc := ⟨.hbm, 310, rfl⟩
abbrev main_v230 : Ref sig .tc := ⟨.hbm, 311, rfl⟩
abbrev main_v231 : Ref sig .tc := ⟨.hbm, 312, rfl⟩
abbrev main_v232 : Ref sig .tc := ⟨.hbm, 313, rfl⟩
abbrev main_v233 : Ref sig .tc := ⟨.hbm, 314, rfl⟩
abbrev main_v234 : Ref sig .tc := ⟨.hbm, 315, rfl⟩
abbrev main_v235 : Ref sig .tc := ⟨.hbm, 316, rfl⟩
abbrev main_v236 : Ref sig .tc := ⟨.hbm, 317, rfl⟩
abbrev main_cst_58 : Ref sig .tc := ⟨.hbm, 318, rfl⟩
abbrev main_v237 : Ref sig .tc := ⟨.hbm, 319, rfl⟩
abbrev main_v238 : Ref sig .tc := ⟨.hbm, 320, rfl⟩
abbrev main_v239 : Ref sig .tc := ⟨.hbm, 321, rfl⟩
abbrev main_cst_59 : Ref sig .tc := ⟨.hbm, 322, rfl⟩
abbrev main_v240 : Ref sig .tc := ⟨.hbm, 323, rfl⟩
abbrev main_v241 : Ref sig .tc := ⟨.hbm, 324, rfl⟩
abbrev main_v242 : Ref sig .tc := ⟨.hbm, 325, rfl⟩
abbrev main_v243 : Ref sig .tc := ⟨.hbm, 326, rfl⟩
abbrev main_c_60 : Ref sig .tc := ⟨.hbm, 327, rfl⟩
abbrev main_v244 : Ref sig .tc := ⟨.hbm, 328, rfl⟩
abbrev main_v245 : Ref sig .tc := ⟨.hbm, 329, rfl⟩
abbrev main_c_61 : Ref sig .tc := ⟨.hbm, 330, rfl⟩
abbrev main_v246 : Ref sig .tc := ⟨.hbm, 331, rfl⟩
abbrev main_v247 : Ref sig .tc := ⟨.hbm, 332, rfl⟩
abbrev main_v248 : Ref sig .tc := ⟨.hbm, 333, rfl⟩
abbrev main_v249 : Ref sig .tc := ⟨.hbm, 334, rfl⟩
abbrev main_v250 : Ref sig .tc := ⟨.hbm, 335, rfl⟩
abbrev main_v251 : Ref sig .tc := ⟨.hbm, 336, rfl⟩
abbrev main_v252 : Ref sig .tc := ⟨.hbm, 337, rfl⟩
abbrev main_cst_62 : Ref sig .tc := ⟨.hbm, 338, rfl⟩
abbrev main_v253 : Ref sig .tc := ⟨.hbm, 339, rfl⟩
abbrev main_v254 : Ref sig .tc := ⟨.hbm, 340, rfl⟩
abbrev main_v255 : Ref sig .tc := ⟨.hbm, 341, rfl⟩
abbrev main_cst_63 : Ref sig .tc := ⟨.hbm, 342, rfl⟩
abbrev main_v256 : Ref sig .tc := ⟨.hbm, 343, rfl⟩
abbrev main_v257 : Ref sig .tc := ⟨.hbm, 344, rfl⟩
abbrev main_v258 : Ref sig .tc := ⟨.hbm, 345, rfl⟩
abbrev main_v259 : Ref sig .tc := ⟨.hbm, 346, rfl⟩
abbrev main_v260 : Ref sig .tc := ⟨.hbm, 347, rfl⟩
abbrev main_v261 : Ref sig .tc := ⟨.hbm, 348, rfl⟩
abbrev main_v262 : Ref sig .tc := ⟨.hbm, 349, rfl⟩
abbrev main_v263 : Ref sig .tc := ⟨.hbm, 350, rfl⟩
abbrev main_v264 : Ref sig .tc := ⟨.hbm, 351, rfl⟩
abbrev main_v265 : Ref sig .tc := ⟨.hbm, 352, rfl⟩
abbrev main_v266 : Ref sig .tc := ⟨.hbm, 353, rfl⟩
abbrev main_v267 : Ref sig .tc := ⟨.hbm, 354, rfl⟩
abbrev main_v268 : Ref sig .tc := ⟨.hbm, 355, rfl⟩
abbrev main_v269 : Ref sig .tc := ⟨.hbm, 356, rfl⟩
abbrev main_v270 : Ref sig .tc := ⟨.hbm, 357, rfl⟩
abbrev main_v271 : Ref sig .tc := ⟨.hbm, 358, rfl⟩
abbrev main_v272 : Ref sig .tc := ⟨.hbm, 359, rfl⟩
abbrev main_v273 : Ref sig .tc := ⟨.hbm, 360, rfl⟩
abbrev main_cst_64 : Ref sig .tc := ⟨.hbm, 361, rfl⟩
abbrev main_v274 : Ref sig .tc := ⟨.hbm, 362, rfl⟩
abbrev main_cst_65 : Ref sig .tc := ⟨.hbm, 363, rfl⟩
abbrev main_v275 : Ref sig .tc := ⟨.hbm, 364, rfl⟩
abbrev main_v276 : Ref sig .tc := ⟨.hbm, 365, rfl⟩
abbrev main_v277 : Ref sig .tc := ⟨.hbm, 366, rfl⟩
abbrev main_cst_66 : Ref sig .tc := ⟨.hbm, 367, rfl⟩
abbrev main_v278 : Ref sig .tc := ⟨.hbm, 368, rfl⟩
abbrev main_v279 : Ref sig .tc := ⟨.hbm, 369, rfl⟩
abbrev main_v280 : Ref sig .tc := ⟨.hbm, 370, rfl⟩
abbrev main_v281 : Ref sig .tc := ⟨.hbm, 371, rfl⟩
abbrev main_v282 : Ref sig .tc := ⟨.hbm, 372, rfl⟩
abbrev main_v283 : Ref sig .tc := ⟨.hbm, 373, rfl⟩
abbrev main_v284 : Ref sig .tc := ⟨.hbm, 374, rfl⟩
abbrev main_v285 : Ref sig .tc := ⟨.hbm, 375, rfl⟩
abbrev main_v286 : Ref sig .tc := ⟨.hbm, 376, rfl⟩
abbrev main_call4_cst : Ref sig .tc := ⟨.hbm, 377, rfl⟩
abbrev main_call4_v0 : Ref sig .tc := ⟨.hbm, 378, rfl⟩
abbrev main_call4_cst_0 : Ref sig .tc := ⟨.hbm, 379, rfl⟩
abbrev main_call4_v1 : Ref sig .tc := ⟨.hbm, 380, rfl⟩
abbrev main_call4_v2 : Ref sig .tc := ⟨.hbm, 381, rfl⟩
abbrev main_call4_v3 : Ref sig .tc := ⟨.hbm, 382, rfl⟩
abbrev main_call4_v4 : Ref sig .tc := ⟨.hbm, 383, rfl⟩
abbrev main_call4_v5 : Ref sig .tc := ⟨.hbm, 384, rfl⟩
abbrev main_call4_v6 : Ref sig .tc := ⟨.hbm, 385, rfl⟩
abbrev main_call4_cst_1 : Ref sig .tc := ⟨.hbm, 386, rfl⟩
abbrev main_call4_v7 : Ref sig .tc := ⟨.hbm, 387, rfl⟩
abbrev main_call4_v8 : Ref sig .tc := ⟨.hbm, 388, rfl⟩
abbrev main_call4_v9 : Ref sig .tc := ⟨.hbm, 389, rfl⟩
abbrev main_call4_v10 : Ref sig .tc := ⟨.hbm, 390, rfl⟩
abbrev main_v287 : Ref sig .tc := ⟨.hbm, 391, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg1_1 : Ref sig .tc := ⟨.vmem, 25, rfl⟩
abbrev cc1_stg2_0 : Ref sig .tc := ⟨.vmem, 26, rfl⟩
abbrev cc1_stg2_1 : Ref sig .tc := ⟨.vmem, 27, rfl⟩
abbrev cc1_stg3_0 : Ref sig .tc := ⟨.vmem, 28, rfl⟩
abbrev cc1_stg3_1 : Ref sig .tc := ⟨.vmem, 29, rfl⟩
abbrev cc1_stg4_0 : Ref sig .tc := ⟨.vmem, 30, rfl⟩
abbrev cc1_stg5_0 : Ref sig .tc := ⟨.vmem, 31, rfl⟩
abbrev cc1_stg6_0 : Ref sig .tc := ⟨.vmem, 32, rfl⟩
abbrev cc1_stg6_1 : Ref sig .tc := ⟨.vmem, 33, rfl⟩
abbrev cc1_stg7_0 : Ref sig .tc := ⟨.vmem, 34, rfl⟩
abbrev cc1_stg7_1 : Ref sig .tc := ⟨.vmem, 35, rfl⟩
abbrev cc1_stg8_0 : Ref sig .tc := ⟨.vmem, 36, rfl⟩
abbrev cc1_stg8_1 : Ref sig .tc := ⟨.vmem, 37, rfl⟩
abbrev cc1_stg9_0 : Ref sig .tc := ⟨.vmem, 38, rfl⟩
abbrev cc1_stg9_1 : Ref sig .tc := ⟨.vmem, 39, rfl⟩
abbrev cc1_stg10_0 : Ref sig .tc := ⟨.vmem, 40, rfl⟩
abbrev cc1_stg11_0 : Ref sig .tc := ⟨.vmem, 41, rfl⟩
abbrev cc1_stg12_0 : Ref sig .tc := ⟨.vmem, 42, rfl⟩
abbrev cc1_stg12_1 : Ref sig .tc := ⟨.vmem, 43, rfl⟩
abbrev cc2_stg0_0 : Ref sig .tc := ⟨.vmem, 44, rfl⟩
abbrev cc2_stg0_1 : Ref sig .tc := ⟨.vmem, 45, rfl⟩
abbrev cc2_stg1_0 : Ref sig .tc := ⟨.vmem, 46, rfl⟩
abbrev cc2_stg1_1 : Ref sig .tc := ⟨.vmem, 47, rfl⟩
abbrev cc2_stg2_0 : Ref sig .tc := ⟨.vmem, 48, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem12_0 : DmaSem sig := 20
abbrev cc0_sem12_1 : DmaSem sig := 21
abbrev cc1_sem0_0 : DmaSem sig := 22
abbrev cc1_sem0_1 : DmaSem sig := 23
abbrev cc1_sem1_0 : DmaSem sig := 24
abbrev cc1_sem1_1 : DmaSem sig := 25
abbrev cc1_sem2_0 : DmaSem sig := 26
abbrev cc1_sem2_1 : DmaSem sig := 27
abbrev cc1_sem3_0 : DmaSem sig := 28
abbrev cc1_sem3_1 : DmaSem sig := 29
abbrev cc1_sem4_0 : DmaSem sig := 30
abbrev cc1_sem5_0 : DmaSem sig := 31
abbrev cc1_sem6_0 : DmaSem sig := 32
abbrev cc1_sem6_1 : DmaSem sig := 33
abbrev cc1_sem7_0 : DmaSem sig := 34
abbrev cc1_sem7_1 : DmaSem sig := 35
abbrev cc1_sem8_0 : DmaSem sig := 36
abbrev cc1_sem8_1 : DmaSem sig := 37
abbrev cc1_sem9_0 : DmaSem sig := 38
abbrev cc1_sem9_1 : DmaSem sig := 39
abbrev cc1_sem10_0 : DmaSem sig := 40
abbrev cc1_sem11_0 : DmaSem sig := 41
abbrev cc1_sem12_0 : DmaSem sig := 42
abbrev cc1_sem12_1 : DmaSem sig := 43
abbrev cc2_sem0_0 : DmaSem sig := 44
abbrev cc2_sem0_1 : DmaSem sig := 45
abbrev cc2_sem1_0 : DmaSem sig := 46
abbrev cc2_sem1_1 : DmaSem sig := 47
abbrev cc2_sem2_0 : DmaSem sig := 48

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x128x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2000x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2000x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2000x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S4x128x64 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S2000x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S4x128x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S2000x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S2000x128 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S2000x128 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 1 → Memref sig .tc .vmem S4x128x256 .bf16 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x256 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S2000x512 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S512x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S_S100000 : S_.BroadcastsInDim S100000 (![] : Fin 0 → Fin S100000.rank)
  bcast_S400000_S400000x1_0 : S400000.BroadcastsInDim S400000x1 (![0] : Fin 1 → Fin S400000x1.rank)
  bcast_S400000x1_S400000x128_0_1 : S400000x1.BroadcastsInDim S400000x128 (![0, 1] : Fin 2 → Fin S400000x128.rank)
  bcast_S_S100000x128 : S_.BroadcastsInDim S100000x128 (![] : Fin 0 → Fin S100000x128.rank)
  bitsLt_bf16_f32 : FTy.bits .bf16 < FTy.bits .f32
  shapeCasts_S64_S1x64 : S64.ShapeCasts S1x64
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S4x128x64_S1x128x64_0_0_0 : ∀ a, (![0, 0, 0] : Fin 3 → Nat) a + S1x128x64.size a ≤ S4x128x64.size a
  h_S1x128x64 : 0 < S1x128x64.numel
  shapeCasts_S1x128x64_S128x64 : S1x128x64.ShapeCasts S128x64
  inb_S4x128x64_S1x128x64_1_0_0 : ∀ a, (![1, 0, 0] : Fin 3 → Nat) a + S1x128x64.size a ≤ S4x128x64.size a
  inb_S4x128x64_S1x128x64_2_0_0 : ∀ a, (![2, 0, 0] : Fin 3 → Nat) a + S1x128x64.size a ≤ S4x128x64.size a
  inb_S4x128x64_S1x128x64_3_0_0 : ∀ a, (![3, 0, 0] : Fin 3 → Nat) a + S1x128x64.size a ≤ S4x128x64.size a
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x128_S2000x64_0_0 : ∀ a, (![0, 0] : Fin 2 → Nat) a + S2000x64.size a ≤ S2000x128.size a
  h_S2000x64 : 0 < S2000x64.numel
  inb_S2000x128_S2000x64_0_64 : ∀ a, (![0, 64] : Fin 2 → Nat) a + S2000x64.size a ≤ S2000x128.size a
  shapeCasts_S256_S1x256 : S256.ShapeCasts S1x256
  inb_S4x128x256_S1x128x256_0_0_0 : ∀ a, (![0, 0, 0] : Fin 3 → Nat) a + S1x128x256.size a ≤ S4x128x256.size a
  h_S1x128x256 : 0 < S1x128x256.numel
  shapeCasts_S1x128x256_S128x256 : S1x128x256.ShapeCasts S128x256
  inb_S4x128x256_S1x128x256_1_0_0 : ∀ a, (![1, 0, 0] : Fin 3 → Nat) a + S1x128x256.size a ≤ S4x128x256.size a
  inb_S4x128x256_S1x128x256_2_0_0 : ∀ a, (![2, 0, 0] : Fin 3 → Nat) a + S1x128x256.size a ≤ S4x128x256.size a
  inb_S4x128x256_S1x128x256_3_0_0 : ∀ a, (![3, 0, 0] : Fin 3 → Nat) a + S1x128x256.size a ≤ S4x128x256.size a
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x512_S2000x256_0_0 : ∀ a, (![0, 0] : Fin 2 → Nat) a + S2000x256.size a ≤ S2000x512.size a
  h_S2000x256 : 0 < S2000x256.numel
  packedbf16_S2000x512_S2000x256_0_0 : (Rect.unit (s := S2000x512) ![0, 0] S2000x256.size inb_S2000x512_S2000x256_0_0).PackedRows (EltTy.packing .bf16)
  inb_S2000x512_S2000x256_0_256 : ∀ a, (![0, 256] : Fin 2 → Nat) a + S2000x256.size a ≤ S2000x512.size a
  packedbf16_S2000x512_S2000x256_0_256 : (Rect.unit (s := S2000x512) ![0, 256] S2000x256.size inb_S2000x512_S2000x256_0_256).PackedRows (EltTy.packing .bf16)
  shapeCasts_S100000_S100000x1 : S100000.ShapeCasts S100000x1
  inb_S512x512_S512x512_0_0 : ∀ a, (![0, 0] : Fin 2 → Nat) a + S512x512.size a ≤ S512x512.size a
  h_S512x512 : 0 < S512x512.numel
  iota_S2000x512_d1_w32 : S2000x512.Iotas .tc 32 [1]
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x512 : S2000x1.Broadcasts S2000x512
  natLt_1_32 : 1 < 32
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  shapeCasts_S512x512_S512x512 : S512x512.ShapeCasts S512x512
  bcast_S_S512 : S_.BroadcastsInDim S512 (![] : Fin 0 → Fin S512.rank)
  bcast_S100000_S100000x1_0 : S100000.BroadcastsInDim S100000x1 (![0] : Fin 1 → Fin S100000x1.rank)
  bcast_S512_S512x1_0 : S512.BroadcastsInDim S512x1 (![0] : Fin 1 → Fin S512x1.rank)
  bcast_S512x1_S512x512_0_1 : S512x1.BroadcastsInDim S512x512 (![0, 1] : Fin 2 → Fin S512x512.rank)
  bcast_S8_S1x8_1 : S8.BroadcastsInDim S1x8 (![1] : Fin 1 → Fin S1x8.rank)
  bcast_S1x8_S512x8_0_1 : S1x8.BroadcastsInDim S512x8 (![0, 1] : Fin 2 → Fin S512x8.rank)
  reducesTo_S512x8_S512_d1 : S512x8.ReducesTo [1] S512
  h_S_ : 0 < S_.numel
  bcast_S512x1_S512x8_0_1 : S512x1.BroadcastsInDim S512x8 (![0, 1] : Fin 2 → Fin S512x8.rank)
  scatter_S100000_S400000x1_S400000_n_0_0_1_wf : ScatterDims.WF S100000 S400000x1 S400000 [] [0] [0] 1
  gather_S100000_S400000x1_S400000_n_0_n_n_0_1_1_wf : GatherDims.WF S100000 S400000x1 S400000 [] [0] [] [0] [] 1 ![1]
  gather_S100000x128_S400000x1_S400000x128_1_0_n_n_0_1_1128_wf : GatherDims.WF S100000x128 S400000x1 S400000x128 [1] [0] [] [0] [] 1 ![1, 128]
  scatter_S100000x128_S400000x1_S400000x128_1_0_0_1_wf : ScatterDims.WF S100000x128 S400000x1 S400000x128 [1] [0] [0] 1
  dot_S2000x128_S128x64_S2000x64_1_0_0_1_n_n_wf : DotDims.WF S2000x128 S128x64 S2000x64 [1] [0] [0] [1] [] []
  dot_S2000x128_S128x256_S2000x256_1_0_0_1_n_n_wf : DotDims.WF S2000x128 S128x256 S2000x256 [1] [0] [0] [1] [] []
  dot_S2000x512_S2000x512_S512x512_0_0_1_1_n_n_wf : DotDims.WF S2000x512 S2000x512 S512x512 [0] [0] [1] [1] [] []
  scatter_S512_S100000x1_S100000_n_0_0_1_wf : ScatterDims.WF S512 S100000x1 S100000 [] [0] [0] 1
  dot_S512x512_S512x8_S512x8_1_0_0_1_n_n_wf : DotDims.WF S512x512 S512x8 S512x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .bf16 = 32 ∨ (Rect.block (s := S100000x128) S2000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .bf16 = 32 ∨ (Rect.block (s := S100000x128) S2000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .bf16 = 32 ∨ (Rect.block (s := S100000x128) S2000x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .bf16 = 32 ∨ (Rect.block (s := S100000x128) S2000x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x128x64.size a ≤ S4x128x64.size a
  hwx0_4 : ∀ i : grid0.Coords, EltTy.bits .bf16 = 32 ∨ (Rect.block (s := S4x128x64) S4x128x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S100000x128.size a
  hwx0_6 : ∀ i : grid0.Coords, EltTy.bits .bf16 = 32 ∨ (Rect.block (s := S100000x128) S2000x128.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S100000x128.size a
  hwx0_7 : ∀ i : grid0.Coords, EltTy.bits .bf16 = 32 ∨ (Rect.block (s := S100000x128) S2000x128.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x128.size a ≤ S100000x128.size a
  hwx0_8 : ∀ i : grid0.Coords, EltTy.bits .bf16 = 32 ∨ (Rect.block (s := S100000x128) S2000x128.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x128.size a ≤ S100000x128.size a
  hwx0_9 : ∀ i : grid0.Coords, EltTy.bits .bf16 = 32 ∨ (Rect.block (s := S100000x128) S2000x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S4x128x64.size a ≤ S4x128x64.size a
  hwx0_10 : ∀ i : grid0.Coords, EltTy.bits .bf16 = 32 ∨ (Rect.block (s := S4x128x64) S4x128x64.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x64.size a ≤ S1x64.size a
  hwx0_11 : ∀ i : grid0.Coords, EltTy.bits .f32 = 32 ∨ (Rect.block (s := S1x64) S1x64.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2000x128.size a ≤ S100000x128.size a
  hwx0_12 : ∀ i : grid0.Coords, EltTy.bits .f32 = 32 ∨ (Rect.block (s := S100000x128) S2000x128.size (cc0_transform_12 i) (hinb0_12 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .bf16 = 32 ∨ (Rect.block (s := S100000x128) S2000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .bf16 = 32 ∨ (Rect.block (s := S100000x128) S2000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .bf16 = 32 ∨ (Rect.block (s := S100000x128) S2000x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S100000x128.size a
  hwx1_3 : ∀ i : grid1.Coords, EltTy.bits .bf16 = 32 ∨ (Rect.block (s := S100000x128) S2000x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S4x128x256.size a ≤ S4x128x256.size a
  hwx1_4 : ∀ i : grid1.Coords, EltTy.bits .bf16 = 32 ∨ (Rect.block (s := S4x128x256) S4x128x256.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S100000x128.size a
  hwx1_6 : ∀ i : grid1.Coords, EltTy.bits .bf16 = 32 ∨ (Rect.block (s := S100000x128) S2000x128.size (cc1_transform_6 i) (hinb1_6 i)).WholeWords (EltTy.packing .bf16)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S100000x128.size a
  hwx1_7 : ∀ i : grid1.Coords, EltTy.bits .bf16 = 32 ∨ (Rect.block (s := S100000x128) S2000x128.size (cc1_transform_7 i) (hinb1_7 i)).WholeWords (EltTy.packing .bf16)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x128.size a ≤ S100000x128.size a
  hwx1_8 : ∀ i : grid1.Coords, EltTy.bits .bf16 = 32 ∨ (Rect.block (s := S100000x128) S2000x128.size (cc1_transform_8 i) (hinb1_8 i)).WholeWords (EltTy.packing .bf16)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x128.size a ≤ S100000x128.size a
  hwx1_9 : ∀ i : grid1.Coords, EltTy.bits .bf16 = 32 ∨ (Rect.block (s := S100000x128) S2000x128.size (cc1_transform_9 i) (hinb1_9 i)).WholeWords (EltTy.packing .bf16)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S4x128x256.size a ≤ S4x128x256.size a
  hwx1_10 : ∀ i : grid1.Coords, EltTy.bits .bf16 = 32 ∨ (Rect.block (s := S4x128x256) S4x128x256.size (cc1_transform_10 i) (hinb1_10 i)).WholeWords (EltTy.packing .bf16)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x256.size a ≤ S1x256.size a
  hwx1_11 : ∀ i : grid1.Coords, EltTy.bits .f32 = 32 ∨ (Rect.block (s := S1x256) S1x256.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S2000x512.size a ≤ S100000x512.size a
  hwx1_12 : ∀ i : grid1.Coords, EltTy.bits .bf16 = 32 ∨ (Rect.block (s := S100000x512) S2000x512.size (cc1_transform_12 i) (hinb1_12 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x512.size a ≤ S100000x512.size a
  hwx2_0 : ∀ i : grid2.Coords, EltTy.bits .bf16 = 32 ∨ (Rect.block (s := S100000x512) S2000x512.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S100000x1.size a
  hwx2_1 : ∀ i : grid2.Coords, EltTy.bits .i32 = 32 ∨ (Rect.block (s := S100000x1) S2000x1.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512x512.size a ≤ S512x512.size a
  hwx2_2 : ∀ i : grid2.Coords, EltTy.bits .f32 = 32 ∨ (Rect.block (s := S512x512) S512x512.size (cc2_transform_2 i) (hinb2_2 i)).WholeWords (EltTy.packing .f32)

variable [Facts₀]

def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def gather_S100000_S400000x1_S400000_n_0_n_n_0_1_1 : GatherDims S100000 S400000x1 S400000 where
  offsetDims := []
  collapsedSliceDims := [0]
  operandBatchingDims := []
  startIndicesBatchingDims := []
  startIndexMap := [0]
  indexVectorDim := 1
  sliceSizes := ![1]
  wf := gather_S100000_S400000x1_S400000_n_0_n_n_0_1_1_wf
def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x512_S2000x512_S512x512_0_0_1_1_n_n : DotDims S2000x512 S2000x512 S512x512 where
  lhsContracting := [0]
  rhsContracting := [0]
  lhsNonContracting := [1]
  rhsNonContracting := [1]
  lhsBatch := []
  rhsBatch := []
  wf := dot_S2000x512_S2000x512_S512x512_0_0_1_1_n_n_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x512_S512x8_S512x8_1_0_0_1_n_n : DotDims S512x512 S512x8 S512x8 where
  lhsContracting := [1]
  rhsContracting := [0]
  lhsNonContracting := [0]
  rhsNonContracting := [1]
  lhsBatch := []
  rhsBatch := []
  wf := dot_S512x512_S512x8_S512x8_1_0_0_1_n_n_wf

abbrev win0_0 : Pipeline.Window sig grid0 :=
  Pipeline.Window.ofSpec (Memref.whole main_v156) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v157) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v158) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v159) S2000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v164) S4x128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v166) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v160) S2000x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v161) S2000x128.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v162) S2000x128.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v163) S2000x128.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v165) S4x128x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v167) S1x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v168) S2000x128.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_v259) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v260) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v261) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v262) S2000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v267) S4x128x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v269) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v263) S2000x128.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v264) S2000x128.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_v265) S2000x128.size cc1_transform_8 reads1_8 false false 2 stage1_8 sem1_8
    hrank1 hreads1_8 hinb1_8 nbuf1_8 (Memref.isWhole_whole _) hwx1_8 hstage1_8

abbrev win1_9 : Pipeline.Window sig grid1 :=
  Pipeline.Window.ofSpec (Memref.whole main_v266) S2000x128.size cc1_transform_9 reads1_9 false false 2 stage1_9 sem1_9
    hrank1 hreads1_9 hinb1_9 nbuf1_9 (Memref.isWhole_whole _) hwx1_9 hstage1_9

abbrev win1_10 : Pipeline.Window sig grid1 :=
  Pipeline.Window.ofSpec (Memref.whole main_v268) S4x128x256.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v270) S1x256.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v271) S2000x512.size cc1_transform_12 reads1_12 true false 2 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

abbrev win2_0 : Pipeline.Window sig grid2 :=
  Pipeline.Window.ofSpec (Memref.whole main_v271) S2000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v272) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v273) S512x512.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x400000 : Shape := ⟨2, ![2, 400000]⟩
abbrev S100000 : Shape := ⟨1, ![100000]⟩
abbrev S4x128x64 : Shape := ⟨3, ![4, 128, 64]⟩
abbrev S64 : Shape := ⟨1, ![64]⟩
abbrev S4x128x256 : Shape := ⟨3, ![4, 128, 256]⟩
abbrev S256 : Shape := ⟨1, ![256]⟩
abbrev S512x8 : Shape := ⟨2, ![512, 8]⟩
abbrev S8 : Shape := ⟨1, ![8]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S1x128x64 : Shape := ⟨3, ![1, 128, 64]⟩
abbrev S128x64 : Shape := ⟨2, ![128, 64]⟩
abbrev S100000x64 : Shape := ⟨2, ![100000, 64]⟩
abbrev S400000x128 : Shape := ⟨2, ![400000, 128]⟩
abbrev S1x64 : Shape := ⟨2, ![1, 64]⟩
abbrev S1x128x256 : Shape := ⟨3, ![1, 128, 256]⟩
abbrev S128x256 : Shape := ⟨2, ![128, 256]⟩
abbrev S100000x256 : Shape := ⟨2, ![100000, 256]⟩
abbrev S1x256 : Shape := ⟨2, ![1, 256]⟩
abbrev S100000x512 : Shape := ⟨2, ![100000, 512]⟩
abbrev S512x512 : Shape := ⟨2, ![512, 512]⟩
abbrev S100000x1 : Shape := ⟨2, ![100000, 1]⟩
abbrev S512 : Shape := ⟨1, ![512]⟩
abbrev S512x1 : Shape := ⟨2, ![512, 1]⟩
abbrev S1x8 : Shape := ⟨2, ![1, 8]⟩

abbrev nBuf : Space → Nat
  | .hbm => 454
  | .vmem => 0
  | .smem => 0
  | _ => 0

abbrev hbmTy0_0 (i : Nat) : BufTy := match i % 128 with
  | 0 => ⟨S100000x128, .f32⟩
  | 1 => ⟨S2x400000, .i32⟩
  | 2 => ⟨S100000, .i32⟩
  | 3 => ⟨S4x128x64, .f32⟩
  | 4 => ⟨S64, .f32⟩
  | 5 => ⟨S4x128x64, .f32⟩
  | 6 => ⟨S64, .f32⟩
  | 7 => ⟨S4x128x256, .f32⟩
  | 8 => ⟨S256, .f32⟩
  | 9 => ⟨S4x128x256, .f32⟩
  | 10 => ⟨S256, .f32⟩
  | 11 => ⟨S512x8, .f32⟩
  | 12 => ⟨S8, .f32⟩
  | 13 => ⟨S1x400000, .i32⟩
  | 14 => ⟨S400000, .i32⟩
  | 15 => ⟨S1x400000, .i32⟩
  | 16 => ⟨S400000, .i32⟩
  | 17 => ⟨S400000, .i1⟩
  | 18 => ⟨S_, .f32⟩
  | 19 => ⟨S_, .f32⟩
  | 20 => ⟨S400000, .f32⟩
  | 21 => ⟨S400000, .f32⟩
  | 22 => ⟨S400000, .f32⟩
  | 23 => ⟨S400000, .f32⟩
  | 24 => ⟨S_, .f32⟩
  | 25 => ⟨S100000, .f32⟩
  | 26 => ⟨S400000x1, .i32⟩
  | 27 => ⟨S100000, .f32⟩
  | 28 => ⟨S_, .f32⟩
  | 29 => ⟨S100000, .f32⟩
  | 30 => ⟨S100000, .i1⟩
  | 31 => ⟨S_, .f32⟩
  | 32 => ⟨S100000, .f32⟩
  | 33 => ⟨S100000, .f32⟩
  | 34 => ⟨S100000, .f32⟩
  | 35 => ⟨S_, .f32⟩
  | 36 => ⟨S100000, .f32⟩
  | 37 => ⟨S100000, .f32⟩
  | 38 => ⟨S_, .f32⟩
  | 39 => ⟨S_, .f32⟩
  | 40 => ⟨S100000, .f32⟩
  | 41 => ⟨S100000, .f32⟩
  | 42 => ⟨S_, .i32⟩
  | 43 => ⟨S400000, .i32⟩
  | 44 => ⟨S400000, .i1⟩
  | 45 => ⟨S_, .i32⟩
  | 46 => ⟨S400000, .i32⟩
  | 47 => ⟨S400000, .i32⟩
  | 48 => ⟨S400000, .i32⟩
  | 49 => ⟨S400000x1, .i32⟩
  | 50 => ⟨S400000, .f32⟩
  | 51 => ⟨S400000, .f32⟩
  | 52 => ⟨S400000, .f32⟩
  | 53 => ⟨S_, .i32⟩
  | 54 => ⟨S400000, .i32⟩
  | 55 => ⟨S400000, .i1⟩
  | 56 => ⟨S_, .i32⟩
  | 57 => ⟨S400000, .i32⟩
  | 58 => ⟨S400000, .i32⟩
  | 59 => ⟨S400000, .i32⟩
  | 60 => ⟨S400000x1, .i32⟩
  | 61 => ⟨S400000, .f32⟩
  | 62 => ⟨S400000, .f32⟩
  | 63 => ⟨S400000, .i1⟩
  | 64 => ⟨S_, .f32⟩
  | 65 => ⟨S_, .f32⟩
  | 66 => ⟨S400000, .f32⟩
  | 67 => ⟨S400000, .f32⟩
  | 68 => ⟨S400000, .f32⟩
  | 69 => ⟨S400000, .f32⟩
  | 70 => ⟨S_, .f32⟩
  | 71 => ⟨S100000, .f32⟩
  | 72 => ⟨S400000x1, .i32⟩
  | 73 => ⟨S100000, .f32⟩
  | 74 => ⟨S_, .f32⟩
  | 75 => ⟨S100000, .f32⟩
  | 76 => ⟨S100000, .i1⟩
  | 77 => ⟨S_, .f32⟩
  | 78 => ⟨S100000, .f32⟩
  | 79 => ⟨S100000, .f32⟩
  | 80 => ⟨S100000, .f32⟩
  | 81 => ⟨S_, .f32⟩
  | 82 => ⟨S100000, .f32⟩
  | 83 => ⟨S100000, .f32⟩
  | 84 => ⟨S_, .f32⟩
  | 85 => ⟨S_, .f32⟩
  | 86 => ⟨S100000, .f32⟩
  | 87 => ⟨S100000, .f32⟩
  | 88 => ⟨S_, .i32⟩
  | 89 => ⟨S400000, .i32⟩
  | 90 => ⟨S400000, .i1⟩
  | 91 => ⟨S_, .i32⟩
  | 92 => ⟨S400000, .i32⟩
  | 93 => ⟨S400000, .i32⟩
  | 94 => ⟨S400000, .i32⟩
  | 95 => ⟨S400000x1, .i32⟩
  | 96 => ⟨S400000, .f32⟩
  | 97 => ⟨S400000, .f32⟩
  | 98 => ⟨S400000, .f32⟩
  | 99 => ⟨S_, .i32⟩
  | 100 => ⟨S400000, .i32⟩
  | 101 => ⟨S400000, .i1⟩
  | 102 => ⟨S_, .i32⟩
  | 103 => ⟨S400000, .i32⟩
  | 104 => ⟨S400000, .i32⟩
  | 105 => ⟨S400000, .i32⟩
  | 106 => ⟨S400000x1, .i32⟩
  | 107 => ⟨S400000, .f32⟩
  | 108 => ⟨S400000, .f32⟩
  | 109 => ⟨S1x128x64, .f32⟩
  | 110 => ⟨S128x64, .f32⟩
  | 111 => ⟨S100000x64, .f32⟩
  | 112 => ⟨S400000x1, .f32⟩
  | 113 => ⟨S_, .i32⟩
  | 114 => ⟨S400000, .i32⟩
  | 115 => ⟨S400000, .i1⟩
  | 116 => ⟨S_, .i32⟩
  | 117 => ⟨S400000, .i32⟩
  | 118 => ⟨S400000, .i32⟩
  | 119 => ⟨S400000, .i32⟩
  | 120 => ⟨S400000x1, .i32⟩
  | 121 => ⟨S400000x128, .f32⟩
  | 122 => ⟨S400000x128, .f32⟩
  | 123 => ⟨S400000x128, .f32⟩
  | 124 => ⟨S_, .f32⟩
  | 125 => ⟨S100000x128, .f32⟩
  | 126 => ⟨S400000x1, .i32⟩
  | 127 => ⟨S100000x128, .f32⟩
  | _ => ⟨S100000x128, .f32⟩

abbrev hbmTy0_1 (i : Nat) : BufTy := match i % 128 with
  | 0 => ⟨S1x128x64, .f32⟩
  | 1 => ⟨S128x64, .f32⟩
  | 2 => ⟨S100000x64, .f32⟩
  | 3 => ⟨S100000x64, .f32⟩
  | 4 => ⟨S400000x1, .f32⟩
  | 5 => ⟨S_, .i32⟩
  | 6 => ⟨S400000, .i32⟩
  | 7 => ⟨S400000, .i1⟩
  | 8 => ⟨S_, .i32⟩
  | 9 => ⟨S400000, .i32⟩
  | 10 => ⟨S400000, .i32⟩
  | 11 => ⟨S400000, .i32⟩
  | 12 => ⟨S400000x1, .i32⟩
  | 13 => ⟨S400000x128, .f32⟩
  | 14 => ⟨S400000x128, .f32⟩
  | 15 => ⟨S400000x128, .f32⟩
  | 16 => ⟨S_, .f32⟩
  | 17 => ⟨S100000x128, .f32⟩
  | 18 => ⟨S400000x1, .i32⟩
  | 19 => ⟨S100000x128, .f32⟩
  | 20 => ⟨S_, .f32⟩
  | 21 => ⟨S100000x128, .f32⟩
  | 22 => ⟨S100000x128, .f32⟩
  | 23 => ⟨S100000x128, .f32⟩
  | 24 => ⟨S1x128x64, .f32⟩
  | 25 => ⟨S128x64, .f32⟩
  | 26 => ⟨S100000x64, .f32⟩
  | 27 => ⟨S100000x64, .f32⟩
  | 28 => ⟨S400000x1, .f32⟩
  | 29 => ⟨S_, .i32⟩
  | 30 => ⟨S400000, .i32⟩
  | 31 => ⟨S400000, .i1⟩
  | 32 => ⟨S_, .i32⟩
  | 33 => ⟨S400000, .i32⟩
  | 34 => ⟨S400000, .i32⟩
  | 35 => ⟨S400000, .i32⟩
  | 36 => ⟨S400000x1, .i32⟩
  | 37 => ⟨S400000x128, .f32⟩
  | 38 => ⟨S400000x128, .f32⟩
  | 39 => ⟨S400000x128, .f32⟩
  | 40 => ⟨S_, .f32⟩
  | 41 => ⟨S100000x128, .f32⟩
  | 42 => ⟨S400000x1, .i32⟩
  | 43 => ⟨S100000x128, .f32⟩
  | 44 => ⟨S_, .f32⟩
  | 45 => ⟨S100000x128, .f32⟩
  | 46 => ⟨S100000x128, .f32⟩
  | 47 => ⟨S100000x128, .f32⟩
  | 48 => ⟨S1x128x64, .f32⟩
  | 49 => ⟨S128x64, .f32⟩
  | 50 => ⟨S100000x64, .f32⟩
  | 51 => ⟨S100000x64, .f32⟩
  | 52 => ⟨S1x64, .f32⟩
  | 53 => ⟨S100000x64, .f32⟩
  | 54 => ⟨S100000x64, .f32⟩
  | 55 => ⟨S_, .f32⟩
  | 56 => ⟨S100000x64, .f32⟩
  | 57 => ⟨S100000x64, .f32⟩
  | 58 => ⟨S1x128x64, .f32⟩
  | 59 => ⟨S128x64, .f32⟩
  | 60 => ⟨S100000x64, .f32⟩
  | 61 => ⟨S400000x1, .f32⟩
  | 62 => ⟨S_, .i32⟩
  | 63 => ⟨S400000, .i32⟩
  | 64 => ⟨S400000, .i1⟩
  | 65 => ⟨S_, .i32⟩
  | 66 => ⟨S400000, .i32⟩
  | 67 => ⟨S400000, .i32⟩
  | 68 => ⟨S400000, .i32⟩
  | 69 => ⟨S400000x1, .i32⟩
  | 70 => ⟨S400000x128, .f32⟩
  | 71 => ⟨S400000x128, .f32⟩
  | 72 => ⟨S400000x128, .f32⟩
  | 73 => ⟨S_, .f32⟩
  | 74 => ⟨S100000x128, .f32⟩
  | 75 => ⟨S400000x1, .i32⟩
  | 76 => ⟨S100000x128, .f32⟩
  | 77 => ⟨S1x128x64, .f32⟩
  | 78 => ⟨S128x64, .f32⟩
  | 79 => ⟨S100000x64, .f32⟩
  | 80 => ⟨S100000x64, .f32⟩
  | 81 => ⟨S400000x1, .f32⟩
  | 82 => ⟨S_, .i32⟩
  | 83 => ⟨S400000, .i32⟩
  | 84 => ⟨S400000, .i1⟩
  | 85 => ⟨S_, .i32⟩
  | 86 => ⟨S400000, .i32⟩
  | 87 => ⟨S400000, .i32⟩
  | 88 => ⟨S400000, .i32⟩
  | 89 => ⟨S400000x1, .i32⟩
  | 90 => ⟨S400000x128, .f32⟩
  | 91 => ⟨S400000x128, .f32⟩
  | 92 => ⟨S400000x128, .f32⟩
  | 93 => ⟨S_, .f32⟩
  | 94 => ⟨S100000x128, .f32⟩
  | 95 => ⟨S400000x1, .i32⟩
  | 96 => ⟨S100000x128, .f32⟩
  | 97 => ⟨S_, .f32⟩
  | 98 => ⟨S100000x128, .f32⟩
  | 99 => ⟨S100000x128, .f32⟩
  | 100 => ⟨S100000x128, .f32⟩
  | 101 => ⟨S1x128x64, .f32⟩
  | 102 => ⟨S128x64, .f32⟩
  | 103 => ⟨S100000x64, .f32⟩
  | 104 => ⟨S100000x64, .f32⟩
  | 105 => ⟨S400000x1, .f32⟩
  | 106 => ⟨S_, .i32⟩
  | 107 => ⟨S400000, .i32⟩
  | 108 => ⟨S400000, .i1⟩
  | 109 => ⟨S_, .i32⟩
  | 110 => ⟨S400000, .i32⟩
  | 111 => ⟨S400000, .i32⟩
  | 112 => ⟨S400000, .i32⟩
  | 113 => ⟨S400000x1, .i32⟩
  | 114 => ⟨S400000x128, .f32⟩
  | 115 => ⟨S400000x128, .f32⟩
  | 116 => ⟨S400000x128, .f32⟩
  | 117 => ⟨S_, .f32⟩
  | 118 => ⟨S100000x128, .f32⟩
  | 119 => ⟨S400000x1, .i32⟩
  | 120 => ⟨S100000x128, .f32⟩
  | 121 => ⟨S_, .f32⟩
  | 122 => ⟨S100000x128, .f32⟩
  | 123 => ⟨S100000x128, .f32⟩
  | 124 => ⟨S100000x128, .f32⟩
  | 125 => ⟨S1x128x64, .f32⟩
  | 126 => ⟨S128x64, .f32⟩
  | 127 => ⟨S100000x64, .f32⟩
  | _ => ⟨S100000x128, .f32⟩

abbrev hbmTy0_2 (i : Nat) : BufTy := match i % 128 with
  | 0 => ⟨S100000x64, .f32⟩
  | 1 => ⟨S1x64, .f32⟩
  | 2 => ⟨S100000x64, .f32⟩
  | 3 => ⟨S100000x64, .f32⟩
  | 4 => ⟨S_, .f32⟩
  | 5 => ⟨S100000x64, .f32⟩
  | 6 => ⟨S100000x64, .f32⟩
  | 7 => ⟨S100000x128, .f32⟩
  | 8 => ⟨S1x128x256, .f32⟩
  | 9 => ⟨S128x256, .f32⟩
  | 10 => ⟨S100000x256, .f32⟩
  | 11 => ⟨S400000x1, .f32⟩
  | 12 => ⟨S_, .i32⟩
  | 13 => ⟨S400000, .i32⟩
  | 14 => ⟨S400000, .i1⟩
  | 15 => ⟨S_, .i32⟩
  | 16 => ⟨S400000, .i32⟩
  | 17 => ⟨S400000, .i32⟩
  | 18 => ⟨S400000, .i32⟩
  | 19 => ⟨S400000x1, .i32⟩
  | 20 => ⟨S400000x128, .f32⟩
  | 21 => ⟨S400000x128, .f32⟩
  | 22 => ⟨S400000x128, .f32⟩
  | 23 => ⟨S_, .f32⟩
  | 24 => ⟨S100000x128, .f32⟩
  | 25 => ⟨S400000x1, .i32⟩
  | 26 => ⟨S100000x128, .f32⟩
  | 27 => ⟨S1x128x256, .f32⟩
  | 28 => ⟨S128x256, .f32⟩
  | 29 => ⟨S100000x256, .f32⟩
  | 30 => ⟨S100000x256, .f32⟩
  | 31 => ⟨S400000x1, .f32⟩
  | 32 => ⟨S_, .i32⟩
  | 33 => ⟨S400000, .i32⟩
  | 34 => ⟨S400000, .i1⟩
  | 35 => ⟨S_, .i32⟩
  | 36 => ⟨S400000, .i32⟩
  | 37 => ⟨S400000, .i32⟩
  | 38 => ⟨S400000, .i32⟩
  | 39 => ⟨S400000x1, .i32⟩
  | 40 => ⟨S400000x128, .f32⟩
  | 41 => ⟨S400000x128, .f32⟩
  | 42 => ⟨S400000x128, .f32⟩
  | 43 => ⟨S_, .f32⟩
  | 44 => ⟨S100000x128, .f32⟩
  | 45 => ⟨S400000x1, .i32⟩
  | 46 => ⟨S100000x128, .f32⟩
  | 47 => ⟨S_, .f32⟩
  | 48 => ⟨S100000x128, .f32⟩
  | 49 => ⟨S100000x128, .f32⟩
  | 50 => ⟨S100000x128, .f32⟩
  | 51 => ⟨S1x128x256, .f32⟩
  | 52 => ⟨S128x256, .f32⟩
  | 53 => ⟨S100000x256, .f32⟩
  | 54 => ⟨S100000x256, .f32⟩
  | 55 => ⟨S400000x1, .f32⟩
  | 56 => ⟨S_, .i32⟩
  | 57 => ⟨S400000, .i32⟩
  | 58 => ⟨S400000, .i1⟩
  | 59 => ⟨S_, .i32⟩
  | 60 => ⟨S400000, .i32⟩
  | 61 => ⟨S400000, .i32⟩
  | 62 => ⟨S400000, .i32⟩
  | 63 => ⟨S400000x1, .i32⟩
  | 64 => ⟨S400000x128, .f32⟩
  | 65 => ⟨S400000x128, .f32⟩
  | 66 => ⟨S400000x128, .f32⟩
  | 67 => ⟨S_, .f32⟩
  | 68 => ⟨S100000x128, .f32⟩
  | 69 => ⟨S400000x1, .i32⟩
  | 70 => ⟨S100000x128, .f32⟩
  | 71 => ⟨S_, .f32⟩
  | 72 => ⟨S100000x128, .f32⟩
  | 73 => ⟨S100000x128, .f32⟩
  | 74 => ⟨S100000x128, .f32⟩
  | 75 => ⟨S1x128x256, .f32⟩
  | 76 => ⟨S128x256, .f32⟩
  | 77 => ⟨S100000x256, .f32⟩
  | 78 => ⟨S100000x256, .f32⟩
  | 79 => ⟨S1x256, .f32⟩
  | 80 => ⟨S100000x256, .f32⟩
  | 81 => ⟨S100000x256, .f32⟩
  | 82 => ⟨S_, .f32⟩
  | 83 => ⟨S100000x256, .f32⟩
  | 84 => ⟨S100000x256, .f32⟩
  | 85 => ⟨S1x128x256, .f32⟩
  | 86 => ⟨S128x256, .f32⟩
  | 87 => ⟨S100000x256, .f32⟩
  | 88 => ⟨S400000x1, .f32⟩
  | 89 => ⟨S_, .i32⟩
  | 90 => ⟨S400000, .i32⟩
  | 91 => ⟨S400000, .i1⟩
  | 92 => ⟨S_, .i32⟩
  | 93 => ⟨S400000, .i32⟩
  | 94 => ⟨S400000, .i32⟩
  | 95 => ⟨S400000, .i32⟩
  | 96 => ⟨S400000x1, .i32⟩
  | 97 => ⟨S400000x128, .f32⟩
  | 98 => ⟨S400000x128, .f32⟩
  | 99 => ⟨S400000x128, .f32⟩
  | 100 => ⟨S_, .f32⟩
  | 101 => ⟨S100000x128, .f32⟩
  | 102 => ⟨S400000x1, .i32⟩
  | 103 => ⟨S100000x128, .f32⟩
  | 104 => ⟨S1x128x256, .f32⟩
  | 105 => ⟨S128x256, .f32⟩
  | 106 => ⟨S100000x256, .f32⟩
  | 107 => ⟨S100000x256, .f32⟩
  | 108 => ⟨S400000x1, .f32⟩
  | 109 => ⟨S_, .i32⟩
  | 110 => ⟨S400000, .i32⟩
  | 111 => ⟨S400000, .i1⟩
  | 112 => ⟨S_, .i32⟩
  | 113 => ⟨S400000, .i32⟩
  | 114 => ⟨S400000, .i32⟩
  | 115 => ⟨S400000, .i32⟩
  | 116 => ⟨S400000x1, .i32⟩
  | 117 => ⟨S400000x128, .f32⟩
  | 118 => ⟨S400000x128, .f32⟩
  | 119 => ⟨S400000x128, .f32⟩
  | 120 => ⟨S_, .f32⟩
  | 121 => ⟨S100000x128, .f32⟩
  | 122 => ⟨S400000x1, .i32⟩
  | 123 => ⟨S100000x128, .f32⟩
  | 124 => ⟨S_, .f32⟩
  | 125 => ⟨S100000x128, .f32⟩
  | 126 => ⟨S100000x128, .f32⟩
  | 127 => ⟨S100000x128, .f32⟩
  | _ => ⟨S100000x128, .f32⟩

abbrev hbmTy0_3 (i : Nat) : BufTy := match i % 128 with
  | 0 => ⟨S1x128x256, .f32⟩
  | 1 => ⟨S128x256, .f32⟩
  | 2 => ⟨S100000x256, .f32⟩
  | 3 => ⟨S100000x256, .f32⟩
  | 4 => ⟨S400000x1, .f32⟩
  | 5 => ⟨S_, .i32⟩
  | 6 => ⟨S400000, .i32⟩
  | 7 => ⟨S400000, .i1⟩
  | 8 => ⟨S_, .i32⟩
  | 9 => ⟨S400000, .i32⟩
  | 10 => ⟨S400000, .i32⟩
  | 11 => ⟨S400000, .i32⟩
  | 12 => ⟨S400000x1, .i32⟩
  | 13 => ⟨S400000x128, .f32⟩
  | 14 => ⟨S400000x128, .f32⟩
  | 15 => ⟨S400000x128, .f32⟩
  | 16 => ⟨S_, .f32⟩
  | 17 => ⟨S100000x128, .f32⟩
  | 18 => ⟨S400000x1, .i32⟩
  | 19 => ⟨S100000x128, .f32⟩
  | 20 => ⟨S_, .f32⟩
  | 21 => ⟨S100000x128, .f32⟩
  | 22 => ⟨S100000x128, .f32⟩
  | 23 => ⟨S100000x128, .f32⟩
  | 24 => ⟨S1x128x256, .f32⟩
  | 25 => ⟨S128x256, .f32⟩
  | 26 => ⟨S100000x256, .f32⟩
  | 27 => ⟨S100000x256, .f32⟩
  | 28 => ⟨S1x256, .f32⟩
  | 29 => ⟨S100000x256, .f32⟩
  | 30 => ⟨S100000x256, .f32⟩
  | 31 => ⟨S_, .f32⟩
  | 32 => ⟨S100000x256, .f32⟩
  | 33 => ⟨S100000x256, .f32⟩
  | 34 => ⟨S100000x512, .f32⟩
  | 35 => ⟨S_, .f32⟩
  | 36 => ⟨S512x512, .f32⟩
  | 37 => ⟨S100000x1, .i32⟩
  | 38 => ⟨S512x512, .f32⟩
  | 39 => ⟨S_, .f32⟩
  | 40 => ⟨S100000, .f32⟩
  | 41 => ⟨S_, .f32⟩
  | 42 => ⟨S512, .f32⟩
  | 43 => ⟨S100000x1, .i32⟩
  | 44 => ⟨S512, .f32⟩
  | 45 => ⟨S_, .f32⟩
  | 46 => ⟨S512, .f32⟩
  | 47 => ⟨S512, .f32⟩
  | 48 => ⟨S512x1, .f32⟩
  | 49 => ⟨S512x512, .f32⟩
  | 50 => ⟨S512x512, .f32⟩
  | 51 => ⟨S512x8, .f32⟩
  | 52 => ⟨S1x8, .f32⟩
  | 53 => ⟨S512x8, .f32⟩
  | 54 => ⟨S512x8, .f32⟩
  | 55 => ⟨S_, .f32⟩
  | 56 => ⟨S512, .f32⟩
  | 57 => ⟨S_, .f32⟩
  | 58 => ⟨S512, .f32⟩
  | 59 => ⟨S512, .f32⟩
  | 60 => ⟨S512x1, .f32⟩
  | 61 => ⟨S512x8, .f32⟩
  | 62 => ⟨S512x8, .f32⟩
  | 63 => ⟨S512x8, .f32⟩
  | 64 => ⟨S_, .f32⟩
  | 65 => ⟨S512, .f32⟩
  | 66 => ⟨S512x1, .f32⟩
  | 67 => ⟨S512x1, .f32⟩
  | 68 => ⟨S512x8, .f32⟩
  | 69 => ⟨S512x8, .f32⟩
  | _ => ⟨S100000x128, .f32⟩

abbrev hbmTy (i : Nat) : BufTy := match i / 128 with
  | 0 => hbmTy0_0 i
  | 1 => hbmTy0_1 i
  | 2 => hbmTy0_2 i
  | 3 => hbmTy0_3 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_v5 : Ref sig .tc := ⟨.hbm, 22, rfl⟩
abbrev main_v6 : Ref sig .tc := ⟨.hbm, 23, rfl⟩
abbrev main_cst_1 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst_2 : Ref sig .tc := ⟨.hbm, 28, rfl⟩
abbrev main_v10 : Ref sig .tc := ⟨.hbm, 29, rfl⟩
abbrev main_v11 : Ref sig .tc := ⟨.hbm, 30, rfl⟩
abbrev main_cst_3 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_4 : Ref sig .tc := ⟨.hbm, 35, rfl⟩
abbrev main_v15 : Ref sig .tc := ⟨.hbm, 36, rfl⟩
abbrev main_v16 : Ref sig .tc := ⟨.hbm, 37, rfl⟩
abbrev main_cst_5 : Ref sig .tc := ⟨.hbm, 38, rfl⟩
abbrev main_call1_v0 : Ref sig .tc := ⟨.hbm, 39, rfl⟩
abbrev main_call1_v1 : Ref sig .tc := ⟨.hbm, 40, rfl⟩
abbrev main_v17 : Ref sig .tc := ⟨.hbm, 41, rfl⟩
abbrev main_c : Ref sig .tc := ⟨.hbm, 42, rfl⟩
abbrev main_v18 : Ref sig .tc := ⟨.hbm, 43, rfl⟩
abbrev main_v19 : Ref sig .tc := ⟨.hbm, 44, rfl⟩
abbrev main_c_6 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_c_7 : Ref sig .tc := ⟨.hbm, 53, rfl⟩
abbrev main_v27 : Ref sig .tc := ⟨.hbm, 54, rfl⟩
abbrev main_v28 : Ref sig .tc := ⟨.hbm, 55, rfl⟩
abbrev main_c_8 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_cst_9 : Ref sig .tc := ⟨.hbm, 64, rfl⟩
abbrev main_cst_10 : Ref sig .tc := ⟨.hbm, 65, rfl⟩
abbrev main_call2_v0 : Ref sig .tc := ⟨.hbm, 66, rfl⟩
abbrev main_call2_v1 : Ref sig .tc := ⟨.hbm, 67, rfl⟩
abbrev main_v36 : Ref sig .tc := ⟨.hbm, 68, rfl⟩
abbrev main_v37 : Ref sig .tc := ⟨.hbm, 69, rfl⟩
abbrev main_cst_11 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_cst_12 : Ref sig .tc := ⟨.hbm, 74, rfl⟩
abbrev main_v41 : Ref sig .tc := ⟨.hbm, 75, rfl⟩
abbrev main_v42 : Ref sig .tc := ⟨.hbm, 76, rfl⟩
abbrev main_cst_13 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_cst_14 : Ref sig .tc := ⟨.hbm, 81, rfl⟩
abbrev main_v46 : Ref sig .tc := ⟨.hbm, 82, rfl⟩
abbrev main_v47 : Ref sig .tc := ⟨.hbm, 83, rfl⟩
abbrev main_cst_15 : Ref sig .tc := ⟨.hbm, 84, rfl⟩
abbrev main_call3_v0 : Ref sig .tc := ⟨.hbm, 85, rfl⟩
abbrev main_call3_v1 : Ref sig .tc := ⟨.hbm, 86, rfl⟩
abbrev main_v48 : Ref sig .tc := ⟨.hbm, 87, rfl⟩
abbrev main_c_16 : Ref sig .tc := ⟨.hbm, 88, rfl⟩
abbrev main_v49 : Ref sig .tc := ⟨.hbm, 89, rfl⟩
abbrev main_v50 : Ref sig .tc := ⟨.hbm, 90, rfl⟩
abbrev main_c_17 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_c_18 : Ref sig .tc := ⟨.hbm, 99, rfl⟩
abbrev main_v58 : Ref sig .tc := ⟨.hbm, 100, rfl⟩
abbrev main_v59 : Ref sig .tc := ⟨.hbm, 101, rfl⟩
abbrev main_c_19 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_c_20 : Ref sig .tc := ⟨.hbm, 113, rfl⟩
abbrev main_v70 : Ref sig .tc := ⟨.hbm, 114, rfl⟩
abbrev main_v71 : Ref sig .tc := ⟨.hbm, 115, rfl⟩
abbrev main_c_21 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_cst_22 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_c_23 : Ref sig .tc := ⟨.hbm, 133, rfl⟩
abbrev main_v87 : Ref sig .tc := ⟨.hbm, 134, rfl⟩
abbrev main_v88 : Ref sig .tc := ⟨.hbm, 135, rfl⟩
abbrev main_c_24 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_cst_25 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_cst_26 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_c_27 : Ref sig .tc := ⟨.hbm, 157, rfl⟩
abbrev main_v107 : Ref sig .tc := ⟨.hbm, 158, rfl⟩
abbrev main_v108 : Ref sig .tc := ⟨.hbm, 159, rfl⟩
abbrev main_c_28 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_cst_29 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_cst_30 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_call4_cst : Ref sig .tc := ⟨.hbm, 183, rfl⟩
abbrev main_call4_v0 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_c_31 : Ref sig .tc := ⟨.hbm, 190, rfl⟩
abbrev main_v134 : Ref sig .tc := ⟨.hbm, 191, rfl⟩
abbrev main_v135 : Ref sig .tc := ⟨.hbm, 192, rfl⟩
abbrev main_c_32 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_cst_33 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_c_34 : Ref sig .tc := ⟨.hbm, 210, rfl⟩
abbrev main_v151 : Ref sig .tc := ⟨.hbm, 211, rfl⟩
abbrev main_v152 : Ref sig .tc := ⟨.hbm, 212, rfl⟩
abbrev main_c_35 : Ref sig .tc := ⟨.hbm, 213, rfl⟩
abbrev main_v153 : Ref sig .tc := ⟨.hbm, 214, rfl⟩
abbrev main_v154 : Ref sig .tc := ⟨.hbm, 215, rfl⟩
abbrev main_v155 : Ref sig .tc := ⟨.hbm, 216, rfl⟩
abbrev main_v156 : Ref sig .tc := ⟨.hbm, 217, rfl⟩
abbrev main_v157 : Ref sig .tc := ⟨.hbm, 218, rfl⟩
abbrev main_v158 : Ref sig .tc := ⟨.hbm, 219, rfl⟩
abbrev main_v159 : Ref sig .tc := ⟨.hbm, 220, rfl⟩
abbrev main_cst_36 : Ref sig .tc := ⟨.hbm, 221, rfl⟩
abbrev main_v160 : Ref sig .tc := ⟨.hbm, 222, rfl⟩
abbrev main_v161 : Ref sig .tc := ⟨.hbm, 223, rfl⟩
abbrev main_v162 : Ref sig .tc := ⟨.hbm, 224, rfl⟩
abbrev main_cst_37 : Ref sig .tc := ⟨.hbm, 225, rfl⟩
abbrev main_v163 : Ref sig .tc := ⟨.hbm, 226, rfl⟩
abbrev main_v164 : Ref sig .tc := ⟨.hbm, 227, rfl⟩
abbrev main_v165 : Ref sig .tc := ⟨.hbm, 228, rfl⟩
abbrev main_v166 : Ref sig .tc := ⟨.hbm, 229, rfl⟩
abbrev main_v167 : Ref sig .tc := ⟨.hbm, 230, rfl⟩
abbrev main_v168 : Ref sig .tc := ⟨.hbm, 231, rfl⟩
abbrev main_v169 : Ref sig .tc := ⟨.hbm, 232, rfl⟩
abbrev main_v170 : Ref sig .tc := ⟨.hbm, 233, rfl⟩
abbrev main_c_38 : Ref sig .tc := ⟨.hbm, 234, rfl⟩
abbrev main_v171 : Ref sig .tc := ⟨.hbm, 235, rfl⟩
abbrev main_v172 : Ref sig .tc := ⟨.hbm, 236, rfl⟩
abbrev main_c_39 : Ref sig .tc := ⟨.hbm, 237, rfl⟩
abbrev main_v173 : Ref sig .tc := ⟨.hbm, 238, rfl⟩
abbrev main_v174 : Ref sig .tc := ⟨.hbm, 239, rfl⟩
abbrev main_v175 : Ref sig .tc := ⟨.hbm, 240, rfl⟩
abbrev main_v176 : Ref sig .tc := ⟨.hbm, 241, rfl⟩
abbrev main_v177 : Ref sig .tc := ⟨.hbm, 242, rfl⟩
abbrev main_v178 : Ref sig .tc := ⟨.hbm, 243, rfl⟩
abbrev main_v179 : Ref sig .tc := ⟨.hbm, 244, rfl⟩
abbrev main_cst_40 : Ref sig .tc := ⟨.hbm, 245, rfl⟩
abbrev main_v180 : Ref sig .tc := ⟨.hbm, 246, rfl⟩
abbrev main_v181 : Ref sig .tc := ⟨.hbm, 247, rfl⟩
abbrev main_v182 : Ref sig .tc := ⟨.hbm, 248, rfl⟩
abbrev main_cst_41 : Ref sig .tc := ⟨.hbm, 249, rfl⟩
abbrev main_v183 : Ref sig .tc := ⟨.hbm, 250, rfl⟩
abbrev main_v184 : Ref sig .tc := ⟨.hbm, 251, rfl⟩
abbrev main_v185 : Ref sig .tc := ⟨.hbm, 252, rfl⟩
abbrev main_v186 : Ref sig .tc := ⟨.hbm, 253, rfl⟩
abbrev main_v187 : Ref sig .tc := ⟨.hbm, 254, rfl⟩
abbrev main_v188 : Ref sig .tc := ⟨.hbm, 255, rfl⟩
abbrev main_v189 : Ref sig .tc := ⟨.hbm, 256, rfl⟩
abbrev main_v190 : Ref sig .tc := ⟨.hbm, 257, rfl⟩
abbrev main_v191 : Ref sig .tc := ⟨.hbm, 258, rfl⟩
abbrev main_v192 : Ref sig .tc := ⟨.hbm, 259, rfl⟩
abbrev main_call5_cst : Ref sig .tc := ⟨.hbm, 260, rfl⟩
abbrev main_call5_v0 : Ref sig .tc := ⟨.hbm, 261, rfl⟩
abbrev main_v193 : Ref sig .tc := ⟨.hbm, 262, rfl⟩
abbrev main_v194 : Ref sig .tc := ⟨.hbm, 263, rfl⟩
abbrev main_v195 : Ref sig .tc := ⟨.hbm, 264, rfl⟩
abbrev main_v196 : Ref sig .tc := ⟨.hbm, 265, rfl⟩
abbrev main_v197 : Ref sig .tc := ⟨.hbm, 266, rfl⟩
abbrev main_v198 : Ref sig .tc := ⟨.hbm, 267, rfl⟩
abbrev main_c_42 : Ref sig .tc := ⟨.hbm, 268, rfl⟩
abbrev main_v199 : Ref sig .tc := ⟨.hbm, 269, rfl⟩
abbrev main_v200 : Ref sig .tc := ⟨.hbm, 270, rfl⟩
abbrev main_c_43 : Ref sig .tc := ⟨.hbm, 271, rfl⟩
abbrev main_v201 : Ref sig .tc := ⟨.hbm, 272, rfl⟩
abbrev main_v202 : Ref sig .tc := ⟨.hbm, 273, rfl⟩
abbrev main_v203 : Ref sig .tc := ⟨.hbm, 274, rfl⟩
abbrev main_v204 : Ref sig .tc := ⟨.hbm, 275, rfl⟩
abbrev main_v205 : Ref sig .tc := ⟨.hbm, 276, rfl⟩
abbrev main_v206 : Ref sig .tc := ⟨.hbm, 277, rfl⟩
abbrev main_v207 : Ref sig .tc := ⟨.hbm, 278, rfl⟩
abbrev main_cst_44 : Ref sig .tc := ⟨.hbm, 279, rfl⟩
abbrev main_v208 : Ref sig .tc := ⟨.hbm, 280, rfl⟩
abbrev main_v209 : Ref sig .tc := ⟨.hbm, 281, rfl⟩
abbrev main_v210 : Ref sig .tc := ⟨.hbm, 282, rfl⟩
abbrev main_v211 : Ref sig .tc := ⟨.hbm, 283, rfl⟩
abbrev main_v212 : Ref sig .tc := ⟨.hbm, 284, rfl⟩
abbrev main_v213 : Ref sig .tc := ⟨.hbm, 285, rfl⟩
abbrev main_v214 : Ref sig .tc := ⟨.hbm, 286, rfl⟩
abbrev main_v215 : Ref sig .tc := ⟨.hbm, 287, rfl⟩
abbrev main_c_45 : Ref sig .tc := ⟨.hbm, 288, rfl⟩
abbrev main_v216 : Ref sig .tc := ⟨.hbm, 289, rfl⟩
abbrev main_v217 : Ref sig .tc := ⟨.hbm, 290, rfl⟩
abbrev main_c_46 : Ref sig .tc := ⟨.hbm, 291, rfl⟩
abbrev main_v218 : Ref sig .tc := ⟨.hbm, 292, rfl⟩
abbrev main_v219 : Ref sig .tc := ⟨.hbm, 293, rfl⟩
abbrev main_v220 : Ref sig .tc := ⟨.hbm, 294, rfl⟩
abbrev main_v221 : Ref sig .tc := ⟨.hbm, 295, rfl⟩
abbrev main_v222 : Ref sig .tc := ⟨.hbm, 296, rfl⟩
abbrev main_v223 : Ref sig .tc := ⟨.hbm, 297, rfl⟩
abbrev main_v224 : Ref sig .tc := ⟨.hbm, 298, rfl⟩
abbrev main_cst_47 : Ref sig .tc := ⟨.hbm, 299, rfl⟩
abbrev main_v225 : Ref sig .tc := ⟨.hbm, 300, rfl⟩
abbrev main_v226 : Ref sig .tc := ⟨.hbm, 301, rfl⟩
abbrev main_v227 : Ref sig .tc := ⟨.hbm, 302, rfl⟩
abbrev main_cst_48 : Ref sig .tc := ⟨.hbm, 303, rfl⟩
abbrev main_v228 : Ref sig .tc := ⟨.hbm, 304, rfl⟩
abbrev main_v229 : Ref sig .tc := ⟨.hbm, 305, rfl⟩
abbrev main_v230 : Ref sig .tc := ⟨.hbm, 306, rfl⟩
abbrev main_v231 : Ref sig .tc := ⟨.hbm, 307, rfl⟩
abbrev main_v232 : Ref sig .tc := ⟨.hbm, 308, rfl⟩
abbrev main_v233 : Ref sig .tc := ⟨.hbm, 309, rfl⟩
abbrev main_v234 : Ref sig .tc := ⟨.hbm, 310, rfl⟩
abbrev main_v235 : Ref sig .tc := ⟨.hbm, 311, rfl⟩
abbrev main_c_49 : Ref sig .tc := ⟨.hbm, 312, rfl⟩
abbrev main_v236 : Ref sig .tc := ⟨.hbm, 313, rfl⟩
abbrev main_v237 : Ref sig .tc := ⟨.hbm, 314, rfl⟩
abbrev main_c_50 : Ref sig .tc := ⟨.hbm, 315, rfl⟩
abbrev main_v238 : Ref sig .tc := ⟨.hbm, 316, rfl⟩
abbrev main_v239 : Ref sig .tc := ⟨.hbm, 317, rfl⟩
abbrev main_v240 : Ref sig .tc := ⟨.hbm, 318, rfl⟩
abbrev main_v241 : Ref sig .tc := ⟨.hbm, 319, rfl⟩
abbrev main_v242 : Ref sig .tc := ⟨.hbm, 320, rfl⟩
abbrev main_v243 : Ref sig .tc := ⟨.hbm, 321, rfl⟩
abbrev main_v244 : Ref sig .tc := ⟨.hbm, 322, rfl⟩
abbrev main_cst_51 : Ref sig .tc := ⟨.hbm, 323, rfl⟩
abbrev main_v245 : Ref sig .tc := ⟨.hbm, 324, rfl⟩
abbrev main_v246 : Ref sig .tc := ⟨.hbm, 325, rfl⟩
abbrev main_v247 : Ref sig .tc := ⟨.hbm, 326, rfl⟩
abbrev main_cst_52 : Ref sig .tc := ⟨.hbm, 327, rfl⟩
abbrev main_v248 : Ref sig .tc := ⟨.hbm, 328, rfl⟩
abbrev main_v249 : Ref sig .tc := ⟨.hbm, 329, rfl⟩
abbrev main_v250 : Ref sig .tc := ⟨.hbm, 330, rfl⟩
abbrev main_v251 : Ref sig .tc := ⟨.hbm, 331, rfl⟩
abbrev main_v252 : Ref sig .tc := ⟨.hbm, 332, rfl⟩
abbrev main_v253 : Ref sig .tc := ⟨.hbm, 333, rfl⟩
abbrev main_v254 : Ref sig .tc := ⟨.hbm, 334, rfl⟩
abbrev main_v255 : Ref sig .tc := ⟨.hbm, 335, rfl⟩
abbrev main_v256 : Ref sig .tc := ⟨.hbm, 336, rfl⟩
abbrev main_v257 : Ref sig .tc := ⟨.hbm, 337, rfl⟩
abbrev main_call6_cst : Ref sig .tc := ⟨.hbm, 338, rfl⟩
abbrev main_call6_v0 : Ref sig .tc := ⟨.hbm, 339, rfl⟩
abbrev main_v258 : Ref sig .tc := ⟨.hbm, 340, rfl⟩
abbrev main_v259 : Ref sig .tc := ⟨.hbm, 341, rfl⟩
abbrev main_v260 : Ref sig .tc := ⟨.hbm, 342, rfl⟩
abbrev main_v261 : Ref sig .tc := ⟨.hbm, 343, rfl⟩
abbrev main_v262 : Ref sig .tc := ⟨.hbm, 344, rfl⟩
abbrev main_c_53 : Ref sig .tc := ⟨.hbm, 345, rfl⟩
abbrev main_v263 : Ref sig .tc := ⟨.hbm, 346, rfl⟩
abbrev main_v264 : Ref sig .tc := ⟨.hbm, 347, rfl⟩
abbrev main_c_54 : Ref sig .tc := ⟨.hbm, 348, rfl⟩
abbrev main_v265 : Ref sig .tc := ⟨.hbm, 349, rfl⟩
abbrev main_v266 : Ref sig .tc := ⟨.hbm, 350, rfl⟩
abbrev main_v267 : Ref sig .tc := ⟨.hbm, 351, rfl⟩
abbrev main_v268 : Ref sig .tc := ⟨.hbm, 352, rfl⟩
abbrev main_v269 : Ref sig .tc := ⟨.hbm, 353, rfl⟩
abbrev main_v270 : Ref sig .tc := ⟨.hbm, 354, rfl⟩
abbrev main_v271 : Ref sig .tc := ⟨.hbm, 355, rfl⟩
abbrev main_cst_55 : Ref sig .tc := ⟨.hbm, 356, rfl⟩
abbrev main_v272 : Ref sig .tc := ⟨.hbm, 357, rfl⟩
abbrev main_v273 : Ref sig .tc := ⟨.hbm, 358, rfl⟩
abbrev main_v274 : Ref sig .tc := ⟨.hbm, 359, rfl⟩
abbrev main_v275 : Ref sig .tc := ⟨.hbm, 360, rfl⟩
abbrev main_v276 : Ref sig .tc := ⟨.hbm, 361, rfl⟩
abbrev main_v277 : Ref sig .tc := ⟨.hbm, 362, rfl⟩
abbrev main_v278 : Ref sig .tc := ⟨.hbm, 363, rfl⟩
abbrev main_v279 : Ref sig .tc := ⟨.hbm, 364, rfl⟩
abbrev main_c_56 : Ref sig .tc := ⟨.hbm, 365, rfl⟩
abbrev main_v280 : Ref sig .tc := ⟨.hbm, 366, rfl⟩
abbrev main_v281 : Ref sig .tc := ⟨.hbm, 367, rfl⟩
abbrev main_c_57 : Ref sig .tc := ⟨.hbm, 368, rfl⟩
abbrev main_v282 : Ref sig .tc := ⟨.hbm, 369, rfl⟩
abbrev main_v283 : Ref sig .tc := ⟨.hbm, 370, rfl⟩
abbrev main_v284 : Ref sig .tc := ⟨.hbm, 371, rfl⟩
abbrev main_v285 : Ref sig .tc := ⟨.hbm, 372, rfl⟩
abbrev main_v286 : Ref sig .tc := ⟨.hbm, 373, rfl⟩
abbrev main_v287 : Ref sig .tc := ⟨.hbm, 374, rfl⟩
abbrev main_v288 : Ref sig .tc := ⟨.hbm, 375, rfl⟩
abbrev main_cst_58 : Ref sig .tc := ⟨.hbm, 376, rfl⟩
abbrev main_v289 : Ref sig .tc := ⟨.hbm, 377, rfl⟩
abbrev main_v290 : Ref sig .tc := ⟨.hbm, 378, rfl⟩
abbrev main_v291 : Ref sig .tc := ⟨.hbm, 379, rfl⟩
abbrev main_cst_59 : Ref sig .tc := ⟨.hbm, 380, rfl⟩
abbrev main_v292 : Ref sig .tc := ⟨.hbm, 381, rfl⟩
abbrev main_v293 : Ref sig .tc := ⟨.hbm, 382, rfl⟩
abbrev main_v294 : Ref sig .tc := ⟨.hbm, 383, rfl⟩
abbrev main_v295 : Ref sig .tc := ⟨.hbm, 384, rfl⟩
abbrev main_v296 : Ref sig .tc := ⟨.hbm, 385, rfl⟩
abbrev main_v297 : Ref sig .tc := ⟨.hbm, 386, rfl⟩
abbrev main_v298 : Ref sig .tc := ⟨.hbm, 387, rfl⟩
abbrev main_v299 : Ref sig .tc := ⟨.hbm, 388, rfl⟩
abbrev main_c_60 : Ref sig .tc := ⟨.hbm, 389, rfl⟩
abbrev main_v300 : Ref sig .tc := ⟨.hbm, 390, rfl⟩
abbrev main_v301 : Ref sig .tc := ⟨.hbm, 391, rfl⟩
abbrev main_c_61 : Ref sig .tc := ⟨.hbm, 392, rfl⟩
abbrev main_v302 : Ref sig .tc := ⟨.hbm, 393, rfl⟩
abbrev main_v303 : Ref sig .tc := ⟨.hbm, 394, rfl⟩
abbrev main_v304 : Ref sig .tc := ⟨.hbm, 395, rfl⟩
abbrev main_v305 : Ref sig .tc := ⟨.hbm, 396, rfl⟩
abbrev main_v306 : Ref sig .tc := ⟨.hbm, 397, rfl⟩
abbrev main_v307 : Ref sig .tc := ⟨.hbm, 398, rfl⟩
abbrev main_v308 : Ref sig .tc := ⟨.hbm, 399, rfl⟩
abbrev main_cst_62 : Ref sig .tc := ⟨.hbm, 400, rfl⟩
abbrev main_v309 : Ref sig .tc := ⟨.hbm, 401, rfl⟩
abbrev main_v310 : Ref sig .tc := ⟨.hbm, 402, rfl⟩
abbrev main_v311 : Ref sig .tc := ⟨.hbm, 403, rfl⟩
abbrev main_cst_63 : Ref sig .tc := ⟨.hbm, 404, rfl⟩
abbrev main_v312 : Ref sig .tc := ⟨.hbm, 405, rfl⟩
abbrev main_v313 : Ref sig .tc := ⟨.hbm, 406, rfl⟩
abbrev main_v314 : Ref sig .tc := ⟨.hbm, 407, rfl⟩
abbrev main_v315 : Ref sig .tc := ⟨.hbm, 408, rfl⟩
abbrev main_v316 : Ref sig .tc := ⟨.hbm, 409, rfl⟩
abbrev main_v317 : Ref sig .tc := ⟨.hbm, 410, rfl⟩
abbrev main_v318 : Ref sig .tc := ⟨.hbm, 411, rfl⟩
abbrev main_v319 : Ref sig .tc := ⟨.hbm, 412, rfl⟩
abbrev main_v320 : Ref sig .tc := ⟨.hbm, 413, rfl⟩
abbrev main_v321 : Ref sig .tc := ⟨.hbm, 414, rfl⟩
abbrev main_call7_cst : Ref sig .tc := ⟨.hbm, 415, rfl⟩
abbrev main_call7_v0 : Ref sig .tc := ⟨.hbm, 416, rfl⟩
abbrev main_v322 : Ref sig .tc := ⟨.hbm, 417, rfl⟩
abbrev main_v323 : Ref sig .tc := ⟨.hbm, 418, rfl⟩
abbrev main_cst_64 : Ref sig .tc := ⟨.hbm, 419, rfl⟩
abbrev main_v324 : Ref sig .tc := ⟨.hbm, 420, rfl⟩
abbrev main_v325 : Ref sig .tc := ⟨.hbm, 421, rfl⟩
abbrev main_v326 : Ref sig .tc := ⟨.hbm, 422, rfl⟩
abbrev main_cst_65 : Ref sig .tc := ⟨.hbm, 423, rfl⟩
abbrev main_v327 : Ref sig .tc := ⟨.hbm, 424, rfl⟩
abbrev main_cst_66 : Ref sig .tc := ⟨.hbm, 425, rfl⟩
abbrev main_v328 : Ref sig .tc := ⟨.hbm, 426, rfl⟩
abbrev main_v329 : Ref sig .tc := ⟨.hbm, 427, rfl⟩
abbrev main_v330 : Ref sig .tc := ⟨.hbm, 428, rfl⟩
abbrev main_cst_67 : Ref sig .tc := ⟨.hbm, 429, rfl⟩
abbrev main_v331 : Ref sig .tc := ⟨.hbm, 430, rfl⟩
abbrev main_v332 : Ref sig .tc := ⟨.hbm, 431, rfl⟩
abbrev main_v333 : Ref sig .tc := ⟨.hbm, 432, rfl⟩
abbrev main_v334 : Ref sig .tc := ⟨.hbm, 433, rfl⟩
abbrev main_v335 : Ref sig .tc := ⟨.hbm, 434, rfl⟩
abbrev main_v336 : Ref sig .tc := ⟨.hbm, 435, rfl⟩
abbrev main_v337 : Ref sig .tc := ⟨.hbm, 436, rfl⟩
abbrev main_v338 : Ref sig .tc := ⟨.hbm, 437, rfl⟩
abbrev main_v339 : Ref sig .tc := ⟨.hbm, 438, rfl⟩
abbrev main_call8_cst : Ref sig .tc := ⟨.hbm, 439, rfl⟩
abbrev main_call8_v0 : Ref sig .tc := ⟨.hbm, 440, rfl⟩
abbrev main_call8_cst_0 : Ref sig .tc := ⟨.hbm, 441, rfl⟩
abbrev main_call8_v1 : Ref sig .tc := ⟨.hbm, 442, rfl⟩
abbrev main_call8_v2 : Ref sig .tc := ⟨.hbm, 443, rfl⟩
abbrev main_call8_v3 : Ref sig .tc := ⟨.hbm, 444, rfl⟩
abbrev main_call8_v4 : Ref sig .tc := ⟨.hbm, 445, rfl⟩
abbrev main_call8_v5 : Ref sig .tc := ⟨.hbm, 446, rfl⟩
abbrev main_call8_v6 : Ref sig .tc := ⟨.hbm, 447, rfl⟩
abbrev main_call8_cst_1 : Ref sig .tc := ⟨.hbm, 448, rfl⟩
abbrev main_call8_v7 : Ref sig .tc := ⟨.hbm, 449, rfl⟩
abbrev main_call8_v8 : Ref sig .tc := ⟨.hbm, 450, rfl⟩
abbrev main_call8_v9 : Ref sig .tc := ⟨.hbm, 451, rfl⟩
abbrev main_call8_v10 : Ref sig .tc := ⟨.hbm, 452, rfl⟩
abbrev main_v340 : Ref sig .tc := ⟨.hbm, 453, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S_S100000 : S_.BroadcastsInDim S100000 (![] : Fin 0 → Fin S100000.rank)
  bcast_S400000_S400000x1_0 : S400000.BroadcastsInDim S400000x1 (![0] : Fin 1 → Fin S400000x1.rank)
  slices_S4x128x64_S1x128x64_0_0_0 : S4x128x64.Slices ![0, 0, 0] S1x128x64
  shapeCasts_S1x128x64_S128x64 : S1x128x64.ShapeCasts S128x64
  bcast_S400000x1_S400000x128_0_1 : S400000x1.BroadcastsInDim S400000x128 (![0, 1] : Fin 2 → Fin S400000x128.rank)
  bcast_S_S100000x128 : S_.BroadcastsInDim S100000x128 (![] : Fin 0 → Fin S100000x128.rank)
  slices_S4x128x64_S1x128x64_1_0_0 : S4x128x64.Slices ![1, 0, 0] S1x128x64
  slices_S4x128x64_S1x128x64_2_0_0 : S4x128x64.Slices ![2, 0, 0] S1x128x64
  slices_S4x128x64_S1x128x64_3_0_0 : S4x128x64.Slices ![3, 0, 0] S1x128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  concatenates_S100000x64_S100000x64_S100000x128_d1 : Shape.Concatenates [S100000x64, S100000x64] S100000x128 1
  slices_S4x128x256_S1x128x256_0_0_0 : S4x128x256.Slices ![0, 0, 0] S1x128x256
  shapeCasts_S1x128x256_S128x256 : S1x128x256.ShapeCasts S128x256
  slices_S4x128x256_S1x128x256_1_0_0 : S4x128x256.Slices ![1, 0, 0] S1x128x256
  slices_S4x128x256_S1x128x256_2_0_0 : S4x128x256.Slices ![2, 0, 0] S1x128x256
  slices_S4x128x256_S1x128x256_3_0_0 : S4x128x256.Slices ![3, 0, 0] S1x128x256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  concatenates_S100000x256_S100000x256_S100000x512_d1 : Shape.Concatenates [S100000x256, S100000x256] S100000x512 1
  bcast_S_S512x512 : S_.BroadcastsInDim S512x512 (![] : Fin 0 → Fin S512x512.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x512_0_1 : S512x1.BroadcastsInDim S512x512 (![0, 1] : Fin 2 → Fin S512x512.rank)
  bcast_S8_S1x8_1 : S8.BroadcastsInDim S1x8 (![1] : Fin 1 → Fin S1x8.rank)
  bcast_S1x8_S512x8_0_1 : S1x8.BroadcastsInDim S512x8 (![0, 1] : Fin 2 → Fin S512x8.rank)
  reducesTo_S512x8_S512_d1 : S512x8.ReducesTo [1] S512
  h_S_ : 0 < S_.numel
  bcast_S512x1_S512x8_0_1 : S512x1.BroadcastsInDim S512x8 (![0, 1] : Fin 2 → Fin S512x8.rank)
  scatter_S100000_S400000x1_S400000_n_0_0_1_wf : ScatterDims.WF S100000 S400000x1 S400000 [] [0] [0] 1
  gather_S100000_S400000x1_S400000_n_0_n_n_0_1_1_wf : GatherDims.WF S100000 S400000x1 S400000 [] [0] [] [0] [] 1 ![1]
  dot_S100000x128_S128x64_S100000x64_1_0_0_1_n_n_wf : DotDims.WF S100000x128 S128x64 S100000x64 [1] [0] [0] [1] [] []
  gather_S100000x128_S400000x1_S400000x128_1_0_n_n_0_1_1128_wf : GatherDims.WF S100000x128 S400000x1 S400000x128 [1] [0] [] [0] [] 1 ![1, 128]
  scatter_S100000x128_S400000x1_S400000x128_1_0_0_1_wf : ScatterDims.WF S100000x128 S400000x1 S400000x128 [1] [0] [0] 1
  dot_S100000x128_S128x256_S100000x256_1_0_0_1_n_n_wf : DotDims.WF S100000x128 S128x256 S100000x256 [1] [0] [0] [1] [] []
  scatter_S512x512_S100000x1_S100000x512_1_0_0_1_wf : ScatterDims.WF S512x512 S100000x1 S100000x512 [1] [0] [0] 1
  scatter_S512_S100000x1_S100000_n_0_0_1_wf : ScatterDims.WF S512 S100000x1 S100000 [] [0] [0] 1
  dot_S512x512_S512x8_S512x8_1_0_0_1_n_n_wf : DotDims.WF S512x512 S512x8 S512x8 [1] [0] [0] [1] [] []

variable [Facts₀]

def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def gather_S100000_S400000x1_S400000_n_0_n_n_0_1_1 : GatherDims S100000 S400000x1 S400000 where
  offsetDims := []
  collapsedSliceDims := [0]
  operandBatchingDims := []
  startIndicesBatchingDims := []
  startIndexMap := [0]
  indexVectorDim := 1
  sliceSizes := ![1]
  wf := gather_S100000_S400000x1_S400000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def scatter_S512x512_S100000x1_S100000x512_1_0_0_1 : ScatterDims S512x512 S100000x1 S100000x512 where
  updateWindowDims := [1]
  insertedWindowDims := [0]
  scatterDimsToOperandDims := [0]
  indexVectorDim := 1
  wf := scatter_S512x512_S100000x1_S100000x512_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x512_S512x8_S512x8_1_0_0_1_n_n : DotDims S512x512 S512x8 S512x8 where
  lhsContracting := [1]
  rhsContracting := [0]
  lhsNonContracting := [0]
  rhsNonContracting := [1]
  lhsBatch := []
  rhsBatch := []
  wf := dot_S512x512_S512x8_S512x8_1_0_0_1_n_n_wf

class Facts : Prop extends Facts₀ where

variable [Facts]
-- ==== Proof.RefOps.lean ====
/- The reference's @main as 9 consecutive stretches of its 441 host operations: each stretch a literal list, its
    operations' buffers among the TensorCore's, none allocating; the buffer contents after each stretch as a fold from the
    launch contents; and the run: every weakly fair execution terminates with every buffer at the last fold. -/
import proofs.«418800_j15479062135021_1_alg».proof.Proof.Gen.ReferenceIdeal
import Idealize.ShloMosaic.Lib.StableHlo.Run

noncomputable section

namespace Cert.ReferenceIdeal.RunFold

open Cert.ReferenceIdeal Cert.ReferenceIdeal.Gen Idealize.ShloMosaic Idealize.ShloMosaic.TcCoe Idealize.SL.Sem Idealize.ShloMosaic.StableHlo

variable {F : FTy → Type} [FloatOps F]

/-- The contents after two stretches in a row are the second's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

set_option maxHeartbeats 1000000 in
/-- Operations 1 to 66 of @main, in order. -/
abbrev rc0 : List (HloOp τ sig (Elt F)) :=
  [ unary main_arg1 main_v0 ((extractStridedSlice S1x400000 ![0, 0] · slices_S2x400000_S1x400000_0_0) : (⟨S2x400000, .i32⟩ : BufTy).Contents (Elt F) → (⟨S1x400000, .i32⟩ : BufTy).Contents (Elt F)),
    reshape main_v0 main_v1 rfl shapeCasts_S1x400000_S400000,
    unary main_arg1 main_v2 ((extractStridedSlice S1x400000 ![1, 0] · slices_S2x400000_S1x400000_1_0) : (⟨S2x400000, .i32⟩ : BufTy).Contents (Elt F) → (⟨S1x400000, .i32⟩ : BufTy).Contents (Elt F)),
    reshape main_v2 main_v3 rfl shapeCasts_S1x400000_S400000,
    binary main_v1 main_v3 main_v4 (cmpi .ne : (⟨S400000, .i32⟩ : BufTy).Contents (Elt F) → (⟨S400000, .i32⟩ : BufTy).Contents (Elt F) → (⟨S400000, .i1⟩ : BufTy).Contents (Elt F)),
    nullary main_cst (constant S_ .f32 0x3F800000#32),
    nullary main_cst_0 (constant S_ .f32 0x00000000#32),
    TRef.unary (TRef.of (T := ⟨S_, .f32⟩) main_cst) (TRef.of (T := ⟨S400000, .f32⟩) main_call0_v0) (broadcastInDim S400000 ![] bcast_S_S400000),
    TRef.unary (TRef.of (T := ⟨S_, .f32⟩) main_cst_0) (TRef.of (T := ⟨S400000, .f32⟩) main_call0_v1) (broadcastInDim S400000 ![] bcast_S_S400000),
    TRef.ternary (TRef.of (T := ⟨S400000, .i1⟩) main_v4) (TRef.of (T := ⟨S400000, .f32⟩) main_call0_v0) (TRef.of (T := ⟨S400000, .f32⟩) main_call0_v1) (TRef.of (T := ⟨S400000, .f32⟩) main_v5) select,
    unary main_v5 main_v6 (id : (⟨S400000, .f32⟩ : BufTy).Contents (Elt F) → (⟨S400000, .f32⟩ : BufTy).Contents (Elt F)),
    nullary main_cst_1 (constant S_ .f32 0x00000000#32),
    unary main_cst_1 main_v7 (broadcastInDim S100000 ![] bcast_S_S100000 : (⟨S_, .f32⟩ : BufTy).Contents (Elt F) → (⟨S100000, .f32⟩ : BufTy).Contents (Elt F)),
    unary main_v1 main_v8 (broadcastInDim S400000x1 ![0] bcast_S400000_S400000x1_0 : (⟨S400000, .i32⟩ : BufTy).Contents (Elt F) → (⟨S400000x1, .i32⟩ : BufTy).Contents (Elt F)),
    ternary main_v7 main_v8 main_v6 main_v9 ((fun x i u => Host.scatterAdd scatter_S100000_S400000x1_S400000_n_0_0_1 x i u) : (⟨S100000, .f32⟩ : BufTy).Contents (Elt F) → (⟨S400000x1, .i32⟩ : BufTy).Contents (Elt F) → (⟨S400000, .f32⟩ : BufTy).Contents (Elt F) → (⟨S100000, .f32⟩ : BufTy).Contents (Elt F)),
    nullary main_cst_2 (constant S_ .f32 0x00000000#32),
    unary main_cst_2 main_v10 (broadcastInDim S100000 ![] bcast_S_S100000 : (⟨S_, .f32⟩ : BufTy).Contents (Elt F) → (⟨S100000, .f32⟩ : BufTy).Contents (Elt F)),
    binary main_v9 main_v10 main_v11 (cmpf .ogt : (⟨S100000, .f32⟩ : BufTy).Contents (Elt F) → (⟨S100000, .f32⟩ : BufTy).Contents (Elt F) → (⟨S100000, .i1⟩ : BufTy).Contents (Elt F)),
    nullary main_cst_3 (constant S_ .f32 0x2B8CBCCC#32),
    unary main_cst_3 main_v12 (broadcastInDim S100000 ![] bcast_S_S100000 : (⟨S_, .f32⟩ : BufTy).Contents (Elt F) → (⟨S100000, .f32⟩ : BufTy).Contents (Elt F)),
    binary main_v9 main_v12 main_v13 (maximumf : (⟨S100000, .f32⟩ : BufTy).Contents (Elt F) → (⟨S100000, .f32⟩ : BufTy).Contents (Elt F) → (⟨S100000, .f32⟩ : BufTy).Contents (Elt F)),
    unary main_v13 main_v14 (Host.sqrt : (⟨S100000, .f32⟩ : BufTy).Contents (Elt F) → (⟨S100000, .f32⟩ : BufTy).Contents (Elt F)),
    nullary main_cst_4 (constant S_ .f32 0x3F800000#32),
    unary main_cst_4 main_v15 (broadcastInDim S100000 ![] bcast_S_S100000 : (⟨S_, .f32⟩ : BufTy).Contents (Elt F) → (⟨S100000, .f32⟩ : BufTy).Contents (Elt F)),
    binary main_v15 main_v14 main_v16 (Host.divf : (⟨S100000, .f32⟩ : BufTy).Contents (Elt F) → (⟨S100000, .f32⟩ : BufTy).Contents (Elt F) → (⟨S100000, .f32⟩ : BufTy).Contents (Elt F)),
    nullary main_cst_5 (constant S_ .f32 0x00000000#32),
    TRef.unary (TRef.of (T := ⟨S_, .f32⟩) main_cst_5) (TRef.of (T := ⟨S_, .f32⟩) main_call1_v0) id,
    TRef.unary (TRef.of (T := ⟨S_, .f32⟩) main_call1_v0) (TRef.of (T := ⟨S100000, .f32⟩) main_call1_v1) (broadcastInDim S100000 ![] bcast_S_S100000),
    TRef.ternary (TRef.of (T := ⟨S100000, .i1⟩) main_v11) (TRef.of (T := ⟨S100000, .f32⟩) main_v16) (TRef.of (T := ⟨S100000, .f32⟩) main_call1_v1) (TRef.of (T := ⟨S100000, .f32⟩) main_v17) select,
    nullary main_c (constantI S_ 32 0#32),
    unary main_c main_v18 (broadcastInDim S400000 ![] bcast_S_S400000 : (⟨S_, .i32⟩ : BufTy).Contents (Elt F) → (⟨S400000, .i32⟩ : BufTy).Contents (Elt F)),
    binary main_v1 main_v18 main_v19 (cmpi .slt : (⟨S400000, .i32⟩ : BufTy).Contents (Elt F) → (⟨S400000, .i32⟩ : BufTy).Contents (Elt F) → (⟨S400000, .i1⟩ : BufTy).Contents (Elt F)),
    nullary main_c_6 (constantI S_ 32 100000#32),
    unary main_c_6 main_v20 (broadcastInDim S400000 ![] bcast_S_S400000 : (⟨S_, .i32⟩ : BufTy).Contents (Elt F) → (⟨S400000, .i32⟩ : BufTy).Contents (Elt F)),
    binary main_v1 main_v20 main_v21 (addi : (⟨S400000, .i32⟩ : BufTy).Contents (Elt F) → (⟨S400000, .i32⟩ : BufTy).Contents (Elt F) → (⟨S400000, .i32⟩ : BufTy).Contents (Elt F)),
    ternary main_v19 main_v21 main_v1 main_v22 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v22 main_v23 (broadcastInDim S400000x1 ![0] bcast_S400000_S400000x1_0 : (⟨S400000, .i32⟩ : BufTy).Contents (Elt F) → (⟨S400000x1, .i32⟩ : BufTy).Contents (Elt F)),
    binary main_v17 main_v23 main_v24 ((fun x i => Host.gather gather_S100000_S400000x1_S400000_n_0_n_n_0_1_1 x i) : (⟨S100000, .f32⟩ : BufTy).Contents (Elt F) → (⟨S400000x1, .i32⟩ : BufTy).Contents (Elt F) → (⟨S400000, .f32⟩ : BufTy).Contents (Elt F)),
    unary main_v24 main_v25 (Host.negf : (⟨S400000, .f32⟩ : BufTy).Contents (Elt F) → (⟨S400000, .f32⟩ : BufTy).Contents (Elt F)),
    binary main_v25 main_v6 main_v26 (mulf : (⟨S400000, .f32⟩ : BufTy).Contents (Elt F) → (⟨S400000, .f32⟩ : BufTy).Contents (Elt F) → (⟨S400000, .f32⟩ : BufTy).Contents (Elt F)),
    nullary main_c_7 (constantI S_ 32 0#32),
    unary main_c_7 main_v27 (broadcastInDim S400000 ![] bcast_S_S400000 : (⟨S_, .i32⟩ : BufTy).Contents (Elt F) → (⟨S400000, .i32⟩ : BufTy).Contents (Elt F)),
    binary main_v3 main_v27 main_v28 (cmpi .slt : (⟨S400000, .i32⟩ : BufTy).Contents (Elt F) → (⟨S400000, .i32⟩ : BufTy).Contents (Elt F) → (⟨S400000, .i1⟩ : BufTy).Contents (Elt F)),
    nullary main_c_8 (constantI S_ 32 100000#32),
    unary main_c_8 main_v29 (broadcastInDim S400000 ![] bcast_S_S400000 : (⟨S_, .i32⟩ : BufTy).Contents (Elt F) → (⟨S400000, .i32⟩ : BufTy).Contents (Elt F)),
    binary main_v3 main_v29 main_v30 (addi : (⟨S400000, .i32⟩ : BufTy).Contents (Elt F) → (⟨S400000, .i32⟩ : BufTy).Contents (Elt F) → (⟨S400000, .i32⟩ : BufTy).Contents (Elt F)),
    ternary main_v28 main_v30 main_v3 main_v31 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v31 main_v32 (broadcastInDim S400000x1 ![0] bcast_S400000_S400000x1_0 : (⟨S400000, .i32⟩ : BufTy).Contents (Elt F) → (⟨S400000x1, .i32⟩ : BufTy).Contents (Elt F)),
    binary main_v17 main_v32 main_v33 ((fun x i => Host.gather gather_S100000_S400000x1_S400000_n_0_n_n_0_1_1 x i) : (⟨S100000, .f32⟩ : BufTy).Contents (Elt F) → (⟨S400000x1, .i32⟩ : BufTy).Contents (Elt F) → (⟨S400000, .f32⟩ : BufTy).Contents (Elt F)),
    binary main_v26 main_v33 main_v34 (mulf : (⟨S400000, .f32⟩ : BufTy).Contents (Elt F) → (⟨S400000, .f32⟩ : BufTy).Contents (Elt F) → (⟨S400000, .f32⟩ : BufTy).Contents (Elt F)),
    binary main_v3 main_v1 main_v35 (cmpi .ne : (⟨S400000, .i32⟩ : BufTy).Contents (Elt F) → (⟨S400000, .i32⟩ : BufTy).Contents (Elt F) → (⟨S400000, .i1⟩ : BufTy).Contents (Elt F)),
    nullary main_cst_9 (constant S_ .f32 0x3F800000#32),
    nullary main_cst_10 (constant S_ .f32 0x00000000#32),
    TRef.unary (TRef.of (T := ⟨S_, .f32⟩) main_cst_9) (TRef.of (T := ⟨S400000, .f32⟩) main_call2_v0) (broadcastInDim S400000 ![] bcast_S_S400000),
    TRef.unary (TRef.of (T := ⟨S_, .f32⟩) main_cst_10) (TRef.of (T := ⟨S400000, .f32⟩) main_call2_v1) (broadcastInDim S400000 ![] bcast_S_S400000),
    TRef.ternary (TRef.of (T := ⟨S400000, .i1⟩) main_v35) (TRef.of (T := ⟨S400000, .f32⟩) main_call2_v0) (TRef.of (T := ⟨S400000, .f32⟩) main_call2_v1) (TRef.of (T := ⟨S400000, .f32⟩) main_v36) select,
    unary main_v36 main_v37 (id : (⟨S400000, .f32⟩ : BufTy).Contents (Elt F) → (⟨S400000, .f32⟩ : BufTy).Contents (Elt F)),
    nullary main_cst_11 (constant S_ .f32 0x00000000#32),
    unary main_cst_11 main_v38 (broadcastInDim S100000 ![] bcast_S_S100000 : (⟨S_, .f32⟩ : BufTy).Contents (Elt F) → (⟨S100000, .f32⟩ : BufTy).Contents (Elt F)),
    unary main_v3 main_v39 (broadcastInDim S400000x1 ![0] bcast_S400000_S400000x1_0 : (⟨S400000, .i32⟩ : BufTy).Contents (Elt F) → (⟨S400000x1, .i32⟩ : BufTy).Contents (Elt F)),
    ternary main_v38 main_v39 main_v37 main_v40 ((fun x i u => Host.scatterAdd scatter_S100000_S400000x1_S400000_n_0_0_1 x i u) : (⟨S100000, .f32⟩ : BufTy).Contents (Elt F) → (⟨S400000x1, .i32⟩ : BufTy).Contents (Elt F) → (⟨S400000, .f32⟩ : BufTy).Contents (Elt F) → (⟨S100000, .f32⟩ : BufTy).Contents (Elt F)),
    nullary main_cst_12 (constant S_ .f32 0x00000000#32),
    unary main_cst_12 main_v41 (broadcastInDim S100000 ![] bcast_S_S100000 : (⟨S_, .f32⟩ : BufTy).Contents (Elt F) → (⟨S100000, .f32⟩ : BufTy).Contents (Elt F)),
    binary main_v40 main_v41 main_v42 (cmpf .ogt : (⟨S100000, .f32⟩ : BufTy).Contents (Elt F) → (⟨S100000, .f32⟩ : BufTy).Contents (Elt F) → (⟨S100000, .i1⟩ : BufTy).Contents (Elt F)),
    nullary main_cst_13 (constant S_ .f32 0x2B8CBCCC#32),
    unary main_cst_13 main_v43 (broadcastInDim S100000 ![] bcast_S_S100000 : (⟨S_, .f32⟩ : BufTy).Contents (Elt F) → (⟨S100000, .f32⟩ : BufTy).Contents (Elt F)) ]
set_option maxRecDepth 8192 in
theorem rc0_sub : (rc0 : List (HloOp τ sig (Elt F))).Forall fun op => op.bufs ⊆ tcRefs τ sig :=
  ⟨unary_bufs_sub .., reshape_bufs_sub .., unary_bufs_sub .., reshape_bufs_sub .., binary_bufs_sub .., nullary_bufs_sub .., nullary_bufs_sub .., unary_bufs_sub .., unary_bufs_sub .., ternary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., nullary_bufs_sub .., unary_bufs_sub .., unary_bufs_sub .., ternary_bufs_sub .., unary_bufs_sub .., nullary_bufs_sub .., unary_bufs_sub .., unary_bufs_sub .., ternary_bufs_sub .., nullary_bufs_sub .., unary_bufs_sub .., binary_bufs_sub .., nullary_bufs_sub .., unary_bufs_sub ..⟩
theorem rc0_fresh : (rc0 : List (HloOp τ sig (Elt F))).Forall fun op => op.fresh = ∅ := by
  simp only [List.Forall]; repeat' constructor

set_option maxHeartbeats 1000000 in
/-- Operations 67 to 128 of @main, in order. -/
abbrev rc1 : List (HloOp τ sig (Elt F)) :=
  [ binary main_v40 main_v43 main_v44 (maximumf : (⟨S100000, .f32⟩ : BufTy).Contents (Elt F) → (⟨S100000, .f32⟩ : BufTy).Contents (Elt F) → (⟨S100000, .f32⟩ : BufTy).Contents (Elt F)),
    unary main_v44 main_v45 (Host.sqrt : (⟨S100000, .f32⟩ : BufTy).Contents (Elt F) → (⟨S100000, .f32⟩ : BufTy).Contents (Elt F)),
    nullary main_cst_14 (constant S_ .f32 0x3F800000#32),
    unary main_cst_14 main_v46 (broadcastInDim S100000 ![] bcast_S_S100000 : (⟨S_, .f32⟩ : BufTy).Contents (Elt F) → (⟨S100000, .f32⟩ : BufTy).Contents (Elt F)),
    binary main_v46 main_v45 main_v47 (Host.divf : (⟨S100000, .f32⟩ : BufTy).Contents (Elt F) → (⟨S100000, .f32⟩ : BufTy).Contents (Elt F) → (⟨S100000, .f32⟩ : BufTy).Contents (Elt F)),
    nullary main_cst_15 (constant S_ .f32 0x00000000#32),
    TRef.unary (TRef.of (T := ⟨S_, .f32⟩) main_cst_15) (TRef.of (T := ⟨S_, .f32⟩) main_call3_v0) id,
    TRef.unary (TRef.of (T := ⟨S_, .f32⟩) main_call3_v0) (TRef.of (T := ⟨S100000, .f32⟩) main_call3_v1) (broadcastInDim S100000 ![] bcast_S_S100000),
    TRef.ternary (TRef.of (T := ⟨S100000, .i1⟩) main_v42) (TRef.of (T := ⟨S100000, .f32⟩) main_v47) (TRef.of (T := ⟨S100000, .f32⟩) main_call3_v1) (TRef.of (T := ⟨S100000, .f32⟩) main_v48) select,
    nullary main_c_16 (constantI S_ 32 0#32),
    unary main_c_16 main_v49 (broadcastInDim S400000 ![] bcast_S_S400000 : (⟨S_, .i32⟩ : BufTy).Contents (Elt F) → (⟨S400000, .i32⟩ : BufTy).Contents (Elt F)),
    binary main_v3 main_v49 main_v50 (cmpi .slt : (⟨S400000, .i32⟩ : BufTy).Contents (Elt F) → (⟨S400000, .i32⟩ : BufTy).Contents (Elt F) → (⟨S400000, .i1⟩ : BufTy).Contents (Elt F)),
    nullary main_c_17 (constantI S_ 32 100000#32),
    unary main_c_17 main_v51 (broadcastInDim S400000 ![] bcast_S_S400000 : (⟨S_, .i32⟩ : BufTy).Contents (Elt F) → (⟨S400000, .i32⟩ : BufTy).Contents (Elt F)),
    binary main_v3 main_v51 main_v52 (addi : (⟨S400000, .i32⟩ : BufTy).Contents (Elt F) → (⟨S400000, .i32⟩ : BufTy).Contents (Elt F) → (⟨S400000, .i32⟩ : BufTy).Contents (Elt F)),
    ternary main_v50 main_v52 main_v3 main_v53 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v53 main_v54 (broadcastInDim S400000x1 ![0] bcast_S400000_S400000x1_0 : (⟨S400000, .i32⟩ : BufTy).Contents (Elt F) → (⟨S400000x1, .i32⟩ : BufTy).Contents (Elt F)),
    binary main_v48 main_v54 main_v55 ((fun x i => Host.gather gather_S100000_S400000x1_S400000_n_0_n_n_0_1_1 x i) : (⟨S100000, .f32⟩ : BufTy).Contents (Elt F) → (⟨S400000x1, .i32⟩ : BufTy).Contents (Elt F) → (⟨S400000, .f32⟩ : BufTy).Contents (Elt F)),
    unary main_v55 main_v56 (Host.negf : (⟨S400000, .f32⟩ : BufTy).Contents (Elt F) → (⟨S400000, .f32⟩ : BufTy).Contents (Elt F)),
    binary main_v56 main_v37 main_v57 (mulf : (⟨S400000, .f32⟩ : BufTy).Contents (Elt F) → (⟨S400000, .f32⟩ : BufTy).Contents (Elt F) → (⟨S400000, .f32⟩ : BufTy).Contents (Elt F)),
    nullary main_c_18 (constantI S_ 32 0#32),
    unary main_c_18 main_v58 (broadcastInDim S400000 ![] bcast_S_S400000 : (⟨S_, .i32⟩ : BufTy).Contents (Elt F) → (⟨S400000, .i32⟩ : BufTy).Contents (Elt F)),
    binary main_v1 main_v58 main_v59 (cmpi .slt : (⟨S400000, .i32⟩ : BufTy).Contents (Elt F) → (⟨S400000, .i32⟩ : BufTy).Contents (Elt F) → (⟨S400000, .i1⟩ : BufTy).Contents (Elt F)),
    nullary main_c_19 (constantI S_ 32 100000#32),
    unary main_c_19 main_v60 (broadcastInDim S400000 ![] bcast_S_S400000 : (⟨S_, .i32⟩ : BufTy).Contents (Elt F) → (⟨S400000, .i32⟩ : BufTy).Contents (Elt F)),
    binary main_v1 main_v60 main_v61 (addi : (⟨S400000, .i32⟩ : BufTy).Contents (Elt F) → (⟨S400000, .i32⟩ : BufTy).Contents (Elt F) → (⟨S400000, .i32⟩ : BufTy).Contents (Elt F)),
    ternary main_v59 main_v61 main_v1 main_v62 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v62 main_v63 (broadcastInDim S400000x1 ![0] bcast_S400000_S400000x1_0 : (⟨S400000, .i32⟩ : BufTy).Contents (Elt F) → (⟨S400000x1, .i32⟩ : BufTy).Contents (Elt F)),
    binary main_v48 main_v63 main_v64 ((fun x i => Host.gather gather_S100000_S400000x1_S400000_n_0_n_n_0_1_1 x i) : (⟨S100000, .f32⟩ : BufTy).Contents (Elt F) → (⟨S400000x1, .i32⟩ : BufTy).Contents (Elt F) → (⟨S400000, .f32⟩ : BufTy).Contents (Elt F)),
    binary main_v57 main_v64 main_v65 (mulf : (⟨S400000, .f32⟩ : BufTy).Contents (Elt F) → (⟨S400000, .f32⟩ : BufTy).Contents (Elt F) → (⟨S400000, .f32⟩ : BufTy).Contents (Elt F)),
    unary main_arg3 main_v66 ((extractStridedSlice S1x128x64 ![0, 0, 0] · slices_S4x128x64_S1x128x64_0_0_0) : (⟨S4x128x64, .f32⟩ : BufTy).Contents (Elt F) → (⟨S1x128x64, .f32⟩ : BufTy).Contents (Elt F)),
    reshape main_v66 main_v67 rfl shapeCasts_S1x128x64_S128x64,
    binary main_arg0 main_v67 main_v68 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_v34 main_v69 (broadcastInDim S400000x1 ![0] bcast_S400000_S400000x1_0 : (⟨S400000, .f32⟩ : BufTy).Contents (Elt F) → (⟨S400000x1, .f32⟩ : BufTy).Contents (Elt F)),
    nullary main_c_20 (constantI S_ 32 0#32),
    unary main_c_20 main_v70 (broadcastInDim S400000 ![] bcast_S_S400000 : (⟨S_, .i32⟩ : BufTy).Contents (Elt F) → (⟨S400000, .i32⟩ : BufTy).Contents (Elt F)),
    binary main_v1 main_v70 main_v71 (cmpi .slt : (⟨S400000, .i32⟩ : BufTy).Contents (Elt F) → (⟨S400000, .i32⟩ : BufTy).Contents (Elt F) → (⟨S400000, .i1⟩ : BufTy).Contents (Elt F)),
    nullary main_c_21 (constantI S_ 32 100000#32),
    unary main_c_21 main_v72 (broadcastInDim S400000 ![] bcast_S_S400000 : (⟨S_, .i32⟩ : BufTy).Contents (Elt F) → (⟨S400000, .i32⟩ : BufTy).Contents (Elt F)),
    binary main_v1 main_v72 main_v73 (addi : (⟨S400000, .i32⟩ : BufTy).Contents (Elt F) → (⟨S400000, .i32⟩ : BufTy).Contents (Elt F) → (⟨S400000, .i32⟩ : BufTy).Contents (Elt F)),
    ternary main_v71 main_v73 main_v1 main_v74 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v74 main_v75 (broadcastInDim S400000x1 ![0] bcast_S400000_S400000x1_0 : (⟨S400000, .i32⟩ : BufTy).Contents (Elt F) → (⟨S400000x1, .i32⟩ : BufTy).Contents (Elt F)),
    binary main_arg0 main_v75 main_v76 ((fun x i => Host.gather gather_S100000x128_S400000x1_S400000x128_1_0_n_n_0_1_1128 x i) : (⟨S100000x128, .f32⟩ : BufTy).Contents (Elt F) → (⟨S400000x1, .i32⟩ : BufTy).Contents (Elt F) → (⟨S400000x128, .f32⟩ : BufTy).Contents (Elt F)),
    unary main_v69 main_v77 (broadcastInDim S400000x128 ![0, 1] bcast_S400000x1_S400000x128_0_1 : (⟨S400000x1, .f32⟩ : BufTy).Contents (Elt F) → (⟨S400000x128, .f32⟩ : BufTy).Contents (Elt F)),
    binary main_v77 main_v76 main_v78 (mulf : (⟨S400000x128, .f32⟩ : BufTy).Contents (Elt F) → (⟨S400000x128, .f32⟩ : BufTy).Contents (Elt F) → (⟨S400000x128, .f32⟩ : BufTy).Contents (Elt F)),
    nullary main_cst_22 (constant S_ .f32 0x00000000#32),
    unary main_cst_22 main_v79 (broadcastInDim S100000x128 ![] bcast_S_S100000x128 : (⟨S_, .f32⟩ : BufTy).Contents (Elt F) → (⟨S100000x128, .f32⟩ : BufTy).Contents (Elt F)),
    unary main_v3 main_v80 (broadcastInDim S400000x1 ![0] bcast_S400000_S400000x1_0 : (⟨S400000, .i32⟩ : BufTy).Contents (Elt F) → (⟨S400000x1, .i32⟩ : BufTy).Contents (Elt F)),
    ternary main_v79 main_v80 main_v78 main_v81 ((fun x i u => Host.scatterAdd scatter_S100000x128_S400000x1_S400000x128_1_0_0_1 x i u) : (⟨S100000x128, .f32⟩ : BufTy).Contents (Elt F) → (⟨S400000x1, .i32⟩ : BufTy).Contents (Elt F) → (⟨S400000x128, .f32⟩ : BufTy).Contents (Elt F) → (⟨S100000x128, .f32⟩ : BufTy).Contents (Elt F)),
    unary main_arg3 main_v82 ((extractStridedSlice S1x128x64 ![1, 0, 0] · slices_S4x128x64_S1x128x64_1_0_0) : (⟨S4x128x64, .f32⟩ : BufTy).Contents (Elt F) → (⟨S1x128x64, .f32⟩ : BufTy).Contents (Elt F)),
    reshape main_v82 main_v83 rfl shapeCasts_S1x128x64_S128x64,
    binary main_v81 main_v83 main_v84 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    binary main_v68 main_v84 main_v85 (addf : (⟨S100000x64, .f32⟩ : BufTy).Contents (Elt F) → (⟨S100000x64, .f32⟩ : BufTy).Contents (Elt F) → (⟨S100000x64, .f32⟩ : BufTy).Contents (Elt F)),
    unary main_v34 main_v86 (broadcastInDim S400000x1 ![0] bcast_S400000_S400000x1_0 : (⟨S400000, .f32⟩ : BufTy).Contents (Elt F) → (⟨S400000x1, .f32⟩ : BufTy).Contents (Elt F)),
    nullary main_c_23 (constantI S_ 32 0#32),
    unary main_c_23 main_v87 (broadcastInDim S400000 ![] bcast_S_S400000 : (⟨S_, .i32⟩ : BufTy).Contents (Elt F) → (⟨S400000, .i32⟩ : BufTy).Contents (Elt F)),
    binary main_v1 main_v87 main_v88 (cmpi .slt : (⟨S400000, .i32⟩ : BufTy).Contents (Elt F) → (⟨S400000, .i32⟩ : BufTy).Contents (Elt F) → (⟨S400000, .i1⟩ : BufTy).Contents (Elt F)),
    nullary main_c_24 (constantI S_ 32 100000#32),
    unary main_c_24 main_v89 (broadcastInDim S400000 ![] bcast_S_S400000 : (⟨S_, .i32⟩ : BufTy).Contents (Elt F) → (⟨S400000, .i32⟩ : BufTy).Contents (Elt F)),
    binary main_v1 main_v89 main_v90 (addi : (⟨S400000, .i32⟩ : BufTy).Contents (Elt F) → (⟨S400000, .i32⟩ : BufTy).Contents (Elt F) → (⟨S400000, .i32⟩ : BufTy).Contents (Elt F)),
    ternary main_v88 main_v90 main_v1 main_v91 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v91 main_v92 (broadcastInDim S400000x1 ![0] bcast_S400000_S400000x1_0 : (⟨S400000, .i32⟩ : BufTy).Contents (Elt F) → (⟨S400000x1, .i32⟩ : BufTy).Contents (Elt F)) ]
set_option maxRecDepth 8192 in
theorem rc1_sub : (rc1 : List (HloOp τ sig (Elt F))).Forall fun op => op.bufs ⊆ tcRefs τ sig :=
  ⟨binary_bufs_sub .., unary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., reshape_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub ..⟩
theorem rc1_fresh : (rc1 : List (HloOp τ sig (Elt F))).Forall fun op => op.fresh = ∅ := by
  simp only [List.Forall]; repeat' constructor

set_option maxHeartbeats 1000000 in
/-- Operations 129 to 190 of @main, in order. -/
abbrev rc2 : List (HloOp τ sig (Elt F)) :=
  [ binary main_v81 main_v92 main_v93 ((fun x i => Host.gather gather_S100000x128_S400000x1_S400000x128_1_0_n_n_0_1_1128 x i) : (⟨S100000x128, .f32⟩ : BufTy).Contents (Elt F) → (⟨S400000x1, .i32⟩ : BufTy).Contents (Elt F) → (⟨S400000x128, .f32⟩ : BufTy).Contents (Elt F)),
    unary main_v86 main_v94 (broadcastInDim S400000x128 ![0, 1] bcast_S400000x1_S400000x128_0_1 : (⟨S400000x1, .f32⟩ : BufTy).Contents (Elt F) → (⟨S400000x128, .f32⟩ : BufTy).Contents (Elt F)),
    binary main_v94 main_v93 main_v95 (mulf : (⟨S400000x128, .f32⟩ : BufTy).Contents (Elt F) → (⟨S400000x128, .f32⟩ : BufTy).Contents (Elt F) → (⟨S400000x128, .f32⟩ : BufTy).Contents (Elt F)),
    nullary main_cst_25 (constant S_ .f32 0x00000000#32),
    unary main_cst_25 main_v96 (broadcastInDim S100000x128 ![] bcast_S_S100000x128 : (⟨S_, .f32⟩ : BufTy).Contents (Elt F) → (⟨S100000x128, .f32⟩ : BufTy).Contents (Elt F)),
    unary main_v3 main_v97 (broadcastInDim S400000x1 ![0] bcast_S400000_S400000x1_0 : (⟨S400000, .i32⟩ : BufTy).Contents (Elt F) → (⟨S400000x1, .i32⟩ : BufTy).Contents (Elt F)),
    ternary main_v96 main_v97 main_v95 main_v98 ((fun x i u => Host.scatterAdd scatter_S100000x128_S400000x1_S400000x128_1_0_0_1 x i u) : (⟨S100000x128, .f32⟩ : BufTy).Contents (Elt F) → (⟨S400000x1, .i32⟩ : BufTy).Contents (Elt F) → (⟨S400000x128, .f32⟩ : BufTy).Contents (Elt F) → (⟨S100000x128, .f32⟩ : BufTy).Contents (Elt F)),
    nullary main_cst_26 (constant S_ .f32 0x40000000#32),
    unary main_cst_26 main_v99 (broadcastInDim S100000x128 ![] bcast_S_S100000x128 : (⟨S_, .f32⟩ : BufTy).Contents (Elt F) → (⟨S100000x128, .f32⟩ : BufTy).Contents (Elt F)),
    binary main_v99 main_v98 main_v100 (mulf : (⟨S100000x128, .f32⟩ : BufTy).Contents (Elt F) → (⟨S100000x128, .f32⟩ : BufTy).Contents (Elt F) → (⟨S100000x128, .f32⟩ : BufTy).Contents (Elt F)),
    binary main_v100 main_arg0 main_v101 (subf : (⟨S100000x128, .f32⟩ : BufTy).Contents (Elt F) → (⟨S100000x128, .f32⟩ : BufTy).Contents (Elt F) → (⟨S100000x128, .f32⟩ : BufTy).Contents (Elt F)),
    unary main_arg3 main_v102 ((extractStridedSlice S1x128x64 ![2, 0, 0] · slices_S4x128x64_S1x128x64_2_0_0) : (⟨S4x128x64, .f32⟩ : BufTy).Contents (Elt F) → (⟨S1x128x64, .f32⟩ : BufTy).Contents (Elt F)),
    reshape main_v102 main_v103 rfl shapeCasts_S1x128x64_S128x64,
    binary main_v101 main_v103 main_v104 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    binary main_v85 main_v104 main_v105 (addf : (⟨S100000x64, .f32⟩ : BufTy).Contents (Elt F) → (⟨S100000x64, .f32⟩ : BufTy).Contents (Elt F) → (⟨S100000x64, .f32⟩ : BufTy).Contents (Elt F)),
    unary main_v34 main_v106 (broadcastInDim S400000x1 ![0] bcast_S400000_S400000x1_0 : (⟨S400000, .f32⟩ : BufTy).Contents (Elt F) → (⟨S400000x1, .f32⟩ : BufTy).Contents (Elt F)),
    nullary main_c_27 (constantI S_ 32 0#32),
    unary main_c_27 main_v107 (broadcastInDim S400000 ![] bcast_S_S400000 : (⟨S_, .i32⟩ : BufTy).Contents (Elt F) → (⟨S400000, .i32⟩ : BufTy).Contents (Elt F)),
    binary main_v1 main_v107 main_v108 (cmpi .slt : (⟨S400000, .i32⟩ : BufTy).Contents (Elt F) → (⟨S400000, .i32⟩ : BufTy).Contents (Elt F) → (⟨S400000, .i1⟩ : BufTy).Contents (Elt F)),
    nullary main_c_28 (constantI S_ 32 100000#32),
    unary main_c_28 main_v109 (broadcastInDim S400000 ![] bcast_S_S400000 : (⟨S_, .i32⟩ : BufTy).Contents (Elt F) → (⟨S400000, .i32⟩ : BufTy).Contents (Elt F)),
    binary main_v1 main_v109 main_v110 (addi : (⟨S400000, .i32⟩ : BufTy).Contents (Elt F) → (⟨S400000, .i32⟩ : BufTy).Contents (Elt F) → (⟨S400000, .i32⟩ : BufTy).Contents (Elt F)),
    ternary main_v108 main_v110 main_v1 main_v111 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v111 main_v112 (broadcastInDim S400000x1 ![0] bcast_S400000_S400000x1_0 : (⟨S400000, .i32⟩ : BufTy).Contents (Elt F) → (⟨S400000x1, .i32⟩ : BufTy).Contents (Elt F)),
    binary main_v101 main_v112 main_v113 ((fun x i => Host.gather gather_S100000x128_S400000x1_S400000x128_1_0_n_n_0_1_1128 x i) : (⟨S100000x128, .f32⟩ : BufTy).Contents (Elt F) → (⟨S400000x1, .i32⟩ : BufTy).Contents (Elt F) → (⟨S400000x128, .f32⟩ : BufTy).Contents (Elt F)),
    unary main_v106 main_v114 (broadcastInDim S400000x128 ![0, 1] bcast_S400000x1_S400000x128_0_1 : (⟨S400000x1, .f32⟩ : BufTy).Contents (Elt F) → (⟨S400000x128, .f32⟩ : BufTy).Contents (Elt F)),
    binary main_v114 main_v113 main_v115 (mulf : (⟨S400000x128, .f32⟩ : BufTy).Contents (Elt F) → (⟨S400000x128, .f32⟩ : BufTy).Contents (Elt F) → (⟨S400000x128, .f32⟩ : BufTy).Contents (Elt F)),
    nullary main_cst_29 (constant S_ .f32 0x00000000#32),
    unary main_cst_29 main_v116 (broadcastInDim S100000x128 ![] bcast_S_S100000x128 : (⟨S_, .f32⟩ : BufTy).Contents (Elt F) → (⟨S100000x128, .f32⟩ : BufTy).Contents (Elt F)),
    unary main_v3 main_v117 (broadcastInDim S400000x1 ![0] bcast_S400000_S400000x1_0 : (⟨S400000, .i32⟩ : BufTy).Contents (Elt F) → (⟨S400000x1, .i32⟩ : BufTy).Contents (Elt F)),
    ternary main_v116 main_v117 main_v115 main_v118 ((fun x i u => Host.scatterAdd scatter_S100000x128_S400000x1_S400000x128_1_0_0_1 x i u) : (⟨S100000x128, .f32⟩ : BufTy).Contents (Elt F) → (⟨S400000x1, .i32⟩ : BufTy).Contents (Elt F) → (⟨S400000x128, .f32⟩ : BufTy).Contents (Elt F) → (⟨S100000x128, .f32⟩ : BufTy).Contents (Elt F)),
    nullary main_cst_30 (constant S_ .f32 0x40000000#32),
    unary main_cst_30 main_v119 (broadcastInDim S100000x128 ![] bcast_S_S100000x128 : (⟨S_, .f32⟩ : BufTy).Contents (Elt F) → (⟨S100000x128, .f32⟩ : BufTy).Contents (Elt F)),
    binary main_v119 main_v118 main_v120 (mulf : (⟨S100000x128, .f32⟩ : BufTy).Contents (Elt F) → (⟨S100000x128, .f32⟩ : BufTy).Contents (Elt F) → (⟨S100000x128, .f32⟩ : BufTy).Contents (Elt F)),
    binary main_v120 main_v81 main_v121 (subf : (⟨S100000x128, .f32⟩ : BufTy).Contents (Elt F) → (⟨S100000x128, .f32⟩ : BufTy).Contents (Elt F) → (⟨S100000x128, .f32⟩ : BufTy).Contents (Elt F)),
    unary main_arg3 main_v122 ((extractStridedSlice S1x128x64 ![3, 0, 0] · slices_S4x128x64_S1x128x64_3_0_0) : (⟨S4x128x64, .f32⟩ : BufTy).Contents (Elt F) → (⟨S1x128x64, .f32⟩ : BufTy).Contents (Elt F)),
    reshape main_v122 main_v123 rfl shapeCasts_S1x128x64_S128x64,
    binary main_v121 main_v123 main_v124 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    binary main_v105 main_v124 main_v125 (addf : (⟨S100000x64, .f32⟩ : BufTy).Contents (Elt F) → (⟨S100000x64, .f32⟩ : BufTy).Contents (Elt F) → (⟨S100000x64, .f32⟩ : BufTy).Contents (Elt F)),
    unary main_arg4 main_v126 (broadcastInDim S1x64 ![1] bcast_S64_S1x64_1 : (⟨S64, .f32⟩ : BufTy).Contents (Elt F) → (⟨S1x64, .f32⟩ : BufTy).Contents (Elt F)),
    unary main_v126 main_v127 (broadcastInDim S100000x64 ![0, 1] bcast_S1x64_S100000x64_0_1 : (⟨S1x64, .f32⟩ : BufTy).Contents (Elt F) → (⟨S100000x64, .f32⟩ : BufTy).Contents (Elt F)),
    binary main_v125 main_v127 main_v128 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S100000x64, .f32⟩) main_call4_v0) (broadcastInDim S100000x64 ![] bcast_S_S100000x64),
    TRef.binary (TRef.of (T := ⟨S100000x64, .f32⟩) main_v128) (TRef.of (T := ⟨S100000x64, .f32⟩) main_call4_v0) (TRef.of (T := ⟨S100000x64, .f32⟩) main_v129) maximumf,
    unary main_arg5 main_v130 ((extractStridedSlice S1x128x64 ![0, 0, 0] · slices_S4x128x64_S1x128x64_0_0_0) : (⟨S4x128x64, .f32⟩ : BufTy).Contents (Elt F) → (⟨S1x128x64, .f32⟩ : BufTy).Contents (Elt F)),
    reshape main_v130 main_v131 rfl shapeCasts_S1x128x64_S128x64,
    binary main_arg0 main_v131 main_v132 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_v65 main_v133 (broadcastInDim S400000x1 ![0] bcast_S400000_S400000x1_0 : (⟨S400000, .f32⟩ : BufTy).Contents (Elt F) → (⟨S400000x1, .f32⟩ : BufTy).Contents (Elt F)),
    nullary main_c_31 (constantI S_ 32 0#32),
    unary main_c_31 main_v134 (broadcastInDim S400000 ![] bcast_S_S400000 : (⟨S_, .i32⟩ : BufTy).Contents (Elt F) → (⟨S400000, .i32⟩ : BufTy).Contents (Elt F)),
    binary main_v3 main_v134 main_v135 (cmpi .slt : (⟨S400000, .i32⟩ : BufTy).Contents (Elt F) → (⟨S400000, .i32⟩ : BufTy).Contents (Elt F) → (⟨S400000, .i1⟩ : BufTy).Contents (Elt F)),
    nullary main_c_32 (constantI S_ 32 100000#32),
    unary main_c_32 main_v136 (broadcastInDim S400000 ![] bcast_S_S400000 : (⟨S_, .i32⟩ : BufTy).Contents (Elt F) → (⟨S400000, .i32⟩ : BufTy).Contents (Elt F)),
    binary main_v3 main_v136 main_v137 (addi : (⟨S400000, .i32⟩ : BufTy).Contents (Elt F) → (⟨S400000, .i32⟩ : BufTy).Contents (Elt F) → (⟨S400000, .i32⟩ : BufTy).Contents (Elt F)),
    ternary main_v135 main_v137 main_v3 main_v138 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v138 main_v139 (broadcastInDim S400000x1 ![0] bcast_S400000_S400000x1_0 : (⟨S400000, .i32⟩ : BufTy).Contents (Elt F) → (⟨S400000x1, .i32⟩ : BufTy).Contents (Elt F)),
    binary main_arg0 main_v139 main_v140 ((fun x i => Host.gather gather_S100000x128_S400000x1_S400000x128_1_0_n_n_0_1_1128 x i) : (⟨S100000x128, .f32⟩ : BufTy).Contents (Elt F) → (⟨S400000x1, .i32⟩ : BufTy).Contents (Elt F) → (⟨S400000x128, .f32⟩ : BufTy).Contents (Elt F)),
    unary main_v133 main_v141 (broadcastInDim S400000x128 ![0, 1] bcast_S400000x1_S400000x128_0_1 : (⟨S400000x1, .f32⟩ : BufTy).Contents (Elt F) → (⟨S400000x128, .f32⟩ : BufTy).Contents (Elt F)),
    binary main_v141 main_v140 main_v142 (mulf : (⟨S400000x128, .f32⟩ : BufTy).Contents (Elt F) → (⟨S400000x128, .f32⟩ : BufTy).Contents (Elt F) → (⟨S400000x128, .f32⟩ : BufTy).Contents (Elt F)),
    nullary main_cst_33 (constant S_ .f32 0x00000000#32),
    unary main_cst_33 main_v143 (broadcastInDim S100000x128 ![] bcast_S_S100000x128 : (⟨S_, .f32⟩ : BufTy).Contents (Elt F) → (⟨S100000x128, .f32⟩ : BufTy).Contents (Elt F)) ]
set_option maxRecDepth 8192 in
theorem rc2_sub : (rc2 : List (HloOp τ sig (Elt F))).Forall fun op => op.bufs ⊆ tcRefs τ sig :=
  ⟨binary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., reshape_bufs_sub .., binary_bufs_sub .., binary_bufs_sub .., unary_bufs_sub .., unary_bufs_sub .., binary_bufs_sub .., nullary_bufs_sub .., unary_bufs_sub .., binary_bufs_sub .., unary_bufs_sub .., reshape_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub ..⟩
theorem rc2_fresh : (rc2 : List (HloOp τ sig (Elt F))).Forall fun op => op.fresh = ∅ := by
  simp only [List.Forall]; repeat' constructor

set_option maxHeartbeats 1000000 in
/-- Operations 191 to 252 of @main, in order. -/
abbrev rc3 : List (HloOp τ sig (Elt F)) :=
  [ unary main_v1 main_v144 (broadcastInDim S400000x1 ![0] bcast_S400000_S400000x1_0 : (⟨S400000, .i32⟩ : BufTy).Contents (Elt F) → (⟨S400000x1, .i32⟩ : BufTy).Contents (Elt F)),
    ternary main_v143 main_v144 main_v142 main_v145 ((fun x i u => Host.scatterAdd scatter_S100000x128_S400000x1_S400000x128_1_0_0_1 x i u) : (⟨S100000x128, .f32⟩ : BufTy).Contents (Elt F) → (⟨S400000x1, .i32⟩ : BufTy).Contents (Elt F) → (⟨S400000x128, .f32⟩ : BufTy).Contents (Elt F) → (⟨S100000x128, .f32⟩ : BufTy).Contents (Elt F)),
    unary main_arg5 main_v146 ((extractStridedSlice S1x128x64 ![1, 0, 0] · slices_S4x128x64_S1x128x64_1_0_0) : (⟨S4x128x64, .f32⟩ : BufTy).Contents (Elt F) → (⟨S1x128x64, .f32⟩ : BufTy).Contents (Elt F)),
    reshape main_v146 main_v147 rfl shapeCasts_S1x128x64_S128x64,
    binary main_v145 main_v147 main_v148 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    binary main_v132 main_v148 main_v149 (addf : (⟨S100000x64, .f32⟩ : BufTy).Contents (Elt F) → (⟨S100000x64, .f32⟩ : BufTy).Contents (Elt F) → (⟨S100000x64, .f32⟩ : BufTy).Contents (Elt F)),
    unary main_v65 main_v150 (broadcastInDim S400000x1 ![0] bcast_S400000_S400000x1_0 : (⟨S400000, .f32⟩ : BufTy).Contents (Elt F) → (⟨S400000x1, .f32⟩ : BufTy).Contents (Elt F)),
    nullary main_c_34 (constantI S_ 32 0#32),
    unary main_c_34 main_v151 (broadcastInDim S400000 ![] bcast_S_S400000 : (⟨S_, .i32⟩ : BufTy).Contents (Elt F) → (⟨S400000, .i32⟩ : BufTy).Contents (Elt F)),
    binary main_v3 main_v151 main_v152 (cmpi .slt : (⟨S400000, .i32⟩ : BufTy).Contents (Elt F) → (⟨S400000, .i32⟩ : BufTy).Contents (Elt F) → (⟨S400000, .i1⟩ : BufTy).Contents (Elt F)),
    nullary main_c_35 (constantI S_ 32 100000#32),
    unary main_c_35 main_v153 (broadcastInDim S400000 ![] bcast_S_S400000 : (⟨S_, .i32⟩ : BufTy).Contents (Elt F) → (⟨S400000, .i32⟩ : BufTy).Contents (Elt F)),
    binary main_v3 main_v153 main_v154 (addi : (⟨S400000, .i32⟩ : BufTy).Contents (Elt F) → (⟨S400000, .i32⟩ : BufTy).Contents (Elt F) → (⟨S400000, .i32⟩ : BufTy).Contents (Elt F)),
    ternary main_v152 main_v154 main_v3 main_v155 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v155 main_v156 (broadcastInDim S400000x1 ![0] bcast_S400000_S400000x1_0 : (⟨S400000, .i32⟩ : BufTy).Contents (Elt F) → (⟨S400000x1, .i32⟩ : BufTy).Contents (Elt F)),
    binary main_v145 main_v156 main_v157 ((fun x i => Host.gather gather_S100000x128_S400000x1_S400000x128_1_0_n_n_0_1_1128 x i) : (⟨S100000x128, .f32⟩ : BufTy).Contents (Elt F) → (⟨S400000x1, .i32⟩ : BufTy).Contents (Elt F) → (⟨S400000x128, .f32⟩ : BufTy).Contents (Elt F)),
    unary main_v150 main_v158 (broadcastInDim S400000x128 ![0, 1] bcast_S400000x1_S400000x128_0_1 : (⟨S400000x1, .f32⟩ : BufTy).Contents (Elt F) → (⟨S400000x128, .f32⟩ : BufTy).Contents (Elt F)),
    binary main_v158 main_v157 main_v159 (mulf : (⟨S400000x128, .f32⟩ : BufTy).Contents (Elt F) → (⟨S400000x128, .f32⟩ : BufTy).Contents (Elt F) → (⟨S400000x128, .f32⟩ : BufTy).Contents (Elt F)),
    nullary main_cst_36 (constant S_ .f32 0x00000000#32),
    unary main_cst_36 main_v160 (broadcastInDim S100000x128 ![] bcast_S_S100000x128 : (⟨S_, .f32⟩ : BufTy).Contents (Elt F) → (⟨S100000x128, .f32⟩ : BufTy).Contents (Elt F)),
    unary main_v1 main_v161 (broadcastInDim S400000x1 ![0] bcast_S400000_S400000x1_0 : (⟨S400000, .i32⟩ : BufTy).Contents (Elt F) → (⟨S400000x1, .i32⟩ : BufTy).Contents (Elt F)),
    ternary main_v160 main_v161 main_v159 main_v162 ((fun x i u => Host.scatterAdd scatter_S100000x128_S400000x1_S400000x128_1_0_0_1 x i u) : (⟨S100000x128, .f32⟩ : BufTy).Contents (Elt F) → (⟨S400000x1, .i32⟩ : BufTy).Contents (Elt F) → (⟨S400000x128, .f32⟩ : BufTy).Contents (Elt F) → (⟨S100000x128, .f32⟩ : BufTy).Contents (Elt F)),
    nullary main_cst_37 (constant S_ .f32 0x40000000#32),
    unary main_cst_37 main_v163 (broadcastInDim S100000x128 ![] bcast_S_S100000x128 : (⟨S_, .f32⟩ : BufTy).Contents (Elt F) → (⟨S100000x128, .f32⟩ : BufTy).Contents (Elt F)),
    binary main_v163 main_v162 main_v164 (mulf : (⟨S100000x128, .f32⟩ : BufTy).Contents (Elt F) → (⟨S100000x128, .f32⟩ : BufTy).Contents (Elt F) → (⟨S100000x128, .f32⟩ : BufTy).Contents (Elt F)),
    binary main_v164 main_arg0 main_v165 (subf : (⟨S100000x128, .f32⟩ : BufTy).Contents (Elt F) → (⟨S100000x128, .f32⟩ : BufTy).Contents (Elt F) → (⟨S100000x128, .f32⟩ : BufTy).Contents (Elt F)),
    unary main_arg5 main_v166 ((extractStridedSlice S1x128x64 ![2, 0, 0] · slices_S4x128x64_S1x128x64_2_0_0) : (⟨S4x128x64, .f32⟩ : BufTy).Contents (Elt F) → (⟨S1x128x64, .f32⟩ : BufTy).Contents (Elt F)),
    reshape main_v166 main_v167 rfl shapeCasts_S1x128x64_S128x64,
    binary main_v165 main_v167 main_v168 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    binary main_v149 main_v168 main_v169 (addf : (⟨S100000x64, .f32⟩ : BufTy).Contents (Elt F) → (⟨S100000x64, .f32⟩ : BufTy).Contents (Elt F) → (⟨S100000x64, .f32⟩ : BufTy).Contents (Elt F)),
    unary main_v65 main_v170 (broadcastInDim S400000x1 ![0] bcast_S400000_S400000x1_0 : (⟨S400000, .f32⟩ : BufTy).Contents (Elt F) → (⟨S400000x1, .f32⟩ : BufTy).Contents (Elt F)),
    nullary main_c_38 (constantI S_ 32 0#32),
    unary main_c_38 main_v171 (broadcastInDim S400000 ![] bcast_S_S400000 : (⟨S_, .i32⟩ : BufTy).Contents (Elt F) → (⟨S400000, .i32⟩ : BufTy).Contents (Elt F)),
    binary main_v3 main_v171 main_v172 (cmpi .slt : (⟨S400000, .i32⟩ : BufTy).Contents (Elt F) → (⟨S400000, .i32⟩ : BufTy).Contents (Elt F) → (⟨S400000, .i1⟩ : BufTy).Contents (Elt F)),
    nullary main_c_39 (constantI S_ 32 100000#32),
    unary main_c_39 main_v173 (broadcastInDim S400000 ![] bcast_S_S400000 : (⟨S_, .i32⟩ : BufTy).Contents (Elt F) → (⟨S400000, .i32⟩ : BufTy).Contents (Elt F)),
    binary main_v3 main_v173 main_v174 (addi : (⟨S400000, .i32⟩ : BufTy).Contents (Elt F) → (⟨S400000, .i32⟩ : BufTy).Contents (Elt F) → (⟨S400000, .i32⟩ : BufTy).Contents (Elt F)),
    ternary main_v172 main_v174 main_v3 main_v175 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v175 main_v176 (broadcastInDim S400000x1 ![0] bcast_S400000_S400000x1_0 : (⟨S400000, .i32⟩ : BufTy).Contents (Elt F) → (⟨S400000x1, .i32⟩ : BufTy).Contents (Elt F)),
    binary main_v165 main_v176 main_v177 ((fun x i => Host.gather gather_S100000x128_S400000x1_S400000x128_1_0_n_n_0_1_1128 x i) : (⟨S100000x128, .f32⟩ : BufTy).Contents (Elt F) → (⟨S400000x1, .i32⟩ : BufTy).Contents (Elt F) → (⟨S400000x128, .f32⟩ : BufTy).Contents (Elt F)),
    unary main_v170 main_v178 (broadcastInDim S400000x128 ![0, 1] bcast_S400000x1_S400000x128_0_1 : (⟨S400000x1, .f32⟩ : BufTy).Contents (Elt F) → (⟨S400000x128, .f32⟩ : BufTy).Contents (Elt F)),
    binary main_v178 main_v177 main_v179 (mulf : (⟨S400000x128, .f32⟩ : BufTy).Contents (Elt F) → (⟨S400000x128, .f32⟩ : BufTy).Contents (Elt F) → (⟨S400000x128, .f32⟩ : BufTy).Contents (Elt F)),
    nullary main_cst_40 (constant S_ .f32 0x00000000#32),
    unary main_cst_40 main_v180 (broadcastInDim S100000x128 ![] bcast_S_S100000x128 : (⟨S_, .f32⟩ : BufTy).Contents (Elt F) → (⟨S100000x128, .f32⟩ : BufTy).Contents (Elt F)),
    unary main_v1 main_v181 (broadcastInDim S400000x1 ![0] bcast_S400000_S400000x1_0 : (⟨S400000, .i32⟩ : BufTy).Contents (Elt F) → (⟨S400000x1, .i32⟩ : BufTy).Contents (Elt F)),
    ternary main_v180 main_v181 main_v179 main_v182 ((fun x i u => Host.scatterAdd scatter_S100000x128_S400000x1_S400000x128_1_0_0_1 x i u) : (⟨S100000x128, .f32⟩ : BufTy).Contents (Elt F) → (⟨S400000x1, .i32⟩ : BufTy).Contents (Elt F) → (⟨S400000x128, .f32⟩ : BufTy).Contents (Elt F) → (⟨S100000x128, .f32⟩ : BufTy).Contents (Elt F)),
    nullary main_cst_41 (constant S_ .f32 0x40000000#32),
    unary main_cst_41 main_v183 (broadcastInDim S100000x128 ![] bcast_S_S100000x128 : (⟨S_, .f32⟩ : BufTy).Contents (Elt F) → (⟨S100000x128, .f32⟩ : BufTy).Contents (Elt F)),
    binary main_v183 main_v182 main_v184 (mulf : (⟨S100000x128, .f32⟩ : BufTy).Contents (Elt F) → (⟨S100000x128, .f32⟩ : BufTy).Contents (Elt F) → (⟨S100000x128, .f32⟩ : BufTy).Contents (Elt F)),
    binary main_v184 main_v145 main_v185 (subf : (⟨S100000x128, .f32⟩ : BufTy).Contents (Elt F) → (⟨S100000x128, .f32⟩ : BufTy).Contents (Elt F) → (⟨S100000x128, .f32⟩ : BufTy).Contents (Elt F)),
    unary main_arg5 main_v186 ((extractStridedSlice S1x128x64 ![3, 0, 0] · slices_S4x128x64_S1x128x64_3_0_0) : (⟨S4x128x64, .f32⟩ : BufTy).Contents (Elt F) → (⟨S1x128x64, .f32⟩ : BufTy).Contents (Elt F)),
    reshape main_v186 main_v187 rfl shapeCasts_S1x128x64_S128x64,
    binary main_v185 main_v187 main_v188 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    binary main_v169 main_v188 main_v189 (addf : (⟨S100000x64, .f32⟩ : BufTy).Contents (Elt F) → (⟨S100000x64, .f32⟩ : BufTy).Contents (Elt F) → (⟨S100000x64, .f32⟩ : BufTy).Contents (Elt F)),
    unary main_arg6 main_v190 (broadcastInDim S1x64 ![1] bcast_S64_S1x64_1 : (⟨S64, .f32⟩ : BufTy).Contents (Elt F) → (⟨S1x64, .f32⟩ : BufTy).Contents (Elt F)),
    unary main_v190 main_v191 (broadcastInDim S100000x64 ![0, 1] bcast_S1x64_S100000x64_0_1 : (⟨S1x64, .f32⟩ : BufTy).Contents (Elt F) → (⟨S100000x64, .f32⟩ : BufTy).Contents (Elt F)),
    binary main_v189 main_v191 main_v192 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S100000x64, .f32⟩) main_call5_v0) (broadcastInDim S100000x64 ![] bcast_S_S100000x64),
    TRef.binary (TRef.of (T := ⟨S100000x64, .f32⟩) main_v192) (TRef.of (T := ⟨S100000x64, .f32⟩) main_call5_v0) (TRef.of (T := ⟨S100000x64, .f32⟩) main_v193) maximumf,
    binary main_v129 main_v193 main_v194 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
    unary main_arg7 main_v195 ((extractStridedSlice S1x128x256 ![0, 0, 0] · slices_S4x128x256_S1x128x256_0_0_0) : (⟨S4x128x256, .f32⟩ : BufTy).Contents (Elt F) → (⟨S1x128x256, .f32⟩ : BufTy).Contents (Elt F)) ]
set_option maxRecDepth 8192 in
theorem rc3_sub : (rc3 : List (HloOp τ sig (Elt F))).Forall fun op => op.bufs ⊆ tcRefs τ sig :=
  ⟨unary_bufs_sub .., ternary_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., reshape_bufs_sub .., binary_bufs_sub .., binary_bufs_sub .., unary_bufs_sub .., unary_bufs_sub .., binary_bufs_sub .., nullary_bufs_sub .., unary_bufs_sub .., binary_bufs_sub .., binary_bufs_sub .., unary_bufs_sub ..⟩
theorem rc3_fresh : (rc3 : List (HloOp τ sig (Elt F))).Forall fun op => op.fresh = ∅ := by
  simp only [List.Forall]; repeat' constructor

set_option maxHeartbeats 1000000 in
/-- Operations 253 to 312 of @main, in order. -/
abbrev rc4 : List (HloOp τ sig (Elt F)) :=
  [ reshape main_v195 main_v196 rfl shapeCasts_S1x128x256_S128x256,
    binary main_v194 main_v196 main_v197 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    unary main_v34 main_v198 (broadcastInDim S400000x1 ![0] bcast_S400000_S400000x1_0 : (⟨S400000, .f32⟩ : BufTy).Contents (Elt F) → (⟨S400000x1, .f32⟩ : BufTy).Contents (Elt F)),
    nullary main_c_42 (constantI S_ 32 0#32),
    unary main_c_42 main_v199 (broadcastInDim S400000 ![] bcast_S_S400000 : (⟨S_, .i32⟩ : BufTy).Contents (Elt F) → (⟨S400000, .i32⟩ : BufTy).Contents (Elt F)),
    binary main_v1 main_v199 main_v200 (cmpi .slt : (⟨S400000, .i32⟩ : BufTy).Contents (Elt F) → (⟨S400000, .i32⟩ : BufTy).Contents (Elt F) → (⟨S400000, .i1⟩ : BufTy).Contents (Elt F)),
    nullary main_c_43 (constantI S_ 32 100000#32),
    unary main_c_43 main_v201 (broadcastInDim S400000 ![] bcast_S_S400000 : (⟨S_, .i32⟩ : BufTy).Contents (Elt F) → (⟨S400000, .i32⟩ : BufTy).Contents (Elt F)),
    binary main_v1 main_v201 main_v202 (addi : (⟨S400000, .i32⟩ : BufTy).Contents (Elt F) → (⟨S400000, .i32⟩ : BufTy).Contents (Elt F) → (⟨S400000, .i32⟩ : BufTy).Contents (Elt F)),
    ternary main_v200 main_v202 main_v1 main_v203 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v203 main_v204 (broadcastInDim S400000x1 ![0] bcast_S400000_S400000x1_0 : (⟨S400000, .i32⟩ : BufTy).Contents (Elt F) → (⟨S400000x1, .i32⟩ : BufTy).Contents (Elt F)),
    binary main_v194 main_v204 main_v205 ((fun x i => Host.gather gather_S100000x128_S400000x1_S400000x128_1_0_n_n_0_1_1128 x i) : (⟨S100000x128, .f32⟩ : BufTy).Contents (Elt F) → (⟨S400000x1, .i32⟩ : BufTy).Contents (Elt F) → (⟨S400000x128, .f32⟩ : BufTy).Contents (Elt F)),
    unary main_v198 main_v206 (broadcastInDim S400000x128 ![0, 1] bcast_S400000x1_S400000x128_0_1 : (⟨S400000x1, .f32⟩ : BufTy).Contents (Elt F) → (⟨S400000x128, .f32⟩ : BufTy).Contents (Elt F)),
    binary main_v206 main_v205 main_v207 (mulf : (⟨S400000x128, .f32⟩ : BufTy).Contents (Elt F) → (⟨S400000x128, .f32⟩ : BufTy).Contents (Elt F) → (⟨S400000x128, .f32⟩ : BufTy).Contents (Elt F)),
    nullary main_cst_44 (constant S_ .f32 0x00000000#32),
    unary main_cst_44 main_v208 (broadcastInDim S100000x128 ![] bcast_S_S100000x128 : (⟨S_, .f32⟩ : BufTy).Contents (Elt F) → (⟨S100000x128, .f32⟩ : BufTy).Contents (Elt F)),
    unary main_v3 main_v209 (broadcastInDim S400000x1 ![0] bcast_S400000_S400000x1_0 : (⟨S400000, .i32⟩ : BufTy).Contents (Elt F) → (⟨S400000x1, .i32⟩ : BufTy).Contents (Elt F)),
    ternary main_v208 main_v209 main_v207 main_v210 ((fun x i u => Host.scatterAdd scatter_S100000x128_S400000x1_S400000x128_1_0_0_1 x i u) : (⟨S100000x128, .f32⟩ : BufTy).Contents (Elt F) → (⟨S400000x1, .i32⟩ : BufTy).Contents (Elt F) → (⟨S400000x128, .f32⟩ : BufTy).Contents (Elt F) → (⟨S100000x128, .f32⟩ : BufTy).Contents (Elt F)),
    unary main_arg7 main_v211 ((extractStridedSlice S1x128x256 ![1, 0, 0] · slices_S4x128x256_S1x128x256_1_0_0) : (⟨S4x128x256, .f32⟩ : BufTy).Contents (Elt F) → (⟨S1x128x256, .f32⟩ : BufTy).Contents (Elt F)),
    reshape main_v211 main_v212 rfl shapeCasts_S1x128x256_S128x256,
    binary main_v210 main_v212 main_v213 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    binary main_v197 main_v213 main_v214 (addf : (⟨S100000x256, .f32⟩ : BufTy).Contents (Elt F) → (⟨S100000x256, .f32⟩ : BufTy).Contents (Elt F) → (⟨S100000x256, .f32⟩ : BufTy).Contents (Elt F)),
    unary main_v34 main_v215 (broadcastInDim S400000x1 ![0] bcast_S400000_S400000x1_0 : (⟨S400000, .f32⟩ : BufTy).Contents (Elt F) → (⟨S400000x1, .f32⟩ : BufTy).Contents (Elt F)),
    nullary main_c_45 (constantI S_ 32 0#32),
    unary main_c_45 main_v216 (broadcastInDim S400000 ![] bcast_S_S400000 : (⟨S_, .i32⟩ : BufTy).Contents (Elt F) → (⟨S400000, .i32⟩ : BufTy).Contents (Elt F)),
    binary main_v1 main_v216 main_v217 (cmpi .slt : (⟨S400000, .i32⟩ : BufTy).Contents (Elt F) → (⟨S400000, .i32⟩ : BufTy).Contents (Elt F) → (⟨S400000, .i1⟩ : BufTy).Contents (Elt F)),
    nullary main_c_46 (constantI S_ 32 100000#32),
    unary main_c_46 main_v218 (broadcastInDim S400000 ![] bcast_S_S400000 : (⟨S_, .i32⟩ : BufTy).Contents (Elt F) → (⟨S400000, .i32⟩ : BufTy).Contents (Elt F)),
    binary main_v1 main_v218 main_v219 (addi : (⟨S400000, .i32⟩ : BufTy).Contents (Elt F) → (⟨S400000, .i32⟩ : BufTy).Contents (Elt F) → (⟨S400000, .i32⟩ : BufTy).Contents (Elt F)),
    ternary main_v217 main_v219 main_v1 main_v220 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v220 main_v221 (broadcastInDim S400000x1 ![0] bcast_S400000_S400000x1_0 : (⟨S400000, .i32⟩ : BufTy).Contents (Elt F) → (⟨S400000x1, .i32⟩ : BufTy).Contents (Elt F)),
    binary main_v210 main_v221 main_v222 ((fun x i => Host.gather gather_S100000x128_S400000x1_S400000x128_1_0_n_n_0_1_1128 x i) : (⟨S100000x128, .f32⟩ : BufTy).Contents (Elt F) → (⟨S400000x1, .i32⟩ : BufTy).Contents (Elt F) → (⟨S400000x128, .f32⟩ : BufTy).Contents (Elt F)),
    unary main_v215 main_v223 (broadcastInDim S400000x128 ![0, 1] bcast_S400000x1_S400000x128_0_1 : (⟨S400000x1, .f32⟩ : BufTy).Contents (Elt F) → (⟨S400000x128, .f32⟩ : BufTy).Contents (Elt F)),
    binary main_v223 main_v222 main_v224 (mulf : (⟨S400000x128, .f32⟩ : BufTy).Contents (Elt F) → (⟨S400000x128, .f32⟩ : BufTy).Contents (Elt F) → (⟨S400000x128, .f32⟩ : BufTy).Contents (Elt F)),
    nullary main_cst_47 (constant S_ .f32 0x00000000#32),
    unary main_cst_47 main_v225 (broadcastInDim S100000x128 ![] bcast_S_S100000x128 : (⟨S_, .f32⟩ : BufTy).Contents (Elt F) → (⟨S100000x128, .f32⟩ : BufTy).Contents (Elt F)),
    unary main_v3 main_v226 (broadcastInDim S400000x1 ![0] bcast_S400000_S400000x1_0 : (⟨S400000, .i32⟩ : BufTy).Contents (Elt F) → (⟨S400000x1, .i32⟩ : BufTy).Contents (Elt F)),
    ternary main_v225 main_v226 main_v224 main_v227 ((fun x i u => Host.scatterAdd scatter_S100000x128_S400000x1_S400000x128_1_0_0_1 x i u) : (⟨S100000x128, .f32⟩ : BufTy).Contents (Elt F) → (⟨S400000x1, .i32⟩ : BufTy).Contents (Elt F) → (⟨S400000x128, .f32⟩ : BufTy).Contents (Elt F) → (⟨S100000x128, .f32⟩ : BufTy).Contents (Elt F)),
    nullary main_cst_48 (constant S_ .f32 0x40000000#32),
    unary main_cst_48 main_v228 (broadcastInDim S100000x128 ![] bcast_S_S100000x128 : (⟨S_, .f32⟩ : BufTy).Contents (Elt F) → (⟨S100000x128, .f32⟩ : BufTy).Contents (Elt F)),
    binary main_v228 main_v227 main_v229 (mulf : (⟨S100000x128, .f32⟩ : BufTy).Contents (Elt F) → (⟨S100000x128, .f32⟩ : BufTy).Contents (Elt F) → (⟨S100000x128, .f32⟩ : BufTy).Contents (Elt F)),
    binary main_v229 main_v194 main_v230 (subf : (⟨S100000x128, .f32⟩ : BufTy).Contents (Elt F) → (⟨S100000x128, .f32⟩ : BufTy).Contents (Elt F) → (⟨S100000x128, .f32⟩ : BufTy).Contents (Elt F)),
    unary main_arg7 main_v231 ((extractStridedSlice S1x128x256 ![2, 0, 0] · slices_S4x128x256_S1x128x256_2_0_0) : (⟨S4x128x256, .f32⟩ : BufTy).Contents (Elt F) → (⟨S1x128x256, .f32⟩ : BufTy).Contents (Elt F)),
    reshape main_v231 main_v232 rfl shapeCasts_S1x128x256_S128x256,
    binary main_v230 main_v232 main_v233 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    binary main_v214 main_v233 main_v234 (addf : (⟨S100000x256, .f32⟩ : BufTy).Contents (Elt F) → (⟨S100000x256, .f32⟩ : BufTy).Contents (Elt F) → (⟨S100000x256, .f32⟩ : BufTy).Contents (Elt F)),
    unary main_v34 main_v235 (broadcastInDim S400000x1 ![0] bcast_S400000_S400000x1_0 : (⟨S400000, .f32⟩ : BufTy).Contents (Elt F) → (⟨S400000x1, .f32⟩ : BufTy).Contents (Elt F)),
    nullary main_c_49 (constantI S_ 32 0#32),
    unary main_c_49 main_v236 (broadcastInDim S400000 ![] bcast_S_S400000 : (⟨S_, .i32⟩ : BufTy).Contents (Elt F) → (⟨S400000, .i32⟩ : BufTy).Contents (Elt F)),
    binary main_v1 main_v236 main_v237 (cmpi .slt : (⟨S400000, .i32⟩ : BufTy).Contents (Elt F) → (⟨S400000, .i32⟩ : BufTy).Contents (Elt F) → (⟨S400000, .i1⟩ : BufTy).Contents (Elt F)),
    nullary main_c_50 (constantI S_ 32 100000#32),
    unary main_c_50 main_v238 (broadcastInDim S400000 ![] bcast_S_S400000 : (⟨S_, .i32⟩ : BufTy).Contents (Elt F) → (⟨S400000, .i32⟩ : BufTy).Contents (Elt F)),
    binary main_v1 main_v238 main_v239 (addi : (⟨S400000, .i32⟩ : BufTy).Contents (Elt F) → (⟨S400000, .i32⟩ : BufTy).Contents (Elt F) → (⟨S400000, .i32⟩ : BufTy).Contents (Elt F)),
    ternary main_v237 main_v239 main_v1 main_v240 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v240 main_v241 (broadcastInDim S400000x1 ![0] bcast_S400000_S400000x1_0 : (⟨S400000, .i32⟩ : BufTy).Contents (Elt F) → (⟨S400000x1, .i32⟩ : BufTy).Contents (Elt F)),
    binary main_v230 main_v241 main_v242 ((fun x i => Host.gather gather_S100000x128_S400000x1_S400000x128_1_0_n_n_0_1_1128 x i) : (⟨S100000x128, .f32⟩ : BufTy).Contents (Elt F) → (⟨S400000x1, .i32⟩ : BufTy).Contents (Elt F) → (⟨S400000x128, .f32⟩ : BufTy).Contents (Elt F)),
    unary main_v235 main_v243 (broadcastInDim S400000x128 ![0, 1] bcast_S400000x1_S400000x128_0_1 : (⟨S400000x1, .f32⟩ : BufTy).Contents (Elt F) → (⟨S400000x128, .f32⟩ : BufTy).Contents (Elt F)),
    binary main_v243 main_v242 main_v244 (mulf : (⟨S400000x128, .f32⟩ : BufTy).Contents (Elt F) → (⟨S400000x128, .f32⟩ : BufTy).Contents (Elt F) → (⟨S400000x128, .f32⟩ : BufTy).Contents (Elt F)),
    nullary main_cst_51 (constant S_ .f32 0x00000000#32),
    unary main_cst_51 main_v245 (broadcastInDim S100000x128 ![] bcast_S_S100000x128 : (⟨S_, .f32⟩ : BufTy).Contents (Elt F) → (⟨S100000x128, .f32⟩ : BufTy).Contents (Elt F)) ]
set_option maxRecDepth 8192 in
theorem rc4_sub : (rc4 : List (HloOp τ sig (Elt F))).Forall fun op => op.bufs ⊆ tcRefs τ sig :=
  ⟨reshape_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub ..⟩
theorem rc4_fresh : (rc4 : List (HloOp τ sig (Elt F))).Forall fun op => op.fresh = ∅ := by
  simp only [List.Forall]; repeat' constructor

set_option maxHeartbeats 1000000 in
/-- Operations 313 to 374 of @main, in order. -/
abbrev rc5 : List (HloOp τ sig (Elt F)) :=
  [ unary main_v3 main_v246 (broadcastInDim S400000x1 ![0] bcast_S400000_S400000x1_0 : (⟨S400000, .i32⟩ : BufTy).Contents (Elt F) → (⟨S400000x1, .i32⟩ : BufTy).Contents (Elt F)),
    ternary main_v245 main_v246 main_v244 main_v247 ((fun x i u => Host.scatterAdd scatter_S100000x128_S400000x1_S400000x128_1_0_0_1 x i u) : (⟨S100000x128, .f32⟩ : BufTy).Contents (Elt F) → (⟨S400000x1, .i32⟩ : BufTy).Contents (Elt F) → (⟨S400000x128, .f32⟩ : BufTy).Contents (Elt F) → (⟨S100000x128, .f32⟩ : BufTy).Contents (Elt F)),
    nullary main_cst_52 (constant S_ .f32 0x40000000#32),
    unary main_cst_52 main_v248 (broadcastInDim S100000x128 ![] bcast_S_S100000x128 : (⟨S_, .f32⟩ : BufTy).Contents (Elt F) → (⟨S100000x128, .f32⟩ : BufTy).Contents (Elt F)),
    binary main_v248 main_v247 main_v249 (mulf : (⟨S100000x128, .f32⟩ : BufTy).Contents (Elt F) → (⟨S100000x128, .f32⟩ : BufTy).Contents (Elt F) → (⟨S100000x128, .f32⟩ : BufTy).Contents (Elt F)),
    binary main_v249 main_v210 main_v250 (subf : (⟨S100000x128, .f32⟩ : BufTy).Contents (Elt F) → (⟨S100000x128, .f32⟩ : BufTy).Contents (Elt F) → (⟨S100000x128, .f32⟩ : BufTy).Contents (Elt F)),
    unary main_arg7 main_v251 ((extractStridedSlice S1x128x256 ![3, 0, 0] · slices_S4x128x256_S1x128x256_3_0_0) : (⟨S4x128x256, .f32⟩ : BufTy).Contents (Elt F) → (⟨S1x128x256, .f32⟩ : BufTy).Contents (Elt F)),
    reshape main_v251 main_v252 rfl shapeCasts_S1x128x256_S128x256,
    binary main_v250 main_v252 main_v253 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    binary main_v234 main_v253 main_v254 (addf : (⟨S100000x256, .f32⟩ : BufTy).Contents (Elt F) → (⟨S100000x256, .f32⟩ : BufTy).Contents (Elt F) → (⟨S100000x256, .f32⟩ : BufTy).Contents (Elt F)),
    unary main_arg8 main_v255 (broadcastInDim S1x256 ![1] bcast_S256_S1x256_1 : (⟨S256, .f32⟩ : BufTy).Contents (Elt F) → (⟨S1x256, .f32⟩ : BufTy).Contents (Elt F)),
    unary main_v255 main_v256 (broadcastInDim S100000x256 ![0, 1] bcast_S1x256_S100000x256_0_1 : (⟨S1x256, .f32⟩ : BufTy).Contents (Elt F) → (⟨S100000x256, .f32⟩ : BufTy).Contents (Elt F)),
    binary main_v254 main_v256 main_v257 (addf : (⟨S100000x256, .f32⟩ : BufTy).Contents (Elt F) → (⟨S100000x256, .f32⟩ : BufTy).Contents (Elt F) → (⟨S100000x256, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S100000x256, .f32⟩) main_call6_v0) (broadcastInDim S100000x256 ![] bcast_S_S100000x256),
    TRef.binary (TRef.of (T := ⟨S100000x256, .f32⟩) main_v257) (TRef.of (T := ⟨S100000x256, .f32⟩) main_call6_v0) (TRef.of (T := ⟨S100000x256, .f32⟩) main_v258) maximumf,
    unary main_arg9 main_v259 ((extractStridedSlice S1x128x256 ![0, 0, 0] · slices_S4x128x256_S1x128x256_0_0_0) : (⟨S4x128x256, .f32⟩ : BufTy).Contents (Elt F) → (⟨S1x128x256, .f32⟩ : BufTy).Contents (Elt F)),
    reshape main_v259 main_v260 rfl shapeCasts_S1x128x256_S128x256,
    binary main_v194 main_v260 main_v261 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    unary main_v65 main_v262 (broadcastInDim S400000x1 ![0] bcast_S400000_S400000x1_0 : (⟨S400000, .f32⟩ : BufTy).Contents (Elt F) → (⟨S400000x1, .f32⟩ : BufTy).Contents (Elt F)),
    nullary main_c_53 (constantI S_ 32 0#32),
    unary main_c_53 main_v263 (broadcastInDim S400000 ![] bcast_S_S400000 : (⟨S_, .i32⟩ : BufTy).Contents (Elt F) → (⟨S400000, .i32⟩ : BufTy).Contents (Elt F)),
    binary main_v3 main_v263 main_v264 (cmpi .slt : (⟨S400000, .i32⟩ : BufTy).Contents (Elt F) → (⟨S400000, .i32⟩ : BufTy).Contents (Elt F) → (⟨S400000, .i1⟩ : BufTy).Contents (Elt F)),
    nullary main_c_54 (constantI S_ 32 100000#32),
    unary main_c_54 main_v265 (broadcastInDim S400000 ![] bcast_S_S400000 : (⟨S_, .i32⟩ : BufTy).Contents (Elt F) → (⟨S400000, .i32⟩ : BufTy).Contents (Elt F)),
    binary main_v3 main_v265 main_v266 (addi : (⟨S400000, .i32⟩ : BufTy).Contents (Elt F) → (⟨S400000, .i32⟩ : BufTy).Contents (Elt F) → (⟨S400000, .i32⟩ : BufTy).Contents (Elt F)),
    ternary main_v264 main_v266 main_v3 main_v267 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v267 main_v268 (broadcastInDim S400000x1 ![0] bcast_S400000_S400000x1_0 : (⟨S400000, .i32⟩ : BufTy).Contents (Elt F) → (⟨S400000x1, .i32⟩ : BufTy).Contents (Elt F)),
    binary main_v194 main_v268 main_v269 ((fun x i => Host.gather gather_S100000x128_S400000x1_S400000x128_1_0_n_n_0_1_1128 x i) : (⟨S100000x128, .f32⟩ : BufTy).Contents (Elt F) → (⟨S400000x1, .i32⟩ : BufTy).Contents (Elt F) → (⟨S400000x128, .f32⟩ : BufTy).Contents (Elt F)),
    unary main_v262 main_v270 (broadcastInDim S400000x128 ![0, 1] bcast_S400000x1_S400000x128_0_1 : (⟨S400000x1, .f32⟩ : BufTy).Contents (Elt F) → (⟨S400000x128, .f32⟩ : BufTy).Contents (Elt F)),
    binary main_v270 main_v269 main_v271 (mulf : (⟨S400000x128, .f32⟩ : BufTy).Contents (Elt F) → (⟨S400000x128, .f32⟩ : BufTy).Contents (Elt F) → (⟨S400000x128, .f32⟩ : BufTy).Contents (Elt F)),
    nullary main_cst_55 (constant S_ .f32 0x00000000#32),
    unary main_cst_55 main_v272 (broadcastInDim S100000x128 ![] bcast_S_S100000x128 : (⟨S_, .f32⟩ : BufTy).Contents (Elt F) → (⟨S100000x128, .f32⟩ : BufTy).Contents (Elt F)),
    unary main_v1 main_v273 (broadcastInDim S400000x1 ![0] bcast_S400000_S400000x1_0 : (⟨S400000, .i32⟩ : BufTy).Contents (Elt F) → (⟨S400000x1, .i32⟩ : BufTy).Contents (Elt F)),
    ternary main_v272 main_v273 main_v271 main_v274 ((fun x i u => Host.scatterAdd scatter_S100000x128_S400000x1_S400000x128_1_0_0_1 x i u) : (⟨S100000x128, .f32⟩ : BufTy).Contents (Elt F) → (⟨S400000x1, .i32⟩ : BufTy).Contents (Elt F) → (⟨S400000x128, .f32⟩ : BufTy).Contents (Elt F) → (⟨S100000x128, .f32⟩ : BufTy).Contents (Elt F)),
    unary main_arg9 main_v275 ((extractStridedSlice S1x128x256 ![1, 0, 0] · slices_S4x128x256_S1x128x256_1_0_0) : (⟨S4x128x256, .f32⟩ : BufTy).Contents (Elt F) → (⟨S1x128x256, .f32⟩ : BufTy).Contents (Elt F)),
    reshape main_v275 main_v276 rfl shapeCasts_S1x128x256_S128x256,
    binary main_v274 main_v276 main_v277 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    binary main_v261 main_v277 main_v278 (addf : (⟨S100000x256, .f32⟩ : BufTy).Contents (Elt F) → (⟨S100000x256, .f32⟩ : BufTy).Contents (Elt F) → (⟨S100000x256, .f32⟩ : BufTy).Contents (Elt F)),
    unary main_v65 main_v279 (broadcastInDim S400000x1 ![0] bcast_S400000_S400000x1_0 : (⟨S400000, .f32⟩ : BufTy).Contents (Elt F) → (⟨S400000x1, .f32⟩ : BufTy).Contents (Elt F)),
    nullary main_c_56 (constantI S_ 32 0#32),
    unary main_c_56 main_v280 (broadcastInDim S400000 ![] bcast_S_S400000 : (⟨S_, .i32⟩ : BufTy).Contents (Elt F) → (⟨S400000, .i32⟩ : BufTy).Contents (Elt F)),
    binary main_v3 main_v280 main_v281 (cmpi .slt : (⟨S400000, .i32⟩ : BufTy).Contents (Elt F) → (⟨S400000, .i32⟩ : BufTy).Contents (Elt F) → (⟨S400000, .i1⟩ : BufTy).Contents (Elt F)),
    nullary main_c_57 (constantI S_ 32 100000#32),
    unary main_c_57 main_v282 (broadcastInDim S400000 ![] bcast_S_S400000 : (⟨S_, .i32⟩ : BufTy).Contents (Elt F) → (⟨S400000, .i32⟩ : BufTy).Contents (Elt F)),
    binary main_v3 main_v282 main_v283 (addi : (⟨S400000, .i32⟩ : BufTy).Contents (Elt F) → (⟨S400000, .i32⟩ : BufTy).Contents (Elt F) → (⟨S400000, .i32⟩ : BufTy).Contents (Elt F)),
    ternary main_v281 main_v283 main_v3 main_v284 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v284 main_v285 (broadcastInDim S400000x1 ![0] bcast_S400000_S400000x1_0 : (⟨S400000, .i32⟩ : BufTy).Contents (Elt F) → (⟨S400000x1, .i32⟩ : BufTy).Contents (Elt F)),
    binary main_v274 main_v285 main_v286 ((fun x i => Host.gather gather_S100000x128_S400000x1_S400000x128_1_0_n_n_0_1_1128 x i) : (⟨S100000x128, .f32⟩ : BufTy).Contents (Elt F) → (⟨S400000x1, .i32⟩ : BufTy).Contents (Elt F) → (⟨S400000x128, .f32⟩ : BufTy).Contents (Elt F)),
    unary main_v279 main_v287 (broadcastInDim S400000x128 ![0, 1] bcast_S400000x1_S400000x128_0_1 : (⟨S400000x1, .f32⟩ : BufTy).Contents (Elt F) → (⟨S400000x128, .f32⟩ : BufTy).Contents (Elt F)),
    binary main_v287 main_v286 main_v288 (mulf : (⟨S400000x128, .f32⟩ : BufTy).Contents (Elt F) → (⟨S400000x128, .f32⟩ : BufTy).Contents (Elt F) → (⟨S400000x128, .f32⟩ : BufTy).Contents (Elt F)),
    nullary main_cst_58 (constant S_ .f32 0x00000000#32),
    unary main_cst_58 main_v289 (broadcastInDim S100000x128 ![] bcast_S_S100000x128 : (⟨S_, .f32⟩ : BufTy).Contents (Elt F) → (⟨S100000x128, .f32⟩ : BufTy).Contents (Elt F)),
    unary main_v1 main_v290 (broadcastInDim S400000x1 ![0] bcast_S400000_S400000x1_0 : (⟨S400000, .i32⟩ : BufTy).Contents (Elt F) → (⟨S400000x1, .i32⟩ : BufTy).Contents (Elt F)),
    ternary main_v289 main_v290 main_v288 main_v291 ((fun x i u => Host.scatterAdd scatter_S100000x128_S400000x1_S400000x128_1_0_0_1 x i u) : (⟨S100000x128, .f32⟩ : BufTy).Contents (Elt F) → (⟨S400000x1, .i32⟩ : BufTy).Contents (Elt F) → (⟨S400000x128, .f32⟩ : BufTy).Contents (Elt F) → (⟨S100000x128, .f32⟩ : BufTy).Contents (Elt F)),
    nullary main_cst_59 (constant S_ .f32 0x40000000#32),
    unary main_cst_59 main_v292 (broadcastInDim S100000x128 ![] bcast_S_S100000x128 : (⟨S_, .f32⟩ : BufTy).Contents (Elt F) → (⟨S100000x128, .f32⟩ : BufTy).Contents (Elt F)),
    binary main_v292 main_v291 main_v293 (mulf : (⟨S100000x128, .f32⟩ : BufTy).Contents (Elt F) → (⟨S100000x128, .f32⟩ : BufTy).Contents (Elt F) → (⟨S100000x128, .f32⟩ : BufTy).Contents (Elt F)),
    binary main_v293 main_v194 main_v294 (subf : (⟨S100000x128, .f32⟩ : BufTy).Contents (Elt F) → (⟨S100000x128, .f32⟩ : BufTy).Contents (Elt F) → (⟨S100000x128, .f32⟩ : BufTy).Contents (Elt F)),
    unary main_arg9 main_v295 ((extractStridedSlice S1x128x256 ![2, 0, 0] · slices_S4x128x256_S1x128x256_2_0_0) : (⟨S4x128x256, .f32⟩ : BufTy).Contents (Elt F) → (⟨S1x128x256, .f32⟩ : BufTy).Contents (Elt F)),
    reshape main_v295 main_v296 rfl shapeCasts_S1x128x256_S128x256,
    binary main_v294 main_v296 main_v297 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)) ]
set_option maxRecDepth 8192 in
theorem rc5_sub : (rc5 : List (HloOp τ sig (Elt F))).Forall fun op => op.bufs ⊆ tcRefs τ sig :=
  ⟨unary_bufs_sub .., ternary_bufs_sub .., nullary_bufs_sub .., unary_bufs_sub .., binary_bufs_sub .., binary_bufs_sub .., unary_bufs_sub .., reshape_bufs_sub .., binary_bufs_sub .., binary_bufs_sub .., unary_bufs_sub .., unary_bufs_sub .., binary_bufs_sub .., nullary_bufs_sub .., unary_bufs_sub .., binary_bufs_sub .., unary_bufs_sub .., reshape_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., reshape_bufs_sub .., binary_bufs_sub ..⟩
theorem rc5_fresh : (rc5 : List (HloOp τ sig (Elt F))).Forall fun op => op.fresh = ∅ := by
  simp only [List.Forall]; repeat' constructor

set_option maxHeartbeats 1000000 in
/-- Operations 375 to 406 of @main, in order. -/
abbrev rc6 : List (HloOp τ sig (Elt F)) :=
  [ binary main_v278 main_v297 main_v298 (addf : (⟨S100000x256, .f32⟩ : BufTy).Contents (Elt F) → (⟨S100000x256, .f32⟩ : BufTy).Contents (Elt F) → (⟨S100000x256, .f32⟩ : BufTy).Contents (Elt F)),
    unary main_v65 main_v299 (broadcastInDim S400000x1 ![0] bcast_S400000_S400000x1_0 : (⟨S400000, .f32⟩ : BufTy).Contents (Elt F) → (⟨S400000x1, .f32⟩ : BufTy).Contents (Elt F)),
    nullary main_c_60 (constantI S_ 32 0#32),
    unary main_c_60 main_v300 (broadcastInDim S400000 ![] bcast_S_S400000 : (⟨S_, .i32⟩ : BufTy).Contents (Elt F) → (⟨S400000, .i32⟩ : BufTy).Contents (Elt F)),
    binary main_v3 main_v300 main_v301 (cmpi .slt : (⟨S400000, .i32⟩ : BufTy).Contents (Elt F) → (⟨S400000, .i32⟩ : BufTy).Contents (Elt F) → (⟨S400000, .i1⟩ : BufTy).Contents (Elt F)),
    nullary main_c_61 (constantI S_ 32 100000#32),
    unary main_c_61 main_v302 (broadcastInDim S400000 ![] bcast_S_S400000 : (⟨S_, .i32⟩ : BufTy).Contents (Elt F) → (⟨S400000, .i32⟩ : BufTy).Contents (Elt F)),
    binary main_v3 main_v302 main_v303 (addi : (⟨S400000, .i32⟩ : BufTy).Contents (Elt F) → (⟨S400000, .i32⟩ : BufTy).Contents (Elt F) → (⟨S400000, .i32⟩ : BufTy).Contents (Elt F)),
    ternary main_v301 main_v303 main_v3 main_v304 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v304 main_v305 (broadcastInDim S400000x1 ![0] bcast_S400000_S400000x1_0 : (⟨S400000, .i32⟩ : BufTy).Contents (Elt F) → (⟨S400000x1, .i32⟩ : BufTy).Contents (Elt F)),
    binary main_v294 main_v305 main_v306 ((fun x i => Host.gather gather_S100000x128_S400000x1_S400000x128_1_0_n_n_0_1_1128 x i) : (⟨S100000x128, .f32⟩ : BufTy).Contents (Elt F) → (⟨S400000x1, .i32⟩ : BufTy).Contents (Elt F) → (⟨S400000x128, .f32⟩ : BufTy).Contents (Elt F)),
    unary main_v299 main_v307 (broadcastInDim S400000x128 ![0, 1] bcast_S400000x1_S400000x128_0_1 : (⟨S400000x1, .f32⟩ : BufTy).Contents (Elt F) → (⟨S400000x128, .f32⟩ : BufTy).Contents (Elt F)),
    binary main_v307 main_v306 main_v308 (mulf : (⟨S400000x128, .f32⟩ : BufTy).Contents (Elt F) → (⟨S400000x128, .f32⟩ : BufTy).Contents (Elt F) → (⟨S400000x128, .f32⟩ : BufTy).Contents (Elt F)),
    nullary main_cst_62 (constant S_ .f32 0x00000000#32),
    unary main_cst_62 main_v309 (broadcastInDim S100000x128 ![] bcast_S_S100000x128 : (⟨S_, .f32⟩ : BufTy).Contents (Elt F) → (⟨S100000x128, .f32⟩ : BufTy).Contents (Elt F)),
    unary main_v1 main_v310 (broadcastInDim S400000x1 ![0] bcast_S400000_S400000x1_0 : (⟨S400000, .i32⟩ : BufTy).Contents (Elt F) → (⟨S400000x1, .i32⟩ : BufTy).Contents (Elt F)),
    ternary main_v309 main_v310 main_v308 main_v311 ((fun x i u => Host.scatterAdd scatter_S100000x128_S400000x1_S400000x128_1_0_0_1 x i u) : (⟨S100000x128, .f32⟩ : BufTy).Contents (Elt F) → (⟨S400000x1, .i32⟩ : BufTy).Contents (Elt F) → (⟨S400000x128, .f32⟩ : BufTy).Contents (Elt F) → (⟨S100000x128, .f32⟩ : BufTy).Contents (Elt F)),
    nullary main_cst_63 (constant S_ .f32 0x40000000#32),
    unary main_cst_63 main_v312 (broadcastInDim S100000x128 ![] bcast_S_S100000x128 : (⟨S_, .f32⟩ : BufTy).Contents (Elt F) → (⟨S100000x128, .f32⟩ : BufTy).Contents (Elt F)),
    binary main_v312 main_v311 main_v313 (mulf : (⟨S100000x128, .f32⟩ : BufTy).Contents (Elt F) → (⟨S100000x128, .f32⟩ : BufTy).Contents (Elt F) → (⟨S100000x128, .f32⟩ : BufTy).Contents (Elt F)),
    binary main_v313 main_v274 main_v314 (subf : (⟨S100000x128, .f32⟩ : BufTy).Contents (Elt F) → (⟨S100000x128, .f32⟩ : BufTy).Contents (Elt F) → (⟨S100000x128, .f32⟩ : BufTy).Contents (Elt F)),
    unary main_arg9 main_v315 ((extractStridedSlice S1x128x256 ![3, 0, 0] · slices_S4x128x256_S1x128x256_3_0_0) : (⟨S4x128x256, .f32⟩ : BufTy).Contents (Elt F) → (⟨S1x128x256, .f32⟩ : BufTy).Contents (Elt F)),
    reshape main_v315 main_v316 rfl shapeCasts_S1x128x256_S128x256,
    binary main_v314 main_v316 main_v317 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    binary main_v298 main_v317 main_v318 (addf : (⟨S100000x256, .f32⟩ : BufTy).Contents (Elt F) → (⟨S100000x256, .f32⟩ : BufTy).Contents (Elt F) → (⟨S100000x256, .f32⟩ : BufTy).Contents (Elt F)),
    unary main_arg10 main_v319 (broadcastInDim S1x256 ![1] bcast_S256_S1x256_1 : (⟨S256, .f32⟩ : BufTy).Contents (Elt F) → (⟨S1x256, .f32⟩ : BufTy).Contents (Elt F)),
    unary main_v319 main_v320 (broadcastInDim S100000x256 ![0, 1] bcast_S1x256_S100000x256_0_1 : (⟨S1x256, .f32⟩ : BufTy).Contents (Elt F) → (⟨S100000x256, .f32⟩ : BufTy).Contents (Elt F)),
    binary main_v318 main_v320 main_v321 (addf : (⟨S100000x256, .f32⟩ : BufTy).Contents (Elt F) → (⟨S100000x256, .f32⟩ : BufTy).Contents (Elt F) → (⟨S100000x256, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S100000x256, .f32⟩) main_call7_v0) (broadcastInDim S100000x256 ![] bcast_S_S100000x256),
    TRef.binary (TRef.of (T := ⟨S100000x256, .f32⟩) main_v321) (TRef.of (T := ⟨S100000x256, .f32⟩) main_call7_v0) (TRef.of (T := ⟨S100000x256, .f32⟩) main_v322) maximumf,
    binary main_v258 main_v322 main_v323 ((fun a b => concatenate S100000x512 1 [⟨S100000x256, a⟩, ⟨S100000x256, b⟩] concatenates_S100000x256_S100000x256_S100000x512_d1) : (⟨S100000x256, .f32⟩ : BufTy).Contents (Elt F) → (⟨S100000x256, .f32⟩ : BufTy).Contents (Elt F) → (⟨S100000x512, .f32⟩ : BufTy).Contents (Elt F)) ]
set_option maxRecDepth 8192 in
theorem rc6_sub : (rc6 : List (HloOp τ sig (Elt F))).Forall fun op => op.bufs ⊆ tcRefs τ sig :=
  ⟨binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., reshape_bufs_sub .., binary_bufs_sub .., binary_bufs_sub .., unary_bufs_sub .., unary_bufs_sub .., binary_bufs_sub .., nullary_bufs_sub .., unary_bufs_sub .., binary_bufs_sub .., binary_bufs_sub ..⟩
theorem rc6_fresh : (rc6 : List (HloOp τ sig (Elt F))).Forall fun op => op.fresh = ∅ := by
  simp only [List.Forall]; repeat' constructor

set_option maxHeartbeats 1000000 in
/-- Operations 407 to 410 of @main, in order. -/
abbrev rc7 : List (HloOp τ sig (Elt F)) :=
  [ nullary main_cst_64 (constant S_ .f32 0x00000000#32),
    unary main_cst_64 main_v324 (broadcastInDim S512x512 ![] bcast_S_S512x512 : (⟨S_, .f32⟩ : BufTy).Contents (Elt F) → (⟨S512x512, .f32⟩ : BufTy).Contents (Elt F)),
    unary main_arg2 main_v325 (broadcastInDim S100000x1 ![0] bcast_S100000_S100000x1_0 : (⟨S100000, .i32⟩ : BufTy).Contents (Elt F) → (⟨S100000x1, .i32⟩ : BufTy).Contents (Elt F)),
    ternary main_v324 main_v325 main_v323 main_v326 ((fun x i u => Host.scatterAdd scatter_S512x512_S100000x1_S100000x512_1_0_0_1 x i u) : (⟨S512x512, .f32⟩ : BufTy).Contents (Elt F) → (⟨S100000x1, .i32⟩ : BufTy).Contents (Elt F) → (⟨S100000x512, .f32⟩ : BufTy).Contents (Elt F) → (⟨S512x512, .f32⟩ : BufTy).Contents (Elt F)) ]
set_option maxRecDepth 8192 in
theorem rc7_sub : (rc7 : List (HloOp τ sig (Elt F))).Forall fun op => op.bufs ⊆ tcRefs τ sig :=
  ⟨nullary_bufs_sub .., unary_bufs_sub .., unary_bufs_sub .., ternary_bufs_sub ..⟩
theorem rc7_fresh : (rc7 : List (HloOp τ sig (Elt F))).Forall fun op => op.fresh = ∅ := by
  simp only [List.Forall]; repeat' constructor

set_option maxHeartbeats 1000000 in
/-- Operations 411 to 441 of @main, in order. -/
abbrev rc8 : List (HloOp τ sig (Elt F)) :=
  [ nullary main_cst_65 (constant S_ .f32 0x3F800000#32),
    unary main_cst_65 main_v327 (broadcastInDim S100000 ![] bcast_S_S100000 : (⟨S_, .f32⟩ : BufTy).Contents (Elt F) → (⟨S100000, .f32⟩ : BufTy).Contents (Elt F)),
    nullary main_cst_66 (constant S_ .f32 0x00000000#32),
    unary main_cst_66 main_v328 (broadcastInDim S512 ![] bcast_S_S512 : (⟨S_, .f32⟩ : BufTy).Contents (Elt F) → (⟨S512, .f32⟩ : BufTy).Contents (Elt F)),
    unary main_arg2 main_v329 (broadcastInDim S100000x1 ![0] bcast_S100000_S100000x1_0 : (⟨S100000, .i32⟩ : BufTy).Contents (Elt F) → (⟨S100000x1, .i32⟩ : BufTy).Contents (Elt F)),
    ternary main_v328 main_v329 main_v327 main_v330 ((fun x i u => Host.scatterAdd scatter_S512_S100000x1_S100000_n_0_0_1 x i u) : (⟨S512, .f32⟩ : BufTy).Contents (Elt F) → (⟨S100000x1, .i32⟩ : BufTy).Contents (Elt F) → (⟨S100000, .f32⟩ : BufTy).Contents (Elt F) → (⟨S512, .f32⟩ : BufTy).Contents (Elt F)),
    nullary main_cst_67 (constant S_ .f32 0x3F800000#32),
    unary main_cst_67 main_v331 (broadcastInDim S512 ![] bcast_S_S512 : (⟨S_, .f32⟩ : BufTy).Contents (Elt F) → (⟨S512, .f32⟩ : BufTy).Contents (Elt F)),
    binary main_v330 main_v331 main_v332 (maximumf : (⟨S512, .f32⟩ : BufTy).Contents (Elt F) → (⟨S512, .f32⟩ : BufTy).Contents (Elt F) → (⟨S512, .f32⟩ : BufTy).Contents (Elt F)),
    unary main_v332 main_v333 (broadcastInDim S512x1 ![0] bcast_S512_S512x1_0 : (⟨S512, .f32⟩ : BufTy).Contents (Elt F) → (⟨S512x1, .f32⟩ : BufTy).Contents (Elt F)),
    unary main_v333 main_v334 (broadcastInDim S512x512 ![0, 1] bcast_S512x1_S512x512_0_1 : (⟨S512x1, .f32⟩ : BufTy).Contents (Elt F) → (⟨S512x512, .f32⟩ : BufTy).Contents (Elt F)),
    binary main_v326 main_v334 main_v335 (Host.divf : (⟨S512x512, .f32⟩ : BufTy).Contents (Elt F) → (⟨S512x512, .f32⟩ : BufTy).Contents (Elt F) → (⟨S512x512, .f32⟩ : BufTy).Contents (Elt F)),
    binary main_v335 main_arg11 main_v336 ((fun l r => Host.dotGeneral dot_S512x512_S512x8_S512x8_1_0_0_1_n_n none l r) : (⟨S512x512, .f32⟩ : BufTy).Contents (Elt F) → (⟨S512x8, .f32⟩ : BufTy).Contents (Elt F) → (⟨S512x8, .f32⟩ : BufTy).Contents (Elt F)),
    unary main_arg12 main_v337 (broadcastInDim S1x8 ![1] bcast_S8_S1x8_1 : (⟨S8, .f32⟩ : BufTy).Contents (Elt F) → (⟨S1x8, .f32⟩ : BufTy).Contents (Elt F)),
    unary main_v337 main_v338 (broadcastInDim S512x8 ![0, 1] bcast_S1x8_S512x8_0_1 : (⟨S1x8, .f32⟩ : BufTy).Contents (Elt F) → (⟨S512x8, .f32⟩ : BufTy).Contents (Elt F)),
    binary main_v336 main_v338 main_v339 (addf : (⟨S512x8, .f32⟩ : BufTy).Contents (Elt F) → (⟨S512x8, .f32⟩ : BufTy).Contents (Elt F) → (⟨S512x8, .f32⟩ : BufTy).Contents (Elt F)),
    TRef.nullary (TRef.of (T := ⟨S_, .f32⟩) main_call8_cst) (constant S_ .f32 0xFF800000#32),
    TRef.binary (TRef.of (T := ⟨S512x8, .f32⟩) main_v339) (TRef.of (T := ⟨S_, .f32⟩) main_call8_cst) (TRef.of (T := ⟨S512, .f32⟩) main_call8_v0) (fun x v => Host.reduce FloatOps.maximumf x v reducesTo_S512x8_S512_d1 h_S_),
    TRef.nullary (TRef.of (T := ⟨S_, .f32⟩) main_call8_cst_0) (constant S_ .f32 0xFF800000#32),
    TRef.unary (TRef.of (T := ⟨S_, .f32⟩) main_call8_cst_0) (TRef.of (T := ⟨S512, .f32⟩) main_call8_v1) (broadcastInDim S512 ![] bcast_S_S512),
    TRef.binary (TRef.of (T := ⟨S512, .f32⟩) main_call8_v1) (TRef.of (T := ⟨S512, .f32⟩) main_call8_v0) (TRef.of (T := ⟨S512, .f32⟩) main_call8_v2) maximumf,
    TRef.unary (TRef.of (T := ⟨S512, .f32⟩) main_call8_v2) (TRef.of (T := ⟨S512x1, .f32⟩) main_call8_v3) (broadcastInDim S512x1 ![0] bcast_S512_S512x1_0),
    TRef.unary (TRef.of (T := ⟨S512x1, .f32⟩) main_call8_v3) (TRef.of (T := ⟨S512x8, .f32⟩) main_call8_v4) (broadcastInDim S512x8 ![0, 1] bcast_S512x1_S512x8_0_1),
    TRef.binary (TRef.of (T := ⟨S512x8, .f32⟩) main_v339) (TRef.of (T := ⟨S512x8, .f32⟩) main_call8_v4) (TRef.of (T := ⟨S512x8, .f32⟩) main_call8_v5) subf,
    TRef.unary (TRef.of (T := ⟨S512x8, .f32⟩) main_call8_v5) (TRef.of (T := ⟨S512x8, .f32⟩) main_call8_v6) Host.exp,
    TRef.nullary (TRef.of (T := ⟨S_, .f32⟩) main_call8_cst_1) (constant S_ .f32 0x00000000#32),
    TRef.binary (TRef.of (T := ⟨S512x8, .f32⟩) main_call8_v6) (TRef.of (T := ⟨S_, .f32⟩) main_call8_cst_1) (TRef.of (T := ⟨S512, .f32⟩) main_call8_v7) (fun x v => Host.reduceAdd x v reducesTo_S512x8_S512_d1 h_S_),
    TRef.unary (TRef.of (T := ⟨S512, .f32⟩) main_call8_v7) (TRef.of (T := ⟨S512x1, .f32⟩) main_call8_v8) (broadcastInDim S512x1 ![0] bcast_S512_S512x1_0),
    TRef.unary (TRef.of (T := ⟨S512x1, .f32⟩) main_call8_v8) (TRef.of (T := ⟨S512x1, .f32⟩) main_call8_v9) Host.log,
    TRef.unary (TRef.of (T := ⟨S512x1, .f32⟩) main_call8_v9) (TRef.of (T := ⟨S512x8, .f32⟩) main_call8_v10) (broadcastInDim S512x8 ![0, 1] bcast_S512x1_S512x8_0_1),
    TRef.binary (TRef.of (T := ⟨S512x8, .f32⟩) main_call8_v5) (TRef.of (T := ⟨S512x8, .f32⟩) main_call8_v10) (TRef.of (T := ⟨S512x8, .f32⟩) main_v340) subf ]
set_option maxRecDepth 8192 in
theorem rc8_sub : (rc8 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩
theorem rc8_fresh : (rc8 : List (HloOp τ sig (Elt F))).Forall fun op => op.fresh = ∅ := by
  simp only [List.Forall]; repeat' constructor

/-- All of @main's operations: the stretches in order. -/
abbrev allOps : List (HloOp τ sig (Elt F)) := rc0 ++ rc1 ++ rc2 ++ rc3 ++ rc4 ++ rc5 ++ rc6 ++ rc7 ++ rc8

theorem allOps_sub : ∀ op ∈ (allOps : List (HloOp τ sig (Elt F))), op.bufs ⊆ tcRefs τ sig := by
  intro op h
  simp only [allOps, List.mem_append] at h
  rcases h with ((((((((h | h) | h) | h) | h) | h) | h) | h) | h)
  · exact List.forall_iff_forall_mem.mp rc0_sub op h
  · exact List.forall_iff_forall_mem.mp rc1_sub op h
  · exact List.forall_iff_forall_mem.mp rc2_sub op h
  · exact List.forall_iff_forall_mem.mp rc3_sub op h
  · exact List.forall_iff_forall_mem.mp rc4_sub op h
  · exact List.forall_iff_forall_mem.mp rc5_sub op h
  · exact List.forall_iff_forall_mem.mp rc6_sub op h
  · exact List.forall_iff_forall_mem.mp rc7_sub op h
  · exact List.forall_iff_forall_mem.mp rc8_sub op h
theorem allOps_fresh : ∀ op ∈ (allOps : List (HloOp τ sig (Elt F))), op.fresh = ∅ := by
  intro op h
  simp only [allOps, List.mem_append] at h
  rcases h with ((((((((h | h) | h) | h) | h) | h) | h) | h) | h)
  · exact List.forall_iff_forall_mem.mp rc0_fresh op h
  · exact List.forall_iff_forall_mem.mp rc1_fresh op h
  · exact List.forall_iff_forall_mem.mp rc2_fresh op h
  · exact List.forall_iff_forall_mem.mp rc3_fresh op h
  · exact List.forall_iff_forall_mem.mp rc4_fresh op h
  · exact List.forall_iff_forall_mem.mp rc5_fresh op h
  · exact List.forall_iff_forall_mem.mp rc6_fresh op h
  · exact List.forall_iff_forall_mem.mp rc7_fresh op h
  · exact List.forall_iff_forall_mem.mp rc8_fresh op h

set_option maxRecDepth 8192 in
set_option maxHeartbeats 4000000 in
theorem main_eq (c : Dev nD) : main (F := F) c = seq allOps := rfl
theorem scopedRefs_eq : (Finset.univ.filter fun b : Ref sig .tc => b.isScoped) = ∅ := by decide
theorem scopedSems_eq : (Finset.univ.filter fun sm : SemLoc sig => sm.isScoped .tc) = ∅ := by decide

/-- The buffer contents at the launch. -/
def R0 (m : (ℓ : Loc nD τ sig) → Buf (Elt F) ℓ) (d : Dev nD) : Valuation τ sig (Elt F) := launchContents m d
/-- The buffer contents after stretch 0. -/
def R1 (m : (ℓ : Loc nD τ sig) → Buf (Elt F) ℓ) (d : Dev nD) : Valuation τ sig (Elt F) := after rc0 (R0 m d)
/-- The buffer contents after stretch 1. -/
def R2 (m : (ℓ : Loc nD τ sig) → Buf (Elt F) ℓ) (d : Dev nD) : Valuation τ sig (Elt F) := after rc1 (R1 m d)
/-- The buffer contents after stretch 2. -/
def R3 (m : (ℓ : Loc nD τ sig) → Buf (Elt F) ℓ) (d : Dev nD) : Valuation τ sig (Elt F) := after rc2 (R2 m d)
/-- The buffer contents after stretch 3. -/
def R4 (m : (ℓ : Loc nD τ sig) → Buf (Elt F) ℓ) (d : Dev nD) : Valuation τ sig (Elt F) := after rc3 (R3 m d)
/-- The buffer contents after stretch 4. -/
def R5 (m : (ℓ : Loc nD τ sig) → Buf (Elt F) ℓ) (d : Dev nD) : Valuation τ sig (Elt F) := after rc4 (R4 m d)
/-- The buffer contents after stretch 5. -/
def R6 (m : (ℓ : Loc nD τ sig) → Buf (Elt F) ℓ) (d : Dev nD) : Valuation τ sig (Elt F) := after rc5 (R5 m d)
/-- The buffer contents after stretch 6. -/
def R7 (m : (ℓ : Loc nD τ sig) → Buf (Elt F) ℓ) (d : Dev nD) : Valuation τ sig (Elt F) := after rc6 (R6 m d)
/-- The buffer contents after stretch 7. -/
def R8 (m : (ℓ : Loc nD τ sig) → Buf (Elt F) ℓ) (d : Dev nD) : Valuation τ sig (Elt F) := after rc7 (R7 m d)
/-- The buffer contents after stretch 8. -/
def R9 (m : (ℓ : Loc nD τ sig) → Buf (Elt F) ℓ) (d : Dev nD) : Valuation τ sig (Elt F) := after rc8 (R8 m d)

theorem R9_eq (m : (ℓ : Loc nD τ sig) → Buf (Elt F) ℓ) (d : Dev nD) : R9 m d = after allOps (launchContents m d) := by
  simp only [R9, R8, R7, R6, R5, R4, R3, R2, R1, R0, allOps, after_append]

/-- Every weakly fair execution of the reference's @main from a memory with zero counters terminates, and every buffer of
    the final state holds what the last fold gives it. -/
theorem run_fold (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = R9 m d (Proc.devRef .tc b) :=
  (θ_run defs _ _).mono (fun _ h d b => (h d b).trans (congrFun (R9_eq m d).symm _))
    (run_seq scopedRefs_eq scopedSems_eq defs main (fun _ => allOps) main_eq
      (fun _ => List.forall_iff_forall_mem.mpr allOps_sub) m ρ (fun _ => allOps_fresh))

end Cert.ReferenceIdeal.RunFold

end
-- ==== Proof.RefArgs.lean ====
import proofs.«418800_j15479062135021_1_alg».proof.Proof.RefOps

/-! No operation of the reference writes an argument: at the end each argument buffer holds its launch contents. -/

noncomputable section

namespace Cert.ReferenceIdeal.RunFold

open Cert.ReferenceIdeal Cert.ReferenceIdeal.Gen Idealize.ShloMosaic Idealize.ShloMosaic.TcCoe Idealize.SL.Sem Idealize.ShloMosaic.StableHlo

variable {F : FTy → Type} [FloatOps F] (m : (ℓ : Loc nD τ sig) → Buf (Elt F) ℓ) (d : Dev nD)

set_option maxHeartbeats 8000000 in
theorem R9_main_arg0 : R9 m d (Proc.devRef .tc main_arg0) = m ((d.tc : Thread nD τ).loc main_arg0) := by
  simp only [R9, R8, R7, R6, R5, R4, R3, R2, R1, R0]
  after_results_simp <;> rfl

set_option maxHeartbeats 8000000 in
theorem R9_main_arg1 : R9 m d (Proc.devRef .tc main_arg1) = m ((d.tc : Thread nD τ).loc main_arg1) := by
  simp only [R9, R8, R7, R6, R5, R4, R3, R2, R1, R0]
  after_results_simp <;> rfl

set_option maxHeartbeats 8000000 in
theorem R9_main_arg2 : R9 m d (Proc.devRef .tc main_arg2) = m ((d.tc : Thread nD τ).loc main_arg2) := by
  simp only [R9, R8, R7, R6, R5, R4, R3, R2, R1, R0]
  after_results_simp <;> rfl

set_option maxHeartbeats 8000000 in
theorem R9_main_arg3 : R9 m d (Proc.devRef .tc main_arg3) = m ((d.tc : Thread nD τ).loc main_arg3) := by
  simp only [R9, R8, R7, R6, R5, R4, R3, R2, R1, R0]
  after_results_simp <;> rfl

set_option maxHeartbeats 8000000 in
theorem R9_main_arg4 : R9 m d (Proc.devRef .tc main_arg4) = m ((d.tc : Thread nD τ).loc main_arg4) := by
  simp only [R9, R8, R7, R6, R5, R4, R3, R2, R1, R0]
  after_results_simp <;> rfl

set_option maxHeartbeats 8000000 in
theorem R9_main_arg5 : R9 m d (Proc.devRef .tc main_arg5) = m ((d.tc : Thread nD τ).loc main_arg5) := by
  simp only [R9, R8, R7, R6, R5, R4, R3, R2, R1, R0]
  after_results_simp <;> rfl

set_option maxHeartbeats 8000000 in
theorem R9_main_arg6 : R9 m d (Proc.devRef .tc main_arg6) = m ((d.tc : Thread nD τ).loc main_arg6) := by
  simp only [R9, R8, R7, R6, R5, R4, R3, R2, R1, R0]
  after_results_simp <;> rfl

set_option maxHeartbeats 8000000 in
theorem R9_main_arg7 : R9 m d (Proc.devRef .tc main_arg7) = m ((d.tc : Thread nD τ).loc main_arg7) := by
  simp only [R9, R8, R7, R6, R5, R4, R3, R2, R1, R0]
  after_results_simp <;> rfl

set_option maxHeartbeats 8000000 in
theorem R9_main_arg8 : R9 m d (Proc.devRef .tc main_arg8) = m ((d.tc : Thread nD τ).loc main_arg8) := by
  simp only [R9, R8, R7, R6, R5, R4, R3, R2, R1, R0]
  after_results_simp <;> rfl

set_option maxHeartbeats 8000000 in
theorem R9_main_arg9 : R9 m d (Proc.devRef .tc main_arg9) = m ((d.tc : Thread nD τ).loc main_arg9) := by
  simp only [R9, R8, R7, R6, R5, R4, R3, R2, R1, R0]
  after_results_simp <;> rfl

set_option maxHeartbeats 8000000 in
theorem R9_main_arg10 : R9 m d (Proc.devRef .tc main_arg10) = m ((d.tc : Thread nD τ).loc main_arg10) := by
  simp only [R9, R8, R7, R6, R5, R4, R3, R2, R1, R0]
  after_results_simp <;> rfl

set_option maxHeartbeats 8000000 in
theorem R9_main_arg11 : R9 m d (Proc.devRef .tc main_arg11) = m ((d.tc : Thread nD τ).loc main_arg11) := by
  simp only [R9, R8, R7, R6, R5, R4, R3, R2, R1, R0]
  after_results_simp <;> rfl

set_option maxHeartbeats 8000000 in
theorem R9_main_arg12 : R9 m d (Proc.devRef .tc main_arg12) = m ((d.tc : Thread nD τ).loc main_arg12) := by
  simp only [R9, R8, R7, R6, R5, R4, R3, R2, R1, R0]
  after_results_simp <;> rfl

end Cert.ReferenceIdeal.RunFold

end
-- ==== Proof.Spec.lean ====
import Idealize.ShloMosaic.PureOps.Ideal
import Idealize.ShloMosaic.Lib.ValueIdx

/-! What the two programs compute, element by element on the extended reals, in the two places where they differ in
    arrangement: one direction of a Chebyshev layer (the four terms' products with their weight slices, summed in order,
    plus the bias, clamped at zero) and the per-graph sum of node features. -/

noncomputable section

namespace Cert.Spec

/-- One direction of a Chebyshev layer at node `n`, output feature `j`: with `tK` the K-th Chebyshev term of the node
    features (100000 nodes, 128 features), `w` the four weight matrices and `b` the bias,
    `max (((t0·w0 + t1·w1) + t2·w2) + t3·w3 + b) 0` at `(n, j)`, each product a sum over the 128 input features. -/
def cheb {Fo : Nat} (t0 t1 t2 t3 : Fin 100000 → Fin 128 → EReal) (w : Fin 4 → Fin 128 → Fin Fo → EReal) (b : Fin Fo → EReal)
    (n : Fin 100000) (j : Fin Fo) : EReal :=
  max (((((∑ k : Fin 128, t0 n k * w 0 k j) + ∑ k : Fin 128, t1 n k * w 1 k j) + ∑ k : Fin 128, t2 n k * w 2 k j)
    + ∑ k : Fin 128, t3 n k * w 3 k j) + b j) 0

/-- The sum of feature `f` over the nodes whose graph id is `g` (an id outside `[0, 512)` belongs to no graph). -/
def pool (h : Fin 100000 → Fin 512 → EReal) (gid : Fin 100000 → BitVec 32) (g f : Fin 512) : EReal :=
  ∑ n : Fin 100000, if gid n = BitVec.ofNat 32 g.val then h n f else 0

end Cert.Spec

end
-- ==== Proof.Layer0KAux.lean ====
import proofs.«418800_j15479062135021_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

/-! The first layer's block arithmetic read at one element: for a block of 2000 nodes, the value the body computes at
    row `r` and output feature `j` is the four products of the block's Chebyshev terms with their weight slices, each a
    sum over the 128 input features, added in order, plus the bias, clamped at zero. -/

set_option maxRecDepth 16384

noncomputable section

namespace Cert.KernelIdeal.Layer0

open Idealize.ShloMosaic Idealize.SL.Sem Idealize.ShloMosaic.ValueIdx
open Cert.KernelIdeal Cert.KernelIdeal.Gen

/-! ## The product's operand indices, axis by axis

The product contracts the left operand's axis 1 with the right operand's axis 0: at output index `i` and contraction
index `q` the left operand is read at `(i 0, q)` and the right at `(q, i 1)`. -/

theorem lhs_rows_0 (i : S2000x64.Idx) (q : dot_S2000x128_S128x64_S2000x64_1_0_0_1_n_n.contr.Idx) :
    (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
theorem lhs_rows_1 (i : S2000x64.Idx) (q : dot_S2000x128_S128x64_S2000x64_1_0_0_1_n_n.contr.Idx) :
    (dot_S2000x128_S128x64_S2000x64_1_0_0_1_n_n.lhsIdx i q 1).val = (q ⟨0, by decide⟩).val :=
  dot_S2000x128_S128x64_S2000x64_1_0_0_1_n_n.lhsIdx_val_of_single rfl i q
theorem rhs_cols_0 (i : S2000x64.Idx) (q : dot_S2000x128_S128x64_S2000x64_1_0_0_1_n_n.contr.Idx) :
    (dot_S2000x128_S128x64_S2000x64_1_0_0_1_n_n.rhsIdx i q 0).val = (q ⟨0, by decide⟩).val :=
  dot_S2000x128_S128x64_S2000x64_1_0_0_1_n_n.rhsIdx_val_of_single rfl i q
theorem rhs_cols_1 (i : S2000x64.Idx) (q : dot_S2000x128_S128x64_S2000x64_1_0_0_1_n_n.contr.Idx) :
    (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-! ## Each operation of the body at an element -/

/-- A block of 2000 rows times a 128 by 64 matrix, accumulated from zero, at row `r` and column `j`: the sum over the 128
    input features of the row's entry times the matrix's (the contraction index is its one coordinate). -/
theorem matmul_at (x : FVec Ideal S2000x128 .bf16) (w : FVec Ideal S128x64 .bf16) (r : Fin 2000) (j : Fin 64) :
    matmul dot_S2000x128_S128x64_S2000x64_1_0_0_1_n_n none x w (constant (F := Ideal) S2000x64 .f32 0x00000000#32) (ix2 r j)
      = ∑ k : Fin 128, x (ix2 r k) * w (ix2 k j) := by
  simp only [matmul]
  rw [Ideal.matmul_constant_zero_apply, ← Equiv.sum_comp (contrEquiv1 dot_S2000x128_S128x64_S2000x64_1_0_0_1_n_n 128 rfl rfl).symm]
  refine Finset.sum_congr rfl fun k _ => ?_
  have hk := contrEquiv1_symm_val dot_S2000x128_S128x64_S2000x64_1_0_0_1_n_n 128 rfl rfl k
  have el : dot_S2000x128_S128x64_S2000x64_1_0_0_1_n_n.lhsIdx (ix2 r j) ((contrEquiv1 dot_S2000x128_S128x64_S2000x64_1_0_0_1_n_n 128 rfl rfl).symm k) = ix2 r k := funext fun a => Fin.ext (by
    match a with
    | ⟨0, _⟩ => exact lhs_rows_0 _ _
    | ⟨1, _⟩ => exact (lhs_rows_1 _ _).trans hk)
  have er : dot_S2000x128_S128x64_S2000x64_1_0_0_1_n_n.rhsIdx (ix2 r j) ((contrEquiv1 dot_S2000x128_S128x64_S2000x64_1_0_0_1_n_n 128 rfl rfl).symm k) = ix2 k j := funext fun a => Fin.ext (by
    match a with
    | ⟨0, _⟩ => exact (rhs_cols_0 _ _).trans hk
    | ⟨1, _⟩ => exact rhs_cols_1 _ _)
  rw [el, er]

/-- A weight slice [1,128,64] viewed as the matrix [128,64]: entry `(k, j)` is the slice's `(0, k, j)` (the two have the
    same row-major position). -/
theorem slice_cast_at (v : FVec Ideal S1x128x64 .bf16) (k : Fin 128) (j : Fin 64) :
    shapeCast S128x64 v shapeCasts_S1x128x64_S128x64 (ix2 k j) = v (ix3 0 k j) := by
  refine shapeCast_apply v shapeCasts_S1x128x64_S128x64 (ix2 k j) (ix3 0 k j) ?_
  rewrite [Shape.rowMajor_val_three, Shape.rowMajor_val_two]
  show (0 * 128 + k.val) * 64 + j.val = k.val * 64 + j.val
  omega

/-- The bias row [1,64] repeated over the 2000 rows: entry `(r, j)` is the row's `(0, j)`. -/
theorem bias_bcast_at (v : FVec Ideal S1x64 .f32) (r : Fin 2000) (j : Fin 64) :
    broadcastTo S2000x64 v broadcasts_S1x64_S2000x64 (ix2 r j) = v (ix2 0 j) := by
  refine broadcastTo_apply v broadcasts_S1x64_S2000x64 (ix2 r j) (ix2 0 j) fun a => ?_
  match a with
  | ⟨0, _⟩ => rfl
  | ⟨1, _⟩ => rfl

/-! ## The block's value at an element -/

/-- The forward direction's block value at row `r`, column `j`: the four products in order, the bias, the clamp at zero
    (the maximum, the sums and the zero word read through at an element; the casts to the same shape are the identity). -/
theorem pay1_at (x0 x1 x2 x3 : Vec Ideal S2000x128 .bf16) (w0 w1 w2 w3 : Vec Ideal S1x128x64 .bf16) (b : Vec Ideal S1x64 .f32)
    (r : Fin 2000) (j : Fin 64) :
    k0_pay1 (F := Ideal) x0 w0 x1 w1 x2 w2 x3 w3 b (ix2 r j)
      = max (((((∑ k : Fin 128, x0 (ix2 r k) * w0 (ix3 0 k j)) + ∑ k : Fin 128, x1 (ix2 r k) * w1 (ix3 0 k j))
          + ∑ k : Fin 128, x2 (ix2 r k) * w2 (ix3 0 k j)) + ∑ k : Fin 128, x3 (ix2 r k) * w3 (ix3 0 k j)) + b (ix2 0 j)) 0 := by
  unfold k0_pay1
  rw [maximumf_apply, addf_apply, addf_apply, addf_apply, addf_apply, matmul_at, matmul_at, matmul_at, matmul_at, bias_bcast_at]
  simp only [shapeCast_self, slice_cast_at]
  exact congrArg (max _) Ideal.ofBits_zero_f32

/-- The reversed direction's block value is the same function of its own operands. -/
theorem pay2_eq_pay1 : k0_pay2 (F := Ideal) = k0_pay1 (F := Ideal) := rfl

/-- The reversed direction's block value at row `r`, column `j`. -/
theorem pay2_at (x0 x1 x2 x3 : Vec Ideal S2000x128 .bf16) (w0 w1 w2 w3 : Vec Ideal S1x128x64 .bf16) (b : Vec Ideal S1x64 .f32)
    (r : Fin 2000) (j : Fin 64) :
    k0_pay2 (F := Ideal) x0 w0 x1 w1 x2 w2 x3 w3 b (ix2 r j)
      = max (((((∑ k : Fin 128, x0 (ix2 r k) * w0 (ix3 0 k j)) + ∑ k : Fin 128, x1 (ix2 r k) * w1 (ix3 0 k j))
          + ∑ k : Fin 128, x2 (ix2 r k) * w2 (ix3 0 k j)) + ∑ k : Fin 128, x3 (ix2 r k) * w3 (ix3 0 k j)) + b (ix2 0 j)) 0 := by
  rw [pay2_eq_pay1]
  exact pay1_at x0 x1 x2 x3 w0 w1 w2 w3 b r j

end Cert.KernelIdeal.Layer0

end
-- ==== Proof.Layer0K.lean ====
import proofs.«418800_j15479062135021_1_alg».proof.Proof.Gen.KernelIdeal.Frame
import proofs.«418800_j15479062135021_1_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«418800_j15479062135021_1_alg».proof.Proof.Layer0KAux

/-! The first layer's region of the idealized kernel: what its output array holds when the region ends, element by
    element, from the arrays of its twelve input windows as the region finds them. -/

set_option maxRecDepth 16384

noncomputable section

namespace Cert.KernelIdeal.Layer0

open Idealize.ShloMosaic Idealize.ShloMosaic.TcCoe Idealize.SL.Sem Idealize.ShloMosaic.ValueIdx
open Idealize.ShloMosaic.Pipeline (Dat)
open Cert.KernelIdeal Cert.KernelIdeal.Gen

/- the buffer contents when the region is entered: any -/
variable (V : (c : Dev nD) → (b : Ref sig .tc) → Buf (Elt Ideal) ((c : Thread nD τ).loc b))

/-- The arrays of the region's input windows as it finds them: the four Chebyshev terms, the four weight matrices and the
    bias of the forward direction (windows 0 to 5), then the same of the reversed direction (windows 6 to 11). -/
abbrev a0 (c : Dev nD) : Vec Ideal S100000x128 .bf16 := V c (Pipeline.arrRef spec0 0)
abbrev a1 (c : Dev nD) : Vec Ideal S100000x128 .bf16 := V c (Pipeline.arrRef spec0 1)
abbrev a2 (c : Dev nD) : Vec Ideal S100000x128 .bf16 := V c (Pipeline.arrRef spec0 2)
abbrev a3 (c : Dev nD) : Vec Ideal S100000x128 .bf16 := V c (Pipeline.arrRef spec0 3)
abbrev a4 (c : Dev nD) : Vec Ideal S4x128x64 .bf16 := V c (Pipeline.arrRef spec0 4)
abbrev a5 (c : Dev nD) : Vec Ideal S1x64 .f32 := V c (Pipeline.arrRef spec0 5)
abbrev a6 (c : Dev nD) : Vec Ideal S100000x128 .bf16 := V c (Pipeline.arrRef spec0 6)
abbrev a7 (c : Dev nD) : Vec Ideal S100000x128 .bf16 := V c (Pipeline.arrRef spec0 7)
abbrev a8 (c : Dev nD) : Vec Ideal S100000x128 .bf16 := V c (Pipeline.arrRef spec0 8)
abbrev a9 (c : Dev nD) : Vec Ideal S100000x128 .bf16 := V c (Pipeline.arrRef spec0 9)
abbrev a10 (c : Dev nD) : Vec Ideal S4x128x64 .bf16 := V c (Pipeline.arrRef spec0 10)
abbrev a11 (c : Dev nD) : Vec Ideal S1x64 .f32 := V c (Pipeline.arrRef spec0 11)
/-- The region's output array when the region ends. -/
abbrev out (c : Dev nD) : Vec Ideal S100000x128 .f32 := (dat0 (F := Ideal) V c).arrAt 12 cfg0.N

/-! ## The output block at an element

The body writes the output block by two stores: the reversed direction's value into columns 64 to 127 and the forward
direction's into columns 0 to 63. An element of the left half lies outside the later store's columns and under the
earlier one's; an element of the right half lies under the later store's. -/

/-- The rectangles the body loads through, at an index: a whole block is read in place; weight slice `a` of the four is
    read at `(a, k, j)`. -/
theorem idx_rows (y : S2000x128.Idx) : r0_0.idx y = y :=
  funext fun a => Fin.ext (by match a with | ⟨0, _⟩ => show 0 + 1 * (y 0).val = (y 0).val; omega | ⟨1, _⟩ => show 0 + 1 * (y 1).val = (y 1).val; omega)
theorem idx_bias (y : S1x64.Idx) : r0_5.idx y = y :=
  funext fun a => Fin.ext (by match a with | ⟨0, _⟩ => show 0 + 1 * (y 0).val = (y 0).val; omega | ⟨1, _⟩ => show 0 + 1 * (y 1).val = (y 1).val; omega)
theorem idx_w0 (k : Fin 128) (j : Fin 64) : r0_1.idx (ix3 0 k j) = ix3 0 k j :=
  funext fun a => Fin.ext (by match a with | ⟨0, _⟩ => rfl | ⟨1, _⟩ => show 0 + 1 * k.val = k.val; omega | ⟨2, _⟩ => show 0 + 1 * j.val = j.val; omega)
theorem idx_w1 (k : Fin 128) (j : Fin 64) : r0_2.idx (ix3 0 k j) = ix3 1 k j :=
  funext fun a => Fin.ext (by match a with | ⟨0, _⟩ => rfl | ⟨1, _⟩ => show 0 + 1 * k.val = k.val; omega | ⟨2, _⟩ => show 0 + 1 * j.val = j.val; omega)
theorem idx_w2 (k : Fin 128) (j : Fin 64) : r0_3.idx (ix3 0 k j) = ix3 2 k j :=
  funext fun a => Fin.ext (by match a with | ⟨0, _⟩ => rfl | ⟨1, _⟩ => show 0 + 1 * k.val = k.val; omega | ⟨2, _⟩ => show 0 + 1 * j.val = j.val; omega)
theorem idx_w3 (k : Fin 128) (j : Fin 64) : r0_4.idx (ix3 0 k j) = ix3 3 k j :=
  funext fun a => Fin.ext (by match a with | ⟨0, _⟩ => rfl | ⟨1, _⟩ => show 0 + 1 * k.val = k.val; omega | ⟨2, _⟩ => show 0 + 1 * j.val = j.val; omega)

/-- One direction's value on a block of 2000 nodes: row `r` of the four terms against the four weight matrices, summed in
    order, plus the bias, clamped at zero. -/
def blockVal (t0 t1 t2 t3 : Vec Ideal S2000x128 .bf16) (w : Vec Ideal S4x128x64 .bf16) (b : Vec Ideal S1x64 .f32) (r : Fin 2000) (j : Fin 64) : EReal :=
  max (((((∑ k : Fin 128, t0 (ix2 r k) * w (ix3 0 k j)) + ∑ k : Fin 128, t1 (ix2 r k) * w (ix3 1 k j))
    + ∑ k : Fin 128, t2 (ix2 r k) * w (ix3 2 k j)) + ∑ k : Fin 128, t3 (ix2 r k) * w (ix3 3 k j)) + b (ix2 0 j)) 0

/-- A column below 64 is not among the later store's columns. -/
theorem left_not_right (r : Fin 2000) (j : Fin 64) :
    (ix2 r (⟨j.val, lt_of_lt_of_le j.isLt (by decide)⟩ : Fin 128) : S2000x128.Idx) ∉ r0_7.set := by
  rw [Rect.mem_set_unit]
  intro h
  have h1 : (64 : Nat) ≤ j.val := (h 1).1
  have := j.isLt
  omega

/-- Element `(r, j)` of the left half is the earlier store's element `(r, j)`. -/
theorem left_emb (r : Fin 2000) (j : Fin 64) :
    (ix2 r (⟨j.val, lt_of_lt_of_le j.isLt (by decide)⟩ : Fin 128) : S2000x128.Idx) = r0_6.emb (ix2 r j) :=
  funext fun a => Fin.ext (by match a with | ⟨0, _⟩ => show r.val = 0 + 1 * r.val; omega | ⟨1, _⟩ => show j.val = 0 + 1 * j.val; omega)

/-- Element `(r, 64 + j)` of the right half is the later store's element `(r, j)`. -/
theorem right_emb (r : Fin 2000) (j : Fin 64) :
    (ix2 r (⟨64 + j.val, by have := j.isLt; omega⟩ : Fin 128) : S2000x128.Idx) = r0_7.emb (ix2 r j) :=
  funext fun a => Fin.ext (by match a with | ⟨0, _⟩ => show r.val = 0 + 1 * r.val; omega | ⟨1, _⟩ => show 64 + j.val = 64 + 1 * j.val; omega)

/-- The output block's left half holds the forward direction's value of the first six input blocks. -/
theorem out_left (x0 x1 x2 x3 : Vec Ideal S2000x128 .bf16) (x4 : Vec Ideal S4x128x64 .bf16) (x5 : Vec Ideal S1x64 .f32)
    (x6 x7 x8 x9 : Vec Ideal S2000x128 .bf16) (x10 : Vec Ideal S4x128x64 .bf16) (x11 : Vec Ideal S1x64 .f32) (r : Fin 2000) (j : Fin 64) :
    out0_12 x0 x1 x2 x3 x4 x5 x6 x7 x8 x9 x10 x11 (ix2 r ⟨j.val, lt_of_lt_of_le j.isLt (by decide)⟩) = blockVal x0 x1 x2 x3 x4 x5 r j := by
  unfold out0_12
  refine (View.canon_cons_of_not_mem _ _ ?_).trans ?_
  · exact left_not_right r j
  rw [left_emb r j, View.canon_cons_emb, pay1_at]
  unfold blockVal
  simp only [View.ld, idx_rows, idx_bias, idx_w0, idx_w1, idx_w2, idx_w3]

/-- The output block's right half holds the reversed direction's value of the last six input blocks. -/
theorem out_right (x0 x1 x2 x3 : Vec Ideal S2000x128 .bf16) (x4 : Vec Ideal S4x128x64 .bf16) (x5 : Vec Ideal S1x64 .f32)
    (x6 x7 x8 x9 : Vec Ideal S2000x128 .bf16) (x10 : Vec Ideal S4x128x64 .bf16) (x11 : Vec Ideal S1x64 .f32) (r : Fin 2000) (j : Fin 64) :
    out0_12 x0 x1 x2 x3 x4 x5 x6 x7 x8 x9 x10 x11 (ix2 r ⟨64 + j.val, by have := j.isLt; omega⟩) = blockVal x6 x7 x8 x9 x10 x11 r j := by
  unfold out0_12
  rw [right_emb r j, View.canon_cons_emb, pay2_at]
  unfold blockVal
  simp only [View.ld, idx_rows, idx_bias, idx_w0, idx_w1, idx_w2, idx_w3]

/-! ## Each input block as a part of its array

A block's element sits in its array, on each axis, at the block index times the block's extent plus the coordinate inside
the block. At point `t` a node window's block index is `(t, 0)`: its row `r` is the array's row `2000 t + r`. The weights and
the bias are one block each, at index zero: read in place. -/

/-- The windows' block indices, decided over the 50 points of the grid. -/
theorem node_index : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0)
    ∧ (win0_12.index t (0 : Fin 2) = t.val ∧ win0_12.index t (1 : Fin 2) = 0) :=
  (by decide +kernel : ∀ t : Fin grid0.N, _)

theorem const_index : ∀ t : Fin cfg0.N,
    (win0_4.index t (0 : Fin 3) = 0 ∧ win0_4.index t (1 : Fin 3) = 0 ∧ win0_4.index t (2 : Fin 3) = 0)
    ∧ (win0_5.index t (0 : Fin 2) = 0 ∧ win0_5.index t (1 : Fin 2) = 0)
    ∧ (win0_10.index t (0 : Fin 3) = 0 ∧ win0_10.index t (1 : Fin 3) = 0 ∧ win0_10.index t (2 : Fin 3) = 0)
    ∧ (win0_11.index t (0 : Fin 2) = 0 ∧ win0_11.index t (1 : Fin 2) = 0) :=
  (by decide +kernel : ∀ t : Fin grid0.N, _)

theorem rows_0 (c : Dev nD) (t : Fin cfg0.N) (r : Fin 2000) (k : Fin 128) (n : Fin 100000) (hn : n.val = 2000 * t.val + r.val) :
    (iblk0 V c 0 t : Vec Ideal S2000x128 .bf16) (ix2 r k) = a0 V c (ix2 n k) := by
  obtain ⟨e0, e1⟩ := (node_index t).1
  unfold iblk0
  rw [View.read_apply]
  refine congrArg (a0 V c) (funext fun a => Fin.ext ?_)
  match a with
  | ⟨0, _⟩ => show win0_0.index t (0 : Fin 2) * 2000 + 1 * r.val = n.val; rw [e0, hn]; omega
  | ⟨1, _⟩ => show win0_0.index t (1 : Fin 2) * 128 + 1 * k.val = k.val; rw [e1]; omega

theorem rows_1 (c : Dev nD) (t : Fin cfg0.N) (r : Fin 2000) (k : Fin 128) (n : Fin 100000) (hn : n.val = 2000 * t.val + r.val) :
    (iblk0 V c 1 t : Vec Ideal S2000x128 .bf16) (ix2 r k) = a1 V c (ix2 n k) := by
  obtain ⟨e0, e1⟩ := (node_index t).2.1
  unfold iblk0
  rw [View.read_apply]
  refine congrArg (a1 V c) (funext fun a => Fin.ext ?_)
  match a with
  | ⟨0, _⟩ => show win0_1.index t (0 : Fin 2) * 2000 + 1 * r.val = n.val; rw [e0, hn]; omega
  | ⟨1, _⟩ => show win0_1.index t (1 : Fin 2) * 128 + 1 * k.val = k.val; rw [e1]; omega

theorem rows_2 (c : Dev nD) (t : Fin cfg0.N) (r : Fin 2000) (k : Fin 128) (n : Fin 100000) (hn : n.val = 2000 * t.val + r.val) :
    (iblk0 V c 2 t : Vec Ideal S2000x128 .bf16) (ix2 r k) = a2 V c (ix2 n k) := by
  obtain ⟨e0, e1⟩ := (node_index t).2.2.1
  unfold iblk0
  rw [View.read_apply]
  refine congrArg (a2 V c) (funext fun a => Fin.ext ?_)
  match a with
  | ⟨0, _⟩ => show win0_2.index t (0 : Fin 2) * 2000 + 1 * r.val = n.val; rw [e0, hn]; omega
  | ⟨1, _⟩ => show win0_2.index t (1 : Fin 2) * 128 + 1 * k.val = k.val; rw [e1]; omega

theorem rows_3 (c : Dev nD) (t : Fin cfg0.N) (r : Fin 2000) (k : Fin 128) (n : Fin 100000) (hn : n.val = 2000 * t.val + r.val) :
    (iblk0 V c 3 t : Vec Ideal S2000x128 .bf16) (ix2 r k) = a3 V c (ix2 n k) := by
  obtain ⟨e0, e1⟩ := (node_index t).2.2.2.1
  unfold iblk0
  rw [View.read_apply]
  refine congrArg (a3 V c) (funext fun a => Fin.ext ?_)
  match a with
  | ⟨0, _⟩ => show win0_3.index t (0 : Fin 2) * 2000 + 1 * r.val = n.val; rw [e0, hn]; omega
  | ⟨1, _⟩ => show win0_3.index t (1 : Fin 2) * 128 + 1 * k.val = k.val; rw [e1]; omega

theorem rows_6 (c : Dev nD) (t : Fin cfg0.N) (r : Fin 2000) (k : Fin 128) (n : Fin 100000) (hn : n.val = 2000 * t.val + r.val) :
    (iblk0 V c 6 t : Vec Ideal S2000x128 .bf16) (ix2 r k) = a6 V c (ix2 n k) := by
  obtain ⟨e0, e1⟩ := (node_index t).2.2.2.2.1
  unfold iblk0
  rw [View.read_apply]
  refine congrArg (a6 V c) (funext fun a => Fin.ext ?_)
  match a with
  | ⟨0, _⟩ => show win0_6.index t (0 : Fin 2) * 2000 + 1 * r.val = n.val; rw [e0, hn]; omega
  | ⟨1, _⟩ => show win0_6.index t (1 : Fin 2) * 128 + 1 * k.val = k.val; rw [e1]; omega

theorem rows_7 (c : Dev nD) (t : Fin cfg0.N) (r : Fin 2000) (k : Fin 128) (n : Fin 100000) (hn : n.val = 2000 * t.val + r.val) :
    (iblk0 V c 7 t : Vec Ideal S2000x128 .bf16) (ix2 r k) = a7 V c (ix2 n k) := by
  obtain ⟨e0, e1⟩ := (node_index t).2.2.2.2.2.1
  unfold iblk0
  rw [View.read_apply]
  refine congrArg (a7 V c) (funext fun a => Fin.ext ?_)
  match a with
  | ⟨0, _⟩ => show win0_7.index t (0 : Fin 2) * 2000 + 1 * r.val = n.val; rw [e0, hn]; omega
  | ⟨1, _⟩ => show win0_7.index t (1 : Fin 2) * 128 + 1 * k.val = k.val; rw [e1]; omega

theorem rows_8 (c : Dev nD) (t : Fin cfg0.N) (r : Fin 2000) (k : Fin 128) (n : Fin 100000) (hn : n.val = 2000 * t.val + r.val) :
    (iblk0 V c 8 t : Vec Ideal S2000x128 .bf16) (ix2 r k) = a8 V c (ix2 n k) := by
  obtain ⟨e0, e1⟩ := (node_index t).2.2.2.2.2.2.1
  unfold iblk0
  rw [View.read_apply]
  refine congrArg (a8 V c) (funext fun a => Fin.ext ?_)
  match a with
  | ⟨0, _⟩ => show win0_8.index t (0 : Fin 2) * 2000 + 1 * r.val = n.val; rw [e0, hn]; omega
  | ⟨1, _⟩ => show win0_8.index t (1 : Fin 2) * 128 + 1 * k.val = k.val; rw [e1]; omega

theorem rows_9 (c : Dev nD) (t : Fin cfg0.N) (r : Fin 2000) (k : Fin 128) (n : Fin 100000) (hn : n.val = 2000 * t.val + r.val) :
    (iblk0 V c 9 t : Vec Ideal S2000x128 .bf16) (ix2 r k) = a9 V c (ix2 n k) := by
  obtain ⟨e0, e1⟩ := (node_index t).2.2.2.2.2.2.2.1
  unfold iblk0
  rw [View.read_apply]
  refine congrArg (a9 V c) (funext fun a => Fin.ext ?_)
  match a with
  | ⟨0, _⟩ => show win0_9.index t (0 : Fin 2) * 2000 + 1 * r.val = n.val; rw [e0, hn]; omega
  | ⟨1, _⟩ => show win0_9.index t (1 : Fin 2) * 128 + 1 * k.val = k.val; rw [e1]; omega

theorem weights_4 (c : Dev nD) (t : Fin cfg0.N) (a : Fin 4) (k : Fin 128) (j : Fin 64) :
    (iblk0 V c 4 t : Vec Ideal S4x128x64 .bf16) (ix3 a k j) = a4 V c (ix3 a k j) := by
  obtain ⟨e0, e1, e2⟩ := (const_index t).1
  unfold iblk0
  rw [View.read_apply]
  refine congrArg (a4 V c) (funext fun b => Fin.ext ?_)
  match b with
  | ⟨0, _⟩ => show win0_4.index t (0 : Fin 3) * 4 + 1 * a.val = a.val; rw [e0]; omega
  | ⟨1, _⟩ => show win0_4.index t (1 : Fin 3) * 128 + 1 * k.val = k.val; rw [e1]; omega
  | ⟨2, _⟩ => show win0_4.index t (2 : Fin 3) * 64 + 1 * j.val = j.val; rw [e2]; omega

theorem bias_5 (c : Dev nD) (t : Fin cfg0.N) (j : Fin 64) :
    (iblk0 V c 5 t : Vec Ideal S1x64 .f32) (ix2 0 j) = a5 V c (ix2 0 j) := by
  obtain ⟨e0, e1⟩ := (const_index t).2.1
  unfold iblk0
  rw [View.read_apply]
  refine congrArg (a5 V c) (funext fun b => Fin.ext ?_)
  match b with
  | ⟨0, _⟩ => show win0_5.index t (0 : Fin 2) * 1 + 1 * 0 = 0; rw [e0]
  | ⟨1, _⟩ => show win0_5.index t (1 : Fin 2) * 64 + 1 * j.val = j.val; rw [e1]; omega

theorem weights_10 (c : Dev nD) (t : Fin cfg0.N) (a : Fin 4) (k : Fin 128) (j : Fin 64) :
    (iblk0 V c 10 t : Vec Ideal S4x128x64 .bf16) (ix3 a k j) = a10 V c (ix3 a k j) := by
  obtain ⟨e0, e1, e2⟩ := (const_index t).2.2.1
  unfold iblk0
  rw [View.read_apply]
  refine congrArg (a10 V c) (funext fun b => Fin.ext ?_)
  match b with
  | ⟨0, _⟩ => show win0_10.index t (0 : Fin 3) * 4 + 1 * a.val = a.val; rw [e0]; omega
  | ⟨1, _⟩ => show win0_10.index t (1 : Fin 3) * 128 + 1 * k.val = k.val; rw [e1]; omega
  | ⟨2, _⟩ => show win0_10.index t (2 : Fin 3) * 64 + 1 * j.val = j.val; rw [e2]; omega

theorem bias_11 (c : Dev nD) (t : Fin cfg0.N) (j : Fin 64) :
    (iblk0 V c 11 t : Vec Ideal S1x64 .f32) (ix2 0 j) = a11 V c (ix2 0 j) := by
  obtain ⟨e0, e1⟩ := (const_index t).2.2.2
  unfold iblk0
  rw [View.read_apply]
  refine congrArg (a11 V c) (funext fun b => Fin.ext ?_)
  match b with
  | ⟨0, _⟩ => show win0_11.index t (0 : Fin 2) * 1 + 1 * 0 = 0; rw [e0]
  | ⟨1, _⟩ => show win0_11.index t (1 : Fin 2) * 64 + 1 * j.val = j.val; rw [e1]; omega

/-- The forward direction's value on point `t`'s blocks at row `r` is the layer's value at node `2000 t + r`. -/
theorem blockVal_fwd (c : Dev nD) (t : Fin cfg0.N) (r : Fin 2000) (j : Fin 64) (n : Fin 100000) (hn : n.val = 2000 * t.val + r.val) :
    blockVal (iblk0 V c 0 t) (iblk0 V c 1 t) (iblk0 V c 2 t) (iblk0 V c 3 t) (iblk0 V c 4 t) (iblk0 V c 5 t) r j =
      Cert.Spec.cheb (fun n k => a0 V c (ix2 n k)) (fun n k => a1 V c (ix2 n k)) (fun n k => a2 V c (ix2 n k))
        (fun n k => a3 V c (ix2 n k)) (fun a k j => a4 V c (ix3 a k j)) (fun j => a5 V c (ix2 0 j)) n j := by
  unfold blockVal Cert.Spec.cheb
  simp only [rows_0 V c t r _ n hn, rows_1 V c t r _ n hn, rows_2 V c t r _ n hn, rows_3 V c t r _ n hn, weights_4 V c t, bias_5 V c t]

/-- The reversed direction's likewise. -/
theorem blockVal_rev (c : Dev nD) (t : Fin cfg0.N) (r : Fin 2000) (j : Fin 64) (n : Fin 100000) (hn : n.val = 2000 * t.val + r.val) :
    blockVal (iblk0 V c 6 t) (iblk0 V c 7 t) (iblk0 V c 8 t) (iblk0 V c 9 t) (iblk0 V c 10 t) (iblk0 V c 11 t) r j =
      Cert.Spec.cheb (fun n k => a6 V c (ix2 n k)) (fun n k => a7 V c (ix2 n k)) (fun n k => a8 V c (ix2 n k))
        (fun n k => a9 V c (ix2 n k)) (fun a k j => a10 V c (ix3 a k j)) (fun j => a11 V c (ix2 0 j)) n j := by
  unfold blockVal Cert.Spec.cheb
  simp only [rows_6 V c t r _ n hn, rows_7 V c t r _ n hn, rows_8 V c t r _ n hn, rows_9 V c t r _ n hn, weights_10 V c t, bias_11 V c t]

/-! ## From blocks to the array -/

/-- The layer's value as one function of the output array's index: node `i 0`; columns below 64 the forward direction's
    feature `i 1`, the others the reversed direction's feature `i 1 - 64`. -/
def layerVal (c : Dev nD) : Vec Ideal S100000x128 .f32 := fun i =>
  if h : (i 1).val < 64 then
    Cert.Spec.cheb (fun n k => a0 V c (ix2 n k)) (fun n k => a1 V c (ix2 n k)) (fun n k => a2 V c (ix2 n k))
      (fun n k => a3 V c (ix2 n k)) (fun a k j => a4 V c (ix3 a k j)) (fun j => a5 V c (ix2 0 j)) ⟨(i 0).val, idx2_lt0 i⟩ ⟨(i 1).val, h⟩
  else
    Cert.Spec.cheb (fun n k => a6 V c (ix2 n k)) (fun n k => a7 V c (ix2 n k)) (fun n k => a8 V c (ix2 n k))
      (fun n k => a9 V c (ix2 n k)) (fun a k j => a10 V c (ix3 a k j)) (fun j => a11 V c (ix2 0 j)) ⟨(i 0).val, idx2_lt0 i⟩
      ⟨(i 1).val - 64, by have := idx2_lt1 i; omega⟩

/-- Element `(r, q)` of the output block after the body at point `t` is the layer's value at `(2000 t + r, q)`. -/
theorem block_elem (c : Dev nD) (t : Fin cfg0.N) (r : Fin 2000) (q : Fin 128) (n : Fin 100000) (hn : n.val = 2000 * t.val + r.val) :
    out0_12 (iblk0 V c 0 t) (iblk0 V c 1 t) (iblk0 V c 2 t) (iblk0 V c 3 t) (iblk0 V c 4 t) (iblk0 V c 5 t) (iblk0 V c 6 t)
        (iblk0 V c 7 t) (iblk0 V c 8 t) (iblk0 V c 9 t) (iblk0 V c 10 t) (iblk0 V c 11 t) (ix2 r q) = layerVal V c (ix2 n q) := by
  by_cases h : q.val < 64
  · refine (out_left (iblk0 V c 0 t) (iblk0 V c 1 t) (iblk0 V c 2 t) (iblk0 V c 3 t) (iblk0 V c 4 t) (iblk0 V c 5 t) (iblk0 V c 6 t)
      (iblk0 V c 7 t) (iblk0 V c 8 t) (iblk0 V c 9 t) (iblk0 V c 10 t) (iblk0 V c 11 t) r ⟨q.val, h⟩).trans ?_
    refine (blockVal_fwd V c t r ⟨q.val, h⟩ n hn).trans ?_
    unfold layerVal
    rw [dif_pos (show ((ix2 n q : S100000x128.Idx) 1).val < 64 from h)]
  · have hq : q.val < 128 := q.isLt
    have e : q = ⟨64 + (⟨q.val - 64, by omega⟩ : Fin 64).val, by show 64 + (q.val - 64) < 128; omega⟩ := Fin.ext (by show q.val = 64 + (q.val - 64); omega)
    refine (congrArg (fun q' => out0_12 (iblk0 V c 0 t) (iblk0 V c 1 t) (iblk0 V c 2 t) (iblk0 V c 3 t) (iblk0 V c 4 t) (iblk0 V c 5 t) (iblk0 V c 6 t)
      (iblk0 V c 7 t) (iblk0 V c 8 t) (iblk0 V c 9 t) (iblk0 V c 10 t) (iblk0 V c 11 t) (ix2 r q')) e).trans ?_
    refine (out_right (iblk0 V c 0 t) (iblk0 V c 1 t) (iblk0 V c 2 t) (iblk0 V c 3 t) (iblk0 V c 4 t) (iblk0 V c 5 t) (iblk0 V c 6 t)
      (iblk0 V c 7 t) (iblk0 V c 8 t) (iblk0 V c 9 t) (iblk0 V c 10 t) (iblk0 V c 11 t) r ⟨q.val - 64, by omega⟩).trans ?_
    refine (blockVal_rev V c t r ⟨q.val - 64, by omega⟩ n hn).trans ?_
    unfold layerVal
    rw [dif_neg (show ¬ ((ix2 n q : S100000x128.Idx) 1).val < 64 from h)]

/-- What point `t` writes back is its block of the layer's value: element `y` of the block after the body is the layer's
    value at row `2000 t + y 0`, column `y 1`, which is where the block's element `y` sits in the array. -/
theorem flushed_eq (c : Dev nD) (t : Fin cfg0.N) :
    (dat0 (F := Ideal) V c).flushed 12 t = ((cfg0.win 12).blk t).view.read (Elt Ideal) (layerVal V c) := by
  show (cfg0.win 12).cut (grid0.coords t) ((dat0 (F := Ideal) V c).after 12 t) = _
  rw [after0_12]
  funext y
  obtain ⟨e0, e1⟩ := (node_index t).2.2.2.2.2.2.2.2
  have ht : t.val < 50 := t.isLt
  have hy0 : (y 0).val < 2000 := (y 0).isLt
  have hy1 : (y 1).val < 128 := (y 1).isLt
  have hx : (cfg0.win 12).xinj (grid0.coords t) y = (ix2 (⟨(y 0).val, hy0⟩ : Fin 2000) (⟨(y 1).val, hy1⟩ : Fin 128) : S2000x128.Idx) :=
    funext fun a => Fin.ext (by match a with | ⟨0, _⟩ => rfl | ⟨1, _⟩ => rfl)
  rw [View.read_apply]
  refine ((congrArg (out0_12 (iblk0 V c 0 t) (iblk0 V c 1 t) (iblk0 V c 2 t) (iblk0 V c 3 t) (iblk0 V c 4 t) (iblk0 V c 5 t) (iblk0 V c 6 t)
      (iblk0 V c 7 t) (iblk0 V c 8 t) (iblk0 V c 9 t) (iblk0 V c 10 t) (iblk0 V c 11 t)) hx).trans
    (block_elem V c t ⟨(y 0).val, hy0⟩ ⟨(y 1).val, hy1⟩ ⟨2000 * t.val + (y 0).val, by omega⟩ rfl)).trans ?_
  refine congrArg (layerVal V c) (funext fun a => Fin.ext ?_)
  match a with
  | ⟨0, _⟩ => show 2000 * t.val + (y 0).val = win0_12.index t (0 : Fin 2) * 2000 + 1 * (y 0).val; rw [e0]; omega
  | ⟨1, _⟩ => show (y 1).val = win0_12.index t (1 : Fin 2) * 128 + 1 * (y 1).val; rw [e1]; omega

/-- An index of the array is in point `t`'s block iff each coordinate is in the block's range on its axis. -/
theorem mem_blk (t : Fin cfg0.N) (i : S100000x128.Idx) :
    i ∈ ((cfg0.win 12).blk t).view.set ↔ ∀ a : Fin 2, win0_12.index t a * S2000x128.size a ≤ (i a).val ∧ (i a).val < win0_12.index t a * S2000x128.size a + S2000x128.size a := by
  show i ∈ ((View.whole main_v168).slice (win0_12.rect t)).set ↔ _
  rw [View.set_slice_whole, Rect.mem_set_unit]
  exact Iff.rfl

/-- Row `n` of the array is in the block of point `n / 2000`: the blocks cover the array. -/
theorem covered (i : S100000x128.Idx) :
    ∃ t : Fin cfg0.N, (cfg0.win 12).flush t = true ∧ i ∈ ((cfg0.win 12).blk t).view.set := by
  have hi0 : (i 0).val < 100000 := idx2_lt0 i
  have hi1 : (i 1).val < 128 := idx2_lt1 i
  have hlt : (i 0).val / 2000 < cfg0.N := by show (i 0).val / 2000 < 50; omega
  obtain ⟨e0, e1⟩ := (node_index ⟨(i 0).val / 2000, hlt⟩).2.2.2.2.2.2.2.2
  refine ⟨⟨(i 0).val / 2000, hlt⟩, flush0_12 _, ?_⟩
  rw [mem_blk]
  intro a
  match a with
  | ⟨0, _⟩ =>
    show win0_12.index ⟨(i 0).val / 2000, hlt⟩ (0 : Fin 2) * 2000 ≤ (i 0).val ∧ (i 0).val < win0_12.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win0_12.index ⟨(i 0).val / 2000, hlt⟩ (1 : Fin 2) * 128 ≤ (i 1).val ∧ (i 1).val < win0_12.index ⟨(i 0).val / 2000, hlt⟩ (1 : Fin 2) * 128 + 128
    rw [e1]; omega

/-- The output array when the region ends is the layer's value. -/
theorem out_eq (c : Dev nD) : out V c = layerVal V c :=
  (dat0 (F := Ideal) V c).arrAt_eq_of_cover 12 (layerVal V c) (fun t _ => flushed_eq V c t) covered

/-- Columns `[0, 64)` of the output: the forward direction's layer value. -/
theorem value_fwd (c : Dev nD) (n : Fin 100000) (j : Fin 64) :
    out V c (ix2 n ⟨j.val, lt_of_lt_of_le j.isLt (by decide)⟩) =
      Cert.Spec.cheb (fun n k => a0 V c (ix2 n k)) (fun n k => a1 V c (ix2 n k)) (fun n k => a2 V c (ix2 n k))
        (fun n k => a3 V c (ix2 n k)) (fun a k j => a4 V c (ix3 a k j)) (fun j => a5 V c (ix2 0 j)) n j := by
  refine (congrFun (out_eq V c) _).trans ?_
  unfold layerVal
  rw [dif_pos (show ((ix2 n (⟨j.val, lt_of_lt_of_le j.isLt (by decide)⟩ : Fin 128) : S100000x128.Idx) 1).val < 64 from j.isLt)]

/-- Columns `[64, 128)` of the output: the reversed direction's layer value. -/
theorem value_rev (c : Dev nD) (n : Fin 100000) (j : Fin 64) :
    out V c (ix2 n ⟨64 + j.val, by have := j.isLt; omega⟩) =
      Cert.Spec.cheb (fun n k => a6 V c (ix2 n k)) (fun n k => a7 V c (ix2 n k)) (fun n k => a8 V c (ix2 n k))
        (fun n k => a9 V c (ix2 n k)) (fun a k j => a10 V c (ix3 a k j)) (fun j => a11 V c (ix2 0 j)) n j := by
  refine (congrFun (out_eq V c) _).trans ?_
  unfold layerVal
  rw [dif_neg (show ¬ ((ix2 n (⟨64 + j.val, by have := j.isLt; omega⟩ : Fin 128) : S100000x128.Idx) 1).val < 64 from by show ¬ (64 + j.val < 64); omega)]
  show Cert.Spec.cheb _ _ _ _ _ _ _ (⟨64 + j.val - 64, _⟩ : Fin 64) = Cert.Spec.cheb _ _ _ _ _ _ _ j
  exact congrArg _ (Fin.ext (by show 64 + j.val - 64 = j.val; omega))

end Cert.KernelIdeal.Layer0

end
-- ==== Proof.Layer1KAux.lean ====
import proofs.«418800_j15479062135021_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

/-! The second layer's arithmetic on one block of 2000 nodes, read at one entry: each of the four products of a block of
    Chebyshev terms [2000,128] with a weight slice [1,128,256] is, at (r, j), the sum over the 128 input features; the
    four are added in order, the bias row is added, and the result is clamped at zero. -/

set_option maxRecDepth 16384

noncomputable section

namespace Cert.KernelIdeal.Layer1

open Idealize.ShloMosaic Idealize.ShloMosaic.TcCoe Idealize.SL.Sem Idealize.ShloMosaic.ValueIdx
open Cert.KernelIdeal Cert.KernelIdeal.Gen

/-! ## The product's operand indices, axis by axis -/

theorem lhs_axis0 (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem lhs_axis1 (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
theorem rhs_axis0 (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
theorem rhs_axis1 (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- A block of terms times a weight matrix, into zero, at (r, j): the sum over the 128 input features. -/
theorem product_at (x : FVec Ideal S2000x128 .bf16) (w : FVec Ideal S128x256 .bf16) (r : Fin 2000) (j : Fin 256) :
    matmul dot_S2000x128_S128x256_S2000x256_1_0_0_1_n_n none x w (constant (F := Ideal) S2000x256 .f32 0x00000000#32) (ix2 r j)
      = ∑ k : Fin 128, x (ix2 r k) * w (ix2 k j) := by
  simp only [matmul]
  rw [Ideal.matmul_constant_zero_apply, ← Equiv.sum_comp (contrEquiv1 dot_S2000x128_S128x256_S2000x256_1_0_0_1_n_n 128 rfl rfl).symm]
  refine Finset.sum_congr rfl fun k _ => ?_
  have hk := contrEquiv1_symm_val dot_S2000x128_S128x256_S2000x256_1_0_0_1_n_n 128 rfl rfl k
  have el : dot_S2000x128_S128x256_S2000x256_1_0_0_1_n_n.lhsIdx (ix2 r j) ((contrEquiv1 dot_S2000x128_S128x256_S2000x256_1_0_0_1_n_n 128 rfl rfl).symm k) = ix2 r k := funext fun a => Fin.ext (by
    match a with
    | ⟨0, _⟩ => exact lhs_axis0 _ _
    | ⟨1, _⟩ => exact (lhs_axis1 _ _).trans hk)
  have er : dot_S2000x128_S128x256_S2000x256_1_0_0_1_n_n.rhsIdx (ix2 r j) ((contrEquiv1 dot_S2000x128_S128x256_S2000x256_1_0_0_1_n_n 128 rfl rfl).symm k) = ix2 k j := funext fun a => Fin.ext (by
    match a with
    | ⟨0, _⟩ => exact (rhs_axis0 _ _).trans hk
    | ⟨1, _⟩ => exact rhs_axis1 _ _)
  rw [el, er]

/-- A weight slice [1,128,256] seen as a matrix [128,256]: entry (k, j) is entry (0, k, j). -/
theorem slice_at (v : Vec Ideal S1x128x256 .bf16) (k : Fin 128) (j : Fin 256) :
    shapeCast S128x256 v shapeCasts_S1x128x256_S128x256 (ix2 k j) = v (ix3 0 k j) := by
  refine shapeCast_apply v shapeCasts_S1x128x256_S128x256 (ix2 k j) (ix3 0 k j) ?_
  rw [Shape.rowMajor_val_three, Shape.rowMajor_val_two]
  show (0 * 128 + k.val) * 256 + j.val = k.val * 256 + j.val
  omega

/-- The bias row spread over the block's 2000 rows: entry (r, j) is entry (0, j). -/
theorem bias_at (v : Vec Ideal S1x256 .f32) (r : Fin 2000) (j : Fin 256) :
    broadcastTo S2000x256 v broadcasts_S1x256_S2000x256 (ix2 r j) = v (ix2 0 j) := by
  refine broadcastTo_apply v broadcasts_S1x256_S2000x256 (ix2 r j) (ix2 0 j) fun a => ?_
  match a with
  | ⟨0, _⟩ => rfl
  | ⟨1, _⟩ => rfl

/-- One direction's value on a block, entry (r, j). -/
def chebBlock (t0 t1 t2 t3 : Vec Ideal S2000x128 .bf16) (w0 w1 w2 w3 : Vec Ideal S1x128x256 .bf16) (b : Vec Ideal S1x256 .f32)
    (r : Fin 2000) (j : Fin 256) : EReal :=
  max (((((∑ k : Fin 128, t0 (ix2 r k) * w0 (ix3 0 k j)) + ∑ k : Fin 128, t1 (ix2 r k) * w1 (ix3 0 k j))
    + ∑ k : Fin 128, t2 (ix2 r k) * w2 (ix3 0 k j)) + ∑ k : Fin 128, t3 (ix2 r k) * w3 (ix3 0 k j)) + b (ix2 0 j)) 0

/-- The forward direction's arithmetic at entry (r, j) of the block. -/
theorem pay1_at (v0 : Vec Ideal S2000x128 .bf16) (v2 : Vec Ideal S1x128x256 .bf16) (v5 : Vec Ideal S2000x128 .bf16) (v7 : Vec Ideal S1x128x256 .bf16)
    (v11 : Vec Ideal S2000x128 .bf16) (v13 : Vec Ideal S1x128x256 .bf16) (v17 : Vec Ideal S2000x128 .bf16) (v19 : Vec Ideal S1x128x256 .bf16)
    (v23 : Vec Ideal S1x256 .f32) (r : Fin 2000) (j : Fin 256) :
    k1_pay1 (F := Ideal) v0 v2 v5 v7 v11 v13 v17 v19 v23 (ix2 r j) = chebBlock v0 v5 v11 v17 v2 v7 v13 v19 v23 r j := by
  unfold k1_pay1 chebBlock
  simp only [shapeCast_self]
  show max (((( _ + _) + _) + _) + _) (Ideal.ofBits .f32 0x00000000#32) = _
  rw [Ideal.ofBits_zero_f32]
  refine congrArg (fun z => max z 0) ?_
  refine congrArg₂ (· + ·) (congrArg₂ (· + ·) (congrArg₂ (· + ·) (congrArg₂ (· + ·) ?_ ?_) ?_) ?_) (bias_at v23 r j)
  · refine (product_at _ _ r j).trans (Finset.sum_congr rfl fun k _ => ?_); rw [slice_at]
  · refine (product_at _ _ r j).trans (Finset.sum_congr rfl fun k _ => ?_); rw [slice_at]
  · refine (product_at _ _ r j).trans (Finset.sum_congr rfl fun k _ => ?_); rw [slice_at]
  · refine (product_at _ _ r j).trans (Finset.sum_congr rfl fun k _ => ?_); rw [slice_at]

/-- The reversed direction's arithmetic is the same operations on its own operands. -/
theorem pay2_at (v0 : Vec Ideal S2000x128 .bf16) (v2 : Vec Ideal S1x128x256 .bf16) (v5 : Vec Ideal S2000x128 .bf16) (v7 : Vec Ideal S1x128x256 .bf16)
    (v11 : Vec Ideal S2000x128 .bf16) (v13 : Vec Ideal S1x128x256 .bf16) (v17 : Vec Ideal S2000x128 .bf16) (v19 : Vec Ideal S1x128x256 .bf16)
    (v23 : Vec Ideal S1x256 .f32) (r : Fin 2000) (j : Fin 256) :
    k1_pay2 (F := Ideal) v0 v2 v5 v7 v11 v13 v17 v19 v23 (ix2 r j) = chebBlock v0 v5 v11 v17 v2 v7 v13 v19 v23 r j :=
  pay1_at v0 v2 v5 v7 v11 v13 v17 v19 v23 r j

end Cert.KernelIdeal.Layer1

end
-- ==== Proof.Layer1K.lean ====
import proofs.«418800_j15479062135021_1_alg».proof.Proof.Gen.KernelIdeal.Frame
import proofs.«418800_j15479062135021_1_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«418800_j15479062135021_1_alg».proof.Proof.Layer1KAux

/-! The second layer's region of the idealized kernel: what its output array holds when the region ends, element by
    element, from the arrays of its twelve input windows as the region finds them. -/

set_option maxRecDepth 16384

noncomputable section

namespace Cert.KernelIdeal.Layer1

open Idealize.ShloMosaic Idealize.ShloMosaic.TcCoe Idealize.SL.Sem Idealize.ShloMosaic.ValueIdx
open Idealize.ShloMosaic.Pipeline (Dat)
open Cert.KernelIdeal Cert.KernelIdeal.Gen

/- the buffer contents when the region is entered: any -/
variable (V : (c : Dev nD) → (b : Ref sig .tc) → Buf (Elt Ideal) ((c : Thread nD τ).loc b))

/-- The arrays of the region's input windows as it finds them: the four Chebyshev terms, the four weight matrices and the
    bias of the forward direction (windows 0 to 5), then the same of the reversed direction (windows 6 to 11). -/
abbrev a0 (c : Dev nD) : Vec Ideal S100000x128 .bf16 := V c (Pipeline.arrRef spec1 0)
abbrev a1 (c : Dev nD) : Vec Ideal S100000x128 .bf16 := V c (Pipeline.arrRef spec1 1)
abbrev a2 (c : Dev nD) : Vec Ideal S100000x128 .bf16 := V c (Pipeline.arrRef spec1 2)
abbrev a3 (c : Dev nD) : Vec Ideal S100000x128 .bf16 := V c (Pipeline.arrRef spec1 3)
abbrev a4 (c : Dev nD) : Vec Ideal S4x128x256 .bf16 := V c (Pipeline.arrRef spec1 4)
abbrev a5 (c : Dev nD) : Vec Ideal S1x256 .f32 := V c (Pipeline.arrRef spec1 5)
abbrev a6 (c : Dev nD) : Vec Ideal S100000x128 .bf16 := V c (Pipeline.arrRef spec1 6)
abbrev a7 (c : Dev nD) : Vec Ideal S100000x128 .bf16 := V c (Pipeline.arrRef spec1 7)
abbrev a8 (c : Dev nD) : Vec Ideal S100000x128 .bf16 := V c (Pipeline.arrRef spec1 8)
abbrev a9 (c : Dev nD) : Vec Ideal S100000x128 .bf16 := V c (Pipeline.arrRef spec1 9)
abbrev a10 (c : Dev nD) : Vec Ideal S4x128x256 .bf16 := V c (Pipeline.arrRef spec1 10)
abbrev a11 (c : Dev nD) : Vec Ideal S1x256 .f32 := V c (Pipeline.arrRef spec1 11)
/-- The region's output array when the region ends. -/
abbrev out (c : Dev nD) : Vec Ideal S100000x512 .bf16 := (dat1 (F := Ideal) V c).arrAt 12 cfg1.N

/-! ## Where each window's block sits -/

theorem zeros2 : (![0, 0] : Fin 2 → Nat) = fun _ => 0 := funext fun a => by fin_cases a <;> rfl

/-- At grid point t the term windows and the output window are at block row t, block column 0; the weight and bias
    windows stay at block 0 (decided over the 50 points). -/
theorem block_index : ∀ t : Fin cfg1.N,
    ((win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0)
    ∧ (win1_6.index t (0 : Fin 2) = t.val ∧ win1_6.index t (1 : Fin 2) = 0)
    ∧ (win1_7.index t (0 : Fin 2) = t.val ∧ win1_7.index t (1 : Fin 2) = 0)
    ∧ (win1_8.index t (0 : Fin 2) = t.val ∧ win1_8.index t (1 : Fin 2) = 0)
    ∧ (win1_9.index t (0 : Fin 2) = t.val ∧ win1_9.index t (1 : Fin 2) = 0))
    ∧ ((win1_4.index t (0 : Fin 3) = 0 ∧ win1_4.index t (1 : Fin 3) = 0 ∧ win1_4.index t (2 : Fin 3) = 0)
    ∧ (win1_10.index t (0 : Fin 3) = 0 ∧ win1_10.index t (1 : Fin 3) = 0 ∧ win1_10.index t (2 : Fin 3) = 0))
    ∧ ((win1_5.index t (0 : Fin 2) = 0 ∧ win1_5.index t (1 : Fin 2) = 0)
    ∧ (win1_11.index t (0 : Fin 2) = 0 ∧ win1_11.index t (1 : Fin 2) = 0))
    ∧ (win1_12.index t (0 : Fin 2) = t.val ∧ win1_12.index t (1 : Fin 2) = 0) :=
  (by decide +kernel : ∀ t : Fin grid1.N, _)

theorem point_lt (t : Fin cfg1.N) : t.val < 50 := by have := t.isLt; have h : cfg1.N = 50 := N_1; omega

/-! ## Each input block as entries of its array

A block's entry sits in the array, on each axis, at the block index times the block's size plus its own coordinate: a term
block's row r at point t is node 2000 t + r; the weight and bias blocks are their whole arrays. -/

theorem terms0_at (c : Dev nD) (t : Fin cfg1.N) (r : Fin 2000) (k : Fin 128) :
    (iblk1 (F := Ideal) V c 0 t : Vec Ideal S2000x128 .bf16) (ix2 r k)
      = a0 V c (ix2 ⟨2000 * t.val + r.val, by have := point_lt t; have := r.isLt; omega⟩ k) := by
  obtain ⟨⟨⟨e0, e1⟩, -, -, -, -, -, -, -⟩, -, -, -⟩ := block_index t
  unfold iblk1
  rw [View.read_apply]
  show V c (Pipeline.arrRef spec1 0) _ = V c (Pipeline.arrRef spec1 0) _
  refine congrArg _ (funext fun a => Fin.ext ?_)
  match a with
  | ⟨0, _⟩ => show win1_0.index t (0 : Fin 2) * 2000 + 1 * r.val = 2000 * t.val + r.val; rw [e0]; omega
  | ⟨1, _⟩ => show win1_0.index t (1 : Fin 2) * 128 + 1 * k.val = k.val; rw [e1]; omega

theorem terms1_at (c : Dev nD) (t : Fin cfg1.N) (r : Fin 2000) (k : Fin 128) :
    (iblk1 (F := Ideal) V c 1 t : Vec Ideal S2000x128 .bf16) (ix2 r k)
      = a1 V c (ix2 ⟨2000 * t.val + r.val, by have := point_lt t; have := r.isLt; omega⟩ k) := by
  obtain ⟨⟨-, ⟨e0, e1⟩, -, -, -, -, -, -⟩, -, -, -⟩ := block_index t
  unfold iblk1
  rw [View.read_apply]
  show V c (Pipeline.arrRef spec1 1) _ = V c (Pipeline.arrRef spec1 1) _
  refine congrArg _ (funext fun a => Fin.ext ?_)
  match a with
  | ⟨0, _⟩ => show win1_1.index t (0 : Fin 2) * 2000 + 1 * r.val = 2000 * t.val + r.val; rw [e0]; omega
  | ⟨1, _⟩ => show win1_1.index t (1 : Fin 2) * 128 + 1 * k.val = k.val; rw [e1]; omega

theorem terms2_at (c : Dev nD) (t : Fin cfg1.N) (r : Fin 2000) (k : Fin 128) :
    (iblk1 (F := Ideal) V c 2 t : Vec Ideal S2000x128 .bf16) (ix2 r k)
      = a2 V c (ix2 ⟨2000 * t.val + r.val, by have := point_lt t; have := r.isLt; omega⟩ k) := by
  obtain ⟨⟨-, -, ⟨e0, e1⟩, -, -, -, -, -⟩, -, -, -⟩ := block_index t
  unfold iblk1
  rw [View.read_apply]
  show V c (Pipeline.arrRef spec1 2) _ = V c (Pipeline.arrRef spec1 2) _
  refine congrArg _ (funext fun a => Fin.ext ?_)
  match a with
  | ⟨0, _⟩ => show win1_2.index t (0 : Fin 2) * 2000 + 1 * r.val = 2000 * t.val + r.val; rw [e0]; omega
  | ⟨1, _⟩ => show win1_2.index t (1 : Fin 2) * 128 + 1 * k.val = k.val; rw [e1]; omega

theorem terms3_at (c : Dev nD) (t : Fin cfg1.N) (r : Fin 2000) (k : Fin 128) :
    (iblk1 (F := Ideal) V c 3 t : Vec Ideal S2000x128 .bf16) (ix2 r k)
      = a3 V c (ix2 ⟨2000 * t.val + r.val, by have := point_lt t; have := r.isLt; omega⟩ k) := by
  obtain ⟨⟨-, -, -, ⟨e0, e1⟩, -, -, -, -⟩, -, -, -⟩ := block_index t
  unfold iblk1
  rw [View.read_apply]
  show V c (Pipeline.arrRef spec1 3) _ = V c (Pipeline.arrRef spec1 3) _
  refine congrArg _ (funext fun a => Fin.ext ?_)
  match a with
  | ⟨0, _⟩ => show win1_3.index t (0 : Fin 2) * 2000 + 1 * r.val = 2000 * t.val + r.val; rw [e0]; omega
  | ⟨1, _⟩ => show win1_3.index t (1 : Fin 2) * 128 + 1 * k.val = k.val; rw [e1]; omega

theorem terms6_at (c : Dev nD) (t : Fin cfg1.N) (r : Fin 2000) (k : Fin 128) :
    (iblk1 (F := Ideal) V c 6 t : Vec Ideal S2000x128 .bf16) (ix2 r k)
      = a6 V c (ix2 ⟨2000 * t.val + r.val, by have := point_lt t; have := r.isLt; omega⟩ k) := by
  obtain ⟨⟨-, -, -, -, ⟨e0, e1⟩, -, -, -⟩, -, -, -⟩ := block_index t
  unfold iblk1
  rw [View.read_apply]
  show V c (Pipeline.arrRef spec1 6) _ = V c (Pipeline.arrRef spec1 6) _
  refine congrArg _ (funext fun a => Fin.ext ?_)
  match a with
  | ⟨0, _⟩ => show win1_6.index t (0 : Fin 2) * 2000 + 1 * r.val = 2000 * t.val + r.val; rw [e0]; omega
  | ⟨1, _⟩ => show win1_6.index t (1 : Fin 2) * 128 + 1 * k.val = k.val; rw [e1]; omega

theorem terms7_at (c : Dev nD) (t : Fin cfg1.N) (r : Fin 2000) (k : Fin 128) :
    (iblk1 (F := Ideal) V c 7 t : Vec Ideal S2000x128 .bf16) (ix2 r k)
      = a7 V c (ix2 ⟨2000 * t.val + r.val, by have := point_lt t; have := r.isLt; omega⟩ k) := by
  obtain ⟨⟨-, -, -, -, -, ⟨e0, e1⟩, -, -⟩, -, -, -⟩ := block_index t
  unfold iblk1
  rw [View.read_apply]
  show V c (Pipeline.arrRef spec1 7) _ = V c (Pipeline.arrRef spec1 7) _
  refine congrArg _ (funext fun a => Fin.ext ?_)
  match a with
  | ⟨0, _⟩ => show win1_7.index t (0 : Fin 2) * 2000 + 1 * r.val = 2000 * t.val + r.val; rw [e0]; omega
  | ⟨1, _⟩ => show win1_7.index t (1 : Fin 2) * 128 + 1 * k.val = k.val; rw [e1]; omega

theorem terms8_at (c : Dev nD) (t : Fin cfg1.N) (r : Fin 2000) (k : Fin 128) :
    (iblk1 (F := Ideal) V c 8 t : Vec Ideal S2000x128 .bf16) (ix2 r k)
      = a8 V c (ix2 ⟨2000 * t.val + r.val, by have := point_lt t; have := r.isLt; omega⟩ k) := by
  obtain ⟨⟨-, -, -, -, -, -, ⟨e0, e1⟩, -⟩, -, -, -⟩ := block_index t
  unfold iblk1
  rw [View.read_apply]
  show V c (Pipeline.arrRef spec1 8) _ = V c (Pipeline.arrRef spec1 8) _
  refine congrArg _ (funext fun a => Fin.ext ?_)
  match a with
  | ⟨0, _⟩ => show win1_8.index t (0 : Fin 2) * 2000 + 1 * r.val = 2000 * t.val + r.val; rw [e0]; omega
  | ⟨1, _⟩ => show win1_8.index t (1 : Fin 2) * 128 + 1 * k.val = k.val; rw [e1]; omega

theorem terms9_at (c : Dev nD) (t : Fin cfg1.N) (r : Fin 2000) (k : Fin 128) :
    (iblk1 (F := Ideal) V c 9 t : Vec Ideal S2000x128 .bf16) (ix2 r k)
      = a9 V c (ix2 ⟨2000 * t.val + r.val, by have := point_lt t; have := r.isLt; omega⟩ k) := by
  obtain ⟨⟨-, -, -, -, -, -, -, ⟨e0, e1⟩⟩, -, -, -⟩ := block_index t
  unfold iblk1
  rw [View.read_apply]
  show V c (Pipeline.arrRef spec1 9) _ = V c (Pipeline.arrRef spec1 9) _
  refine congrArg _ (funext fun a => Fin.ext ?_)
  match a with
  | ⟨0, _⟩ => show win1_9.index t (0 : Fin 2) * 2000 + 1 * r.val = 2000 * t.val + r.val; rw [e0]; omega
  | ⟨1, _⟩ => show win1_9.index t (1 : Fin 2) * 128 + 1 * k.val = k.val; rw [e1]; omega

theorem weights4_at (c : Dev nD) (t : Fin cfg1.N) (a : Fin 4) (k : Fin 128) (j : Fin 256) :
    (iblk1 (F := Ideal) V c 4 t : Vec Ideal S4x128x256 .bf16) (ix3 a k j) = a4 V c (ix3 a k j) := by
  obtain ⟨-, ⟨⟨e0, e1, e2⟩, -⟩, -, -⟩ := block_index t
  unfold iblk1
  rw [View.read_apply]
  show V c (Pipeline.arrRef spec1 4) _ = V c (Pipeline.arrRef spec1 4) _
  refine congrArg _ (funext fun b => Fin.ext ?_)
  match b with
  | ⟨0, _⟩ => show win1_4.index t (0 : Fin 3) * 4 + 1 * a.val = a.val; rw [e0]; omega
  | ⟨1, _⟩ => show win1_4.index t (1 : Fin 3) * 128 + 1 * k.val = k.val; rw [e1]; omega
  | ⟨2, _⟩ => show win1_4.index t (2 : Fin 3) * 256 + 1 * j.val = j.val; rw [e2]; omega

theorem weights10_at (c : Dev nD) (t : Fin cfg1.N) (a : Fin 4) (k : Fin 128) (j : Fin 256) :
    (iblk1 (F := Ideal) V c 10 t : Vec Ideal S4x128x256 .bf16) (ix3 a k j) = a10 V c (ix3 a k j) := by
  obtain ⟨-, ⟨-, ⟨e0, e1, e2⟩⟩, -, -⟩ := block_index t
  unfold iblk1
  rw [View.read_apply]
  show V c (Pipeline.arrRef spec1 10) _ = V c (Pipeline.arrRef spec1 10) _
  refine congrArg _ (funext fun b => Fin.ext ?_)
  match b with
  | ⟨0, _⟩ => show win1_10.index t (0 : Fin 3) * 4 + 1 * a.val = a.val; rw [e0]; omega
  | ⟨1, _⟩ => show win1_10.index t (1 : Fin 3) * 128 + 1 * k.val = k.val; rw [e1]; omega
  | ⟨2, _⟩ => show win1_10.index t (2 : Fin 3) * 256 + 1 * j.val = j.val; rw [e2]; omega

theorem bias5_at (c : Dev nD) (t : Fin cfg1.N) (j : Fin 256) :
    (iblk1 (F := Ideal) V c 5 t : Vec Ideal S1x256 .f32) (ix2 0 j) = a5 V c (ix2 0 j) := by
  obtain ⟨-, -, ⟨⟨e0, e1⟩, -⟩, -⟩ := block_index t
  unfold iblk1
  rw [View.read_apply]
  show V c (Pipeline.arrRef spec1 5) _ = V c (Pipeline.arrRef spec1 5) _
  refine congrArg _ (funext fun b => Fin.ext ?_)
  match b with
  | ⟨0, _⟩ => show win1_5.index t (0 : Fin 2) * 1 + 1 * 0 = 0; rw [e0]
  | ⟨1, _⟩ => show win1_5.index t (1 : Fin 2) * 256 + 1 * j.val = j.val; rw [e1]; omega

theorem bias11_at (c : Dev nD) (t : Fin cfg1.N) (j : Fin 256) :
    (iblk1 (F := Ideal) V c 11 t : Vec Ideal S1x256 .f32) (ix2 0 j) = a11 V c (ix2 0 j) := by
  obtain ⟨-, -, ⟨-, ⟨e0, e1⟩⟩, -⟩ := block_index t
  unfold iblk1
  rw [View.read_apply]
  show V c (Pipeline.arrRef spec1 11) _ = V c (Pipeline.arrRef spec1 11) _
  refine congrArg _ (funext fun b => Fin.ext ?_)
  match b with
  | ⟨0, _⟩ => show win1_11.index t (0 : Fin 2) * 1 + 1 * 0 = 0; rw [e0]
  | ⟨1, _⟩ => show win1_11.index t (1 : Fin 2) * 256 + 1 * j.val = j.val; rw [e1]; omega

/-! ## The body's loads and stores on one block -/

/-- A load of the a-th of the four weight matrices: entry (0, k, j) of what is loaded is entry (a, k, j) of the array. -/
theorem ld_weights0 (x : Vec Ideal S4x128x256 .bf16) (k : Fin 128) (j : Fin 256) :
    View.ld x r1_1 (ix3 (0 : Fin 1) k j) = x (ix3 0 k j) :=
  congrArg x (funext fun b => Fin.ext (by
    match b with
    | ⟨0, _⟩ => rfl
    | ⟨1, _⟩ => show 0 + 1 * k.val = k.val; omega
    | ⟨2, _⟩ => show 0 + 1 * j.val = j.val; omega))
theorem ld_weights1 (x : Vec Ideal S4x128x256 .bf16) (k : Fin 128) (j : Fin 256) :
    View.ld x r1_2 (ix3 (0 : Fin 1) k j) = x (ix3 1 k j) :=
  congrArg x (funext fun b => Fin.ext (by
    match b with
    | ⟨0, _⟩ => rfl
    | ⟨1, _⟩ => show 0 + 1 * k.val = k.val; omega
    | ⟨2, _⟩ => show 0 + 1 * j.val = j.val; omega))
theorem ld_weights2 (x : Vec Ideal S4x128x256 .bf16) (k : Fin 128) (j : Fin 256) :
    View.ld x r1_3 (ix3 (0 : Fin 1) k j) = x (ix3 2 k j) :=
  congrArg x (funext fun b => Fin.ext (by
    match b with
    | ⟨0, _⟩ => rfl
    | ⟨1, _⟩ => show 0 + 1 * k.val = k.val; omega
    | ⟨2, _⟩ => show 0 + 1 * j.val = j.val; omega))
theorem ld_weights3 (x : Vec Ideal S4x128x256 .bf16) (k : Fin 128) (j : Fin 256) :
    View.ld x r1_4 (ix3 (0 : Fin 1) k j) = x (ix3 3 k j) :=
  congrArg x (funext fun b => Fin.ext (by
    match b with
    | ⟨0, _⟩ => rfl
    | ⟨1, _⟩ => show 0 + 1 * k.val = k.val; omega
    | ⟨2, _⟩ => show 0 + 1 * j.val = j.val; omega))

/-- The left half of the output block holds the later-listed store's value, -/
theorem canon_left (p2 p1 : Vec Ideal S2000x256 .bf16) (r : Fin 2000) (j : Fin 256) :
    View.canon [(⟨r1_7, p2⟩ : View.Piece (Elt Ideal) S2000x512 .bf16), ⟨r1_6, p1⟩] (ix2 r ⟨j.val, lt_of_lt_of_le j.isLt (by decide)⟩) = p1 (ix2 r j) := by
  have hj := j.isLt
  rw [View.canon_cons_of_not_mem]
  · have e : (ix2 r ⟨j.val, lt_of_lt_of_le j.isLt (by decide)⟩ : S2000x512.Idx) = r1_6.emb (ix2 r j) := funext fun a => Fin.ext (by
      match a with
      | ⟨0, _⟩ => show r.val = 0 + 1 * r.val; omega
      | ⟨1, _⟩ => show j.val = 0 + 1 * j.val; omega)
    rw [e, View.canon_cons_emb]
  · show ¬ _ ∈ (Rect.unit (s := S2000x512) ![0, 256] S2000x256.size inb_S2000x512_S2000x256_0_256).set
    rw [Rect.mem_set_unit]
    intro h
    have h1 : 256 ≤ j.val := (h 1).1
    omega

/-- the right half the other's. -/
theorem canon_right (p2 p1 : Vec Ideal S2000x256 .bf16) (r : Fin 2000) (j : Fin 256) :
    View.canon [(⟨r1_7, p2⟩ : View.Piece (Elt Ideal) S2000x512 .bf16), ⟨r1_6, p1⟩] (ix2 r ⟨256 + j.val, by have := j.isLt; omega⟩) = p2 (ix2 r j) := by
  have e : (ix2 r ⟨256 + j.val, by have := j.isLt; omega⟩ : S2000x512.Idx) = r1_7.emb (ix2 r j) := funext fun a => Fin.ext (by
    match a with
    | ⟨0, _⟩ => show r.val = 0 + 1 * r.val; omega
    | ⟨1, _⟩ => show 256 + j.val = 256 + 1 * j.val; omega)
  rw [e, View.canon_cons_emb]

/-- What the body leaves in the output block, left half: the forward direction's value from the first six blocks. -/
theorem out_left (x0 x1 x2 x3 : Vec Ideal S2000x128 .bf16) (x4 : Vec Ideal S4x128x256 .bf16) (x5 : Vec Ideal S1x256 .f32) (x6 x7 x8 x9 : Vec Ideal S2000x128 .bf16) (x10 : Vec Ideal S4x128x256 .bf16) (x11 : Vec Ideal S1x256 .f32) (r : Fin 2000) (j : Fin 256) :
    out1_12 (F := Ideal) x0 x1 x2 x3 x4 x5 x6 x7 x8 x9 x10 x11 (ix2 r ⟨j.val, lt_of_lt_of_le j.isLt (by decide)⟩)
      = chebBlock x0 x1 x2 x3 (View.ld x4 r1_1) (View.ld x4 r1_2) (View.ld x4 r1_3) (View.ld x4 r1_4) x5 r j := by
  unfold out1_12
  refine (canon_left _ _ r j).trans ?_
  simp only [View.ld_unit_zero (S := S2000x128) zeros2, View.ld_unit_zero (S := S1x256) zeros2]
  exact pay1_at x0 (View.ld x4 r1_1) x1 (View.ld x4 r1_2) x2 (View.ld x4 r1_3) x3 (View.ld x4 r1_4) x5 r j

/-- Right half: the reversed direction's value from the last six. -/
theorem out_right (x0 x1 x2 x3 : Vec Ideal S2000x128 .bf16) (x4 : Vec Ideal S4x128x256 .bf16) (x5 : Vec Ideal S1x256 .f32) (x6 x7 x8 x9 : Vec Ideal S2000x128 .bf16) (x10 : Vec Ideal S4x128x256 .bf16) (x11 : Vec Ideal S1x256 .f32) (r : Fin 2000) (j : Fin 256) :
    out1_12 (F := Ideal) x0 x1 x2 x3 x4 x5 x6 x7 x8 x9 x10 x11 (ix2 r ⟨256 + j.val, by have := j.isLt; omega⟩)
      = chebBlock x6 x7 x8 x9 (View.ld x10 r1_1) (View.ld x10 r1_2) (View.ld x10 r1_3) (View.ld x10 r1_4) x11 r j := by
  unfold out1_12
  refine (canon_right _ _ r j).trans ?_
  simp only [View.ld_unit_zero (S := S2000x128) zeros2, View.ld_unit_zero (S := S1x256) zeros2]
  exact pay2_at x6 (View.ld x10 r1_1) x7 (View.ld x10 r1_2) x8 (View.ld x10 r1_3) x9 (View.ld x10 r1_4) x11 r j

/-- A block's value is the layer's value at node n, once each block entry it reads is known as an entry of the node
    features, the weights and the bias. -/
theorem chebBlock_eq (t0 t1 t2 t3 : Vec Ideal S2000x128 .bf16) (w0 w1 w2 w3 : Vec Ideal S1x128x256 .bf16) (b : Vec Ideal S1x256 .f32)
    (T0 T1 T2 T3 : Fin 100000 → Fin 128 → EReal) (W : Fin 4 → Fin 128 → Fin 256 → EReal) (B : Fin 256 → EReal)
    (r : Fin 2000) (n : Fin 100000) (j : Fin 256)
    (h0 : ∀ k, t0 (ix2 r k) = T0 n k) (h1 : ∀ k, t1 (ix2 r k) = T1 n k) (h2 : ∀ k, t2 (ix2 r k) = T2 n k) (h3 : ∀ k, t3 (ix2 r k) = T3 n k)
    (g0 : ∀ k, w0 (ix3 0 k j) = W 0 k j) (g1 : ∀ k, w1 (ix3 0 k j) = W 1 k j) (g2 : ∀ k, w2 (ix3 0 k j) = W 2 k j) (g3 : ∀ k, w3 (ix3 0 k j) = W 3 k j)
    (hb : b (ix2 0 j) = B j) :
    chebBlock t0 t1 t2 t3 w0 w1 w2 w3 b r j = Cert.Spec.cheb T0 T1 T2 T3 W B n j := by
  unfold chebBlock Cert.Spec.cheb
  simp only [h0, h1, h2, h3, g0, g1, g2, g3, hb]

/-! ## From blocks to the array -/

/-- What the output array holds when the region ends: at node n, columns below 256 the forward direction's layer value,
    the others the reversed direction's. -/
def layerOut (c : Dev nD) : Vec Ideal S100000x512 .bf16 := fun i =>
  if h : (i 1).val < 256 then
    Cert.Spec.cheb (fun n k => a0 V c (ix2 n k)) (fun n k => a1 V c (ix2 n k)) (fun n k => a2 V c (ix2 n k))
      (fun n k => a3 V c (ix2 n k)) (fun a k j => a4 V c (ix3 a k j)) (fun j => a5 V c (ix2 0 j)) (i 0) ⟨(i 1).val, h⟩
  else
    Cert.Spec.cheb (fun n k => a6 V c (ix2 n k)) (fun n k => a7 V c (ix2 n k)) (fun n k => a8 V c (ix2 n k))
      (fun n k => a9 V c (ix2 n k)) (fun a k j => a10 V c (ix3 a k j)) (fun j => a11 V c (ix2 0 j)) (i 0) ⟨(i 1).val - 256, by have h2 : (i 1).val < 512 := (i 1).isLt; omega⟩

theorem right_col_lt (j : Fin 256) : 256 + j.val < 512 := by have := j.isLt; omega

/-- What point t writes back is block t of that array: rows 2000 t to 2000 t + 1999, all 512 columns. -/
theorem flushed_eq (c : Dev nD) (t : Fin cfg1.N) :
    (dat1 V c).flushed 12 t = ((cfg1.win 12).blk t).view.read (Elt Ideal) (layerOut V c) := by
  show (cfg1.win 12).cut (grid1.coords t) ((dat1 V c).after 12 t) = _
  rw [after1_12]
  funext y
  obtain ⟨r, q, rfl⟩ : ∃ (r : Fin 2000) (q : Fin 512), y = ix2 r q := ⟨y 0, y 1, eq_ix2 y⟩
  have ht := point_lt t
  have hr := r.isLt
  obtain ⟨-, -, -, ⟨e0, e1⟩⟩ := block_index t
  have hemb : ((cfg1.win 12).blk t).view.emb (ix2 r q) = (ix2 ⟨2000 * t.val + r.val, by omega⟩ q : S100000x512.Idx) := funext fun a => Fin.ext (by
    match a with
    | ⟨0, _⟩ => show win1_12.index t (0 : Fin 2) * 2000 + 1 * r.val = 2000 * t.val + r.val; rw [e0]; omega
    | ⟨1, _⟩ => show win1_12.index t (1 : Fin 2) * 512 + 1 * q.val = q.val; rw [e1]; omega)
  rw [View.read_apply, hemb]
  show out1_12 (F := Ideal) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (ix2 r q) = layerOut V c (ix2 ⟨2000 * t.val + r.val, by omega⟩ q)
  by_cases hq : q.val < 256
  · refine (out_left (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) r ⟨q.val, hq⟩).trans ?_
    refine Eq.trans ?_ (dif_pos hq).symm
    exact chebBlock_eq _ _ _ _ _ _ _ _ _ _ _ _ _ _ _ r ⟨2000 * t.val + r.val, by omega⟩ ⟨q.val, hq⟩
      (terms0_at V c t r) (terms1_at V c t r) (terms2_at V c t r) (terms3_at V c t r)
      (fun k => (ld_weights0 _ k _).trans (weights4_at V c t 0 k _)) (fun k => (ld_weights1 _ k _).trans (weights4_at V c t 1 k _))
      (fun k => (ld_weights2 _ k _).trans (weights4_at V c t 2 k _)) (fun k => (ld_weights3 _ k _).trans (weights4_at V c t 3 k _))
      (bias5_at V c t _)
  · obtain ⟨j, rfl⟩ : ∃ j : Fin 256, q = ⟨256 + j.val, right_col_lt j⟩ :=
      ⟨⟨q.val - 256, by have := q.isLt; omega⟩, Fin.ext (by show q.val = 256 + (q.val - 256); omega)⟩
    refine (out_right (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) r j).trans ?_
    refine Eq.trans ?_ ((dif_neg hq).trans (congrArg (Cert.Spec.cheb (fun n k => a6 V c (ix2 n k)) (fun n k => a7 V c (ix2 n k)) (fun n k => a8 V c (ix2 n k))
      (fun n k => a9 V c (ix2 n k)) (fun a k j => a10 V c (ix3 a k j)) (fun j => a11 V c (ix2 0 j)) ⟨2000 * t.val + r.val, by omega⟩) (Fin.ext (by show 256 + j.val - 256 = j.val; omega)))).symm
    exact chebBlock_eq _ _ _ _ _ _ _ _ _ _ _ _ _ _ _ r ⟨2000 * t.val + r.val, by omega⟩ j
      (terms6_at V c t r) (terms7_at V c t r) (terms8_at V c t r) (terms9_at V c t r)
      (fun k => (ld_weights0 _ k _).trans (weights10_at V c t 0 k _)) (fun k => (ld_weights1 _ k _).trans (weights10_at V c t 1 k _))
      (fun k => (ld_weights2 _ k _).trans (weights10_at V c t 2 k _)) (fun k => (ld_weights3 _ k _).trans (weights10_at V c t 3 k _))
      (bias11_at V c t _)

/-- An index of the array is in point t's block iff each coordinate is in the block's range on its axis. -/
theorem mem_block (t : Fin cfg1.N) (i : S100000x512.Idx) :
    i ∈ ((cfg1.win 12).blk t).view.set ↔ ∀ a : Fin 2, win1_12.index t a * S2000x512.size a ≤ (i a).val ∧ (i a).val < win1_12.index t a * S2000x512.size a + S2000x512.size a := by
  show i ∈ ((View.whole main_v271).slice (win1_12.rect t)).set ↔ _
  rw [View.set_slice_whole, Rect.mem_set_unit]
  exact Iff.rfl

/-- Every row n of the array is in the block of point n / 2000, which writes back. -/
theorem covered (i : S100000x512.Idx) :
    ∃ t : Fin cfg1.N, (cfg1.win 12).flush t = true ∧ i ∈ ((cfg1.win 12).blk t).view.set := by
  have hi0 : (i 0).val < 100000 := (i 0).isLt
  have hi1 : (i 1).val < 512 := (i 1).isLt
  have hN : cfg1.N = 50 := N_1
  refine ⟨⟨(i 0).val / 2000, by omega⟩, flush1_12 _, ?_⟩
  obtain ⟨-, -, -, ⟨e0, e1⟩⟩ := block_index ⟨(i 0).val / 2000, by omega⟩
  rw [mem_block]
  intro a
  match a with
  | ⟨0, _⟩ =>
    show win1_12.index ⟨(i 0).val / 2000, _⟩ (0 : Fin 2) * 2000 ≤ (i 0).val ∧ (i 0).val < win1_12.index ⟨(i 0).val / 2000, _⟩ (0 : Fin 2) * 2000 + 2000
    rw [e0]; show (i 0).val / 2000 * 2000 ≤ (i 0).val ∧ (i 0).val < (i 0).val / 2000 * 2000 + 2000; omega
  | ⟨1, _⟩ =>
    show win1_12.index ⟨(i 0).val / 2000, _⟩ (1 : Fin 2) * 512 ≤ (i 1).val ∧ (i 1).val < win1_12.index ⟨(i 0).val / 2000, _⟩ (1 : Fin 2) * 512 + 512
    rw [e1]; omega

/-- So the output array ends holding the layer's two directions side by side. -/
theorem out_eq (c : Dev nD) : out V c = layerOut V c :=
  (dat1 V c).arrAt_eq_of_cover 12 (layerOut V c) (fun t _ => flushed_eq V c t) covered

/-- Columns `[0, 256)` of the output: the forward direction's layer value. -/
theorem value_fwd (c : Dev nD) (n : Fin 100000) (j : Fin 256) :
    out V c (ix2 n ⟨j.val, lt_of_lt_of_le j.isLt (by decide)⟩) =
      Cert.Spec.cheb (fun n k => a0 V c (ix2 n k)) (fun n k => a1 V c (ix2 n k)) (fun n k => a2 V c (ix2 n k))
        (fun n k => a3 V c (ix2 n k)) (fun a k j => a4 V c (ix3 a k j)) (fun j => a5 V c (ix2 0 j)) n j := by
  rw [out_eq]
  exact dif_pos j.isLt

/-- Columns `[256, 512)` of the output: the reversed direction's layer value. -/
theorem value_rev (c : Dev nD) (n : Fin 100000) (j : Fin 256) :
    out V c (ix2 n ⟨256 + j.val, by have := j.isLt; omega⟩) =
      Cert.Spec.cheb (fun n k => a6 V c (ix2 n k)) (fun n k => a7 V c (ix2 n k)) (fun n k => a8 V c (ix2 n k))
        (fun n k => a9 V c (ix2 n k)) (fun a k j => a10 V c (ix3 a k j)) (fun j => a11 V c (ix2 0 j)) n j := by
  rw [out_eq]
  refine (dif_neg (by show ¬ 256 + j.val < 256; omega)).trans ?_
  exact congrArg (Cert.Spec.cheb (fun n k => a6 V c (ix2 n k)) (fun n k => a7 V c (ix2 n k)) (fun n k => a8 V c (ix2 n k)) (fun n k => a9 V c (ix2 n k)) (fun a k j => a10 V c (ix3 a k j)) (fun j => a11 V c (ix2 0 j)) n) (Fin.ext (by show 256 + j.val - 256 = j.val; omega))

end Cert.KernelIdeal.Layer1

end
-- ==== Proof.PoolK.lean ====
import proofs.«418800_j15479062135021_1_alg».proof.Proof.Gen.KernelIdeal.Frame
import proofs.«418800_j15479062135021_1_alg».proof.Proof.Spec
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin
import Mathlib.Algebra.BigOperators.Group.Finset.Basic
import Mathlib.Data.EReal.Basic

/-! The pooling region of the idealized kernel: what its output array holds when the region ends, element by element,
    from the node features and the graph ids as the region finds them. -/

set_option maxRecDepth 16384

noncomputable section

namespace Cert.KernelIdeal.Pool

open Idealize.ShloMosaic Idealize.ShloMosaic.TcCoe Idealize.SL.Sem Idealize.ShloMosaic.ValueIdx
open Idealize.ShloMosaic.Pipeline (Dat)
open Cert.KernelIdeal Cert.KernelIdeal.Gen

/-! ## What one grid point leaves in the carried block

The body reads its three buffers whole (offsets zero) and stores the whole 512 × 512 block. At the first point it
first stores the zero block and reads it back; at every point it then stores the block it read plus the product of the
one-hot matrix of the point's graph ids, transposed, with the point's feature rows. -/

/-- The offsets (0, 0), as the constant-zero function. -/
theorem zero_offsets : (![0, 0] : Fin 2 → Nat) = fun _ => 0 := funext fun a => by fin_cases a <;> rfl

section AnyValues
variable {F : FTy → Type} [FloatOps F]

/-- A point that is not the first: over the carried block `xo` the body leaves the accumulating term of the id block
    `x1`, the feature block `x0` and `xo` — its one store covers the block, and its loads read the buffers whole. -/
theorem adding_point (c : Dev nD) (i : grid2.Coords) (a1 : Memref sig .tc .vmem S2000x512 .bf16) (h1 : a1.IsWhole)
    (a2 : Memref sig .tc .vmem S2000x1 .i32) (h2 : a2.IsWhole) (a3 : Memref sig .tc .vmem S512x512 .f32) (h3 : a3.IsWhole)
    (hc : ¬cond2_0 i) (x0 : Vec F S2000x512 .bf16) (x1 : Vec F S2000x1 .i32) (xo : Vec F S512x512 .f32) :
    out2_B_2 c i a1 h1 a2 h2 a3 h3 hc x0 x1 xo = k2_pay2 x1 x0 xo := by
  unfold out2_B_2
  rw [View.read_writes_eq_canon _ _ _ (cover2_B_2 c i a1 h1 a2 h2 a3 h3 hc x0 x1 xo)]
  unfold kernelRun2_B
  dsimp only
  rw [View.canon_unit_zero zero_offsets]
  simp only [View.readAt_eq_ld, h1.read_unread, h2.read_unread, h3.read_unread, View.ld_unit_zero (S := S2000x512) zero_offsets,
    View.ld_unit_zero (S := S2000x1) zero_offsets, View.ld_unit_zero (S := S512x512) zero_offsets]

/-- The first point: the body stores the zero block, reads it back, and leaves the accumulating term over it — the
    later of its two covering stores is what stays, and the block it read in between is the zero block. -/
theorem reset_point (c : Dev nD) (i : grid2.Coords) (a1 : Memref sig .tc .vmem S2000x512 .bf16) (h1 : a1.IsWhole)
    (a2 : Memref sig .tc .vmem S2000x1 .i32) (h2 : a2.IsWhole) (a3 : Memref sig .tc .vmem S512x512 .f32) (h3 : a3.IsWhole)
    (hc : cond2_0 i) (x0 : Vec F S2000x512 .bf16) (x1 : Vec F S2000x1 .i32) :
    out2_A_2 c i a1 h1 a2 h2 a3 h3 hc x0 x1 = k2_pay2 x1 x0 (k2_pay1 (F := F)) := by
  unfold out2_A_2
  rw [View.read_writes_eq_canon _ _ _ (cover2_A_2 c i a1 h1 a2 h2 a3 h3 hc x0 x1)]
  unfold kernelRun2_A
  dsimp only
  sl_unfold_words
  rw [View.canon_cons_unit_zero (S := S512x512) zero_offsets, View.readCov_unit_zero (S := S512x512) _ zero_offsets]
  simp only [View.readAt_eq_ld, h1.read_unread, h2.read_unread, View.ld_unit_zero (S := S2000x512) zero_offsets,
    View.ld_unit_zero (S := S2000x1) zero_offsets]

end AnyValues

/-! ## The accumulating term at an entry, on the extended reals -/

/-- The product contracts axis 0 of both operands. Its left operand is read at (contraction index, output row) … -/
theorem pool_lhs_0 (i : S512x512.Idx) (q : dot_S2000x512_S2000x512_S512x512_0_0_1_1_n_n.contr.Idx) :
    (dot_S2000x512_S2000x512_S512x512_0_0_1_1_n_n.lhsIdx i q 0).val = (q ⟨0, by decide⟩).val :=
  dot_S2000x512_S2000x512_S512x512_0_0_1_1_n_n.lhsIdx_val_of_single rfl i q
theorem pool_lhs_1 (i : S512x512.Idx) (q : dot_S2000x512_S2000x512_S512x512_0_0_1_1_n_n.contr.Idx) :
    (dot_S2000x512_S2000x512_S512x512_0_0_1_1_n_n.lhsIdx i q 1).val = (i 0).val := by
  unfold DotDims.lhsIdx
  rw [dif_neg (show ¬(1 : Fin S2000x512.rank) ∈ dot_S2000x512_S2000x512_S512x512_0_0_1_1_n_n.lhsBatch by decide), dif_pos (show (1 : Fin S2000x512.rank) ∈ dot_S2000x512_S2000x512_S512x512_0_0_1_1_n_n.lhsNonContracting by decide)]
  rfl
/-- … and its right operand at (contraction index, output column). -/
theorem pool_rhs_0 (i : S512x512.Idx) (q : dot_S2000x512_S2000x512_S512x512_0_0_1_1_n_n.contr.Idx) :
    (dot_S2000x512_S2000x512_S512x512_0_0_1_1_n_n.rhsIdx i q 0).val = (q ⟨0, by decide⟩).val :=
  dot_S2000x512_S2000x512_S512x512_0_0_1_1_n_n.rhsIdx_val_of_single rfl i q
theorem pool_rhs_1 (i : S512x512.Idx) (q : dot_S2000x512_S2000x512_S512x512_0_0_1_1_n_n.contr.Idx) :
    (dot_S2000x512_S2000x512_S512x512_0_0_1_1_n_n.rhsIdx i q 1).val = (i 1).val := by
  unfold DotDims.rhsIdx
  rw [dif_neg (show ¬(1 : Fin S2000x512.rank) ∈ dot_S2000x512_S2000x512_S512x512_0_0_1_1_n_n.rhsBatch by decide), dif_pos (show (1 : Fin S2000x512.rank) ∈ dot_S2000x512_S2000x512_S512x512_0_0_1_1_n_n.rhsNonContracting by decide)]
  rfl

/-- So the product into the zero block, at entry (g, f), is the sum over the block's rows r of L (r, g) * R (r, f). -/
theorem matmul_rows (L R : FVec Ideal S2000x512 .bf16) (g f : Fin 512) :
    matmul dot_S2000x512_S2000x512_S512x512_0_0_1_1_n_n none L R (constant (F := Ideal) S512x512 .f32 0x00000000#32) (ix2 g f)
      = ∑ r : Fin 2000, L (ix2 r g) * R (ix2 r f) := by
  simp only [matmul]
  rw [Ideal.matmul_constant_zero_apply, ← Equiv.sum_comp (contrEquiv1 dot_S2000x512_S2000x512_S512x512_0_0_1_1_n_n 2000 rfl rfl).symm]
  refine Finset.sum_congr rfl fun k _ => ?_
  have hk := contrEquiv1_symm_val dot_S2000x512_S2000x512_S512x512_0_0_1_1_n_n 2000 rfl rfl k
  have el : dot_S2000x512_S2000x512_S512x512_0_0_1_1_n_n.lhsIdx (ix2 g f) ((contrEquiv1 dot_S2000x512_S2000x512_S512x512_0_0_1_1_n_n 2000 rfl rfl).symm k) = ix2 k g := funext fun a => Fin.ext (by
    match a with
    | ⟨0, _⟩ => exact (pool_lhs_0 _ _).trans hk
    | ⟨1, _⟩ => exact pool_lhs_1 _ _)
  have er : dot_S2000x512_S2000x512_S512x512_0_0_1_1_n_n.rhsIdx (ix2 g f) ((contrEquiv1 dot_S2000x512_S2000x512_S512x512_0_0_1_1_n_n 2000 rfl rfl).symm k) = ix2 k f := funext fun a => Fin.ext (by
    match a with
    | ⟨0, _⟩ => exact (pool_rhs_0 _ _).trans hk
    | ⟨1, _⟩ => exact pool_rhs_1 _ _)
  rw [el, er]

/-- The one-hot factor at row r, column g: the row's graph id, spread along the columns, compared with the column
    number; the one-bit answer widened and read as a number is 1 where they agree and 0 where they do not (a change of
    float format is the identity). -/
theorem onehot_apply (v4 : Vec Ideal S2000x1 .i32) (r : Fin 2000) (g : Fin 512) :
    (truncf .bf16 (sitofp (F := Ideal) .f32 (extui 32 (cmpi .eq (broadcastTo S2000x512 (shapeCast S2000x1 v4 shapeCasts_S2000x1_S2000x1) broadcasts_S2000x1_S2000x512) (iota .tc S2000x512 32 [1] iota_S2000x512_d1_w32)) natLt_1_32)) bitsLt_bf16_f32 : FVec Ideal S2000x512 .bf16) (ix2 r g)
      = if v4 (ix2 r 0) = BitVec.ofNat 32 g.val then 1 else 0 := by
  have hb : broadcastTo S2000x512 (shapeCast S2000x1 v4 shapeCasts_S2000x1_S2000x1) broadcasts_S2000x1_S2000x512 (ix2 r g) = v4 (ix2 r 0) := by
    rw [shapeCast_self]
    exact broadcastTo_apply v4 broadcasts_S2000x1_S2000x512 (ix2 r g) (ix2 r 0) (fun a => by
      match a with
      | ⟨0, _⟩ => rfl
      | ⟨1, _⟩ => rfl)
  have hi : iota .tc S2000x512 32 [1] iota_S2000x512_d1_w32 (ix2 r g) = BitVec.ofNat 32 g.val :=
    iota_single_apply .tc S2000x512 32 1 iota_S2000x512_d1_w32 (ix2 r g)
  show ((((IntOp.cmpi .eq (broadcastTo S2000x512 (shapeCast S2000x1 v4 shapeCasts_S2000x1_S2000x1) broadcasts_S2000x1_S2000x512 (ix2 r g))
      (iota .tc S2000x512 32 [1] iota_S2000x512_d1_w32 (ix2 r g))).setWidth 32).toInt : ℝ) : EReal) = _
  rw [hb, hi]
  by_cases h : v4 (ix2 r 0) = BitVec.ofNat 32 g.val
  · have e1 : ((1#1 : BitVec 1).setWidth 32).toInt = 1 := by decide
    rw [if_pos h, show IntOp.cmpi .eq (v4 (ix2 r 0)) (BitVec.ofNat 32 g.val) = 1#1 from by simp [IntOp.cmpi, h], e1,
      Int.cast_one, EReal.coe_one]
  · have e0 : ((0#1 : BitVec 1).setWidth 32).toInt = 0 := by decide
    rw [if_neg h, show IntOp.cmpi .eq (v4 (ix2 r 0)) (BitVec.ofNat 32 g.val) = 0#1 from by
        show BitVec.ofBool (v4 (ix2 r 0) == BitVec.ofNat 32 g.val) = 0#1
        rw [beq_eq_false_iff_ne.mpr h]; rfl, e0,
      Int.cast_zero, EReal.coe_zero]

/-- The accumulating term at (g, f): the carried block there plus the sum, over the block's rows, of feature f of the
    rows whose graph id is g — a product with the one-hot factor selects: 1 * x = x and 0 * x = 0 for every extended
    real x. -/
theorem adding_term_apply (v4 : Vec Ideal S2000x1 .i32) (v11 : Vec Ideal S2000x512 .bf16) (v14 : Vec Ideal S512x512 .f32) (g f : Fin 512) :
    k2_pay2 (F := Ideal) v4 v11 v14 (ix2 g f)
      = v14 (ix2 g f) + ∑ r : Fin 2000, (if v4 (ix2 r 0) = BitVec.ofNat 32 g.val then v11 (ix2 r f) else 0) := by
  unfold k2_pay2
  show shapeCast S512x512 v14 shapeCasts_S512x512_S512x512 (ix2 g f) + matmul dot_S2000x512_S2000x512_S512x512_0_0_1_1_n_n none _ _ (constant (F := Ideal) S512x512 .f32 0x00000000#32) (ix2 g f) = _
  rw [shapeCast_self, matmul_rows]
  refine congrArg (v14 (ix2 g f) + ·) (Finset.sum_congr rfl fun r _ => ?_)
  rw [onehot_apply, shapeCast_self]
  by_cases h : v4 (ix2 r 0) = BitVec.ofNat 32 g.val
  · rw [if_pos h, if_pos h, one_mul]
  · rw [if_neg h, if_neg h, zero_mul]

/-- The block the first point starts from is zero everywhere. -/
theorem zero_block_apply (g f : Fin 512) : k2_pay1 (F := Ideal) (ix2 g f) = 0 := by
  unfold k2_pay1
  exact Ideal.ofBits_zero_f32

/-- Where the input blocks sit: at point t the feature window and the id window are at block row t, block column 0. -/
theorem block_rows : ∀ t : Fin cfg2.N, win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, win2_0.index t (0 : Fin 2) = t.val ∧ win2_0.index t (1 : Fin 2) = 0
    ∧ win2_1.index t (0 : Fin 2) = t.val ∧ win2_1.index t (1 : Fin 2) = 0)

/- the buffer contents when the region is entered: any -/
variable (V : (c : Dev nD) → (b : Ref sig .tc) → Buf (Elt Ideal) ((c : Thread nD τ).loc b))

/-- The node features (100000 nodes, 512 features) as the region finds them. -/
abbrev h (c : Dev nD) : Vec Ideal S100000x512 .bf16 := V c (Pipeline.arrRef spec2 0)
/-- The nodes' graph ids, one column. -/
abbrev gid (c : Dev nD) : Vec Ideal S100000x1 .i32 := V c (Pipeline.arrRef spec2 1)
/-- The region's output array (512 graphs, 512 features) when the region ends. -/
abbrev out (c : Dev nD) : Vec Ideal S512x512 .f32 := (dat2 (F := Ideal) V c).arrAt 2 cfg2.N

/-! ## The input blocks: 2000 consecutive nodes each -/

/-- The feature block at point t (2000 nodes, 512 features). -/
abbrev hblk (c : Dev nD) (t : Fin cfg2.N) : Vec Ideal S2000x512 .bf16 := iblk2 V c 0 t
/-- The id block at point t (2000 nodes, one column). -/
abbrev gblk (c : Dev nD) (t : Fin cfg2.N) : Vec Ideal S2000x1 .i32 := iblk2 V c 1 t

/-- Row r of the feature block at point t is node 2000 t + r. -/
theorem hblk_apply (c : Dev nD) (t : Fin cfg2.N) (r : Fin 2000) (f : Fin 512) (n : Fin 100000) (hn : n.val = 2000 * t.val + r.val) :
    hblk V c t (ix2 r f) = h V c (ix2 n f) := by
  unfold hblk iblk2
  rw [View.read_apply]
  show V c (Pipeline.arrRef spec2 0) _ = V c (Pipeline.arrRef spec2 0) _
  refine congrArg _ (funext fun a => Fin.ext ?_)
  match a with
  | ⟨0, _⟩ => show win2_0.index t 0 * 2000 + 1 * r.val = n.val; rw [(block_rows t).1, hn]; omega
  | ⟨1, _⟩ => show win2_0.index t 1 * 512 + 1 * f.val = f.val; rw [(block_rows t).2.1]; omega

/-- Row r of the id block at point t is node 2000 t + r. -/
theorem gblk_apply (c : Dev nD) (t : Fin cfg2.N) (r : Fin 2000) (n : Fin 100000) (hn : n.val = 2000 * t.val + r.val) :
    gblk V c t (ix2 r 0) = gid V c (ix2 n 0) := by
  unfold gblk iblk2
  rw [View.read_apply]
  show V c (Pipeline.arrRef spec2 1) _ = V c (Pipeline.arrRef spec2 1) _
  refine congrArg _ (funext fun a => Fin.ext ?_)
  match a with
  | ⟨0, _⟩ => show win2_1.index t 0 * 2000 + 1 * r.val = n.val; rw [(block_rows t).2.2.1, hn]; omega
  | ⟨1, _⟩ => show win2_1.index t 1 * 1 + 1 * 0 = 0; rw [(block_rows t).2.2.2]

/-! ## The carried block after each point: a running sum over the nodes seen so far -/

/-- Node n's share of entry (g, f): its feature f if its graph id is g, else 0 (and 0 past the last node). -/
def share (c : Dev nD) (g f : Fin 512) (n : ℕ) : EReal :=
  if hn : n < 100000 then (if gid V c (ix2 ⟨n, hn⟩ 0) = BitVec.ofNat 32 g.val then h V c (ix2 ⟨n, hn⟩ f) else 0) else 0

/-- The selected rows of the blocks at point t, summed, are the shares of nodes 2000 t … 2000 t + 1999. -/
theorem block_sum (c : Dev nD) (t : Fin cfg2.N) (g f : Fin 512) :
    (∑ r : Fin 2000, (if gblk V c t (ix2 r 0) = BitVec.ofNat 32 g.val then hblk V c t (ix2 r f) else 0))
      = ∑ r ∈ Finset.range 2000, share V c g f (2000 * t.val + r) := by
  have hN : t.val < 50 := lt_of_lt_of_eq t.isLt (show cfg2.N = 50 from N_2)
  rw [Finset.sum_range]
  refine Finset.sum_congr rfl fun r _ => ?_
  have hr : 2000 * t.val + r.val < 100000 := by have := r.isLt; omega
  unfold share
  rw [dif_pos hr, gblk_apply V c t r ⟨2000 * t.val + r.val, hr⟩ rfl, hblk_apply V c t r f ⟨2000 * t.val + r.val, hr⟩ rfl]

/-- After point n the carried block at (g, f) is the sum of the shares of the nodes below 2000 (n + 1): the first
    point starts from the zero block (0 + x = x), each later one adds its block's shares to what the point before left
    (a sum over the first a + b naturals is the sum over the first a plus the sum over the next b). -/
theorem carried_eq (c : Dev nD) (g f : Fin 512) : ∀ (n : ℕ) (hn : n < cfg2.N),
    outsAt2 V c n hn (ix2 g f) = ∑ m ∈ Finset.range (2000 * (n + 1)), share V c g f m
  | 0, hn => by
    rw [outsAt2_A V c ⟨0, hn⟩ rfl]
    refine (congrFun (reset_point (F := Ideal) c (grid2.coords ⟨0, hn⟩) (ms2_0 ⟨0, hn⟩) (hs2_0 ⟨0, hn⟩) (ms2_1 ⟨0, hn⟩) (hs2_1 ⟨0, hn⟩)
      (ms2_2 ⟨0, hn⟩) (hs2_2 ⟨0, hn⟩) ((hcond2_0 ⟨0, hn⟩).mpr rfl) (hblk V c ⟨0, hn⟩) (gblk V c ⟨0, hn⟩)) (ix2 g f)).trans ?_
    rw [adding_term_apply, zero_block_apply, zero_add, block_sum]
    exact Finset.sum_congr rfl fun r _ => by rw [Nat.mul_zero, Nat.zero_add]
  | n + 1, hn => by
    have hN : n + 1 < 50 := lt_of_lt_of_eq hn (show cfg2.N = 50 from N_2)
    have hB : ¬(⟨n + 1, hn⟩ : Fin cfg2.N).val % 50 = 0 := by dsimp only; omega
    rw [outsAt2_B V c ⟨n + 1, hn⟩ hB]
    refine (congrFun (adding_point (F := Ideal) c (grid2.coords ⟨n + 1, hn⟩) (ms2_0 ⟨n + 1, hn⟩) (hs2_0 ⟨n + 1, hn⟩) (ms2_1 ⟨n + 1, hn⟩) (hs2_1 ⟨n + 1, hn⟩)
      (ms2_2 ⟨n + 1, hn⟩) (hs2_2 ⟨n + 1, hn⟩) (fun h => hB ((hcond2_0 ⟨n + 1, hn⟩).mp h)) (hblk V c ⟨n + 1, hn⟩) (gblk V c ⟨n + 1, hn⟩)
      (outsAt2 V c n (Nat.lt_of_succ_lt hn))) (ix2 g f)).trans ?_
    rw [adding_term_apply, block_sum, carried_eq c g f n (Nat.lt_of_succ_lt hn), show 2000 * (n + 1 + 1) = 2000 * (n + 1) + 2000 from by omega,
      Finset.sum_range_add]

/-! ## From the carried block to the output array -/

/-- The last grid point. -/
abbrev lastPoint : Fin cfg2.N := ⟨49, by rw [show cfg2.N = 50 from N_2]; decide⟩

/-- The carried block after the last point, as contents of the output array (its one block is the whole array). -/
abbrev carried (c : Dev nD) : Buf (Elt Ideal) ((c : Thread nD τ).loc main_v273) := outsAt2 V c 49 lastPoint.isLt

/-- The one write-back, at the last point, writes the carried block: block (0, 0) of the 512 × 512 array, read through
    zero offsets, is the array. -/
theorem written_back (c : Dev nD) (t : Fin cfg2.N) (hf : (cfg2.win 2).flush t = true) :
    (dat2 V c).flushed 2 t = ((cfg2.win 2).blk t).view.read (Elt Ideal) (carried V c) := by
  have hN : cfg2.N = 50 := N_2
  have h49 : t.val = 49 := by have := (flush2_2 t).mp hf; have := t.isLt; omega
  obtain rfl : t = lastPoint := Fin.ext h49
  show (cfg2.win 2).cut (grid2.coords lastPoint) ((dat2 V c).after 2 lastPoint) = _
  rw [after2_2]
  have hz' : (fun a => win2_2.index lastPoint a * main_v273.ty.shape.size a) = fun _ => 0 := funext fun a => by fin_cases a <;> decide +kernel
  exact (Memref.read_access_unit_zero (Elt Ideal) main_v273 hz' (fun a => by rw [congrFun hz' a]; simp) (carried V c)).symm

/-- So the output array ends holding the carried block after the last point: that point's block covers every index. -/
theorem out_eq_carried (c : Dev nD) : (dat2 V c).arrAt 2 cfg2.N = carried V c :=
  (dat2 V c).arrAt_eq_of_cover 2 (carried V c) (written_back V c) fun i =>
    ⟨lastPoint, (flush2_2 lastPoint).mpr rfl, by
      show i ∈ ((View.whole main_v273).slice (win2_2.rect lastPoint)).set
      rw [View.set_slice_whole, Rect.mem_set_unit]
      intro a
      have h0 : (i 0 : Nat) < 512 := (i 0).isLt
      have h1 : (i 1 : Nat) < 512 := (i 1).isLt
      match a with
      | ⟨0, _⟩ =>
        show win2_2.index lastPoint 0 * win2_2.size 0 ≤ (i 0 : Nat) ∧ (i 0 : Nat) < win2_2.index lastPoint 0 * win2_2.size 0 + win2_2.xsize (grid2.coords lastPoint) 0
        rw [show win2_2.index lastPoint 0 * win2_2.size 0 = 0 from by decide +kernel, show win2_2.xsize (grid2.coords lastPoint) 0 = 512 from by decide +kernel]; omega
      | ⟨1, _⟩ =>
        show win2_2.index lastPoint 1 * win2_2.size 1 ≤ (i 1 : Nat) ∧ (i 1 : Nat) < win2_2.index lastPoint 1 * win2_2.size 1 + win2_2.xsize (grid2.coords lastPoint) 1
        rw [show win2_2.index lastPoint 1 * win2_2.size 1 = 0 from by decide +kernel, show win2_2.xsize (grid2.coords lastPoint) 1 = 512 from by decide +kernel]; omega⟩

/-- Entry `(g, f)` of the output is the sum of feature `f` over the nodes of graph `g`. -/
theorem value (c : Dev nD) (g f : Fin 512) :
    out V c (ix2 g f) = Cert.Spec.pool (fun n f => h V c (ix2 n f)) (fun n => gid V c (ix2 n 0)) g f := by
  show (dat2 (F := Ideal) V c).arrAt 2 cfg2.N (ix2 g f) = _
  rw [out_eq_carried V c]
  show outsAt2 V c 49 lastPoint.isLt (ix2 g f) = _
  rw [carried_eq V c g f 49 lastPoint.isLt, show 2000 * (49 + 1) = 100000 from rfl, Finset.sum_range]
  unfold Cert.Spec.pool
  refine Finset.sum_congr rfl fun n _ => ?_
  unfold share
  rw [dif_pos n.isLt]

end Cert.KernelIdeal.Pool

end
-- ==== Proof.Layer0R.lean ====
import proofs.«418800_j15479062135021_1_alg».proof.Proof.RefOps
import proofs.«418800_j15479062135021_1_alg».proof.Proof.Spec
import Idealize.ShloMosaic.Lib.Pipeline.Value
import Idealize.ShloMosaic.Lib.ValueIdx
import Idealize.ShloMosaic.Lib.ValueLayout
import Idealize.ShloMosaic.PureOps.Ideal.Laws

/-! The reference's first layer: its concatenated output, element by element, from the Chebyshev terms, weights and biases
    the reference holds after its fourth stretch. -/

noncomputable section

namespace Cert.ReferenceIdeal.Layer0

open Idealize.ShloMosaic Idealize.ShloMosaic.TcCoe Idealize.SL.Sem Idealize.ShloMosaic.StableHlo Idealize.ShloMosaic.ValueIdx
open Cert.ReferenceIdeal Cert.ReferenceIdeal.RunFold

variable (m : (ℓ : Loc nD τ sig) → Buf (Elt Ideal) ℓ) (d : Dev nD)

/-- The contents after stretch 3 of the reference at the buffers this layer reads and writes, at their literal types. -/
abbrev hOut : FVec Ideal S100000x128 .f32 := R4 m d (Proc.devRef .tc main_v194)
abbrev x0 : FVec Ideal S100000x128 .f32 := R4 m d (Proc.devRef .tc main_arg0)
abbrev tf1 : FVec Ideal S100000x128 .f32 := R4 m d (Proc.devRef .tc main_v81)
abbrev tf2 : FVec Ideal S100000x128 .f32 := R4 m d (Proc.devRef .tc main_v101)
abbrev tf3 : FVec Ideal S100000x128 .f32 := R4 m d (Proc.devRef .tc main_v121)
abbrev wF : FVec Ideal S4x128x64 .f32 := R4 m d (Proc.devRef .tc main_arg3)
abbrev bF : FVec Ideal S64 .f32 := R4 m d (Proc.devRef .tc main_arg4)
abbrev tr1 : FVec Ideal S100000x128 .f32 := R4 m d (Proc.devRef .tc main_v145)
abbrev tr2 : FVec Ideal S100000x128 .f32 := R4 m d (Proc.devRef .tc main_v165)
abbrev tr3 : FVec Ideal S100000x128 .f32 := R4 m d (Proc.devRef .tc main_v185)
abbrev wR : FVec Ideal S4x128x64 .f32 := R4 m d (Proc.devRef .tc main_arg5)
abbrev bR : FVec Ideal S64 .f32 := R4 m d (Proc.devRef .tc main_arg6)

section Defining
open Cert.ReferenceIdeal.Gen

variable {F : FTy → Type} [FloatOps F]

/-- Slice `a` of the four weight matrices as a [128,64] matrix. -/
abbrev wSlice0 {α : Type} (w : S4x128x64.Idx → α) : S128x64.Idx → α :=
  fun i => shapeCast S128x64 (extractStridedSlice S1x128x64 ![0, 0, 0] w slices_S4x128x64_S1x128x64_0_0_0) shapeCasts_S1x128x64_S128x64 i
abbrev wSlice1 {α : Type} (w : S4x128x64.Idx → α) : S128x64.Idx → α :=
  fun i => shapeCast S128x64 (extractStridedSlice S1x128x64 ![1, 0, 0] w slices_S4x128x64_S1x128x64_1_0_0) shapeCasts_S1x128x64_S128x64 i
abbrev wSlice2 {α : Type} (w : S4x128x64.Idx → α) : S128x64.Idx → α :=
  fun i => shapeCast S128x64 (extractStridedSlice S1x128x64 ![2, 0, 0] w slices_S4x128x64_S1x128x64_2_0_0) shapeCasts_S1x128x64_S128x64 i
abbrev wSlice3 {α : Type} (w : S4x128x64.Idx → α) : S128x64.Idx → α :=
  fun i => shapeCast S128x64 (extractStridedSlice S1x128x64 ![3, 0, 0] w slices_S4x128x64_S1x128x64_3_0_0) shapeCasts_S1x128x64_S128x64 i

/-- One direction of the layer as the reference spells it. -/
def conv (t0 t1 t2 t3 : FVec F S100000x128 .f32) (w : FVec F S4x128x64 .f32) (b : FVec F S64 .f32) : FVec F S100000x64 .f32 :=
  maximumf
    (addf
      (addf
        (addf
          (addf (Host.dotGeneral dot_S100000x128_S128x64_S100000x64_1_0_0_1_n_n none t0 (wSlice0 w))
                (Host.dotGeneral dot_S100000x128_S128x64_S100000x64_1_0_0_1_n_n none t1 (wSlice1 w)))
          (Host.dotGeneral dot_S100000x128_S128x64_S100000x64_1_0_0_1_n_n none t2 (wSlice2 w)))
        (Host.dotGeneral dot_S100000x128_S128x64_S100000x64_1_0_0_1_n_n none t3 (wSlice3 w)))
      (broadcastInDim S100000x64 ![0, 1] bcast_S1x64_S100000x64_0_1 (broadcastInDim S1x64 ![1] bcast_S64_S1x64_1 b)))
    (broadcastInDim S100000x64 ![] bcast_S_S100000x64 (constant S_ .f32 0x00000000#32))

end Defining

section DefiningEq
open Cert.ReferenceIdeal.Gen
variable {F : FTy → Type} [FloatOps F] (mF : (ℓ : Loc nD τ sig) → Buf (Elt F) ℓ) (dF : Dev nD)

set_option maxHeartbeats 4000000 in
/-- The layer's output buffer is the two directions' values joined along the features. -/
theorem out_eq :
    (R4 mF dF (Proc.devRef .tc main_v194) : FVec F S100000x128 .f32) =
      concatenate S100000x128 1
        [⟨S100000x64, conv (R4 mF dF (Proc.devRef .tc main_arg0)) (R4 mF dF (Proc.devRef .tc main_v81))
            (R4 mF dF (Proc.devRef .tc main_v101)) (R4 mF dF (Proc.devRef .tc main_v121))
            (R4 mF dF (Proc.devRef .tc main_arg3)) (R4 mF dF (Proc.devRef .tc main_arg4))⟩,
         ⟨S100000x64, conv (R4 mF dF (Proc.devRef .tc main_arg0)) (R4 mF dF (Proc.devRef .tc main_v145))
            (R4 mF dF (Proc.devRef .tc main_v165)) (R4 mF dF (Proc.devRef .tc main_v185))
            (R4 mF dF (Proc.devRef .tc main_arg5)) (R4 mF dF (Proc.devRef .tc main_arg6))⟩]
        concatenates_S100000x64_S100000x64_S100000x128_d1 := by
  unfold conv
  simp only [R4, R3, R2, R1]
  after_results_simp
  rfl

end DefiningEq

section Reading
open Cert.ReferenceIdeal.Gen

/-! The dot's operand indices, axis by axis. -/
theorem dotL_0 (i : S100000x64.Idx) (q : dot_S100000x128_S128x64_S100000x64_1_0_0_1_n_n.contr.Idx) :
    (dot_S100000x128_S128x64_S100000x64_1_0_0_1_n_n.lhsIdx i q 0).val = (i 0).val := by
  unfold DotDims.lhsIdx
  rw [dif_neg (show ¬(0 : Fin S100000x128.rank) ∈ dot_S100000x128_S128x64_S100000x64_1_0_0_1_n_n.lhsBatch by decide), dif_pos (show (0 : Fin S100000x128.rank) ∈ dot_S100000x128_S128x64_S100000x64_1_0_0_1_n_n.lhsNonContracting by decide)]
  rfl
theorem dotL_1 (i : S100000x64.Idx) (q : dot_S100000x128_S128x64_S100000x64_1_0_0_1_n_n.contr.Idx) :
    (dot_S100000x128_S128x64_S100000x64_1_0_0_1_n_n.lhsIdx i q 1).val = (q ⟨0, by decide⟩).val :=
  dot_S100000x128_S128x64_S100000x64_1_0_0_1_n_n.lhsIdx_val_of_single rfl i q
theorem dotR_0 (i : S100000x64.Idx) (q : dot_S100000x128_S128x64_S100000x64_1_0_0_1_n_n.contr.Idx) :
    (dot_S100000x128_S128x64_S100000x64_1_0_0_1_n_n.rhsIdx i q 0).val = (q ⟨0, by decide⟩).val :=
  dot_S100000x128_S128x64_S100000x64_1_0_0_1_n_n.rhsIdx_val_of_single rfl i q
theorem dotR_1 (i : S100000x64.Idx) (q : dot_S100000x128_S128x64_S100000x64_1_0_0_1_n_n.contr.Idx) :
    (dot_S100000x128_S128x64_S100000x64_1_0_0_1_n_n.rhsIdx i q 1).val = (i 1).val := by
  unfold DotDims.rhsIdx
  rw [dif_neg (show ¬(1 : Fin S128x64.rank) ∈ dot_S100000x128_S128x64_S100000x64_1_0_0_1_n_n.rhsBatch by decide), dif_pos (show (1 : Fin S128x64.rank) ∈ dot_S100000x128_S128x64_S100000x64_1_0_0_1_n_n.rhsNonContracting by decide)]
  rfl

/-- The product of a [100000,128] by a [128,64] matrix at `(n, j)`: the sum over the 128 shared coordinates. -/
theorem dot_apply (x : FVec Ideal S100000x128 .f32) (y : FVec Ideal S128x64 .f32) (n : Fin 100000) (j : Fin 64) :
    Host.dotGeneral (F := Ideal) dot_S100000x128_S128x64_S100000x64_1_0_0_1_n_n none x y (ix2 n j) = ∑ k : Fin 128, x (ix2 n k) * y (ix2 k j) := by
  simp only [Host.dotGeneral]
  rw [Ideal.dotGeneral_apply, ← Equiv.sum_comp (contrEquiv1 dot_S100000x128_S128x64_S100000x64_1_0_0_1_n_n 128 rfl rfl).symm]
  refine Finset.sum_congr rfl fun k _ => ?_
  have hk := contrEquiv1_symm_val dot_S100000x128_S128x64_S100000x64_1_0_0_1_n_n 128 rfl rfl k
  have el : dot_S100000x128_S128x64_S100000x64_1_0_0_1_n_n.lhsIdx (ix2 n j) ((contrEquiv1 dot_S100000x128_S128x64_S100000x64_1_0_0_1_n_n 128 rfl rfl).symm k) = ix2 n k := funext fun a => Fin.ext (by
    match a with
    | ⟨0, _⟩ => exact dotL_0 _ _
    | ⟨1, _⟩ => exact (dotL_1 _ _).trans hk)
  have er : dot_S100000x128_S128x64_S100000x64_1_0_0_1_n_n.rhsIdx (ix2 n j) ((contrEquiv1 dot_S100000x128_S128x64_S100000x64_1_0_0_1_n_n 128 rfl rfl).symm k) = ix2 k j := funext fun a => Fin.ext (by
    match a with
    | ⟨0, _⟩ => exact (dotR_0 _ _).trans hk
    | ⟨1, _⟩ => exact dotR_1 _ _)
  rw [el, er]

/-- Weight slice `a` at `(k, j)` is the weight at `(a, k, j)`. -/
theorem wSlice_apply {α : Type} (w : S4x128x64.Idx → α) (a : Fin 4) (off : Fin 3 → Nat) (h0 : off 0 = a.val) (h1 : off 1 = 0) (h2 : off 2 = 0)
    (hs : S4x128x64.Slices off S1x128x64) (k : Fin 128) (j : Fin 64) :
    shapeCast S128x64 (extractStridedSlice S1x128x64 off w hs) shapeCasts_S1x128x64_S128x64 (ix2 k j) = w (ix3 a k j) := by
  refine (shapeCast_apply _ shapeCasts_S1x128x64_S128x64 (ix2 k j) (ix3 (0 : Fin 1) k j) ?_).trans ?_
  · rewrite [Shape.rowMajor_val_three, Shape.rowMajor_val_two]
    show (0 * 128 + k.val) * 64 + j.val = k.val * 64 + j.val
    omega
  · exact extractStridedSlice_apply off w hs _ (ix3 a k j) (fun b => match b with
      | ⟨0, _⟩ => by show a.val = off 0 + 0; omega
      | ⟨1, _⟩ => by show k.val = off 1 + k.val; omega
      | ⟨2, _⟩ => by show j.val = off 2 + j.val; omega)

theorem wSlice0_apply {α : Type} (w : S4x128x64.Idx → α) (k : Fin 128) (j : Fin 64) : wSlice0 w (ix2 k j) = w (ix3 0 k j) :=
  wSlice_apply w 0 ![0, 0, 0] rfl rfl rfl slices_S4x128x64_S1x128x64_0_0_0 k j
theorem wSlice1_apply {α : Type} (w : S4x128x64.Idx → α) (k : Fin 128) (j : Fin 64) : wSlice1 w (ix2 k j) = w (ix3 1 k j) :=
  wSlice_apply w 1 ![1, 0, 0] rfl rfl rfl slices_S4x128x64_S1x128x64_1_0_0 k j
theorem wSlice2_apply {α : Type} (w : S4x128x64.Idx → α) (k : Fin 128) (j : Fin 64) : wSlice2 w (ix2 k j) = w (ix3 2 k j) :=
  wSlice_apply w 2 ![2, 0, 0] rfl rfl rfl slices_S4x128x64_S1x128x64_2_0_0 k j
theorem wSlice3_apply {α : Type} (w : S4x128x64.Idx → α) (k : Fin 128) (j : Fin 64) : wSlice3 w (ix2 k j) = w (ix3 3 k j) :=
  wSlice_apply w 3 ![3, 0, 0] rfl rfl rfl slices_S4x128x64_S1x128x64_3_0_0 k j

/-- The bias row broadcast over the nodes, at `(n, j)`. -/
theorem bias_apply {α : Type} (b : S64.Idx → α) (n : Fin 100000) (j : Fin 64) :
    broadcastInDim S100000x64 ![0, 1] bcast_S1x64_S100000x64_0_1 (broadcastInDim S1x64 ![1] bcast_S64_S1x64_1 b) (ix2 n j) = b (ix1 j) := by
  refine (broadcastInDim_apply _ bcast_S1x64_S100000x64_0_1 _ (ix2 n j) (ix2 (0 : Fin 1) j) (fun a => match a with
    | ⟨0, _⟩ => by show 0 = if (1 : Nat) = 1 then 0 else n.val; rw [if_pos rfl]
    | ⟨1, _⟩ => by show j.val = if (64 : Nat) = 1 then 0 else j.val; rw [if_neg (by decide)])).trans ?_
  exact broadcastInDim_apply _ bcast_S64_S1x64_1 b (ix2 (0 : Fin 1) j) (ix1 j) (fun a => match a with
    | ⟨0, _⟩ => by show j.val = if (64 : Nat) = 1 then 0 else j.val; rw [if_neg (by decide)])

/-- The zero the sum is clamped at. -/
theorem zero_apply (n : Fin 100000) (j : Fin 64) :
    broadcastInDim S100000x64 ![] bcast_S_S100000x64 (constant (F := Ideal) S_ .f32 0x00000000#32) (ix2 n j) = (0 : EReal) := by
  refine (broadcastInDim_apply _ bcast_S_S100000x64 _ (ix2 n j) (fun a => a.elim0) (fun a => a.elim0)).trans ?_
  exact Ideal.ofBits_zero_f32

/-- One direction of the layer at `(n, j)`. -/
theorem conv_apply (t0 t1 t2 t3 : FVec Ideal S100000x128 .f32) (w : FVec Ideal S4x128x64 .f32) (b : FVec Ideal S64 .f32)
    (n : Fin 100000) (j : Fin 64) :
    conv t0 t1 t2 t3 w b (ix2 n j) =
      Cert.Spec.cheb (fun n k => t0 (ix2 n k)) (fun n k => t1 (ix2 n k)) (fun n k => t2 (ix2 n k)) (fun n k => t3 (ix2 n k))
        (fun a k j => w (ix3 a k j)) (fun j => b (ix1 j)) n j := by
  unfold conv Cert.Spec.cheb
  rw [maximumf_apply, addf_apply, addf_apply, addf_apply, addf_apply, zero_apply, bias_apply,
    dot_apply, dot_apply, dot_apply, dot_apply]
  simp only [wSlice0_apply, wSlice1_apply, wSlice2_apply, wSlice3_apply]

/-- The two halves joined along the features, at a column of the left half. -/
theorem cat_left {α : Type} (x y : S100000x64.Idx → α) (n : Fin 100000) (j : Fin 64) :
    concatenate S100000x128 1 [⟨S100000x64, x⟩, ⟨S100000x64, y⟩] concatenates_S100000x64_S100000x64_S100000x128_d1
      (ix2 n ⟨j.val, lt_of_lt_of_le j.isLt (by decide)⟩) = x (ix2 n j) :=
  concatenate_pair_apply_left 1 x y concatenates_S100000x64_S100000x64_S100000x128_d1 _ rfl (ix2 n j) (fun b => by
    match b with
    | ⟨0, _⟩ => rfl
    | ⟨1, _⟩ => rfl)

/-- … and at a column of the right half. -/
theorem cat_right {α : Type} (x y : S100000x64.Idx → α) (n : Fin 100000) (j : Fin 64) :
    concatenate S100000x128 1 [⟨S100000x64, x⟩, ⟨S100000x64, y⟩] concatenates_S100000x64_S100000x64_S100000x128_d1
      (ix2 n ⟨64 + j.val, by have := j.isLt; omega⟩) = y (ix2 n j) :=
  concatenate_pair_apply_right 1 x y concatenates_S100000x64_S100000x64_S100000x128_d1 _ rfl rfl (ix2 n j)
    (fun b hb => by
      match b with
      | ⟨0, _⟩ => rfl
      | ⟨1, _⟩ => exact absurd rfl hb)
    (by show j.val + 64 = 64 + j.val; omega)

end Reading

/-- Columns `[0, 64)` of the layer's output: the forward direction's layer value of the terms the reference computed. -/
theorem h1_fwd (n : Fin 100000) (j : Fin 64) :
    hOut m d (ix2 n ⟨j.val, lt_of_lt_of_le j.isLt (by decide)⟩) =
      Cert.Spec.cheb (fun n k => x0 m d (ix2 n k)) (fun n k => tf1 m d (ix2 n k)) (fun n k => tf2 m d (ix2 n k))
        (fun n k => tf3 m d (ix2 n k)) (fun a k j => wF m d (ix3 a k j)) (fun j => bF m d (ix1 j)) n j := by
  refine (congrFun (out_eq m d) _).trans ?_
  refine (cat_left _ _ n j).trans ?_
  exact conv_apply _ _ _ _ _ _ n j

/-- Columns `[64, 128)`: the reversed direction's. -/
theorem h1_rev (n : Fin 100000) (j : Fin 64) :
    hOut m d (ix2 n ⟨64 + j.val, by have := j.isLt; omega⟩) =
      Cert.Spec.cheb (fun n k => x0 m d (ix2 n k)) (fun n k => tr1 m d (ix2 n k)) (fun n k => tr2 m d (ix2 n k))
        (fun n k => tr3 m d (ix2 n k)) (fun a k j => wR m d (ix3 a k j)) (fun j => bR m d (ix1 j)) n j := by
  refine (congrFun (out_eq m d) _).trans ?_
  refine (cat_right _ _ n j).trans ?_
  exact conv_apply _ _ _ _ _ _ n j

end Cert.ReferenceIdeal.Layer0

end
-- ==== Proof.Layer1R.lean ====
import proofs.«418800_j15479062135021_1_alg».proof.Proof.RefOps
import proofs.«418800_j15479062135021_1_alg».proof.Proof.Spec
import Idealize.ShloMosaic.Lib.Pipeline.Value
import Idealize.ShloMosaic.Lib.ValueIdx
import Idealize.ShloMosaic.Lib.ValueLayout
import Idealize.ShloMosaic.PureOps.Ideal.Laws

/-! The reference's second layer: its concatenated output, element by element, from the Chebyshev terms, weights and biases
    the reference holds after its seventh stretch. -/

noncomputable section

namespace Cert.ReferenceIdeal.Layer1

open Idealize.ShloMosaic Idealize.ShloMosaic.TcCoe Idealize.SL.Sem Idealize.ShloMosaic.StableHlo Idealize.ShloMosaic.ValueIdx
open Cert.ReferenceIdeal Cert.ReferenceIdeal.RunFold

variable (m : (ℓ : Loc nD τ sig) → Buf (Elt Ideal) ℓ) (d : Dev nD)

/-- The contents after stretch 6 of the reference at the buffers this layer reads and writes, at their literal types. -/
abbrev hOut : FVec Ideal S100000x512 .f32 := R7 m d (Proc.devRef .tc main_v323)
abbrev x0 : FVec Ideal S100000x128 .f32 := R7 m d (Proc.devRef .tc main_v194)
abbrev tf1 : FVec Ideal S100000x128 .f32 := R7 m d (Proc.devRef .tc main_v210)
abbrev tf2 : FVec Ideal S100000x128 .f32 := R7 m d (Proc.devRef .tc main_v230)
abbrev tf3 : FVec Ideal S100000x128 .f32 := R7 m d (Proc.devRef .tc main_v250)
abbrev wF : FVec Ideal S4x128x256 .f32 := R7 m d (Proc.devRef .tc main_arg7)
abbrev bF : FVec Ideal S256 .f32 := R7 m d (Proc.devRef .tc main_arg8)
abbrev tr1 : FVec Ideal S100000x128 .f32 := R7 m d (Proc.devRef .tc main_v274)
abbrev tr2 : FVec Ideal S100000x128 .f32 := R7 m d (Proc.devRef .tc main_v294)
abbrev tr3 : FVec Ideal S100000x128 .f32 := R7 m d (Proc.devRef .tc main_v314)
abbrev wR : FVec Ideal S4x128x256 .f32 := R7 m d (Proc.devRef .tc main_arg9)
abbrev bR : FVec Ideal S256 .f32 := R7 m d (Proc.devRef .tc main_arg10)

section Defining
open Cert.ReferenceIdeal.Gen

variable {F : FTy → Type} [FloatOps F]

/-- Slice `a` of the four weight matrices as a [128,256] matrix. -/
abbrev wSlice0 {α : Type} (w : S4x128x256.Idx → α) : S128x256.Idx → α :=
  fun i => shapeCast S128x256 (extractStridedSlice S1x128x256 ![0, 0, 0] w slices_S4x128x256_S1x128x256_0_0_0) shapeCasts_S1x128x256_S128x256 i
abbrev wSlice1 {α : Type} (w : S4x128x256.Idx → α) : S128x256.Idx → α :=
  fun i => shapeCast S128x256 (extractStridedSlice S1x128x256 ![1, 0, 0] w slices_S4x128x256_S1x128x256_1_0_0) shapeCasts_S1x128x256_S128x256 i
abbrev wSlice2 {α : Type} (w : S4x128x256.Idx → α) : S128x256.Idx → α :=
  fun i => shapeCast S128x256 (extractStridedSlice S1x128x256 ![2, 0, 0] w slices_S4x128x256_S1x128x256_2_0_0) shapeCasts_S1x128x256_S128x256 i
abbrev wSlice3 {α : Type} (w : S4x128x256.Idx → α) : S128x256.Idx → α :=
  fun i => shapeCast S128x256 (extractStridedSlice S1x128x256 ![3, 0, 0] w slices_S4x128x256_S1x128x256_3_0_0) shapeCasts_S1x128x256_S128x256 i

/-- One direction of the layer as the reference spells it. -/
def conv (t0 t1 t2 t3 : FVec F S100000x128 .f32) (w : FVec F S4x128x256 .f32) (b : FVec F S256 .f32) : FVec F S100000x256 .f32 :=
  maximumf
    (addf
      (addf
        (addf
          (addf (Host.dotGeneral dot_S100000x128_S128x256_S100000x256_1_0_0_1_n_n none t0 (wSlice0 w))
                (Host.dotGeneral dot_S100000x128_S128x256_S100000x256_1_0_0_1_n_n none t1 (wSlice1 w)))
          (Host.dotGeneral dot_S100000x128_S128x256_S100000x256_1_0_0_1_n_n none t2 (wSlice2 w)))
        (Host.dotGeneral dot_S100000x128_S128x256_S100000x256_1_0_0_1_n_n none t3 (wSlice3 w)))
      (broadcastInDim S100000x256 ![0, 1] bcast_S1x256_S100000x256_0_1 (broadcastInDim S1x256 ![1] bcast_S256_S1x256_1 b)))
    (broadcastInDim S100000x256 ![] bcast_S_S100000x256 (constant S_ .f32 0x00000000#32))

end Defining

section DefiningEq
open Cert.ReferenceIdeal.Gen
variable {F : FTy → Type} [FloatOps F] (mF : (ℓ : Loc nD τ sig) → Buf (Elt F) ℓ) (dF : Dev nD)

set_option maxHeartbeats 4000000 in
/-- The layer's output buffer is the two directions' values joined along the features. -/
theorem out_eq :
    (R7 mF dF (Proc.devRef .tc main_v323) : FVec F S100000x512 .f32) =
      concatenate S100000x512 1
        [⟨S100000x256, conv (R7 mF dF (Proc.devRef .tc main_v194)) (R7 mF dF (Proc.devRef .tc main_v210))
            (R7 mF dF (Proc.devRef .tc main_v230)) (R7 mF dF (Proc.devRef .tc main_v250))
            (R7 mF dF (Proc.devRef .tc main_arg7)) (R7 mF dF (Proc.devRef .tc main_arg8))⟩,
         ⟨S100000x256, conv (R7 mF dF (Proc.devRef .tc main_v194)) (R7 mF dF (Proc.devRef .tc main_v274))
            (R7 mF dF (Proc.devRef .tc main_v294)) (R7 mF dF (Proc.devRef .tc main_v314))
            (R7 mF dF (Proc.devRef .tc main_arg9)) (R7 mF dF (Proc.devRef .tc main_arg10))⟩]
        concatenates_S100000x256_S100000x256_S100000x512_d1 := by
  unfold conv
  simp only [R7, R6, R5]
  after_results_simp
  rfl

end DefiningEq

section Reading
open Cert.ReferenceIdeal.Gen

/-! The dot's operand indices, axis by axis. -/
theorem dotL_0 (i : S100000x256.Idx) (q : dot_S100000x128_S128x256_S100000x256_1_0_0_1_n_n.contr.Idx) :
    (dot_S100000x128_S128x256_S100000x256_1_0_0_1_n_n.lhsIdx i q 0).val = (i 0).val := by
  unfold DotDims.lhsIdx
  rw [dif_neg (show ¬(0 : Fin S100000x128.rank) ∈ dot_S100000x128_S128x256_S100000x256_1_0_0_1_n_n.lhsBatch by decide), dif_pos (show (0 : Fin S100000x128.rank) ∈ dot_S100000x128_S128x256_S100000x256_1_0_0_1_n_n.lhsNonContracting by decide)]
  rfl
theorem dotL_1 (i : S100000x256.Idx) (q : dot_S100000x128_S128x256_S100000x256_1_0_0_1_n_n.contr.Idx) :
    (dot_S100000x128_S128x256_S100000x256_1_0_0_1_n_n.lhsIdx i q 1).val = (q ⟨0, by decide⟩).val :=
  dot_S100000x128_S128x256_S100000x256_1_0_0_1_n_n.lhsIdx_val_of_single rfl i q
theorem dotR_0 (i : S100000x256.Idx) (q : dot_S100000x128_S128x256_S100000x256_1_0_0_1_n_n.contr.Idx) :
    (dot_S100000x128_S128x256_S100000x256_1_0_0_1_n_n.rhsIdx i q 0).val = (q ⟨0, by decide⟩).val :=
  dot_S100000x128_S128x256_S100000x256_1_0_0_1_n_n.rhsIdx_val_of_single rfl i q
theorem dotR_1 (i : S100000x256.Idx) (q : dot_S100000x128_S128x256_S100000x256_1_0_0_1_n_n.contr.Idx) :
    (dot_S100000x128_S128x256_S100000x256_1_0_0_1_n_n.rhsIdx i q 1).val = (i 1).val := by
  unfold DotDims.rhsIdx
  rw [dif_neg (show ¬(1 : Fin S128x256.rank) ∈ dot_S100000x128_S128x256_S100000x256_1_0_0_1_n_n.rhsBatch by decide), dif_pos (show (1 : Fin S128x256.rank) ∈ dot_S100000x128_S128x256_S100000x256_1_0_0_1_n_n.rhsNonContracting by decide)]
  rfl

/-- The product of a [100000,128] by a [128,256] matrix at `(n, j)`: the sum over the 128 shared coordinates. -/
theorem dot_apply (x : FVec Ideal S100000x128 .f32) (y : FVec Ideal S128x256 .f32) (n : Fin 100000) (j : Fin 256) :
    Host.dotGeneral (F := Ideal) dot_S100000x128_S128x256_S100000x256_1_0_0_1_n_n none x y (ix2 n j) = ∑ k : Fin 128, x (ix2 n k) * y (ix2 k j) := by
  simp only [Host.dotGeneral]
  rw [Ideal.dotGeneral_apply, ← Equiv.sum_comp (contrEquiv1 dot_S100000x128_S128x256_S100000x256_1_0_0_1_n_n 128 rfl rfl).symm]
  refine Finset.sum_congr rfl fun k _ => ?_
  have hk := contrEquiv1_symm_val dot_S100000x128_S128x256_S100000x256_1_0_0_1_n_n 128 rfl rfl k
  have el : dot_S100000x128_S128x256_S100000x256_1_0_0_1_n_n.lhsIdx (ix2 n j) ((contrEquiv1 dot_S100000x128_S128x256_S100000x256_1_0_0_1_n_n 128 rfl rfl).symm k) = ix2 n k := funext fun a => Fin.ext (by
    match a with
    | ⟨0, _⟩ => exact dotL_0 _ _
    | ⟨1, _⟩ => exact (dotL_1 _ _).trans hk)
  have er : dot_S100000x128_S128x256_S100000x256_1_0_0_1_n_n.rhsIdx (ix2 n j) ((contrEquiv1 dot_S100000x128_S128x256_S100000x256_1_0_0_1_n_n 128 rfl rfl).symm k) = ix2 k j := funext fun a => Fin.ext (by
    match a with
    | ⟨0, _⟩ => exact (dotR_0 _ _).trans hk
    | ⟨1, _⟩ => exact dotR_1 _ _)
  rw [el, er]

/-- Weight slice `a` at `(k, j)` is the weight at `(a, k, j)`. -/
theorem wSlice_apply {α : Type} (w : S4x128x256.Idx → α) (a : Fin 4) (off : Fin 3 → Nat) (h0 : off 0 = a.val) (h1 : off 1 = 0) (h2 : off 2 = 0)
    (hs : S4x128x256.Slices off S1x128x256) (k : Fin 128) (j : Fin 256) :
    shapeCast S128x256 (extractStridedSlice S1x128x256 off w hs) shapeCasts_S1x128x256_S128x256 (ix2 k j) = w (ix3 a k j) := by
  refine (shapeCast_apply _ shapeCasts_S1x128x256_S128x256 (ix2 k j) (ix3 (0 : Fin 1) k j) ?_).trans ?_
  · rewrite [Shape.rowMajor_val_three, Shape.rowMajor_val_two]
    show (0 * 128 + k.val) * 256 + j.val = k.val * 256 + j.val
    omega
  · exact extractStridedSlice_apply off w hs _ (ix3 a k j) (fun b => match b with
      | ⟨0, _⟩ => by show a.val = off 0 + 0; omega
      | ⟨1, _⟩ => by show k.val = off 1 + k.val; omega
      | ⟨2, _⟩ => by show j.val = off 2 + j.val; omega)

theorem wSlice0_apply {α : Type} (w : S4x128x256.Idx → α) (k : Fin 128) (j : Fin 256) : wSlice0 w (ix2 k j) = w (ix3 0 k j) :=
  wSlice_apply w 0 ![0, 0, 0] rfl rfl rfl slices_S4x128x256_S1x128x256_0_0_0 k j
theorem wSlice1_apply {α : Type} (w : S4x128x256.Idx → α) (k : Fin 128) (j : Fin 256) : wSlice1 w (ix2 k j) = w (ix3 1 k j) :=
  wSlice_apply w 1 ![1, 0, 0] rfl rfl rfl slices_S4x128x256_S1x128x256_1_0_0 k j
theorem wSlice2_apply {α : Type} (w : S4x128x256.Idx → α) (k : Fin 128) (j : Fin 256) : wSlice2 w (ix2 k j) = w (ix3 2 k j) :=
  wSlice_apply w 2 ![2, 0, 0] rfl rfl rfl slices_S4x128x256_S1x128x256_2_0_0 k j
theorem wSlice3_apply {α : Type} (w : S4x128x256.Idx → α) (k : Fin 128) (j : Fin 256) : wSlice3 w (ix2 k j) = w (ix3 3 k j) :=
  wSlice_apply w 3 ![3, 0, 0] rfl rfl rfl slices_S4x128x256_S1x128x256_3_0_0 k j

/-- The bias row broadcast over the nodes, at `(n, j)`. -/
theorem bias_apply {α : Type} (b : S256.Idx → α) (n : Fin 100000) (j : Fin 256) :
    broadcastInDim S100000x256 ![0, 1] bcast_S1x256_S100000x256_0_1 (broadcastInDim S1x256 ![1] bcast_S256_S1x256_1 b) (ix2 n j) = b (ix1 j) := by
  refine (broadcastInDim_apply _ bcast_S1x256_S100000x256_0_1 _ (ix2 n j) (ix2 (0 : Fin 1) j) (fun a => match a with
    | ⟨0, _⟩ => by show 0 = if (1 : Nat) = 1 then 0 else n.val; rw [if_pos rfl]
    | ⟨1, _⟩ => by show j.val = if (256 : Nat) = 1 then 0 else j.val; rw [if_neg (by decide)])).trans ?_
  exact broadcastInDim_apply _ bcast_S256_S1x256_1 b (ix2 (0 : Fin 1) j) (ix1 j) (fun a => match a with
    | ⟨0, _⟩ => by show j.val = if (256 : Nat) = 1 then 0 else j.val; rw [if_neg (by decide)])

/-- The zero the sum is clamped at. -/
theorem zero_apply (n : Fin 100000) (j : Fin 256) :
    broadcastInDim S100000x256 ![] bcast_S_S100000x256 (constant (F := Ideal) S_ .f32 0x00000000#32) (ix2 n j) = (0 : EReal) := by
  refine (broadcastInDim_apply _ bcast_S_S100000x256 _ (ix2 n j) (fun a => a.elim0) (fun a => a.elim0)).trans ?_
  exact Ideal.ofBits_zero_f32

/-- One direction of the layer at `(n, j)`. -/
theorem conv_apply (t0 t1 t2 t3 : FVec Ideal S100000x128 .f32) (w : FVec Ideal S4x128x256 .f32) (b : FVec Ideal S256 .f32)
    (n : Fin 100000) (j : Fin 256) :
    conv t0 t1 t2 t3 w b (ix2 n j) =
      Cert.Spec.cheb (fun n k => t0 (ix2 n k)) (fun n k => t1 (ix2 n k)) (fun n k => t2 (ix2 n k)) (fun n k => t3 (ix2 n k))
        (fun a k j => w (ix3 a k j)) (fun j => b (ix1 j)) n j := by
  unfold conv Cert.Spec.cheb
  rw [maximumf_apply, addf_apply, addf_apply, addf_apply, addf_apply, zero_apply, bias_apply,
    dot_apply, dot_apply, dot_apply, dot_apply]
  simp only [wSlice0_apply, wSlice1_apply, wSlice2_apply, wSlice3_apply]

/-- The two halves joined along the features, at a column of the left half. -/
theorem cat_left {α : Type} (x y : S100000x256.Idx → α) (n : Fin 100000) (j : Fin 256) :
    concatenate S100000x512 1 [⟨S100000x256, x⟩, ⟨S100000x256, y⟩] concatenates_S100000x256_S100000x256_S100000x512_d1
      (ix2 n ⟨j.val, lt_of_lt_of_le j.isLt (by decide)⟩) = x (ix2 n j) :=
  concatenate_pair_apply_left 1 x y concatenates_S100000x256_S100000x256_S100000x512_d1 _ rfl (ix2 n j) (fun b => by
    match b with
    | ⟨0, _⟩ => rfl
    | ⟨1, _⟩ => rfl)

/-- … and at a column of the right half. -/
theorem cat_right {α : Type} (x y : S100000x256.Idx → α) (n : Fin 100000) (j : Fin 256) :
    concatenate S100000x512 1 [⟨S100000x256, x⟩, ⟨S100000x256, y⟩] concatenates_S100000x256_S100000x256_S100000x512_d1
      (ix2 n ⟨256 + j.val, by have := j.isLt; omega⟩) = y (ix2 n j) :=
  concatenate_pair_apply_right 1 x y concatenates_S100000x256_S100000x256_S100000x512_d1 _ rfl rfl (ix2 n j)
    (fun b hb => by
      match b with
      | ⟨0, _⟩ => rfl
      | ⟨1, _⟩ => exact absurd rfl hb)
    (by show j.val + 256 = 256 + j.val; omega)

end Reading

/-- Columns `[0, 256)` of the layer's output: the forward direction's layer value of the terms the reference computed. -/
theorem h2_fwd (n : Fin 100000) (j : Fin 256) :
    hOut m d (ix2 n ⟨j.val, lt_of_lt_of_le j.isLt (by decide)⟩) =
      Cert.Spec.cheb (fun n k => x0 m d (ix2 n k)) (fun n k => tf1 m d (ix2 n k)) (fun n k => tf2 m d (ix2 n k))
        (fun n k => tf3 m d (ix2 n k)) (fun a k j => wF m d (ix3 a k j)) (fun j => bF m d (ix1 j)) n j := by
  refine (congrFun (out_eq m d) _).trans ?_
  refine (cat_left _ _ n j).trans ?_
  exact conv_apply _ _ _ _ _ _ n j

/-- Columns `[256, 512)`: the reversed direction's. -/
theorem h2_rev (n : Fin 100000) (j : Fin 256) :
    hOut m d (ix2 n ⟨256 + j.val, by have := j.isLt; omega⟩) =
      Cert.Spec.cheb (fun n k => x0 m d (ix2 n k)) (fun n k => tr1 m d (ix2 n k)) (fun n k => tr2 m d (ix2 n k))
        (fun n k => tr3 m d (ix2 n k)) (fun a k j => wR m d (ix3 a k j)) (fun j => bR m d (ix1 j)) n j := by
  refine (congrFun (out_eq m d) _).trans ?_
  refine (cat_right _ _ n j).trans ?_
  exact conv_apply _ _ _ _ _ _ n j

end Cert.ReferenceIdeal.Layer1

end
-- ==== Proof.PoolR.lean ====
import proofs.«418800_j15479062135021_1_alg».proof.Proof.RefOps
import proofs.«418800_j15479062135021_1_alg».proof.Proof.Spec
import Idealize.ShloMosaic.Lib.Pipeline.Value
import Idealize.ShloMosaic.Lib.ValueIdx
import Idealize.ShloMosaic.Lib.ValueLayout
import Idealize.ShloMosaic.PureOps.Ideal.Laws

/-! The reference's per-graph sums: the accumulating scatter of the node features by graph id, element by element. -/

noncomputable section

namespace Cert.ReferenceIdeal.Pool

open Idealize.ShloMosaic Idealize.ShloMosaic.TcCoe Idealize.SL.Sem Idealize.ShloMosaic.StableHlo Idealize.ShloMosaic.ValueIdx
open Cert.ReferenceIdeal Cert.ReferenceIdeal.RunFold

/-- After stretch 7 the sums' buffer holds the accumulating scatter of the features, by the graph ids as a column,
    onto the zero array. -/
private theorem sums_eq_gen {F : FTy → Type} [FloatOps F] (m : (ℓ : Loc nD τ sig) → Buf (Elt F) ℓ) (d : Dev nD) :
    R8 m d (Proc.devRef .tc main_v326) =
      Host.scatterAdd scatter_S512x512_S100000x1_S100000x512_1_0_0_1
        (broadcastInDim S512x512 ![] Gen.bcast_S_S512x512 (constant S_ .f32 0x00000000#32))
        (broadcastInDim S100000x1 ![0] Gen.bcast_S100000_S100000x1_0 (R7 m d (Proc.devRef .tc main_arg2)))
        (R7 m d (Proc.devRef .tc main_v323)) := by
  simp only [R8]
  after_results_simp

/-- The scatter's dimension numbers: update axis 1 is the window, result axis 0 is indexed by the one-entry start. -/
private abbrev D : ScatterDims S512x512 S100000x1 S100000x512 := scatter_S512x512_S100000x1_S100000x512_1_0_0_1

/-- Update `(n, f')` reads its start index at row `n` of the ids' column. -/
private theorem siIdx0 (j : S100000x512.Idx) (c : Fin D.scatterDimsToOperandDims.length) : D.siIdx j c = ix2 (j 0) 0 := by
  funext b
  match b with
  | ⟨0, _⟩ => rfl
  | ⟨1, hb⟩ =>
    apply Fin.ext
    have h1 : (D.siIdx j c ⟨1, hb⟩).val < 1 := (D.siIdx j c ⟨1, hb⟩).isLt
    have h2 : ((ix2 (j 0) (0 : Fin 1) : S100000x1.Idx) ⟨1, hb⟩).val < 1 := ((ix2 (j 0) (0 : Fin 1) : S100000x1.Idx) ⟨1, hb⟩).isLt
    omega

/-- On result axis 0 the window starts at the id of the update's node, read signed. -/
private theorem start0 (j : S100000x512.Idx) (idx : IVec S100000x1 32) :
    D.start j idx 0 = (idx (ix2 (j 0) 0)).toInt := by
  have h : (0 : Fin S512x512.rank) ∈ D.scatterDimsToOperandDims := by decide
  unfold ScatterDims.start
  rw [dif_pos h, siIdx0]
  rfl

/-- Result axis 1 is not indexed: its window starts at 0. -/
private theorem start1 (j : S100000x512.Idx) (idx : IVec S100000x1 32) : D.start j idx 1 = 0 := by
  have h : ¬ (1 : Fin S512x512.rank) ∈ D.scatterDimsToOperandDims := by decide
  unfold ScatterDims.start
  rw [dif_neg h]

/-- Result axis 0 is inserted: no window coordinate. -/
private theorem window0 (j : S100000x512.Idx) : D.window j 0 = 0 := by
  have h : ¬ (0 : Fin S512x512.rank) ∈ D.sKept := by decide
  unfold ScatterDims.window
  rw [dif_neg h]

/-- On result axis 1 the window coordinate is the update's feature. -/
private theorem window1 (j : S100000x512.Idx) : D.window j 1 = (j 1).val := by
  have h : (1 : Fin S512x512.rank) ∈ D.sKept := by decide
  unfold ScatterDims.window
  rw [dif_pos h]
  rfl

/-- A 32-bit word read signed is `g < 512` exactly when it is the word of `g`. -/
private theorem toInt_eq_fin_iff (x : BitVec 32) (g : Fin 512) : x.toInt = (g.val : Int) ↔ x = BitVec.ofNat 32 g.val := by
  have hg := g.isLt
  have hw : (BitVec.ofNat 32 g.val).toInt = (g.val : Int) := by
    rw [BitVec.toInt_eq_toNat_cond, BitVec.toNat_ofNat, Nat.mod_eq_of_lt (by omega)]
    rw [if_pos (by omega)]
  constructor
  · intro h; exact BitVec.eq_of_toInt_eq (h.trans hw.symm)
  · intro h; rw [h, hw]

/-- Update `j` lands on entry `(g, f)` exactly when its node's id is the word of `g` and its feature is `f`. -/
private theorem resultIdx?_eq_some_iff (j : S100000x512.Idx) (idx : IVec S100000x1 32) (g f : Fin 512) :
    D.resultIdx? j idx = some (ix2 g f) ↔ idx (ix2 (j 0) 0) = BitVec.ofNat 32 g.val ∧ j 1 = f := by
  have hj1 : (j 1).val < 512 := idx2_lt1 j
  have hg := g.isLt
  have hf := f.isLt
  have hs0 : S512x512.size 0 = 512 := rfl
  have hs1 : S512x512.size 1 = 512 := rfl
  unfold ScatterDims.resultIdx?
  split
  · rename_i h
    rw [Option.some.injEq]
    constructor
    · intro e
      have e0 : (D.start j idx 0 + D.window j 0).toNat = g.val := congrArg (fun i : S512x512.Idx => (i 0).val) e
      have e1 : (D.start j idx 1 + D.window j 1).toNat = f.val := congrArg (fun i : S512x512.Idx => (i 1).val) e
      have h0 := (h 0).1
      rw [start0, window0] at e0 h0
      rw [start1, window1] at e1
      exact ⟨(toInt_eq_fin_iff _ g).1 (by omega), Fin.ext (by omega)⟩
    · rintro ⟨ex, ef⟩
      have ex' := (toInt_eq_fin_iff _ g).2 ex
      funext a
      match a with
      | ⟨0, _⟩ =>
        apply Fin.ext
        show (D.start j idx 0 + D.window j 0).toNat = g.val
        rw [start0, window0]; omega
      | ⟨1, _⟩ =>
        apply Fin.ext
        show (D.start j idx 1 + D.window j 1).toNat = f.val
        rw [start1, window1, ← ef]; omega
  · rename_i h
    constructor
    · intro e; exact absurd e (by simp)
    · rintro ⟨ex, ef⟩
      have ex' := (toInt_eq_fin_iff _ g).2 ex
      refine absurd (fun a => ?_) h
      match a with
      | ⟨0, _⟩ =>
        show 0 ≤ D.start j idx 0 + D.window j 0 ∧ D.start j idx 0 + D.window j 0 < S512x512.size 0
        rw [start0, window0, hs0]; omega
      | ⟨1, _⟩ =>
        show 0 ≤ D.start j idx 1 + D.window j 1 ∧ D.start j idx 1 + D.window j 1 < S512x512.size 1
        rw [start1, window1, hs1]; omega

/-- The same, at an update index given by its coordinates. -/
private theorem lands_iff (idx : IVec S100000x1 32) (n : Fin 100000) (f' g f : Fin 512) :
    D.resultIdx? (ix2 n f') idx = some (ix2 g f) ↔ idx (ix2 n 0) = BitVec.ofNat 32 g.val ∧ f' = f :=
  resultIdx?_eq_some_iff (ix2 n f') idx g f

/-- Row `n` of the ids' column is id `n`. -/
private theorem col_apply (x : IVec S100000 32) (n : Fin 100000) :
    broadcastInDim S100000x1 ![0] Gen.bcast_S100000_S100000x1_0 x (ix2 n 0) = x (ix1 n) :=
  broadcastInDim_apply _ _ x _ (ix1 n) fun a => match a with
    | ⟨0, h0⟩ => by
      have hne : ¬ S100000.size ⟨0, h0⟩ = 1 := by show ¬ (100000 : Nat) = 1; omega
      rw [if_neg hne]; rfl

variable (m : (ℓ : Loc nD τ sig) → Buf (Elt Ideal) ℓ) (d : Dev nD)

/-- The per-graph sums after stretch 7, the node features and the graph ids they were scattered from (after stretch 6). -/
abbrev sums : FVec Ideal S512x512 .f32 := R8 m d (Proc.devRef .tc main_v326)
abbrev feat : FVec Ideal S100000x512 .f32 := R7 m d (Proc.devRef .tc main_v323)
abbrev gid : IVec S100000 32 := R7 m d (Proc.devRef .tc main_arg2)

/-- Entry `(g, f)` of the sums is the sum of feature `f` over the nodes of graph `g`. -/
theorem sums_apply (g f : Fin 512) :
    sums m d (ix2 g f) = Cert.Spec.pool (fun n f => feat m d (ix2 n f)) (fun n => gid m d (ix1 n)) g f := by
  refine (congrFun (sums_eq_gen m d) (ix2 g f)).trans ?_
  show Ideal.hostScatterAdd D _ _ _ (ix2 g f) = _
  unfold Ideal.hostScatterAdd Cert.Spec.pool
  -- the operand is the zero array
  have hz : broadcastInDim S512x512 ![] Gen.bcast_S_S512x512 (constant (F := Ideal) S_ .f32 0x00000000#32) (ix2 g f) = 0 :=
    Ideal.ofBits_zero_f32
  rw [hz, zero_add, Finset.sum_filter, sum_idx2]
  -- node by node: of node `n`'s 512 updates only feature `f`'s can land on `(g, f)`, and it does when `n`'s id is `g`
  refine Finset.sum_congr rfl fun n _ => ?_
  show _ = if gid m d (ix1 n) = BitVec.ofNat 32 g.val then feat m d (ix2 n f) else 0
  have hb := col_apply (gid m d) n
  by_cases hgid : gid m d (ix1 n) = BitVec.ofNat 32 g.val
  · rw [if_pos hgid, Finset.sum_eq_single f]
    · exact if_pos ((lands_iff _ n f g f).2 ⟨hb.trans hgid, rfl⟩)
    · intro b _ hne
      exact if_neg fun h => hne ((lands_iff _ n b g f).1 h).2
    · intro h
      exact absurd (Finset.mem_univ f) h
  · rw [if_neg hgid]
    exact Finset.sum_eq_zero fun b _ => if_neg fun h => hgid (hb.symm.trans ((lands_iff _ n b g f).1 h).1)

end Cert.ReferenceIdeal.Pool

end
-- ==== Proof.SimDefs.lean ====
import proofs.«418800_j15479062135021_1_alg».proof.Proof.Gen.KernelIdeal.Launch
import proofs.«418800_j15479062135021_1_alg».proof.Proof.RefOps

/-! The host stretches of the two programs side by side. Between two regions the kernel's program and the reference apply
    the same host operations (the edge normalisation, the gathers and accumulating scatters of the Chebyshev recursion, the
    mean and the log-softmax of the tail) to values that are already known equal; each such chain is compared here as a whole,
    from ANY buffer contents `Vk` / `Vr` that agree on what the chain reads, and never opened. -/

noncomputable section

namespace Cert.Bridge

open Idealize.ShloMosaic Idealize.ShloMosaic.StableHlo Idealize.SL.Sem
open Cert.KernelIdeal.Gen Cert.ReferenceIdeal.RunFold

/-- Buffer contents of the kernel's program and of the reference. -/
abbrev KV (F : FTy → Type) := Valuation Cert.KernelIdeal.τ Cert.KernelIdeal.sig (Elt F)
abbrev RV (F : FTy → Type) := Valuation Cert.ReferenceIdeal.τ Cert.ReferenceIdeal.sig (Elt F)

variable {F : FTy → Type} [FloatOps F]

/-- The kernel's host stretches before its first region (the edge normalisation in both directions, the six Chebyshev
    terms of layer 1, their casts), from contents `Vk`. -/
def kA (Vk : KV F) : KV F :=
  after hostOps0_8 (after hostOps0_7 (after hostOps0_6 (after hostOps0_5 (after hostOps0_4 (after hostOps0_3
    (after hostOps0_2 (after hostOps0_1 (after hostOps0 Vk))))))))
/-- The reference's first four stretches (through layer 1's output). -/
def rA (Vr : RV F) : RV F := after rc3 (after rc2 (after rc1 (after rc0 Vr)))
/-- The kernel's host stretch between its first and second region (the six Chebyshev terms of layer 2, their casts). -/
def kB (Vk : KV F) : KV F := after hostOps1 Vk
/-- The reference's next three stretches (through layer 2's output). -/
def rB (Vr : RV F) : RV F := after rc6 (after rc5 (after rc4 Vr))
/-- The kernel's host stretch before the pooling region (the graph ids as a column). -/
def kC (Vk : KV F) : KV F := after hostOps2 Vk
/-- The kernel's host stretches after the pooling region (counts, mean, the classifier, log-softmax). -/
def kD (Vk : KV F) : KV F := after hostOps3_1 (after hostOps3 Vk)
/-- The reference's last stretch (the same tail). -/
def rD (Vr : RV F) : RV F := after rc8 Vr

/-- Closes an equation between two chains of host operations: both sides expanded to the contents they start from, the
    starting contents' agreement rewritten, and the two terms are one. -/
macro "chain_eq" "[" hs:Lean.Parser.Tactic.simpLemma,* "]" : tactic =>
  `(tactic| (after_results_simp <;> first | rfl | (simp only [$hs,*] <;> rfl)))

end Cert.Bridge

end
-- ==== Proof.SimA1.lean ====
import proofs.«418800_j15479062135021_1_alg».proof.Proof.SimDefs

/-! Before the first region: the edge endpoints and the two edge normalisations are the same in both programs. -/

noncomputable section

namespace Cert.Bridge

open Idealize.ShloMosaic Idealize.ShloMosaic.StableHlo Idealize.SL.Sem
open Cert.KernelIdeal.Gen Cert.ReferenceIdeal.RunFold

variable {F : FTy → Type} [FloatOps F]

set_option maxHeartbeats 8000000 in
/-- The sources of the edges. -/
theorem A_src (Vk : KV F) (Vr : RV F) (h0 : Vk (Proc.devRef .tc Cert.KernelIdeal.main_arg0) = Vr (Proc.devRef .tc Cert.ReferenceIdeal.main_arg0)) (h1 : Vk (Proc.devRef .tc Cert.KernelIdeal.main_arg1) = Vr (Proc.devRef .tc Cert.ReferenceIdeal.main_arg1)) :
    kA Vk (Proc.devRef .tc Cert.KernelIdeal.main_v1) = rA Vr (Proc.devRef .tc Cert.ReferenceIdeal.main_v1) := by
  unfold kA rA
  chain_eq [h0, h1]

set_option maxHeartbeats 8000000 in
/-- The destinations of the edges. -/
theorem A_dst (Vk : KV F) (Vr : RV F) (h0 : Vk (Proc.devRef .tc Cert.KernelIdeal.main_arg0) = Vr (Proc.devRef .tc Cert.ReferenceIdeal.main_arg0)) (h1 : Vk (Proc.devRef .tc Cert.KernelIdeal.main_arg1) = Vr (Proc.devRef .tc Cert.ReferenceIdeal.main_arg1)) :
    kA Vk (Proc.devRef .tc Cert.KernelIdeal.main_v3) = rA Vr (Proc.devRef .tc Cert.ReferenceIdeal.main_v3) := by
  unfold kA rA
  chain_eq [h0, h1]

set_option maxHeartbeats 8000000 in
/-- The forward normalisation of the edges. -/
theorem A_normF (Vk : KV F) (Vr : RV F) (h0 : Vk (Proc.devRef .tc Cert.KernelIdeal.main_arg0) = Vr (Proc.devRef .tc Cert.ReferenceIdeal.main_arg0)) (h1 : Vk (Proc.devRef .tc Cert.KernelIdeal.main_arg1) = Vr (Proc.devRef .tc Cert.ReferenceIdeal.main_arg1)) :
    kA Vk (Proc.devRef .tc Cert.KernelIdeal.main_v34) = rA Vr (Proc.devRef .tc Cert.ReferenceIdeal.main_v34) := by
  unfold kA rA
  chain_eq [h0, h1]

set_option maxHeartbeats 8000000 in
/-- The reversed normalisation of the edges. -/
theorem A_normR (Vk : KV F) (Vr : RV F) (h0 : Vk (Proc.devRef .tc Cert.KernelIdeal.main_arg0) = Vr (Proc.devRef .tc Cert.ReferenceIdeal.main_arg0)) (h1 : Vk (Proc.devRef .tc Cert.KernelIdeal.main_arg1) = Vr (Proc.devRef .tc Cert.ReferenceIdeal.main_arg1)) :
    kA Vk (Proc.devRef .tc Cert.KernelIdeal.main_v65) = rA Vr (Proc.devRef .tc Cert.ReferenceIdeal.main_v65) := by
  unfold kA rA
  chain_eq [h0, h1]

end Cert.Bridge

end
-- ==== Proof.SimA2.lean ====
import proofs.«418800_j15479062135021_1_alg».proof.Proof.SimDefs

/-! Before the first region: the forward Chebyshev terms the first region reads are the reference's, cast. -/

noncomputable section

namespace Cert.Bridge

open Idealize.ShloMosaic Idealize.ShloMosaic.StableHlo Idealize.SL.Sem
open Cert.KernelIdeal.Gen Cert.ReferenceIdeal.RunFold

variable {F : FTy → Type} [FloatOps F]

set_option maxHeartbeats 8000000 in
/-- Term 0 (the node features). -/
theorem A_t0f (Vk : KV F) (Vr : RV F) (h0 : Vk (Proc.devRef .tc Cert.KernelIdeal.main_arg0) = Vr (Proc.devRef .tc Cert.ReferenceIdeal.main_arg0)) (h1 : Vk (Proc.devRef .tc Cert.KernelIdeal.main_arg1) = Vr (Proc.devRef .tc Cert.ReferenceIdeal.main_arg1)) :
    kA Vk (Proc.devRef .tc Cert.KernelIdeal.main_v156) = truncf .bf16 (rA Vr (Proc.devRef .tc Cert.ReferenceIdeal.main_arg0)) Cert.KernelIdeal.Facts₀.bitsLt_bf16_f32 := by
  unfold kA rA
  chain_eq [h0, h1]

set_option maxHeartbeats 8000000 in
/-- Term 1. -/
theorem A_t1f (Vk : KV F) (Vr : RV F) (h0 : Vk (Proc.devRef .tc Cert.KernelIdeal.main_arg0) = Vr (Proc.devRef .tc Cert.ReferenceIdeal.main_arg0)) (h1 : Vk (Proc.devRef .tc Cert.KernelIdeal.main_arg1) = Vr (Proc.devRef .tc Cert.ReferenceIdeal.main_arg1)) :
    kA Vk (Proc.devRef .tc Cert.KernelIdeal.main_v157) = truncf .bf16 (rA Vr (Proc.devRef .tc Cert.ReferenceIdeal.main_v81)) Cert.KernelIdeal.Facts₀.bitsLt_bf16_f32 := by
  unfold kA rA
  chain_eq [h0, h1]

set_option maxHeartbeats 8000000 in
/-- Term 2. -/
theorem A_t2f (Vk : KV F) (Vr : RV F) (h0 : Vk (Proc.devRef .tc Cert.KernelIdeal.main_arg0) = Vr (Proc.devRef .tc Cert.ReferenceIdeal.main_arg0)) (h1 : Vk (Proc.devRef .tc Cert.KernelIdeal.main_arg1) = Vr (Proc.devRef .tc Cert.ReferenceIdeal.main_arg1)) :
    kA Vk (Proc.devRef .tc Cert.KernelIdeal.main_v158) = truncf .bf16 (rA Vr (Proc.devRef .tc Cert.ReferenceIdeal.main_v101)) Cert.KernelIdeal.Facts₀.bitsLt_bf16_f32 := by
  unfold kA rA
  chain_eq [h0, h1]

set_option maxHeartbeats 8000000 in
/-- Term 3. -/
theorem A_t3f (Vk : KV F) (Vr : RV F) (h0 : Vk (Proc.devRef .tc Cert.KernelIdeal.main_arg0) = Vr (Proc.devRef .tc Cert.ReferenceIdeal.main_arg0)) (h1 : Vk (Proc.devRef .tc Cert.KernelIdeal.main_arg1) = Vr (Proc.devRef .tc Cert.ReferenceIdeal.main_arg1)) :
    kA Vk (Proc.devRef .tc Cert.KernelIdeal.main_v159) = truncf .bf16 (rA Vr (Proc.devRef .tc Cert.ReferenceIdeal.main_v121)) Cert.KernelIdeal.Facts₀.bitsLt_bf16_f32 := by
  unfold kA rA
  chain_eq [h0, h1]

end Cert.Bridge

end
-- ==== Proof.SimA3.lean ====
import proofs.«418800_j15479062135021_1_alg».proof.Proof.SimDefs

/-! Before the first region: the reversed Chebyshev terms the first region reads are the reference's, cast. -/

noncomputable section

namespace Cert.Bridge

open Idealize.ShloMosaic Idealize.ShloMosaic.StableHlo Idealize.SL.Sem
open Cert.KernelIdeal.Gen Cert.ReferenceIdeal.RunFold

variable {F : FTy → Type} [FloatOps F]

set_option maxHeartbeats 8000000 in
/-- Term 0 (the node features). -/
theorem A_t0r (Vk : KV F) (Vr : RV F) (h0 : Vk (Proc.devRef .tc Cert.KernelIdeal.main_arg0) = Vr (Proc.devRef .tc Cert.ReferenceIdeal.main_arg0)) (h1 : Vk (Proc.devRef .tc Cert.KernelIdeal.main_arg1) = Vr (Proc.devRef .tc Cert.ReferenceIdeal.main_arg1)) :
    kA Vk (Proc.devRef .tc Cert.KernelIdeal.main_v160) = truncf .bf16 (rA Vr (Proc.devRef .tc Cert.ReferenceIdeal.main_arg0)) Cert.KernelIdeal.Facts₀.bitsLt_bf16_f32 := by
  unfold kA rA
  chain_eq [h0, h1]

set_option maxHeartbeats 8000000 in
/-- Term 1. -/
theorem A_t1r (Vk : KV F) (Vr : RV F) (h0 : Vk (Proc.devRef .tc Cert.KernelIdeal.main_arg0) = Vr (Proc.devRef .tc Cert.ReferenceIdeal.main_arg0)) (h1 : Vk (Proc.devRef .tc Cert.KernelIdeal.main_arg1) = Vr (Proc.devRef .tc Cert.ReferenceIdeal.main_arg1)) :
    kA Vk (Proc.devRef .tc Cert.KernelIdeal.main_v161) = truncf .bf16 (rA Vr (Proc.devRef .tc Cert.ReferenceIdeal.main_v145)) Cert.KernelIdeal.Facts₀.bitsLt_bf16_f32 := by
  unfold kA rA
  chain_eq [h0, h1]

set_option maxHeartbeats 8000000 in
/-- Term 2. -/
theorem A_t2r (Vk : KV F) (Vr : RV F) (h0 : Vk (Proc.devRef .tc Cert.KernelIdeal.main_arg0) = Vr (Proc.devRef .tc Cert.ReferenceIdeal.main_arg0)) (h1 : Vk (Proc.devRef .tc Cert.KernelIdeal.main_arg1) = Vr (Proc.devRef .tc Cert.ReferenceIdeal.main_arg1)) :
    kA Vk (Proc.devRef .tc Cert.KernelIdeal.main_v162) = truncf .bf16 (rA Vr (Proc.devRef .tc Cert.ReferenceIdeal.main_v165)) Cert.KernelIdeal.Facts₀.bitsLt_bf16_f32 := by
  unfold kA rA
  chain_eq [h0, h1]

set_option maxHeartbeats 8000000 in
/-- Term 3. -/
theorem A_t3r (Vk : KV F) (Vr : RV F) (h0 : Vk (Proc.devRef .tc Cert.KernelIdeal.main_arg0) = Vr (Proc.devRef .tc Cert.ReferenceIdeal.main_arg0)) (h1 : Vk (Proc.devRef .tc Cert.KernelIdeal.main_arg1) = Vr (Proc.devRef .tc Cert.ReferenceIdeal.main_arg1)) :
    kA Vk (Proc.devRef .tc Cert.KernelIdeal.main_v163) = truncf .bf16 (rA Vr (Proc.devRef .tc Cert.ReferenceIdeal.main_v185)) Cert.KernelIdeal.Facts₀.bitsLt_bf16_f32 := by
  unfold kA rA
  chain_eq [h0, h1]

end Cert.Bridge

end
-- ==== Proof.SimA4.lean ====
import proofs.«418800_j15479062135021_1_alg».proof.Proof.SimDefs

/-! Before the first region: the weights and biases the first region reads are the arguments', cast or reshaped. -/

noncomputable section

namespace Cert.Bridge

open Idealize.ShloMosaic Idealize.ShloMosaic.StableHlo Idealize.SL.Sem
open Cert.KernelIdeal.Gen Cert.ReferenceIdeal.RunFold

variable {F : FTy → Type} [FloatOps F]

set_option maxHeartbeats 8000000 in
/-- The forward weights. -/
theorem A_wf (Vk : KV F) (Vr : RV F) (h3 : Vk (Proc.devRef .tc Cert.KernelIdeal.main_arg3) = Vr (Proc.devRef .tc Cert.ReferenceIdeal.main_arg3)) :
    kA Vk (Proc.devRef .tc Cert.KernelIdeal.main_v164) = truncf .bf16 (rA Vr (Proc.devRef .tc Cert.ReferenceIdeal.main_arg3)) Cert.KernelIdeal.Facts₀.bitsLt_bf16_f32 := by
  unfold kA rA
  chain_eq [h3]

set_option maxHeartbeats 8000000 in
/-- The reversed weights. -/
theorem A_wr (Vk : KV F) (Vr : RV F) (h5 : Vk (Proc.devRef .tc Cert.KernelIdeal.main_arg5) = Vr (Proc.devRef .tc Cert.ReferenceIdeal.main_arg5)) :
    kA Vk (Proc.devRef .tc Cert.KernelIdeal.main_v165) = truncf .bf16 (rA Vr (Proc.devRef .tc Cert.ReferenceIdeal.main_arg5)) Cert.KernelIdeal.Facts₀.bitsLt_bf16_f32 := by
  unfold kA rA
  chain_eq [h5]

set_option maxHeartbeats 8000000 in
/-- The forward bias, as a row. -/
theorem A_bf (Vk : KV F) (Vr : RV F) (h4 : Vk (Proc.devRef .tc Cert.KernelIdeal.main_arg4) = Vr (Proc.devRef .tc Cert.ReferenceIdeal.main_arg4)) :
    kA Vk (Proc.devRef .tc Cert.KernelIdeal.main_v166) = shapeCast Cert.KernelIdeal.S1x64 (rA Vr (Proc.devRef .tc Cert.ReferenceIdeal.main_arg4)) Cert.KernelIdeal.Facts₀.shapeCasts_S64_S1x64 := by
  unfold kA rA
  chain_eq [h4]

set_option maxHeartbeats 8000000 in
/-- The reversed bias, as a row. -/
theorem A_br (Vk : KV F) (Vr : RV F) (h6 : Vk (Proc.devRef .tc Cert.KernelIdeal.main_arg6) = Vr (Proc.devRef .tc Cert.ReferenceIdeal.main_arg6)) :
    kA Vk (Proc.devRef .tc Cert.KernelIdeal.main_v167) = shapeCast Cert.KernelIdeal.S1x64 (rA Vr (Proc.devRef .tc Cert.ReferenceIdeal.main_arg6)) Cert.KernelIdeal.Facts₀.shapeCasts_S64_S1x64 := by
  unfold kA rA
  chain_eq [h6]

end Cert.Bridge

end
-- ==== Proof.SimB1.lean ====
import proofs.«418800_j15479062135021_1_alg».proof.Proof.SimDefs

/-! Between the first two regions: the forward Chebyshev terms the second region reads are the reference's, cast, once layer 1's
    output, the edge endpoints and the normalisations agree. -/

noncomputable section

namespace Cert.Bridge

open Idealize.ShloMosaic Idealize.ShloMosaic.StableHlo Idealize.SL.Sem
open Cert.KernelIdeal.Gen Cert.ReferenceIdeal.RunFold

variable {F : FTy → Type} [FloatOps F]

set_option maxHeartbeats 8000000 in
/-- Term 0 (layer 1's output). -/
theorem B_t0f (Vk : KV F) (Vr : RV F) (hh : Vk (Proc.devRef .tc Cert.KernelIdeal.main_v168) = Vr (Proc.devRef .tc Cert.ReferenceIdeal.main_v194)) (h1 : Vk (Proc.devRef .tc Cert.KernelIdeal.main_v1) = Vr (Proc.devRef .tc Cert.ReferenceIdeal.main_v1)) (h3 : Vk (Proc.devRef .tc Cert.KernelIdeal.main_v3) = Vr (Proc.devRef .tc Cert.ReferenceIdeal.main_v3)) (hf : Vk (Proc.devRef .tc Cert.KernelIdeal.main_v34) = Vr (Proc.devRef .tc Cert.ReferenceIdeal.main_v34)) (hr : Vk (Proc.devRef .tc Cert.KernelIdeal.main_v65) = Vr (Proc.devRef .tc Cert.ReferenceIdeal.main_v65)) :
    kB Vk (Proc.devRef .tc Cert.KernelIdeal.main_v259) = truncf .bf16 (rB Vr (Proc.devRef .tc Cert.ReferenceIdeal.main_v194)) Cert.KernelIdeal.Facts₀.bitsLt_bf16_f32 := by
  unfold kB rB
  chain_eq [hh, h1, h3, hf, hr]

set_option maxHeartbeats 8000000 in
/-- Term 1. -/
theorem B_t1f (Vk : KV F) (Vr : RV F) (hh : Vk (Proc.devRef .tc Cert.KernelIdeal.main_v168) = Vr (Proc.devRef .tc Cert.ReferenceIdeal.main_v194)) (h1 : Vk (Proc.devRef .tc Cert.KernelIdeal.main_v1) = Vr (Proc.devRef .tc Cert.ReferenceIdeal.main_v1)) (h3 : Vk (Proc.devRef .tc Cert.KernelIdeal.main_v3) = Vr (Proc.devRef .tc Cert.ReferenceIdeal.main_v3)) (hf : Vk (Proc.devRef .tc Cert.KernelIdeal.main_v34) = Vr (Proc.devRef .tc Cert.ReferenceIdeal.main_v34)) (hr : Vk (Proc.devRef .tc Cert.KernelIdeal.main_v65) = Vr (Proc.devRef .tc Cert.ReferenceIdeal.main_v65)) :
    kB Vk (Proc.devRef .tc Cert.KernelIdeal.main_v260) = truncf .bf16 (rB Vr (Proc.devRef .tc Cert.ReferenceIdeal.main_v210)) Cert.KernelIdeal.Facts₀.bitsLt_bf16_f32 := by
  unfold kB rB
  chain_eq [hh, h1, h3, hf, hr]

set_option maxHeartbeats 8000000 in
/-- Term 2. -/
theorem B_t2f (Vk : KV F) (Vr : RV F) (hh : Vk (Proc.devRef .tc Cert.KernelIdeal.main_v168) = Vr (Proc.devRef .tc Cert.ReferenceIdeal.main_v194)) (h1 : Vk (Proc.devRef .tc Cert.KernelIdeal.main_v1) = Vr (Proc.devRef .tc Cert.ReferenceIdeal.main_v1)) (h3 : Vk (Proc.devRef .tc Cert.KernelIdeal.main_v3) = Vr (Proc.devRef .tc Cert.ReferenceIdeal.main_v3)) (hf : Vk (Proc.devRef .tc Cert.KernelIdeal.main_v34) = Vr (Proc.devRef .tc Cert.ReferenceIdeal.main_v34)) (hr : Vk (Proc.devRef .tc Cert.KernelIdeal.main_v65) = Vr (Proc.devRef .tc Cert.ReferenceIdeal.main_v65)) :
    kB Vk (Proc.devRef .tc Cert.KernelIdeal.main_v261) = truncf .bf16 (rB Vr (Proc.devRef .tc Cert.ReferenceIdeal.main_v230)) Cert.KernelIdeal.Facts₀.bitsLt_bf16_f32 := by
  unfold kB rB
  chain_eq [hh, h1, h3, hf, hr]

set_option maxHeartbeats 8000000 in
/-- Term 3. -/
theorem B_t3f (Vk : KV F) (Vr : RV F) (hh : Vk (Proc.devRef .tc Cert.KernelIdeal.main_v168) = Vr (Proc.devRef .tc Cert.ReferenceIdeal.main_v194)) (h1 : Vk (Proc.devRef .tc Cert.KernelIdeal.main_v1) = Vr (Proc.devRef .tc Cert.ReferenceIdeal.main_v1)) (h3 : Vk (Proc.devRef .tc Cert.KernelIdeal.main_v3) = Vr (Proc.devRef .tc Cert.ReferenceIdeal.main_v3)) (hf : Vk (Proc.devRef .tc Cert.KernelIdeal.main_v34) = Vr (Proc.devRef .tc Cert.ReferenceIdeal.main_v34)) (hr : Vk (Proc.devRef .tc Cert.KernelIdeal.main_v65) = Vr (Proc.devRef .tc Cert.ReferenceIdeal.main_v65)) :
    kB Vk (Proc.devRef .tc Cert.KernelIdeal.main_v262) = truncf .bf16 (rB Vr (Proc.devRef .tc Cert.ReferenceIdeal.main_v250)) Cert.KernelIdeal.Facts₀.bitsLt_bf16_f32 := by
  unfold kB rB
  chain_eq [hh, h1, h3, hf, hr]

end Cert.Bridge

end
-- ==== Proof.SimB2.lean ====
import proofs.«418800_j15479062135021_1_alg».proof.Proof.SimDefs

/-! Between the first two regions: the reversed Chebyshev terms the second region reads are the reference's, cast. -/

noncomputable section

namespace Cert.Bridge

open Idealize.ShloMosaic Idealize.ShloMosaic.StableHlo Idealize.SL.Sem
open Cert.KernelIdeal.Gen Cert.ReferenceIdeal.RunFold

variable {F : FTy → Type} [FloatOps F]

set_option maxHeartbeats 8000000 in
/-- Term 0 (layer 1's output). -/
theorem B_t0r (Vk : KV F) (Vr : RV F) (hh : Vk (Proc.devRef .tc Cert.KernelIdeal.main_v168) = Vr (Proc.devRef .tc Cert.ReferenceIdeal.main_v194)) (h1 : Vk (Proc.devRef .tc Cert.KernelIdeal.main_v1) = Vr (Proc.devRef .tc Cert.ReferenceIdeal.main_v1)) (h3 : Vk (Proc.devRef .tc Cert.KernelIdeal.main_v3) = Vr (Proc.devRef .tc Cert.ReferenceIdeal.main_v3)) (hf : Vk (Proc.devRef .tc Cert.KernelIdeal.main_v34) = Vr (Proc.devRef .tc Cert.ReferenceIdeal.main_v34)) (hr : Vk (Proc.devRef .tc Cert.KernelIdeal.main_v65) = Vr (Proc.devRef .tc Cert.ReferenceIdeal.main_v65)) :
    kB Vk (Proc.devRef .tc Cert.KernelIdeal.main_v263) = truncf .bf16 (rB Vr (Proc.devRef .tc Cert.ReferenceIdeal.main_v194)) Cert.KernelIdeal.Facts₀.bitsLt_bf16_f32 := by
  unfold kB rB
  chain_eq [hh, h1, h3, hf, hr]

set_option maxHeartbeats 8000000 in
/-- Term 1. -/
theorem B_t1r (Vk : KV F) (Vr : RV F) (hh : Vk (Proc.devRef .tc Cert.KernelIdeal.main_v168) = Vr (Proc.devRef .tc Cert.ReferenceIdeal.main_v194)) (h1 : Vk (Proc.devRef .tc Cert.KernelIdeal.main_v1) = Vr (Proc.devRef .tc Cert.ReferenceIdeal.main_v1)) (h3 : Vk (Proc.devRef .tc Cert.KernelIdeal.main_v3) = Vr (Proc.devRef .tc Cert.ReferenceIdeal.main_v3)) (hf : Vk (Proc.devRef .tc Cert.KernelIdeal.main_v34) = Vr (Proc.devRef .tc Cert.ReferenceIdeal.main_v34)) (hr : Vk (Proc.devRef .tc Cert.KernelIdeal.main_v65) = Vr (Proc.devRef .tc Cert.ReferenceIdeal.main_v65)) :
    kB Vk (Proc.devRef .tc Cert.KernelIdeal.main_v264) = truncf .bf16 (rB Vr (Proc.devRef .tc Cert.ReferenceIdeal.main_v274)) Cert.KernelIdeal.Facts₀.bitsLt_bf16_f32 := by
  unfold kB rB
  chain_eq [hh, h1, h3, hf, hr]

set_option maxHeartbeats 8000000 in
/-- Term 2. -/
theorem B_t2r (Vk : KV F) (Vr : RV F) (hh : Vk (Proc.devRef .tc Cert.KernelIdeal.main_v168) = Vr (Proc.devRef .tc Cert.ReferenceIdeal.main_v194)) (h1 : Vk (Proc.devRef .tc Cert.KernelIdeal.main_v1) = Vr (Proc.devRef .tc Cert.ReferenceIdeal.main_v1)) (h3 : Vk (Proc.devRef .tc Cert.KernelIdeal.main_v3) = Vr (Proc.devRef .tc Cert.ReferenceIdeal.main_v3)) (hf : Vk (Proc.devRef .tc Cert.KernelIdeal.main_v34) = Vr (Proc.devRef .tc Cert.ReferenceIdeal.main_v34)) (hr : Vk (Proc.devRef .tc Cert.KernelIdeal.main_v65) = Vr (Proc.devRef .tc Cert.ReferenceIdeal.main_v65)) :
    kB Vk (Proc.devRef .tc Cert.KernelIdeal.main_v265) = truncf .bf16 (rB Vr (Proc.devRef .tc Cert.ReferenceIdeal.main_v294)) Cert.KernelIdeal.Facts₀.bitsLt_bf16_f32 := by
  unfold kB rB
  chain_eq [hh, h1, h3, hf, hr]

set_option maxHeartbeats 8000000 in
/-- Term 3. -/
theorem B_t3r (Vk : KV F) (Vr : RV F) (hh : Vk (Proc.devRef .tc Cert.KernelIdeal.main_v168) = Vr (Proc.devRef .tc Cert.ReferenceIdeal.main_v194)) (h1 : Vk (Proc.devRef .tc Cert.KernelIdeal.main_v1) = Vr (Proc.devRef .tc Cert.ReferenceIdeal.main_v1)) (h3 : Vk (Proc.devRef .tc Cert.KernelIdeal.main_v3) = Vr (Proc.devRef .tc Cert.ReferenceIdeal.main_v3)) (hf : Vk (Proc.devRef .tc Cert.KernelIdeal.main_v34) = Vr (Proc.devRef .tc Cert.ReferenceIdeal.main_v34)) (hr : Vk (Proc.devRef .tc Cert.KernelIdeal.main_v65) = Vr (Proc.devRef .tc Cert.ReferenceIdeal.main_v65)) :
    kB Vk (Proc.devRef .tc Cert.KernelIdeal.main_v266) = truncf .bf16 (rB Vr (Proc.devRef .tc Cert.ReferenceIdeal.main_v314)) Cert.KernelIdeal.Facts₀.bitsLt_bf16_f32 := by
  unfold kB rB
  chain_eq [hh, h1, h3, hf, hr]

end Cert.Bridge

end
-- ==== Proof.SimB3.lean ====
import proofs.«418800_j15479062135021_1_alg».proof.Proof.SimDefs

/-! Between the first two regions: the weights and biases the second region reads are the arguments', cast or reshaped. -/

noncomputable section

namespace Cert.Bridge

open Idealize.ShloMosaic Idealize.ShloMosaic.StableHlo Idealize.SL.Sem
open Cert.KernelIdeal.Gen Cert.ReferenceIdeal.RunFold

variable {F : FTy → Type} [FloatOps F]

set_option maxHeartbeats 8000000 in
/-- The forward weights. -/
theorem B_wf (Vk : KV F) (Vr : RV F) (h7 : Vk (Proc.devRef .tc Cert.KernelIdeal.main_arg7) = Vr (Proc.devRef .tc Cert.ReferenceIdeal.main_arg7)) :
    kB Vk (Proc.devRef .tc Cert.KernelIdeal.main_v267) = truncf .bf16 (rB Vr (Proc.devRef .tc Cert.ReferenceIdeal.main_arg7)) Cert.KernelIdeal.Facts₀.bitsLt_bf16_f32 := by
  unfold kB rB
  chain_eq [h7]

set_option maxHeartbeats 8000000 in
/-- The reversed weights. -/
theorem B_wr (Vk : KV F) (Vr : RV F) (h9 : Vk (Proc.devRef .tc Cert.KernelIdeal.main_arg9) = Vr (Proc.devRef .tc Cert.ReferenceIdeal.main_arg9)) :
    kB Vk (Proc.devRef .tc Cert.KernelIdeal.main_v268) = truncf .bf16 (rB Vr (Proc.devRef .tc Cert.ReferenceIdeal.main_arg9)) Cert.KernelIdeal.Facts₀.bitsLt_bf16_f32 := by
  unfold kB rB
  chain_eq [h9]

set_option maxHeartbeats 8000000 in
/-- The forward bias, as a row. -/
theorem B_bf (Vk : KV F) (Vr : RV F) (h8 : Vk (Proc.devRef .tc Cert.KernelIdeal.main_arg8) = Vr (Proc.devRef .tc Cert.ReferenceIdeal.main_arg8)) :
    kB Vk (Proc.devRef .tc Cert.KernelIdeal.main_v269) = shapeCast Cert.KernelIdeal.S1x256 (rB Vr (Proc.devRef .tc Cert.ReferenceIdeal.main_arg8)) Cert.KernelIdeal.Facts₀.shapeCasts_S256_S1x256 := by
  unfold kB rB
  chain_eq [h8]

set_option maxHeartbeats 8000000 in
/-- The reversed bias, as a row. -/
theorem B_br (Vk : KV F) (Vr : RV F) (h10 : Vk (Proc.devRef .tc Cert.KernelIdeal.main_arg10) = Vr (Proc.devRef .tc Cert.ReferenceIdeal.main_arg10)) :
    kB Vk (Proc.devRef .tc Cert.KernelIdeal.main_v270) = shapeCast Cert.KernelIdeal.S1x256 (rB Vr (Proc.devRef .tc Cert.ReferenceIdeal.main_arg10)) Cert.KernelIdeal.Facts₀.shapeCasts_S256_S1x256 := by
  unfold kB rB
  chain_eq [h10]

end Cert.Bridge

end
-- ==== Proof.SimCD.lean ====
import proofs.«418800_j15479062135021_1_alg».proof.Proof.SimDefs

/-! Before the pooling region the kernel's program only reshapes the graph ids; after it, both programs apply the same tail
    (the per-graph counts, the mean, the classifier and the log-softmax) to the per-graph sums. -/

noncomputable section

namespace Cert.Bridge

open Idealize.ShloMosaic Idealize.ShloMosaic.StableHlo Idealize.SL.Sem
open Cert.KernelIdeal.Gen Cert.ReferenceIdeal.RunFold

variable {F : FTy → Type} [FloatOps F]

/-- The graph ids as a column, and layer 2's output untouched. -/
theorem C_gid (Vk : KV F) :
    kC Vk (Proc.devRef .tc Cert.KernelIdeal.main_v272) = shapeCast Cert.KernelIdeal.S100000x1 (Vk (Proc.devRef .tc Cert.KernelIdeal.main_arg2)) Cert.KernelIdeal.Facts₀.shapeCasts_S100000_S100000x1 := by
  unfold kC
  chain_eq []
theorem C_feat (Vk : KV F) : kC Vk (Proc.devRef .tc Cert.KernelIdeal.main_v271) = Vk (Proc.devRef .tc Cert.KernelIdeal.main_v271) := by
  unfold kC
  chain_eq []
theorem C_arg2 (Vk : KV F) : kC Vk (Proc.devRef .tc Cert.KernelIdeal.main_arg2) = Vk (Proc.devRef .tc Cert.KernelIdeal.main_arg2) := by
  unfold kC
  chain_eq []

set_option maxHeartbeats 8000000 in
/-- The result: the tail of the per-graph sums. -/
theorem D_result (Vk : KV F) (Vr : RV F) (hs : Vk (Proc.devRef .tc Cert.KernelIdeal.main_v273) = Vr (Proc.devRef .tc Cert.ReferenceIdeal.main_v326)) (h2 : Vk (Proc.devRef .tc Cert.KernelIdeal.main_arg2) = Vr (Proc.devRef .tc Cert.ReferenceIdeal.main_arg2)) (h11 : Vk (Proc.devRef .tc Cert.KernelIdeal.main_arg11) = Vr (Proc.devRef .tc Cert.ReferenceIdeal.main_arg11)) (h12 : Vk (Proc.devRef .tc Cert.KernelIdeal.main_arg12) = Vr (Proc.devRef .tc Cert.ReferenceIdeal.main_arg12)) :
    kD Vk (Proc.devRef .tc Cert.KernelIdeal.main_v287) = rD Vr (Proc.devRef .tc Cert.ReferenceIdeal.main_v340) := by
  unfold kD rD
  chain_eq [hs, h2, h11, h12]

end Cert.Bridge

end
-- ==== Proof.SimArgsK.lean ====
import proofs.«418800_j15479062135021_1_alg».proof.Proof.SimDefs

/-! An argument no host operation writes passes through each host stage of the kernel's program unchanged. -/

noncomputable section

namespace Cert.Bridge

open Idealize.ShloMosaic Idealize.ShloMosaic.StableHlo Idealize.SL.Sem
open Cert.KernelIdeal.Gen Cert.ReferenceIdeal.RunFold

variable {F : FTy → Type} [FloatOps F]
theorem kA_arg2 (Vk : KV F) : kA Vk (Proc.devRef .tc Cert.KernelIdeal.main_arg2) = Vk (Proc.devRef .tc Cert.KernelIdeal.main_arg2) := by
  unfold kA
  chain_eq []
theorem kA_arg7 (Vk : KV F) : kA Vk (Proc.devRef .tc Cert.KernelIdeal.main_arg7) = Vk (Proc.devRef .tc Cert.KernelIdeal.main_arg7) := by
  unfold kA
  chain_eq []
theorem kA_arg8 (Vk : KV F) : kA Vk (Proc.devRef .tc Cert.KernelIdeal.main_arg8) = Vk (Proc.devRef .tc Cert.KernelIdeal.main_arg8) := by
  unfold kA
  chain_eq []
theorem kA_arg9 (Vk : KV F) : kA Vk (Proc.devRef .tc Cert.KernelIdeal.main_arg9) = Vk (Proc.devRef .tc Cert.KernelIdeal.main_arg9) := by
  unfold kA
  chain_eq []
theorem kA_arg10 (Vk : KV F) : kA Vk (Proc.devRef .tc Cert.KernelIdeal.main_arg10) = Vk (Proc.devRef .tc Cert.KernelIdeal.main_arg10) := by
  unfold kA
  chain_eq []
theorem kA_arg11 (Vk : KV F) : kA Vk (Proc.devRef .tc Cert.KernelIdeal.main_arg11) = Vk (Proc.devRef .tc Cert.KernelIdeal.main_arg11) := by
  unfold kA
  chain_eq []
theorem kA_arg12 (Vk : KV F) : kA Vk (Proc.devRef .tc Cert.KernelIdeal.main_arg12) = Vk (Proc.devRef .tc Cert.KernelIdeal.main_arg12) := by
  unfold kA
  chain_eq []
theorem kB_arg2 (Vk : KV F) : kB Vk (Proc.devRef .tc Cert.KernelIdeal.main_arg2) = Vk (Proc.devRef .tc Cert.KernelIdeal.main_arg2) := by
  unfold kB
  chain_eq []
theorem kB_arg11 (Vk : KV F) : kB Vk (Proc.devRef .tc Cert.KernelIdeal.main_arg11) = Vk (Proc.devRef .tc Cert.KernelIdeal.main_arg11) := by
  unfold kB
  chain_eq []
theorem kB_arg12 (Vk : KV F) : kB Vk (Proc.devRef .tc Cert.KernelIdeal.main_arg12) = Vk (Proc.devRef .tc Cert.KernelIdeal.main_arg12) := by
  unfold kB
  chain_eq []
theorem kC_arg11 (Vk : KV F) : kC Vk (Proc.devRef .tc Cert.KernelIdeal.main_arg11) = Vk (Proc.devRef .tc Cert.KernelIdeal.main_arg11) := by
  unfold kC
  chain_eq []
theorem kC_arg12 (Vk : KV F) : kC Vk (Proc.devRef .tc Cert.KernelIdeal.main_arg12) = Vk (Proc.devRef .tc Cert.KernelIdeal.main_arg12) := by
  unfold kC
  chain_eq []

end Cert.Bridge

end
-- ==== Proof.SimArgsR.lean ====
import proofs.«418800_j15479062135021_1_alg».proof.Proof.SimDefs

/-! An argument no host operation writes passes through each stretch of the reference unchanged. -/

noncomputable section

namespace Cert.Bridge

open Idealize.ShloMosaic Idealize.ShloMosaic.StableHlo Idealize.SL.Sem
open Cert.KernelIdeal.Gen Cert.ReferenceIdeal.RunFold

variable {F : FTy → Type} [FloatOps F]

/-- The reference's stretch that forms the per-graph sums. -/
def rC (Vr : RV F) : RV F := after rc7 Vr
theorem rA_arg2 (Vr : RV F) : rA Vr (Proc.devRef .tc Cert.ReferenceIdeal.main_arg2) = Vr (Proc.devRef .tc Cert.ReferenceIdeal.main_arg2) := by
  unfold rA
  chain_eq []
theorem rA_arg7 (Vr : RV F) : rA Vr (Proc.devRef .tc Cert.ReferenceIdeal.main_arg7) = Vr (Proc.devRef .tc Cert.ReferenceIdeal.main_arg7) := by
  unfold rA
  chain_eq []
theorem rA_arg8 (Vr : RV F) : rA Vr (Proc.devRef .tc Cert.ReferenceIdeal.main_arg8) = Vr (Proc.devRef .tc Cert.ReferenceIdeal.main_arg8) := by
  unfold rA
  chain_eq []
theorem rA_arg9 (Vr : RV F) : rA Vr (Proc.devRef .tc Cert.ReferenceIdeal.main_arg9) = Vr (Proc.devRef .tc Cert.ReferenceIdeal.main_arg9) := by
  unfold rA
  chain_eq []
theorem rA_arg10 (Vr : RV F) : rA Vr (Proc.devRef .tc Cert.ReferenceIdeal.main_arg10) = Vr (Proc.devRef .tc Cert.ReferenceIdeal.main_arg10) := by
  unfold rA
  chain_eq []
theorem rA_arg11 (Vr : RV F) : rA Vr (Proc.devRef .tc Cert.ReferenceIdeal.main_arg11) = Vr (Proc.devRef .tc Cert.ReferenceIdeal.main_arg11) := by
  unfold rA
  chain_eq []
theorem rA_arg12 (Vr : RV F) : rA Vr (Proc.devRef .tc Cert.ReferenceIdeal.main_arg12) = Vr (Proc.devRef .tc Cert.ReferenceIdeal.main_arg12) := by
  unfold rA
  chain_eq []
theorem rB_arg2 (Vr : RV F) : rB Vr (Proc.devRef .tc Cert.ReferenceIdeal.main_arg2) = Vr (Proc.devRef .tc Cert.ReferenceIdeal.main_arg2) := by
  unfold rB
  chain_eq []
theorem rB_arg11 (Vr : RV F) : rB Vr (Proc.devRef .tc Cert.ReferenceIdeal.main_arg11) = Vr (Proc.devRef .tc Cert.ReferenceIdeal.main_arg11) := by
  unfold rB
  chain_eq []
theorem rB_arg12 (Vr : RV F) : rB Vr (Proc.devRef .tc Cert.ReferenceIdeal.main_arg12) = Vr (Proc.devRef .tc Cert.ReferenceIdeal.main_arg12) := by
  unfold rB
  chain_eq []
theorem rC_arg2 (Vr : RV F) : rC Vr (Proc.devRef .tc Cert.ReferenceIdeal.main_arg2) = Vr (Proc.devRef .tc Cert.ReferenceIdeal.main_arg2) := by
  unfold rC
  chain_eq []
theorem rC_arg11 (Vr : RV F) : rC Vr (Proc.devRef .tc Cert.ReferenceIdeal.main_arg11) = Vr (Proc.devRef .tc Cert.ReferenceIdeal.main_arg11) := by
  unfold rC
  chain_eq []
theorem rC_arg12 (Vr : RV F) : rC Vr (Proc.devRef .tc Cert.ReferenceIdeal.main_arg12) = Vr (Proc.devRef .tc Cert.ReferenceIdeal.main_arg12) := by
  unfold rC
  chain_eq []

end Cert.Bridge

end
-- ==== Proof.Assemble.lean ====
import proofs.«418800_j15479062135021_1_alg».proof.Proof.KRun
import proofs.«418800_j15479062135021_1_alg».proof.Proof.RefOps
import proofs.«418800_j15479062135021_1_alg».proof.Proof.Layer0K
import proofs.«418800_j15479062135021_1_alg».proof.Proof.Layer1K
import proofs.«418800_j15479062135021_1_alg».proof.Proof.PoolK
import proofs.«418800_j15479062135021_1_alg».proof.Proof.Layer0R
import proofs.«418800_j15479062135021_1_alg».proof.Proof.Layer1R
import proofs.«418800_j15479062135021_1_alg».proof.Proof.PoolR
import proofs.«418800_j15479062135021_1_alg».proof.Proof.SimA1
import proofs.«418800_j15479062135021_1_alg».proof.Proof.SimA2
import proofs.«418800_j15479062135021_1_alg».proof.Proof.SimA3
import proofs.«418800_j15479062135021_1_alg».proof.Proof.SimA4
import proofs.«418800_j15479062135021_1_alg».proof.Proof.SimB1
import proofs.«418800_j15479062135021_1_alg».proof.Proof.SimB2
import proofs.«418800_j15479062135021_1_alg».proof.Proof.SimB3
import proofs.«418800_j15479062135021_1_alg».proof.Proof.SimCD
import proofs.«418800_j15479062135021_1_alg».proof.Proof.SimArgsK
import proofs.«418800_j15479062135021_1_alg».proof.Proof.SimArgsR
import Idealize.ShloMosaic.Lib.ValueLayout

/-! The two programs' results are equal, from memories that agree on the arguments. The argument walks the kernel's program
    boundary by boundary beside the reference's stretches: before each region the arrays the region reads are the reference's
    (the same host chains on equal values); each layer region's output is the reference's concatenated layer output (both are
    the layer value `Cert.Spec.cheb` of equal terms, weights and biases — a cast to bf16 is the identity on the extended
    reals); the pooling region's output is the reference's accumulating scatter (both are `Cert.Spec.pool`); the tails agree. -/

-- the two programs' buffer types are compared across their signatures by unfolding both
set_option maxHeartbeats 4000000

noncomputable section

namespace Cert.Assemble

open Idealize.ShloMosaic Idealize.ShloMosaic.TcCoe Idealize.ShloMosaic.StableHlo Idealize.SL.Sem Idealize.ShloMosaic.ValueIdx
open Cert.Bridge

/-- The layer value depends only on the values of its arguments. -/
theorem cheb_congr {Fo : Nat} {t0 t1 t2 t3 s0 s1 s2 s3 : Fin 100000 → Fin 128 → EReal} {w v : Fin 4 → Fin 128 → Fin Fo → EReal}
    {b e : Fin Fo → EReal} (h0 : ∀ n k, t0 n k = s0 n k) (h1 : ∀ n k, t1 n k = s1 n k) (h2 : ∀ n k, t2 n k = s2 n k)
    (h3 : ∀ n k, t3 n k = s3 n k) (hw : ∀ a k j, w a k j = v a k j) (hb : ∀ j, b j = e j) (n : Fin 100000) (j : Fin Fo) :
    Cert.Spec.cheb t0 t1 t2 t3 w b n j = Cert.Spec.cheb s0 s1 s2 s3 v e n j := by
  have e0 : t0 = s0 := funext fun n => funext (h0 n)
  have e1 : t1 = s1 := funext fun n => funext (h1 n)
  have e2 : t2 = s2 := funext fun n => funext (h2 n)
  have e3 : t3 = s3 := funext fun n => funext (h3 n)
  have ew : w = v := funext fun a => funext fun k => funext (hw a k)
  have eb : b = e := funext hb
  rw [e0, e1, e2, e3, ew, eb]

/-- The per-graph sum depends only on the values of its arguments. -/
theorem pool_congr {h k : Fin 100000 → Fin 512 → EReal} {a b : Fin 100000 → BitVec 32} (hh : ∀ n f, h n f = k n f)
    (hg : ∀ n, a n = b n) (g f : Fin 512) : Cert.Spec.pool h a g f = Cert.Spec.pool k b g f := by
  have e0 : h = k := funext fun n => funext (hh n)
  have e1 : a = b := funext hg
  rw [e0, e1]

/-- An `[a]` array cast to a column `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-- The two launch memories agree on the thirteen arguments (at device `c`). -/
structure Agree : Prop where
  a0 : Cert.KernelIdeal.Gen.W0 m ρ c (Proc.devRef .tc Cert.KernelIdeal.main_arg0) = Cert.ReferenceIdeal.RunFold.R0 m' c (Proc.devRef .tc Cert.ReferenceIdeal.main_arg0)
  a1 : Cert.KernelIdeal.Gen.W0 m ρ c (Proc.devRef .tc Cert.KernelIdeal.main_arg1) = Cert.ReferenceIdeal.RunFold.R0 m' c (Proc.devRef .tc Cert.ReferenceIdeal.main_arg1)
  a2 : Cert.KernelIdeal.Gen.W0 m ρ c (Proc.devRef .tc Cert.KernelIdeal.main_arg2) = Cert.ReferenceIdeal.RunFold.R0 m' c (Proc.devRef .tc Cert.ReferenceIdeal.main_arg2)
  a3 : Cert.KernelIdeal.Gen.W0 m ρ c (Proc.devRef .tc Cert.KernelIdeal.main_arg3) = Cert.ReferenceIdeal.RunFold.R0 m' c (Proc.devRef .tc Cert.ReferenceIdeal.main_arg3)
  a4 : Cert.KernelIdeal.Gen.W0 m ρ c (Proc.devRef .tc Cert.KernelIdeal.main_arg4) = Cert.ReferenceIdeal.RunFold.R0 m' c (Proc.devRef .tc Cert.ReferenceIdeal.main_arg4)
  a5 : Cert.KernelIdeal.Gen.W0 m ρ c (Proc.devRef .tc Cert.KernelIdeal.main_arg5) = Cert.ReferenceIdeal.RunFold.R0 m' c (Proc.devRef .tc Cert.ReferenceIdeal.main_arg5)
  a6 : Cert.KernelIdeal.Gen.W0 m ρ c (Proc.devRef .tc Cert.KernelIdeal.main_arg6) = Cert.ReferenceIdeal.RunFold.R0 m' c (Proc.devRef .tc Cert.ReferenceIdeal.main_arg6)
  a7 : Cert.KernelIdeal.Gen.W0 m ρ c (Proc.devRef .tc Cert.KernelIdeal.main_arg7) = Cert.ReferenceIdeal.RunFold.R0 m' c (Proc.devRef .tc Cert.ReferenceIdeal.main_arg7)
  a8 : Cert.KernelIdeal.Gen.W0 m ρ c (Proc.devRef .tc Cert.KernelIdeal.main_arg8) = Cert.ReferenceIdeal.RunFold.R0 m' c (Proc.devRef .tc Cert.ReferenceIdeal.main_arg8)
  a9 : Cert.KernelIdeal.Gen.W0 m ρ c (Proc.devRef .tc Cert.KernelIdeal.main_arg9) = Cert.ReferenceIdeal.RunFold.R0 m' c (Proc.devRef .tc Cert.ReferenceIdeal.main_arg9)
  a10 : Cert.KernelIdeal.Gen.W0 m ρ c (Proc.devRef .tc Cert.KernelIdeal.main_arg10) = Cert.ReferenceIdeal.RunFold.R0 m' c (Proc.devRef .tc Cert.ReferenceIdeal.main_arg10)
  a11 : Cert.KernelIdeal.Gen.W0 m ρ c (Proc.devRef .tc Cert.KernelIdeal.main_arg11) = Cert.ReferenceIdeal.RunFold.R0 m' c (Proc.devRef .tc Cert.ReferenceIdeal.main_arg11)
  a12 : Cert.KernelIdeal.Gen.W0 m ρ c (Proc.devRef .tc Cert.KernelIdeal.main_arg12) = Cert.ReferenceIdeal.RunFold.R0 m' c (Proc.devRef .tc Cert.ReferenceIdeal.main_arg12)

variable {m ρ m' c} (ag : Agree m ρ m' c)
include ag

/-! ## The arguments at every boundary -/
theorem k9_arg2 : Cert.KernelIdeal.Gen.W9 m ρ c (Proc.devRef .tc Cert.KernelIdeal.main_arg2) = Cert.KernelIdeal.Gen.W0 m ρ c (Proc.devRef .tc Cert.KernelIdeal.main_arg2) := kA_arg2 _
theorem k10_arg2 : Cert.KernelIdeal.Gen.W10 m ρ c (Proc.devRef .tc Cert.KernelIdeal.main_arg2) = Cert.KernelIdeal.Gen.W0 m ρ c (Proc.devRef .tc Cert.KernelIdeal.main_arg2) := (Cert.KernelIdeal.Gen.W10_of_ne m ρ c Cert.KernelIdeal.main_arg2 (by decide)).trans (kA_arg2 _)
theorem r4_arg2 : Cert.ReferenceIdeal.RunFold.R4 m' c (Proc.devRef .tc Cert.ReferenceIdeal.main_arg2) = Cert.ReferenceIdeal.RunFold.R0 m' c (Proc.devRef .tc Cert.ReferenceIdeal.main_arg2) := rA_arg2 _
theorem k9_arg7 : Cert.KernelIdeal.Gen.W9 m ρ c (Proc.devRef .tc Cert.KernelIdeal.main_arg7) = Cert.KernelIdeal.Gen.W0 m ρ c (Proc.devRef .tc Cert.KernelIdeal.main_arg7) := kA_arg7 _
theorem k10_arg7 : Cert.KernelIdeal.Gen.W10 m ρ c (Proc.devRef .tc Cert.KernelIdeal.main_arg7) = Cert.KernelIdeal.Gen.W0 m ρ c (Proc.devRef .tc Cert.KernelIdeal.main_arg7) := (Cert.KernelIdeal.Gen.W10_of_ne m ρ c Cert.KernelIdeal.main_arg7 (by decide)).trans (kA_arg7 _)
theorem r4_arg7 : Cert.ReferenceIdeal.RunFold.R4 m' c (Proc.devRef .tc Cert.ReferenceIdeal.main_arg7) = Cert.ReferenceIdeal.RunFold.R0 m' c (Proc.devRef .tc Cert.ReferenceIdeal.main_arg7) := rA_arg7 _
theorem k9_arg8 : Cert.KernelIdeal.Gen.W9 m ρ c (Proc.devRef .tc Cert.KernelIdeal.main_arg8) = Cert.KernelIdeal.Gen.W0 m ρ c (Proc.devRef .tc Cert.KernelIdeal.main_arg8) := kA_arg8 _
theorem k10_arg8 : Cert.KernelIdeal.Gen.W10 m ρ c (Proc.devRef .tc Cert.KernelIdeal.main_arg8) = Cert.KernelIdeal.Gen.W0 m ρ c (Proc.devRef .tc Cert.KernelIdeal.main_arg8) := (Cert.KernelIdeal.Gen.W10_of_ne m ρ c Cert.KernelIdeal.main_arg8 (by decide)).trans (kA_arg8 _)
theorem r4_arg8 : Cert.ReferenceIdeal.RunFold.R4 m' c (Proc.devRef .tc Cert.ReferenceIdeal.main_arg8) = Cert.ReferenceIdeal.RunFold.R0 m' c (Proc.devRef .tc Cert.ReferenceIdeal.main_arg8) := rA_arg8 _
theorem k9_arg9 : Cert.KernelIdeal.Gen.W9 m ρ c (Proc.devRef .tc Cert.KernelIdeal.main_arg9) = Cert.KernelIdeal.Gen.W0 m ρ c (Proc.devRef .tc Cert.KernelIdeal.main_arg9) := kA_arg9 _
theorem k10_arg9 : Cert.KernelIdeal.Gen.W10 m ρ c (Proc.devRef .tc Cert.KernelIdeal.main_arg9) = Cert.KernelIdeal.Gen.W0 m ρ c (Proc.devRef .tc Cert.KernelIdeal.main_arg9) := (Cert.KernelIdeal.Gen.W10_of_ne m ρ c Cert.KernelIdeal.main_arg9 (by decide)).trans (kA_arg9 _)
theorem r4_arg9 : Cert.ReferenceIdeal.RunFold.R4 m' c (Proc.devRef .tc Cert.ReferenceIdeal.main_arg9) = Cert.ReferenceIdeal.RunFold.R0 m' c (Proc.devRef .tc Cert.ReferenceIdeal.main_arg9) := rA_arg9 _
theorem k9_arg10 : Cert.KernelIdeal.Gen.W9 m ρ c (Proc.devRef .tc Cert.KernelIdeal.main_arg10) = Cert.KernelIdeal.Gen.W0 m ρ c (Proc.devRef .tc Cert.KernelIdeal.main_arg10) := kA_arg10 _
theorem k10_arg10 : Cert.KernelIdeal.Gen.W10 m ρ c (Proc.devRef .tc Cert.KernelIdeal.main_arg10) = Cert.KernelIdeal.Gen.W0 m ρ c (Proc.devRef .tc Cert.KernelIdeal.main_arg10) := (Cert.KernelIdeal.Gen.W10_of_ne m ρ c Cert.KernelIdeal.main_arg10 (by decide)).trans (kA_arg10 _)
theorem r4_arg10 : Cert.ReferenceIdeal.RunFold.R4 m' c (Proc.devRef .tc Cert.ReferenceIdeal.main_arg10) = Cert.ReferenceIdeal.RunFold.R0 m' c (Proc.devRef .tc Cert.ReferenceIdeal.main_arg10) := rA_arg10 _
theorem k9_arg11 : Cert.KernelIdeal.Gen.W9 m ρ c (Proc.devRef .tc Cert.KernelIdeal.main_arg11) = Cert.KernelIdeal.Gen.W0 m ρ c (Proc.devRef .tc Cert.KernelIdeal.main_arg11) := kA_arg11 _
theorem k10_arg11 : Cert.KernelIdeal.Gen.W10 m ρ c (Proc.devRef .tc Cert.KernelIdeal.main_arg11) = Cert.KernelIdeal.Gen.W0 m ρ c (Proc.devRef .tc Cert.KernelIdeal.main_arg11) := (Cert.KernelIdeal.Gen.W10_of_ne m ρ c Cert.KernelIdeal.main_arg11 (by decide)).trans (kA_arg11 _)
theorem r4_arg11 : Cert.ReferenceIdeal.RunFold.R4 m' c (Proc.devRef .tc Cert.ReferenceIdeal.main_arg11) = Cert.ReferenceIdeal.RunFold.R0 m' c (Proc.devRef .tc Cert.ReferenceIdeal.main_arg11) := rA_arg11 _
theorem k9_arg12 : Cert.KernelIdeal.Gen.W9 m ρ c (Proc.devRef .tc Cert.KernelIdeal.main_arg12) = Cert.KernelIdeal.Gen.W0 m ρ c (Proc.devRef .tc Cert.KernelIdeal.main_arg12) := kA_arg12 _
theorem k10_arg12 : Cert.KernelIdeal.Gen.W10 m ρ c (Proc.devRef .tc Cert.KernelIdeal.main_arg12) = Cert.KernelIdeal.Gen.W0 m ρ c (Proc.devRef .tc Cert.KernelIdeal.main_arg12) := (Cert.KernelIdeal.Gen.W10_of_ne m ρ c Cert.KernelIdeal.main_arg12 (by decide)).trans (kA_arg12 _)
theorem r4_arg12 : Cert.ReferenceIdeal.RunFold.R4 m' c (Proc.devRef .tc Cert.ReferenceIdeal.main_arg12) = Cert.ReferenceIdeal.RunFold.R0 m' c (Proc.devRef .tc Cert.ReferenceIdeal.main_arg12) := rA_arg12 _
theorem k12_arg2 : Cert.KernelIdeal.Gen.W12 m ρ c (Proc.devRef .tc Cert.KernelIdeal.main_arg2) = Cert.KernelIdeal.Gen.W0 m ρ c (Proc.devRef .tc Cert.KernelIdeal.main_arg2) :=
  (Cert.KernelIdeal.Gen.W12_of_ne m ρ c Cert.KernelIdeal.main_arg2 (by decide)).trans ((kB_arg2 (Cert.KernelIdeal.Gen.W10 m ρ c)).trans (k10_arg2 ag))
theorem k14_arg2 : Cert.KernelIdeal.Gen.W14 m ρ c (Proc.devRef .tc Cert.KernelIdeal.main_arg2) = Cert.KernelIdeal.Gen.W0 m ρ c (Proc.devRef .tc Cert.KernelIdeal.main_arg2) :=
  (Cert.KernelIdeal.Gen.W14_of_ne m ρ c Cert.KernelIdeal.main_arg2 (by decide)).trans ((C_arg2 (Cert.KernelIdeal.Gen.W12 m ρ c)).trans (k12_arg2 ag))
theorem r7_arg2 : Cert.ReferenceIdeal.RunFold.R7 m' c (Proc.devRef .tc Cert.ReferenceIdeal.main_arg2) = Cert.ReferenceIdeal.RunFold.R0 m' c (Proc.devRef .tc Cert.ReferenceIdeal.main_arg2) := (rB_arg2 (Cert.ReferenceIdeal.RunFold.R4 m' c)).trans (r4_arg2 ag)
theorem r8_arg2 : Cert.ReferenceIdeal.RunFold.R8 m' c (Proc.devRef .tc Cert.ReferenceIdeal.main_arg2) = Cert.ReferenceIdeal.RunFold.R0 m' c (Proc.devRef .tc Cert.ReferenceIdeal.main_arg2) := (rC_arg2 (Cert.ReferenceIdeal.RunFold.R7 m' c)).trans (r7_arg2 ag)
theorem k12_arg11 : Cert.KernelIdeal.Gen.W12 m ρ c (Proc.devRef .tc Cert.KernelIdeal.main_arg11) = Cert.KernelIdeal.Gen.W0 m ρ c (Proc.devRef .tc Cert.KernelIdeal.main_arg11) :=
  (Cert.KernelIdeal.Gen.W12_of_ne m ρ c Cert.KernelIdeal.main_arg11 (by decide)).trans ((kB_arg11 (Cert.KernelIdeal.Gen.W10 m ρ c)).trans (k10_arg11 ag))
theorem k14_arg11 : Cert.KernelIdeal.Gen.W14 m ρ c (Proc.devRef .tc Cert.KernelIdeal.main_arg11) = Cert.KernelIdeal.Gen.W0 m ρ c (Proc.devRef .tc Cert.KernelIdeal.main_arg11) :=
  (Cert.KernelIdeal.Gen.W14_of_ne m ρ c Cert.KernelIdeal.main_arg11 (by decide)).trans ((kC_arg11 (Cert.KernelIdeal.Gen.W12 m ρ c)).trans (k12_arg11 ag))
theorem r7_arg11 : Cert.ReferenceIdeal.RunFold.R7 m' c (Proc.devRef .tc Cert.ReferenceIdeal.main_arg11) = Cert.ReferenceIdeal.RunFold.R0 m' c (Proc.devRef .tc Cert.ReferenceIdeal.main_arg11) := (rB_arg11 (Cert.ReferenceIdeal.RunFold.R4 m' c)).trans (r4_arg11 ag)
theorem r8_arg11 : Cert.ReferenceIdeal.RunFold.R8 m' c (Proc.devRef .tc Cert.ReferenceIdeal.main_arg11) = Cert.ReferenceIdeal.RunFold.R0 m' c (Proc.devRef .tc Cert.ReferenceIdeal.main_arg11) := (rC_arg11 (Cert.ReferenceIdeal.RunFold.R7 m' c)).trans (r7_arg11 ag)
theorem k12_arg12 : Cert.KernelIdeal.Gen.W12 m ρ c (Proc.devRef .tc Cert.KernelIdeal.main_arg12) = Cert.KernelIdeal.Gen.W0 m ρ c (Proc.devRef .tc Cert.KernelIdeal.main_arg12) :=
  (Cert.KernelIdeal.Gen.W12_of_ne m ρ c Cert.KernelIdeal.main_arg12 (by decide)).trans ((kB_arg12 (Cert.KernelIdeal.Gen.W10 m ρ c)).trans (k10_arg12 ag))
theorem k14_arg12 : Cert.KernelIdeal.Gen.W14 m ρ c (Proc.devRef .tc Cert.KernelIdeal.main_arg12) = Cert.KernelIdeal.Gen.W0 m ρ c (Proc.devRef .tc Cert.KernelIdeal.main_arg12) :=
  (Cert.KernelIdeal.Gen.W14_of_ne m ρ c Cert.KernelIdeal.main_arg12 (by decide)).trans ((kC_arg12 (Cert.KernelIdeal.Gen.W12 m ρ c)).trans (k12_arg12 ag))
theorem r7_arg12 : Cert.ReferenceIdeal.RunFold.R7 m' c (Proc.devRef .tc Cert.ReferenceIdeal.main_arg12) = Cert.ReferenceIdeal.RunFold.R0 m' c (Proc.devRef .tc Cert.ReferenceIdeal.main_arg12) := (rB_arg12 (Cert.ReferenceIdeal.RunFold.R4 m' c)).trans (r4_arg12 ag)
theorem r8_arg12 : Cert.ReferenceIdeal.RunFold.R8 m' c (Proc.devRef .tc Cert.ReferenceIdeal.main_arg12) = Cert.ReferenceIdeal.RunFold.R0 m' c (Proc.devRef .tc Cert.ReferenceIdeal.main_arg12) := (rC_arg12 (Cert.ReferenceIdeal.RunFold.R7 m' c)).trans (r7_arg12 ag)

/-! ## Layer 1 -/

/-- Layer 1's output: the first region's array when it ends is the reference's concatenated layer output. -/
theorem h1_eq : Cert.KernelIdeal.Gen.W10 m ρ c (Proc.devRef .tc Cert.KernelIdeal.main_v168) = Cert.ReferenceIdeal.RunFold.R4 m' c (Proc.devRef .tc Cert.ReferenceIdeal.main_v194) := by
  have hx := A_t0f (Cert.KernelIdeal.Gen.W0 m ρ c) (Cert.ReferenceIdeal.RunFold.R0 m' c) ag.a0 ag.a1
  have h1 := A_t1f (Cert.KernelIdeal.Gen.W0 m ρ c) (Cert.ReferenceIdeal.RunFold.R0 m' c) ag.a0 ag.a1
  have h2 := A_t2f (Cert.KernelIdeal.Gen.W0 m ρ c) (Cert.ReferenceIdeal.RunFold.R0 m' c) ag.a0 ag.a1
  have h3 := A_t3f (Cert.KernelIdeal.Gen.W0 m ρ c) (Cert.ReferenceIdeal.RunFold.R0 m' c) ag.a0 ag.a1
  have hy := A_t0r (Cert.KernelIdeal.Gen.W0 m ρ c) (Cert.ReferenceIdeal.RunFold.R0 m' c) ag.a0 ag.a1
  have g1 := A_t1r (Cert.KernelIdeal.Gen.W0 m ρ c) (Cert.ReferenceIdeal.RunFold.R0 m' c) ag.a0 ag.a1
  have g2 := A_t2r (Cert.KernelIdeal.Gen.W0 m ρ c) (Cert.ReferenceIdeal.RunFold.R0 m' c) ag.a0 ag.a1
  have g3 := A_t3r (Cert.KernelIdeal.Gen.W0 m ρ c) (Cert.ReferenceIdeal.RunFold.R0 m' c) ag.a0 ag.a1
  have hwf := A_wf (Cert.KernelIdeal.Gen.W0 m ρ c) (Cert.ReferenceIdeal.RunFold.R0 m' c) ag.a3
  have hwr := A_wr (Cert.KernelIdeal.Gen.W0 m ρ c) (Cert.ReferenceIdeal.RunFold.R0 m' c) ag.a5
  have hbf := A_bf (Cert.KernelIdeal.Gen.W0 m ρ c) (Cert.ReferenceIdeal.RunFold.R0 m' c) ag.a4
  have hbr := A_br (Cert.KernelIdeal.Gen.W0 m ρ c) (Cert.ReferenceIdeal.RunFold.R0 m' c) ag.a6
  have e : Cert.KernelIdeal.Gen.W10 m ρ c (Proc.devRef .tc Cert.KernelIdeal.main_v168) = Cert.KernelIdeal.Layer0.out (Cert.KernelIdeal.Gen.V9 m ρ) c := Cert.KernelIdeal.Gen.W10_arr m ρ c 12
  rw [e]
  funext i
  obtain ⟨n, q, rfl⟩ : ∃ (n : Fin 100000) (q : Fin 128), i = ix2 n q := ⟨i 0, i 1, eq_ix2 i⟩
  by_cases hq : q.val < 64
  · refine (Cert.KernelIdeal.Layer0.value_fwd (Cert.KernelIdeal.Gen.V9 m ρ) c n ⟨q.val, hq⟩).trans (Eq.trans ?_ (Cert.ReferenceIdeal.Layer0.h1_fwd m' c n ⟨q.val, hq⟩).symm)
    exact cheb_congr (fun n k => congrFun hx (ix2 n k)) (fun n k => congrFun h1 (ix2 n k)) (fun n k => congrFun h2 (ix2 n k))
      (fun n k => congrFun h3 (ix2 n k)) (fun a k j => congrFun hwf (ix3 a k j))
      (fun j => (congrFun hbf (ix2 0 j)).trans (shapeCast_a_1a_apply _ _ 0 j)) n _
  · have hq' : q.val - 64 < 64 := by have := q.isLt; omega
    have eq : q = ⟨64 + (⟨q.val - 64, hq'⟩ : Fin 64).val, by have := q.isLt; show 64 + (q.val - 64) < 128; omega⟩ :=
      Fin.ext (by show q.val = 64 + (q.val - 64); omega)
    rw [eq]
    refine (Cert.KernelIdeal.Layer0.value_rev (Cert.KernelIdeal.Gen.V9 m ρ) c n ⟨q.val - 64, hq'⟩).trans (Eq.trans ?_ (Cert.ReferenceIdeal.Layer0.h1_rev m' c n ⟨q.val - 64, hq'⟩).symm)
    exact cheb_congr (fun n k => congrFun hy (ix2 n k)) (fun n k => congrFun g1 (ix2 n k)) (fun n k => congrFun g2 (ix2 n k))
      (fun n k => congrFun g3 (ix2 n k)) (fun a k j => congrFun hwr (ix3 a k j))
      (fun j => (congrFun hbr (ix2 0 j)).trans (shapeCast_a_1a_apply _ _ 0 j)) n _

/-! ## Layer 2 -/

theorem k10_src : Cert.KernelIdeal.Gen.W10 m ρ c (Proc.devRef .tc Cert.KernelIdeal.main_v1) = Cert.ReferenceIdeal.RunFold.R4 m' c (Proc.devRef .tc Cert.ReferenceIdeal.main_v1) :=
  (Cert.KernelIdeal.Gen.W10_of_ne m ρ c Cert.KernelIdeal.main_v1 (by decide)).trans (A_src (Cert.KernelIdeal.Gen.W0 m ρ c) (Cert.ReferenceIdeal.RunFold.R0 m' c) ag.a0 ag.a1)
theorem k10_dst : Cert.KernelIdeal.Gen.W10 m ρ c (Proc.devRef .tc Cert.KernelIdeal.main_v3) = Cert.ReferenceIdeal.RunFold.R4 m' c (Proc.devRef .tc Cert.ReferenceIdeal.main_v3) :=
  (Cert.KernelIdeal.Gen.W10_of_ne m ρ c Cert.KernelIdeal.main_v3 (by decide)).trans (A_dst (Cert.KernelIdeal.Gen.W0 m ρ c) (Cert.ReferenceIdeal.RunFold.R0 m' c) ag.a0 ag.a1)
theorem k10_normF : Cert.KernelIdeal.Gen.W10 m ρ c (Proc.devRef .tc Cert.KernelIdeal.main_v34) = Cert.ReferenceIdeal.RunFold.R4 m' c (Proc.devRef .tc Cert.ReferenceIdeal.main_v34) :=
  (Cert.KernelIdeal.Gen.W10_of_ne m ρ c Cert.KernelIdeal.main_v34 (by decide)).trans (A_normF (Cert.KernelIdeal.Gen.W0 m ρ c) (Cert.ReferenceIdeal.RunFold.R0 m' c) ag.a0 ag.a1)
theorem k10_normR : Cert.KernelIdeal.Gen.W10 m ρ c (Proc.devRef .tc Cert.KernelIdeal.main_v65) = Cert.ReferenceIdeal.RunFold.R4 m' c (Proc.devRef .tc Cert.ReferenceIdeal.main_v65) :=
  (Cert.KernelIdeal.Gen.W10_of_ne m ρ c Cert.KernelIdeal.main_v65 (by decide)).trans (A_normR (Cert.KernelIdeal.Gen.W0 m ρ c) (Cert.ReferenceIdeal.RunFold.R0 m' c) ag.a0 ag.a1)
theorem k10_r4_arg7 : Cert.KernelIdeal.Gen.W10 m ρ c (Proc.devRef .tc Cert.KernelIdeal.main_arg7) = Cert.ReferenceIdeal.RunFold.R4 m' c (Proc.devRef .tc Cert.ReferenceIdeal.main_arg7) := (k10_arg7 ag).trans (ag.a7.trans (r4_arg7 ag).symm)
theorem k10_r4_arg8 : Cert.KernelIdeal.Gen.W10 m ρ c (Proc.devRef .tc Cert.KernelIdeal.main_arg8) = Cert.ReferenceIdeal.RunFold.R4 m' c (Proc.devRef .tc Cert.ReferenceIdeal.main_arg8) := (k10_arg8 ag).trans (ag.a8.trans (r4_arg8 ag).symm)
theorem k10_r4_arg9 : Cert.KernelIdeal.Gen.W10 m ρ c (Proc.devRef .tc Cert.KernelIdeal.main_arg9) = Cert.ReferenceIdeal.RunFold.R4 m' c (Proc.devRef .tc Cert.ReferenceIdeal.main_arg9) := (k10_arg9 ag).trans (ag.a9.trans (r4_arg9 ag).symm)
theorem k10_r4_arg10 : Cert.KernelIdeal.Gen.W10 m ρ c (Proc.devRef .tc Cert.KernelIdeal.main_arg10) = Cert.ReferenceIdeal.RunFold.R4 m' c (Proc.devRef .tc Cert.ReferenceIdeal.main_arg10) := (k10_arg10 ag).trans (ag.a10.trans (r4_arg10 ag).symm)

/-- Layer 2's output: the second region's array when it ends is the reference's concatenated layer output. -/
theorem h2_eq : Cert.KernelIdeal.Gen.W12 m ρ c (Proc.devRef .tc Cert.KernelIdeal.main_v271) = Cert.ReferenceIdeal.RunFold.R7 m' c (Proc.devRef .tc Cert.ReferenceIdeal.main_v323) := by
  have hh := h1_eq ag
  have s1 := k10_src ag
  have s3 := k10_dst ag
  have sf := k10_normF ag
  have sr := k10_normR ag
  have hx := B_t0f (Cert.KernelIdeal.Gen.W10 m ρ c) (Cert.ReferenceIdeal.RunFold.R4 m' c) hh s1 s3 sf sr
  have h1 := B_t1f (Cert.KernelIdeal.Gen.W10 m ρ c) (Cert.ReferenceIdeal.RunFold.R4 m' c) hh s1 s3 sf sr
  have h2 := B_t2f (Cert.KernelIdeal.Gen.W10 m ρ c) (Cert.ReferenceIdeal.RunFold.R4 m' c) hh s1 s3 sf sr
  have h3 := B_t3f (Cert.KernelIdeal.Gen.W10 m ρ c) (Cert.ReferenceIdeal.RunFold.R4 m' c) hh s1 s3 sf sr
  have hy := B_t0r (Cert.KernelIdeal.Gen.W10 m ρ c) (Cert.ReferenceIdeal.RunFold.R4 m' c) hh s1 s3 sf sr
  have g1 := B_t1r (Cert.KernelIdeal.Gen.W10 m ρ c) (Cert.ReferenceIdeal.RunFold.R4 m' c) hh s1 s3 sf sr
  have g2 := B_t2r (Cert.KernelIdeal.Gen.W10 m ρ c) (Cert.ReferenceIdeal.RunFold.R4 m' c) hh s1 s3 sf sr
  have g3 := B_t3r (Cert.KernelIdeal.Gen.W10 m ρ c) (Cert.ReferenceIdeal.RunFold.R4 m' c) hh s1 s3 sf sr
  have hwf := B_wf (Cert.KernelIdeal.Gen.W10 m ρ c) (Cert.ReferenceIdeal.RunFold.R4 m' c) (k10_r4_arg7 ag)
  have hwr := B_wr (Cert.KernelIdeal.Gen.W10 m ρ c) (Cert.ReferenceIdeal.RunFold.R4 m' c) (k10_r4_arg9 ag)
  have hbf := B_bf (Cert.KernelIdeal.Gen.W10 m ρ c) (Cert.ReferenceIdeal.RunFold.R4 m' c) (k10_r4_arg8 ag)
  have hbr := B_br (Cert.KernelIdeal.Gen.W10 m ρ c) (Cert.ReferenceIdeal.RunFold.R4 m' c) (k10_r4_arg10 ag)
  have e : Cert.KernelIdeal.Gen.W12 m ρ c (Proc.devRef .tc Cert.KernelIdeal.main_v271) = Cert.KernelIdeal.Layer1.out (Cert.KernelIdeal.Gen.V11 m ρ) c := Cert.KernelIdeal.Gen.W12_arr m ρ c 12
  rw [e]
  funext i
  obtain ⟨n, q, rfl⟩ : ∃ (n : Fin 100000) (q : Fin 512), i = ix2 n q := ⟨i 0, i 1, eq_ix2 i⟩
  by_cases hq : q.val < 256
  · refine (Cert.KernelIdeal.Layer1.value_fwd (Cert.KernelIdeal.Gen.V11 m ρ) c n ⟨q.val, hq⟩).trans (Eq.trans ?_ (Cert.ReferenceIdeal.Layer1.h2_fwd m' c n ⟨q.val, hq⟩).symm)
    exact cheb_congr (fun n k => congrFun hx (ix2 n k)) (fun n k => congrFun h1 (ix2 n k)) (fun n k => congrFun h2 (ix2 n k))
      (fun n k => congrFun h3 (ix2 n k)) (fun a k j => congrFun hwf (ix3 a k j))
      (fun j => (congrFun hbf (ix2 0 j)).trans (shapeCast_a_1a_apply _ _ 0 j)) n _
  · have hq' : q.val - 256 < 256 := by have := q.isLt; omega
    have eq : q = ⟨256 + (⟨q.val - 256, hq'⟩ : Fin 256).val, by have := q.isLt; show 256 + (q.val - 256) < 512; omega⟩ :=
      Fin.ext (by show q.val = 256 + (q.val - 256); omega)
    rw [eq]
    refine (Cert.KernelIdeal.Layer1.value_rev (Cert.KernelIdeal.Gen.V11 m ρ) c n ⟨q.val - 256, hq'⟩).trans (Eq.trans ?_ (Cert.ReferenceIdeal.Layer1.h2_rev m' c n ⟨q.val - 256, hq'⟩).symm)
    exact cheb_congr (fun n k => congrFun hy (ix2 n k)) (fun n k => congrFun g1 (ix2 n k)) (fun n k => congrFun g2 (ix2 n k))
      (fun n k => congrFun g3 (ix2 n k)) (fun a k j => congrFun hwr (ix3 a k j))
      (fun j => (congrFun hbr (ix2 0 j)).trans (shapeCast_a_1a_apply _ _ 0 j)) n _

/-! ## The per-graph sums -/

/-- The pooling region's output when it ends is the reference's accumulating scatter. -/
theorem sums_eq : Cert.KernelIdeal.Gen.W14 m ρ c (Proc.devRef .tc Cert.KernelIdeal.main_v273) = Cert.ReferenceIdeal.RunFold.R8 m' c (Proc.devRef .tc Cert.ReferenceIdeal.main_v326) := by
  have hf : Cert.KernelIdeal.Gen.W13 m ρ c (Proc.devRef .tc Cert.KernelIdeal.main_v271) = Cert.ReferenceIdeal.RunFold.R7 m' c (Proc.devRef .tc Cert.ReferenceIdeal.main_v323) := (C_feat (Cert.KernelIdeal.Gen.W12 m ρ c)).trans (h2_eq ag)
  have hg : Cert.KernelIdeal.Gen.W13 m ρ c (Proc.devRef .tc Cert.KernelIdeal.main_v272) = shapeCast Cert.KernelIdeal.S100000x1 (Cert.KernelIdeal.Gen.W12 m ρ c (Proc.devRef .tc Cert.KernelIdeal.main_arg2)) Cert.KernelIdeal.Facts₀.shapeCasts_S100000_S100000x1 :=
    C_gid (Cert.KernelIdeal.Gen.W12 m ρ c)
  have ha : Cert.KernelIdeal.Gen.W12 m ρ c (Proc.devRef .tc Cert.KernelIdeal.main_arg2) = Cert.ReferenceIdeal.RunFold.R7 m' c (Proc.devRef .tc Cert.ReferenceIdeal.main_arg2) := (k12_arg2 ag).trans (ag.a2.trans (r7_arg2 ag).symm)
  have e : Cert.KernelIdeal.Gen.W14 m ρ c (Proc.devRef .tc Cert.KernelIdeal.main_v273) = Cert.KernelIdeal.Pool.out (Cert.KernelIdeal.Gen.V13 m ρ) c := Cert.KernelIdeal.Gen.W14_arr m ρ c 2
  rw [e]
  funext i
  obtain ⟨g, f, rfl⟩ : ∃ (g f : Fin 512), i = ix2 g f := ⟨i 0, i 1, eq_ix2 i⟩
  refine (Cert.KernelIdeal.Pool.value (Cert.KernelIdeal.Gen.V13 m ρ) c g f).trans (Eq.trans ?_ (Cert.ReferenceIdeal.Pool.sums_apply m' c g f).symm)
  exact pool_congr (fun n f => congrFun hf (ix2 n f))
    (fun n => (congrFun hg (ix2 n 0)).trans ((shapeCast_a_a1_apply _ _ n 0).trans (congrFun ha (ix1 n)))) g f

/-! ## The result -/

/-- The two programs' result arrays are equal. -/
theorem result_eq : Cert.KernelIdeal.Gen.W16 m ρ c (Proc.devRef .tc Cert.KernelIdeal.main_v287) = Cert.ReferenceIdeal.RunFold.R9 m' c (Proc.devRef .tc Cert.ReferenceIdeal.main_v340) :=
  D_result (Cert.KernelIdeal.Gen.W14 m ρ c) (Cert.ReferenceIdeal.RunFold.R8 m' c) (sums_eq ag)
    ((k14_arg2 ag).trans (ag.a2.trans (r8_arg2 ag).symm))
    ((k14_arg11 ag).trans (ag.a11.trans (r8_arg11 ag).symm))
    ((k14_arg12 ag).trans (ag.a12.trans (r8_arg12 ag).symm))

end Cert.Assemble

end
-- ==== Proof.lean ====
/- The proof of `Cert.Claim`: the three frames, the (empty) idealization ledger, and the equality of the two idealized
   programs' results on the extended reals.
   The kernel is a two-layer bidirectional Chebyshev graph convolution with a per-graph mean, a linear classifier and a
   log-softmax. Both programs build the same edge normalisation and the same Chebyshev terms with host gathers and accumulating
   scatters; they differ in two places only. A layer, `relu (((T0·W0 + T1·W1) + T2·W2) + T3·W3 + b)` in each direction, is computed by
   the kernel per block of 2000 nodes on the matrix unit and by the reference with whole-array products: on the extended reals
   each output element is the same sum over the 128 input features, in the same order. The per-graph sum is an accumulation,
   over the 50 blocks, of one-hot(graph id)ᵀ · features in the kernel and one accumulating scatter in the reference: both are the
   sum of a feature over the nodes whose id is the graph's (an id outside the range belongs to no graph in either), because
   `0 · x = 0` and `1 · x = x` for every extended real and sums may be regrouped. No finiteness of the inputs is used. -/
import proofs.«418800_j15479062135021_1_alg».proof.Defs
import proofs.«418800_j15479062135021_1_alg».proof.Proof.Gen.Kernel
import proofs.«418800_j15479062135021_1_alg».proof.Proof.Gen.Kernel.Frame
import proofs.«418800_j15479062135021_1_alg».proof.Proof.Gen.KernelIdeal
import proofs.«418800_j15479062135021_1_alg».proof.Proof.Gen.KernelIdeal.Frame
import proofs.«418800_j15479062135021_1_alg».proof.Proof.Gen.ReferenceIdeal
import proofs.«418800_j15479062135021_1_alg».proof.Proof.Gen.Pre_finite_inputs
import proofs.«418800_j15479062135021_1_alg».proof.Proof.KRun
import proofs.«418800_j15479062135021_1_alg».proof.Proof.RefOps
import proofs.«418800_j15479062135021_1_alg».proof.Proof.RefArgs
import proofs.«418800_j15479062135021_1_alg».proof.Proof.Assemble
import Idealize.ShloMosaic.Adequacy
import Idealize.ShloMosaic.Init

noncomputable section

namespace Cert.Proof

open Idealize.ShloMosaic Idealize.SL.Sem

/-- The reference terminates without a fault and leaves its arguments as launched: its run, the result dropped. -/
theorem frame_ri : Cert.frame_ReferenceIdeal := fun m ρ _ =>
  (θ_run Cert.ReferenceIdeal.defs _ _).mono (fun _ h c =>
    ⟨(h c _).trans (Cert.ReferenceIdeal.RunFold.R9_main_arg0 m c),
      (h c _).trans (Cert.ReferenceIdeal.RunFold.R9_main_arg1 m c),
      (h c _).trans (Cert.ReferenceIdeal.RunFold.R9_main_arg2 m c),
      (h c _).trans (Cert.ReferenceIdeal.RunFold.R9_main_arg3 m c),
      (h c _).trans (Cert.ReferenceIdeal.RunFold.R9_main_arg4 m c),
      (h c _).trans (Cert.ReferenceIdeal.RunFold.R9_main_arg5 m c),
      (h c _).trans (Cert.ReferenceIdeal.RunFold.R9_main_arg6 m c),
      (h c _).trans (Cert.ReferenceIdeal.RunFold.R9_main_arg7 m c),
      (h c _).trans (Cert.ReferenceIdeal.RunFold.R9_main_arg8 m c),
      (h c _).trans (Cert.ReferenceIdeal.RunFold.R9_main_arg9 m c),
      (h c _).trans (Cert.ReferenceIdeal.RunFold.R9_main_arg10 m c),
      (h c _).trans (Cert.ReferenceIdeal.RunFold.R9_main_arg11 m c),
      (h c _).trans (Cert.ReferenceIdeal.RunFold.R9_main_arg12 m c)⟩)
    (Cert.ReferenceIdeal.RunFold.run_fold (F := Ideal) m ρ)

/-- From memories agreeing on the arguments both idealized programs terminate, with equal results element by element and
    unchanged arguments: the kernel's result is its last boundary's contents at the result buffer, the reference's the last
    fold's, and these are equal. -/
theorem algebraic : Cert.algebraic_KernelIdeal_ReferenceIdeal := by
  intro m ρ m' ρ' _ hagree
  refine ⟨fun c => Cert.KernelIdeal.Gen.W16 m ρ c (Proc.devRef .tc Cert.KernelIdeal.main_v287), Cert.KernelIdeal.Gen.run_value (F := Ideal) m ρ, ?_⟩
  refine (θ_run Cert.ReferenceIdeal.defs _ _).mono (fun _ h c => ?_) (Cert.ReferenceIdeal.RunFold.run_fold (F := Ideal) m' ρ')
  have ag : Cert.Assemble.Agree m ρ m' c := ⟨(hagree c).1.symm, (hagree c).2.1.symm, (hagree c).2.2.1.symm, (hagree c).2.2.2.1.symm, (hagree c).2.2.2.2.1.symm, (hagree c).2.2.2.2.2.1.symm, (hagree c).2.2.2.2.2.2.1.symm, (hagree c).2.2.2.2.2.2.2.1.symm, (hagree c).2.2.2.2.2.2.2.2.1.symm, (hagree c).2.2.2.2.2.2.2.2.2.1.symm, (hagree c).2.2.2.2.2.2.2.2.2.2.1.symm, (hagree c).2.2.2.2.2.2.2.2.2.2.2.1.symm, (hagree c).2.2.2.2.2.2.2.2.2.2.2.2.symm⟩
  exact ⟨(h c _).trans (Cert.Assemble.result_eq ag).symm,
      (h c _).trans (Cert.ReferenceIdeal.RunFold.R9_main_arg0 m' c),
      (h c _).trans (Cert.ReferenceIdeal.RunFold.R9_main_arg1 m' c),
      (h c _).trans (Cert.ReferenceIdeal.RunFold.R9_main_arg2 m' c),
      (h c _).trans (Cert.ReferenceIdeal.RunFold.R9_main_arg3 m' c),
      (h c _).trans (Cert.ReferenceIdeal.RunFold.R9_main_arg4 m' c),
      (h c _).trans (Cert.ReferenceIdeal.RunFold.R9_main_arg5 m' c),
      (h c _).trans (Cert.ReferenceIdeal.RunFold.R9_main_arg6 m' c),
      (h c _).trans (Cert.ReferenceIdeal.RunFold.R9_main_arg7 m' c),
      (h c _).trans (Cert.ReferenceIdeal.RunFold.R9_main_arg8 m' c),
      (h c _).trans (Cert.ReferenceIdeal.RunFold.R9_main_arg9 m' c),
      (h c _).trans (Cert.ReferenceIdeal.RunFold.R9_main_arg10 m' c),
      (h c _).trans (Cert.ReferenceIdeal.RunFold.R9_main_arg11 m' c),
      (h c _).trans (Cert.ReferenceIdeal.RunFold.R9_main_arg12 m' c)⟩

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, frame_ri, trivial, algebraic⟩

end Cert.Proof

end
